-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x64x64x96 : Shape := ⟨5, ![1, 64, 64, 64, 96]⟩
abbrev S288x96 : Shape := ⟨2, ![288, 96]⟩
abbrev S96x96 : Shape := ⟨2, ![96, 96]⟩
abbrev S96 : Shape := ⟨1, ![96]⟩
abbrev S64x64 : Shape := ⟨2, ![64, 64]⟩
abbrev S_ : Shape := ⟨0, ![]⟩

class Facts : Prop where
  bcast_S_S1x64x64x64x96 : S_.BroadcastsInDim S1x64x64x64x96 (![] : Fin 0 → Fin S1x64x64x64x96.rank)
  reducesTo_S1x64x64x64x96_S_d0_1_2_3_4 : S1x64x64x64x96.ReducesTo [0, 1, 2, 3, 4] S_
  h_S_ : 0 < S_.numel
  bcast_S_S288x96 : S_.BroadcastsInDim S288x96 (![] : Fin 0 → Fin S288x96.rank)
  reducesTo_S288x96_S_d0_1 : S288x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_arg5 : FVec F S64x64 .f32) (main_arg6 : FVec F S64x64 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S1x64x64x64x96 .f32) (main_arg1 : FVec F S288x96 .f32) (main_arg2 : FVec F S96x96 .f32) (main_arg3 : FVec F S96 .f32) (main_arg4 : FVec F S64x64 .f32) (main_arg5 : FVec F S64x64 .f32) (main_arg6 : FVec F S64x64 .f32) : IVec S_ 1 :=
  let main_v0 : FVec F S1x64x64x64x96 .f32 := Host.absf main_arg0
  let main_cst : FVec F S_ .f32 := constant S_ .f32 0x7F800000#32
  let main_v1 : FVec F S1x64x64x64x96 .f32 := broadcastInDim S1x64x64x64x96 ![] bcast_S_S1x64x64x64x96 main_cst
  let main_v2 : IVec S1x64x64x64x96 1 := cmpf .olt main_v0 main_v1
  let main_c : IVec S_ 1 := constantI S_ 1 1#1
  let main_v3 : IVec S_ 1 := (fun x v => Host.reduce IntOp.andi x v reducesTo_S1x64x64x64x96_S_d0_1_2_3_4 h_S_) main_v2 main_c
  let main_v4 : FVec F S288x96 .f32 := Host.absf main_arg1
  let main_cst_0 : FVec F S_ .f32 := constant S_ .f32 0x7F800000#32
  let main_v5 : FVec F S288x96 .f32 := broadcastInDim S288x96 ![] bcast_S_S288x96 main_cst_0
  let main_v6 : IVec S288x96 1 := cmpf .olt main_v4 main_v5
  let main_c_1 : IVec S_ 1 := constantI S_ 1 1#1
  let main_v7 : IVec S_ 1 := (fun x v => Host.reduce IntOp.andi x v reducesTo_S288x96_S_d0_1 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_v13 main_v16
-- ==== Kernel.lean ====
abbrev S1x64x64x64x96 : Shape := ⟨5, ![1, 64, 64, 64, 96]⟩
abbrev S288x96 : Shape := ⟨2, ![288, 96]⟩
abbrev S96x96 : Shape := ⟨2, ![96, 96]⟩
abbrev S96 : Shape := ⟨1, ![96]⟩
abbrev S64x64 : Shape := ⟨2, ![64, 64]⟩
abbrev S64x64x64x96 : Shape := ⟨4, ![64, 64, 64, 96]⟩
abbrev S62x64x64x96 : Shape := ⟨4, ![62, 64, 64, 96]⟩
abbrev S2x64x64x96 : Shape := ⟨4, ![2, 64, 64, 96]⟩
abbrev S64x62x64x96 : Shape := ⟨4, ![64, 62, 64, 96]⟩
abbrev S64x2x64x96 : Shape := ⟨4, ![64, 2, 64, 96]⟩
abbrev S64x64x62x96 : Shape := ⟨4, ![64, 64, 62, 96]⟩
abbrev S64x64x2x96 : Shape := ⟨4, ![64, 64, 2, 96]⟩
abbrev S16x4x16x4x16x4x96 : Shape := ⟨7, ![16, 4, 16, 4, 16, 4, 96]⟩
abbrev S16x16x16x4x4x4x96 : Shape := ⟨7, ![16, 16, 16, 4, 4, 4, 96]⟩
abbrev S16x16x16x64x96 : Shape := ⟨5, ![16, 16, 16, 64, 96]⟩
abbrev S1x1x16x64x96 : Shape := ⟨5, ![1, 1, 16, 64, 96]⟩
abbrev S16x1x1x64x96 : Shape := ⟨5, ![16, 1, 1, 64, 96]⟩
abbrev S16x64x96 : Shape := ⟨3, ![16, 64, 96]⟩
abbrev S1024x96 : Shape := ⟨2, ![1024, 96]⟩
abbrev S16x64x32 : Shape := ⟨3, ![16, 64, 32]⟩
abbrev S16x64x64 : Shape := ⟨3, ![16, 64, 64]⟩
abbrev S1x64x64 : Shape := ⟨3, ![1, 64, 64]⟩
abbrev S16x64 : Shape := ⟨2, ![16, 64]⟩
abbrev S16x64x1 : Shape := ⟨3, ![16, 64, 1]⟩
abbrev S1x96 : Shape := ⟨2, ![1, 96]⟩

abbrev nBuf : Space → Nat
  | .hbm => 34
  | .vmem => 11
  | .smem => 0
  | _ => 0

abbrev bufTy : (tb : Table) → Fin (tcTables nBuf tb) → BufTy
  | .hbm, ⟨0, _⟩ => ⟨S1x64x64x64x96, .f32⟩
  | .hbm, ⟨1, _⟩ => ⟨S288x96, .f32⟩
  | .hbm, ⟨2, _⟩ => ⟨S96x96, .f32⟩
  | .hbm, ⟨3, _⟩ => ⟨S96, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64x64x96, .f32⟩
  | .hbm, ⟨8, _⟩ => ⟨S62x64x64x96, .f32⟩
  | .hbm, ⟨9, _⟩ => ⟨S2x64x64x96, .f32⟩
  | .hbm, ⟨10, _⟩ => ⟨S64x64x64x96, .f32⟩
  | .hbm, ⟨11, _⟩ => ⟨S64x62x64x96, .f32⟩
  | .hbm, ⟨12, _⟩ => ⟨S64x2x64x96, .f32⟩
  | .hbm, ⟨13, _⟩ => ⟨S64x64x64x96, .f32⟩
  | .hbm, ⟨14, _⟩ => ⟨S64x64x62x96, .f32⟩
  | .hbm, ⟨15, _⟩ => ⟨S64x64x2x96, .f32⟩
  | .hbm, ⟨16, _⟩ => ⟨S64x64x64x96, .f32⟩
  | .hbm, ⟨17, _⟩ => ⟨S16x4x16x4x16x4x96, .f32⟩
  | .hbm, ⟨18, _⟩ => ⟨S16x16x16x4x4x4x96, .f32⟩
  | .hbm, ⟨19, _⟩ => ⟨S16x16x16x64x96, .f32⟩
  | .hbm, ⟨20, _⟩ => ⟨S16x16x16x64x96, .f32⟩
  | .hbm, ⟨21, _⟩ => ⟨S16x16x16x4x4x4x96, .f32⟩
  | .hbm, ⟨22, _⟩ => ⟨S16x4x16x4x16x4x96, .f32⟩
  | .hbm, ⟨23, _⟩ => ⟨S64x64x64x96, .f32⟩
  | .hbm, ⟨24, _⟩ => ⟨S2x64x64x96, .f32⟩
  | .hbm, ⟨25, _⟩ => ⟨S62x64x64x96, .f32⟩
  | .hbm, ⟨26, _⟩ => ⟨S64x64x64x96, .f32⟩
  | .hbm, ⟨27, _⟩ => ⟨S64x2x64x96, .f32⟩
  | .hbm, ⟨28, _⟩ => ⟨S64x62x64x96, .f32⟩
  | .hbm, ⟨29, _⟩ => ⟨S64x64x64x96, .f32⟩
  | .hbm, ⟨30, _⟩ => ⟨S64x64x2x96, .f32⟩
  | .hbm, ⟨31, _⟩ => ⟨S64x64x62x96, .f32⟩
  | .hbm, ⟨32, _⟩ => ⟨S64x64x64x96, .f32⟩
  | .hbm, ⟨33, _⟩ => ⟨S1x64x64x64x96, .f32⟩
  | .local _ .vmem, ⟨0, _⟩ => ⟨S1x1x16x64x96, .f32⟩
  | .local _ .vmem, ⟨1, _⟩ => ⟨S1x1x16x64x96, .f32⟩
  | .local _ .vmem, ⟨2, _⟩ => ⟨S16x1x1x64x96, .f32⟩
  | .local _ .vmem, ⟨3, _⟩ => ⟨S16x1x1x64x96, .f32⟩
  | .local _ .vmem, ⟨4, _⟩ => ⟨S288x96, .f32⟩
  | .local _ .vmem, ⟨5, _⟩ => ⟨S96x96, .f32⟩
  | .local _ .vmem, ⟨6, _⟩ => ⟨S96, .f32⟩
  | .local _ .vmem, ⟨7, _⟩ => ⟨S64x64, .f32⟩
  | .local _ .vmem, ⟨8, _⟩ => ⟨S64x64, .f32⟩
  | .local _ .vmem, ⟨9, _⟩ => ⟨S16x1x1x64x96, .f32⟩
  | .local _ .vmem, ⟨10, _⟩ => ⟨S16x1x1x64x96, .f32⟩
  | _, _ => ⟨S1x64x64x64x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_v9 : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

abbrev stage0_0 : Fin 2 → Memref sig .tc .vmem S1x1x16x64x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x1x64x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S288x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1x1x64x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S1x64x64x64x96_S64x64x64x96 : S1x64x64x64x96.ShapeCasts S64x64x64x96
  slices_S64x64x64x96_S62x64x64x96_2_0_0_0 : S64x64x64x96.Slices ![2, 0, 0, 0] S62x64x64x96
  slices_S64x64x64x96_S2x64x64x96_0_0_0_0 : S64x64x64x96.Slices ![0, 0, 0, 0] S2x64x64x96
  concatenates_S62x64x64x96_S2x64x64x96_S64x64x64x96_d0 : Shape.Concatenates [S62x64x64x96, S2x64x64x96] S64x64x64x96 0
  slices_S64x64x64x96_S64x62x64x96_0_2_0_0 : S64x64x64x96.Slices ![0, 2, 0, 0] S64x62x64x96
  slices_S64x64x64x96_S64x2x64x96_0_0_0_0 : S64x64x64x96.Slices ![0, 0, 0, 0] S64x2x64x96
  concatenates_S64x62x64x96_S64x2x64x96_S64x64x64x96_d1 : Shape.Concatenates [S64x62x64x96, S64x2x64x96] S64x64x64x96 1
  slices_S64x64x64x96_S64x64x62x96_0_0_2_0 : S64x64x64x96.Slices ![0, 0, 2, 0] S64x64x62x96
  slices_S64x64x64x96_S64x64x2x96_0_0_0_0 : S64x64x64x96.Slices ![0, 0, 0, 0] S64x64x2x96
  concatenates_S64x64x62x96_S64x64x2x96_S64x64x64x96_d2 : Shape.Concatenates [S64x64x62x96, S64x64x2x96] S64x64x64x96 2
  shapeCasts_S64x64x64x96_S16x4x16x4x16x4x96 : S64x64x64x96.ShapeCasts S16x4x16x4x16x4x96
  transposes_S16x4x16x4x16x4x96_S16x16x16x4x4x4x96_0_2_4_1_3_5_6 : S16x4x16x4x16x4x96.Transposes [0, 2, 4, 1, 3, 5, 6] S16x16x16x4x4x4x96
  shapeCasts_S16x16x16x4x4x4x96_S16x16x16x64x96 : S16x16x16x4x4x4x96.ShapeCasts S16x16x16x64x96
  inb_S288x96_S288x96_0_0 : ∀ a, (![0, 0] : Fin 2 → Nat) a + S288x96.size a ≤ S288x96.size a
  h_S288x96 : 0 < S288x96.numel
  bitsLt_bf16_f32 : FTy.bits .bf16 < FTy.bits .f32
  slices_S288x96_o0_0_S96x96 : S288x96.Slices ![0, 0] S96x96
  slices_S288x96_o96_0_S96x96 : S288x96.Slices ![96, 0] S96x96
  slices_S288x96_o192_0_S96x96 : S288x96.Slices ![192, 0] S96x96
  inb_S1x1x16x64x96_S1x1x16x64x96_0_0_0_0_0 : ∀ a, (![0, 0, 0, 0, 0] : Fin 5 → Nat) a + S1x1x16x64x96.size a ≤ S1x1x16x64x96.size a
  h_S1x1x16x64x96 : 0 < S1x1x16x64x96.numel
  shapeCasts_S1x1x16x64x96_S16x64x96 : S1x1x16x64x96.ShapeCasts S16x64x96
  shapeCasts_S16x64x96_S1024x96 : S16x64x96.ShapeCasts S1024x96
  inb_S16x1x1x64x96_S16x1x1x64x96_0_0_0_0_0 : ∀ a, (![0, 0, 0, 0, 0] : Fin 5 → Nat) a + S16x1x1x64x96.size a ≤ S16x1x1x64x96.size a
  h_S16x1x1x64x96 : 0 < S16x1x1x64x96.numel
  shapeCasts_S16x1x1x64x96_S16x64x96 : S16x1x1x64x96.ShapeCasts S16x64x96
  shapeCasts_S1024x96_S16x64x96 : S1024x96.ShapeCasts S16x64x96
  inb_S64x64_S64x64_0_0 : ∀ a, (![0, 0] : Fin 2 → Nat) a + S64x64.size a ≤ S64x64.size a
  h_S64x64 : 0 < S64x64.numel
  slices_S16x64x96_o0_0_0_S16x64x32 : S16x64x96.Slices ![0, 0, 0] S16x64x32
  shapeCasts_S64x64_S1x64x64 : S64x64.ShapeCasts S1x64x64
  broadcasts_S1x64x64_S16x64x64 : S1x64x64.Broadcasts S16x64x64
  reduces_S16x64x64_S16x64 : S16x64x64.Reduces [2] S16x64
  shapeCasts_S16x64_S16x64x1 : S16x64.ShapeCasts S16x64x1
  broadcasts_S16x64x1_S16x64x64 : S16x64x1.Broadcasts S16x64x64
  slices_S16x64x96_o0_0_32_S16x64x32 : S16x64x96.Slices ![0, 0, 32] S16x64x32
  slices_S16x64x96_o0_0_64_S16x64x32 : S16x64x96.Slices ![0, 0, 64] S16x64x32
  concatenates_S16x64x32_S16x64x32_S16x64x32_S16x64x96_d2 : Shape.Concatenates [S16x64x32, S16x64x32, S16x64x32] S16x64x96 2
  inb_S96x96_S96x96_0_0 : ∀ a, (![0, 0] : Fin 2 → Nat) a + S96x96.size a ≤ S96x96.size a
  h_S96x96 : 0 < S96x96.numel
  inb_S96_S96_0 : ∀ a, (![0] : Fin 1 → Nat) a + S96.size a ≤ S96.size a
  h_S96 : 0 < S96.numel
  shapeCasts_S96_S1x96 : S96.ShapeCasts S1x96
  broadcasts_S1x96_S1024x96 : S1x96.Broadcasts S1024x96
  shapeCasts_S16x64x96_S16x1x1x64x96 : S16x64x96.ShapeCasts S16x1x1x64x96
  shapeCasts_S16x16x16x64x96_S16x16x16x4x4x4x96 : S16x16x16x64x96.ShapeCasts S16x16x16x4x4x4x96
  transposes_S16x16x16x4x4x4x96_S16x4x16x4x16x4x96_0_3_1_4_2_5_6 : S16x16x16x4x4x4x96.Transposes [0, 3, 1, 4, 2, 5, 6] S16x4x16x4x16x4x96
  shapeCasts_S16x4x16x4x16x4x96_S64x64x64x96 : S16x4x16x4x16x4x96.ShapeCasts S64x64x64x96
  slices_S64x64x64x96_S2x64x64x96_62_0_0_0 : S64x64x64x96.Slices ![62, 0, 0, 0] S2x64x64x96
  slices_S64x64x64x96_S62x64x64x96_0_0_0_0 : S64x64x64x96.Slices ![0, 0, 0, 0] S62x64x64x96
  concatenates_S2x64x64x96_S62x64x64x96_S64x64x64x96_d0 : Shape.Concatenates [S2x64x64x96, S62x64x64x96] S64x64x64x96 0
  slices_S64x64x64x96_S64x2x64x96_0_62_0_0 : S64x64x64x96.Slices ![0, 62, 0, 0] S64x2x64x96
  slices_S64x64x64x96_S64x62x64x96_0_0_0_0 : S64x64x64x96.Slices ![0, 0, 0, 0] S64x62x64x96
  concatenates_S64x2x64x96_S64x62x64x96_S64x64x64x96_d1 : Shape.Concatenates [S64x2x64x96, S64x62x64x96] S64x64x64x96 1
  slices_S64x64x64x96_S64x64x2x96_0_0_62_0 : S64x64x64x96.Slices ![0, 0, 62, 0] S64x64x2x96
  slices_S64x64x64x96_S64x64x62x96_0_0_0_0 : S64x64x64x96.Slices ![0, 0, 0, 0] S64x64x62x96
  concatenates_S64x64x2x96_S64x64x62x96_S64x64x64x96_d2 : Shape.Concatenates [S64x64x2x96, S64x64x62x96] S64x64x64x96 2
  bcast_S64x64x64x96_S1x64x64x64x96_1_2_3_4 : S64x64x64x96.BroadcastsInDim S1x64x64x64x96 (![1, 2, 3, 4] : Fin 4 → Fin S1x64x64x64x96.rank)
  dot_S1024x96_S96x96_S1024x96_1_1_0_0_n_n_wf : DotDims.WF S1024x96 S96x96 S1024x96 [1] [1] [0] [0] [] []
  dot_S16x64x32_S16x64x32_S16x64x64_2_2_1_1_0_0_wf : DotDims.WF S16x64x32 S16x64x32 S16x64x64 [2] [2] [1] [1] [0] [0]
  dot_S16x64x64_S16x64x32_S16x64x32_2_1_1_2_0_0_wf : DotDims.WF S16x64x64 S16x64x32 S16x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x64x96.size a ≤ S16x16x16x64x96.size a
  hwx0_0 : ∀ i : grid0.Coords, EltTy.bits .f32 = 32 ∨ (Rect.block (s := S16x16x16x64x96) S1x1x16x64x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x1x64x96.size a ≤ S16x16x16x64x96.size a
  hwx0_1 : ∀ i : grid0.Coords, EltTy.bits .f32 = 32 ∨ (Rect.block (s := S16x16x16x64x96) S16x1x1x64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x96.size a ≤ S288x96.size a
  hwx0_2 : ∀ i : grid0.Coords, EltTy.bits .f32 = 32 ∨ (Rect.block (s := S288x96) S288x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96.size a ≤ S96.size a
  hwx0_4 : ∀ i : grid0.Coords, EltTy.bits .f32 = 32 ∨ (Rect.block (s := S96) S96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x1x1x64x96.size a ≤ S16x16x16x64x96.size a
  hwx0_7 : ∀ i : grid0.Coords, EltTy.bits .f32 = 32 ∨ (Rect.block (s := S16x16x16x64x96) S16x1x1x64x96.size (cc0_transform_7 i) (hinb0_7 i)).WholeWords (EltTy.packing .f32)

variable [Facts₀]

def dot_S1024x96_S96x96_S1024x96_1_1_0_0_n_n : DotDims S1024x96 S96x96 S1024x96 where
  lhsContracting := [1]
  rhsContracting := [1]
  lhsNonContracting := [0]
  rhsNonContracting := [0]
  lhsBatch := []
  rhsBatch := []
  wf := dot_S1024x96_S96x96_S1024x96_1_1_0_0_n_n_wf
def dot_S16x64x32_S16x64x32_S16x64x64_2_2_1_1_0_0 : DotDims S16x64x32 S16x64x32 S16x64x64 where
  lhsContracting := [2]
  rhsContracting := [2]
  lhsNonContracting := [1]
  rhsNonContracting := [1]
  lhsBatch := [0]
  rhsBatch := [0]
  wf := dot_S16x64x32_S16x64x32_S16x64x64_2_2_1_1_0_0_wf
def dot_S16x64x64_S16x64x32_S16x64x32_2_1_1_2_0_0 : DotDims S16x64x64 S16x64x32 S16x64x32 where
  lhsContracting := [2]
  rhsContracting := [1]
  lhsNonContracting := [1]
  rhsNonContracting := [2]
  lhsBatch := [0]
  rhsBatch := [0]
  wf := dot_S16x64x64_S16x64x32_S16x64x32_2_1_1_2_0_0_wf

abbrev win0_0 : Pipeline.Window sig grid0 :=
  Pipeline.Window.ofSpec (Memref.whole main_v4) S1x1x16x64x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x1x1x64x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S288x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S16x1x1x64x96.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1x64x64x64x96 : Shape := ⟨5, ![1, 64, 64, 64, 96]⟩
abbrev S288x96 : Shape := ⟨2, ![288, 96]⟩
abbrev S96x96 : Shape := ⟨2, ![96, 96]⟩
abbrev S96 : Shape := ⟨1, ![96]⟩
abbrev S64x64 : Shape := ⟨2, ![64, 64]⟩
abbrev S1x62x64x64x96 : Shape := ⟨5, ![1, 62, 64, 64, 96]⟩
abbrev S1x2x64x64x96 : Shape := ⟨5, ![1, 2, 64, 64, 96]⟩
abbrev S1x64x62x64x96 : Shape := ⟨5, ![1, 64, 62, 64, 96]⟩
abbrev S1x64x2x64x96 : Shape := ⟨5, ![1, 64, 2, 64, 96]⟩
abbrev S1x64x64x62x96 : Shape := ⟨5, ![1, 64, 64, 62, 96]⟩
abbrev S1x64x64x2x96 : Shape := ⟨5, ![1, 64, 64, 2, 96]⟩
abbrev S1x64x64x64x288 : Shape := ⟨5, ![1, 64, 64, 64, 288]⟩
abbrev S1x16x4x16x4x16x4x3x32 : Shape := ⟨9, ![1, 16, 4, 16, 4, 16, 4, 3, 32]⟩
abbrev S1x3x16x16x16x4x4x4x32 : Shape := ⟨9, ![1, 3, 16, 16, 16, 4, 4, 4, 32]⟩
abbrev S1x3x4096x64x32 : Shape := ⟨5, ![1, 3, 4096, 64, 32]⟩
abbrev S1x3x4096x64x64 : Shape := ⟨5, ![1, 3, 4096, 64, 64]⟩
abbrev S_ : Shape := ⟨0, ![]⟩
abbrev S1x3x16x16x16x64x64 : Shape := ⟨7, ![1, 3, 16, 16, 16, 64, 64]⟩
abbrev S1 : Shape := ⟨1, ![1]⟩
abbrev S1x3x16x16x64x64 : Shape := ⟨6, ![1, 3, 16, 16, 64, 64]⟩
abbrev S1x3x4096x64 : Shape := ⟨4, ![1, 3, 4096, 64]⟩
abbrev S1x3x4096x64x1 : Shape := ⟨5, ![1, 3, 4096, 64, 1]⟩
abbrev S1x1x1x1x96 : Shape := ⟨5, ![1, 1, 1, 1, 96]⟩

abbrev nBuf : Space → Nat
  | .hbm => 78
  | .vmem => 0
  | .smem => 0
  | _ => 0

abbrev bufTy : (tb : Table) → Fin (tcTables nBuf tb) → BufTy
  | .hbm, ⟨0, _⟩ => ⟨S1x64x64x64x96, .f32⟩
  | .hbm, ⟨1, _⟩ => ⟨S288x96, .f32⟩
  | .hbm, ⟨2, _⟩ => ⟨S96x96, .f32⟩
  | .hbm, ⟨3, _⟩ => ⟨S96, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S1x62x64x64x96, .f32⟩
  | .hbm, ⟨8, _⟩ => ⟨S1x2x64x64x96, .f32⟩
  | .hbm, ⟨9, _⟩ => ⟨S1x64x64x64x96, .f32⟩
  | .hbm, ⟨10, _⟩ => ⟨S1x64x62x64x96, .f32⟩
  | .hbm, ⟨11, _⟩ => ⟨S1x64x2x64x96, .f32⟩
  | .hbm, ⟨12, _⟩ => ⟨S1x64x64x64x96, .f32⟩
  | .hbm, ⟨13, _⟩ => ⟨S1x64x64x62x96, .f32⟩
  | .hbm, ⟨14, _⟩ => ⟨S1x64x64x2x96, .f32⟩
  | .hbm, ⟨15, _⟩ => ⟨S1x64x64x64x96, .f32⟩
  | .hbm, ⟨16, _⟩ => ⟨S1x64x64x64x288, .f32⟩
  | .hbm, ⟨17, _⟩ => ⟨S1x64x64x64x96, .f32⟩
  | .hbm, ⟨18, _⟩ => ⟨S1x64x64x64x96, .f32⟩
  | .hbm, ⟨19, _⟩ => ⟨S1x64x64x64x96, .f32⟩
  | .hbm, ⟨20, _⟩ => ⟨S1x16x4x16x4x16x4x3x32, .f32⟩
  | .hbm, ⟨21, _⟩ => ⟨S1x3x16x16x16x4x4x4x32, .f32⟩
  | .hbm, ⟨22, _⟩ => ⟨S1x3x4096x64x32, .f32⟩
  | .hbm, ⟨23, _⟩ => ⟨S1x16x4x16x4x16x4x3x32, .f32⟩
  | .hbm, ⟨24, _⟩ => ⟨S1x3x16x16x16x4x4x4x32, .f32⟩
  | .hbm, ⟨25, _⟩ => ⟨S1x3x4096x64x32, .f32⟩
  | .hbm, ⟨26, _⟩ => ⟨S1x16x4x16x4x16x4x3x32, .f32⟩
  | .hbm, ⟨27, _⟩ => ⟨S1x3x16x16x16x4x4x4x32, .f32⟩
  | .hbm, ⟨28, _⟩ => ⟨S1x3x4096x64x32, .f32⟩
  | .hbm, ⟨29, _⟩ => ⟨S1x3x4096x64x64, .f32⟩
  | .hbm, ⟨30, _⟩ => ⟨S_, .f32⟩
  | .hbm, ⟨31, _⟩ => ⟨S1x3x4096x64x64, .f32⟩
  | .hbm, ⟨32, _⟩ => ⟨S1x3x4096x64x64, .f32⟩
  | .hbm, ⟨33, _⟩ => ⟨S1x3x16x16x16x64x64, .f32⟩
  | .hbm, ⟨34, _⟩ => ⟨S1x3x16x16x16x64x64, .f32⟩
  | .hbm, ⟨35, _⟩ => ⟨S_, .i32⟩
  | .hbm, ⟨36, _⟩ => ⟨S1, .i32⟩
  | .hbm, ⟨37, _⟩ => ⟨S1x3x16x16x64x64, .f32⟩
  | .hbm, ⟨38, _⟩ => ⟨S1x3x16x16x16x64x64, .f32⟩
  | .hbm, ⟨39, _⟩ => ⟨S1x3x16x16x16x64x64, .f32⟩
  | .hbm, ⟨40, _⟩ => ⟨S_, .i32⟩
  | .hbm, ⟨41, _⟩ => ⟨S1, .i32⟩
  | .hbm, ⟨42, _⟩ => ⟨S1x3x16x16x64x64, .f32⟩
  | .hbm, ⟨43, _⟩ => ⟨S1x3x16x16x16x64x64, .f32⟩
  | .hbm, ⟨44, _⟩ => ⟨S1x3x16x16x16x64x64, .f32⟩
  | .hbm, ⟨45, _⟩ => ⟨S1x3x16x16x16x64x64, .f32⟩
  | .hbm, ⟨46, _⟩ => ⟨S1x3x4096x64x64, .f32⟩
  | .hbm, ⟨47, _⟩ => ⟨S_, .f32⟩
  | .hbm, ⟨48, _⟩ => ⟨S1x3x4096x64, .f32⟩
  | .hbm, ⟨49, _⟩ => ⟨S_, .f32⟩
  | .hbm, ⟨50, _⟩ => ⟨S1x3x4096x64, .f32⟩
  | .hbm, ⟨51, _⟩ => ⟨S1x3x4096x64, .f32⟩
  | .hbm, ⟨52, _⟩ => ⟨S1x3x4096x64x1, .f32⟩
  | .hbm, ⟨53, _⟩ => ⟨S1x3x4096x64x64, .f32⟩
  | .hbm, ⟨54, _⟩ => ⟨S1x3x4096x64x64, .f32⟩
  | .hbm, ⟨55, _⟩ => ⟨S1x3x4096x64x64, .f32⟩
  | .hbm, ⟨56, _⟩ => ⟨S_, .f32⟩
  | .hbm, ⟨57, _⟩ => ⟨S1x3x4096x64, .f32⟩
  | .hbm, ⟨58, _⟩ => ⟨S1x3x4096x64x1, .f32⟩
  | .hbm, ⟨59, _⟩ => ⟨S1x3x4096x64x64, .f32⟩
  | .hbm, ⟨60, _⟩ => ⟨S1x3x4096x64x64, .f32⟩
  | .hbm, ⟨61, _⟩ => ⟨S1x3x4096x64x32, .f32⟩
  | .hbm, ⟨62, _⟩ => ⟨S1x3x16x16x16x4x4x4x32, .f32⟩
  | .hbm, ⟨63, _⟩ => ⟨S1x16x4x16x4x16x4x3x32, .f32⟩
  | .hbm, ⟨64, _⟩ => ⟨S1x64x64x64x96, .f32⟩
  | .hbm, ⟨65, _⟩ => ⟨S1x64x64x64x96, .f32⟩
  | .hbm, ⟨66, _⟩ => ⟨S1x1x1x1x96, .f32⟩
  | .hbm, ⟨67, _⟩ => ⟨S1x64x64x64x96, .f32⟩
  | .hbm, ⟨68, _⟩ => ⟨S1x64x64x64x96, .f32⟩
  | .hbm, ⟨69, _⟩ => ⟨S1x2x64x64x96, .f32⟩
  | .hbm, ⟨70, _⟩ => ⟨S1x62x64x64x96, .f32⟩
  | .hbm, ⟨71, _⟩ => ⟨S1x64x64x64x96, .f32⟩
  | .hbm, ⟨72, _⟩ => ⟨S1x64x2x64x96, .f32⟩
  | .hbm, ⟨73, _⟩ => ⟨S1x64x62x64x96, .f32⟩
  | .hbm, ⟨74, _⟩ => ⟨S1x64x64x64x96, .f32⟩
  | .hbm, ⟨75, _⟩ => ⟨S1x64x64x2x96, .f32⟩
  | .hbm, ⟨76, _⟩ => ⟨S1x64x64x62x96, .f32⟩
  | .hbm, ⟨77, _⟩ => ⟨S1x64x64x64x96, .f32⟩
  | _, _ => ⟨S1x64x64x64x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_v7 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  slices_S1x64x64x64x96_S1x62x64x64x96_0_2_0_0_0 : S1x64x64x64x96.Slices ![0, 2, 0, 0, 0] S1x62x64x64x96
  slices_S1x64x64x64x96_S1x2x64x64x96_0_0_0_0_0 : S1x64x64x64x96.Slices ![0, 0, 0, 0, 0] S1x2x64x64x96
  concatenates_S1x62x64x64x96_S1x2x64x64x96_S1x64x64x64x96_d1 : Shape.Concatenates [S1x62x64x64x96, S1x2x64x64x96] S1x64x64x64x96 1
  slices_S1x64x64x64x96_S1x64x62x64x96_0_0_2_0_0 : S1x64x64x64x96.Slices ![0, 0, 2, 0, 0] S1x64x62x64x96
  slices_S1x64x64x64x96_S1x64x2x64x96_0_0_0_0_0 : S1x64x64x64x96.Slices ![0, 0, 0, 0, 0] S1x64x2x64x96
  concatenates_S1x64x62x64x96_S1x64x2x64x96_S1x64x64x64x96_d2 : Shape.Concatenates [S1x64x62x64x96, S1x64x2x64x96] S1x64x64x64x96 2
  slices_S1x64x64x64x96_S1x64x64x62x96_0_0_0_2_0 : S1x64x64x64x96.Slices ![0, 0, 0, 2, 0] S1x64x64x62x96
  slices_S1x64x64x64x96_S1x64x64x2x96_0_0_0_0_0 : S1x64x64x64x96.Slices ![0, 0, 0, 0, 0] S1x64x64x2x96
  concatenates_S1x64x64x62x96_S1x64x64x2x96_S1x64x64x64x96_d3 : Shape.Concatenates [S1x64x64x62x96, S1x64x64x2x96] S1x64x64x64x96 3
  slices_S1x64x64x64x288_S1x64x64x64x96_0_0_0_0_0 : S1x64x64x64x288.Slices ![0, 0, 0, 0, 0] S1x64x64x64x96
  slices_S1x64x64x64x288_S1x64x64x64x96_0_0_0_0_96 : S1x64x64x64x288.Slices ![0, 0, 0, 0, 96] S1x64x64x64x96
  slices_S1x64x64x64x288_S1x64x64x64x96_0_0_0_0_192 : S1x64x64x64x288.Slices ![0, 0, 0, 0, 192] S1x64x64x64x96
  shapeCasts_S1x64x64x64x96_S1x16x4x16x4x16x4x3x32 : S1x64x64x64x96.ShapeCasts S1x16x4x16x4x16x4x3x32
  transposes_S1x16x4x16x4x16x4x3x32_S1x3x16x16x16x4x4x4x32_0_7_1_3_5_2_4_6_8 : S1x16x4x16x4x16x4x3x32.Transposes [0, 7, 1, 3, 5, 2, 4, 6, 8] S1x3x16x16x16x4x4x4x32
  shapeCasts_S1x3x16x16x16x4x4x4x32_S1x3x4096x64x32 : S1x3x16x16x16x4x4x4x32.ShapeCasts S1x3x4096x64x32
  bcast_S_S1x3x4096x64x64 : S_.BroadcastsInDim S1x3x4096x64x64 (![] : Fin 0 → Fin S1x3x4096x64x64.rank)
  shapeCasts_S1x3x4096x64x64_S1x3x16x16x16x64x64 : S1x3x4096x64x64.ShapeCasts S1x3x16x16x16x64x64
  transposes_S1x3x16x16x16x64x64_S1x3x16x16x16x64x64_0_1_3_4_2_5_6 : S1x3x16x16x16x64x64.Transposes [0, 1, 3, 4, 2, 5, 6] S1x3x16x16x16x64x64
  bcast_S_S1 : S_.BroadcastsInDim S1 (![] : Fin 0 → Fin S1.rank)
  bcast_S64x64_S1x3x16x16x64x64_4_5 : S64x64.BroadcastsInDim S1x3x16x16x64x64 (![4, 5] : Fin 2 → Fin S1x3x16x16x64x64.rank)
  transposes_S1x3x16x16x16x64x64_S1x3x16x16x16x64x64_0_1_4_3_2_5_6 : S1x3x16x16x16x64x64.Transposes [0, 1, 4, 3, 2, 5, 6] S1x3x16x16x16x64x64
  transposes_S1x3x16x16x16x64x64_S1x3x16x16x16x64x64_0_1_2_4_3_5_6 : S1x3x16x16x16x64x64.Transposes [0, 1, 2, 4, 3, 5, 6] S1x3x16x16x16x64x64
  transposes_S1x3x16x16x16x64x64_S1x3x16x16x16x64x64_0_1_4_2_3_5_6 : S1x3x16x16x16x64x64.Transposes [0, 1, 4, 2, 3, 5, 6] S1x3x16x16x16x64x64
  shapeCasts_S1x3x16x16x16x64x64_S1x3x4096x64x64 : S1x3x16x16x16x64x64.ShapeCasts S1x3x4096x64x64
  reducesTo_S1x3x4096x64x64_S1x3x4096x64_d4 : S1x3x4096x64x64.ReducesTo [4] S1x3x4096x64
  h_S_ : 0 < S_.numel
  bcast_S_S1x3x4096x64 : S_.BroadcastsInDim S1x3x4096x64 (![] : Fin 0 → Fin S1x3x4096x64.rank)
  bcast_S1x3x4096x64_S1x3x4096x64x1_0_1_2_3 : S1x3x4096x64.BroadcastsInDim S1x3x4096x64x1 (![0, 1, 2, 3] : Fin 4 → Fin S1x3x4096x64x1.rank)
  bcast_S1x3x4096x64x1_S1x3x4096x64x64_0_1_2_3_4 : S1x3x4096x64x1.BroadcastsInDim S1x3x4096x64x64 (![0, 1, 2, 3, 4] : Fin 5 → Fin S1x3x4096x64x64.rank)
  shapeCasts_S1x3x4096x64x32_S1x3x16x16x16x4x4x4x32 : S1x3x4096x64x32.ShapeCasts S1x3x16x16x16x4x4x4x32
  transposes_S1x3x16x16x16x4x4x4x32_S1x16x4x16x4x16x4x3x32_0_2_5_3_6_4_7_1_8 : S1x3x16x16x16x4x4x4x32.Transposes [0, 2, 5, 3, 6, 4, 7, 1, 8] S1x16x4x16x4x16x4x3x32
  shapeCasts_S1x16x4x16x4x16x4x3x32_S1x64x64x64x96 : S1x16x4x16x4x16x4x3x32.ShapeCasts S1x64x64x64x96
  bcast_S96_S1x1x1x1x96_4 : S96.BroadcastsInDim S1x1x1x1x96 (![4] : Fin 1 → Fin S1x1x1x1x96.rank)
  bcast_S1x1x1x1x96_S1x64x64x64x96_0_1_2_3_4 : S1x1x1x1x96.BroadcastsInDim S1x64x64x64x96 (![0, 1, 2, 3, 4] : Fin 5 → Fin S1x64x64x64x96.rank)
  slices_S1x64x64x64x96_S1x2x64x64x96_0_62_0_0_0 : S1x64x64x64x96.Slices ![0, 62, 0, 0, 0] S1x2x64x64x96
  slices_S1x64x64x64x96_S1x62x64x64x96_0_0_0_0_0 : S1x64x64x64x96.Slices ![0, 0, 0, 0, 0] S1x62x64x64x96
  concatenates_S1x2x64x64x96_S1x62x64x64x96_S1x64x64x64x96_d1 : Shape.Concatenates [S1x2x64x64x96, S1x62x64x64x96] S1x64x64x64x96 1
  slices_S1x64x64x64x96_S1x64x2x64x96_0_0_62_0_0 : S1x64x64x64x96.Slices ![0, 0, 62, 0, 0] S1x64x2x64x96
  slices_S1x64x64x64x96_S1x64x62x64x96_0_0_0_0_0 : S1x64x64x64x96.Slices ![0, 0, 0, 0, 0] S1x64x62x64x96
  concatenates_S1x64x2x64x96_S1x64x62x64x96_S1x64x64x64x96_d2 : Shape.Concatenates [S1x64x2x64x96, S1x64x62x64x96] S1x64x64x64x96 2
  slices_S1x64x64x64x96_S1x64x64x2x96_0_0_0_62_0 : S1x64x64x64x96.Slices ![0, 0, 0, 62, 0] S1x64x64x2x96
  slices_S1x64x64x64x96_S1x64x64x62x96_0_0_0_0_0 : S1x64x64x64x96.Slices ![0, 0, 0, 0, 0] S1x64x64x62x96
  concatenates_S1x64x64x2x96_S1x64x64x62x96_S1x64x64x64x96_d3 : Shape.Concatenates [S1x64x64x2x96, S1x64x64x62x96] S1x64x64x64x96 3
  dot_S1x64x64x64x96_S288x96_S1x64x64x64x288_4_1_0123_0_n_n_wf : DotDims.WF S1x64x64x64x96 S288x96 S1x64x64x64x288 [4] [1] [0, 1, 2, 3] [0] [] []
  dot_S1x3x4096x64x32_S1x3x4096x64x32_S1x3x4096x64x64_4_4_3_3_012_012_wf : DotDims.WF S1x3x4096x64x32 S1x3x4096x64x32 S1x3x4096x64x64 [4] [4] [3] [3] [0, 1, 2] [0, 1, 2]
  scatter_S1x3x16x16x16x64x64_S1_S1x3x16x16x64x64_012345_4_4_0_wf : ScatterDims.WF S1x3x16x16x16x64x64 S1 S1x3x16x16x64x64 [0, 1, 2, 3, 4, 5] [4] [4] 0
  dot_S1x3x4096x64x64_S1x3x4096x64x32_S1x3x4096x64x32_4_3_3_4_012_012_wf : DotDims.WF S1x3x4096x64x64 S1x3x4096x64x32 S1x3x4096x64x32 [4] [3] [3] [4] [0, 1, 2] [0, 1, 2]
  dot_S1x64x64x64x96_S96x96_S1x64x64x64x96_4_1_0123_0_n_n_wf : DotDims.WF S1x64x64x64x96 S96x96 S1x64x64x64x96 [4] [1] [0, 1, 2, 3] [0] [] []

variable [Facts₀]

def dot_S1x64x64x64x96_S288x96_S1x64x64x64x288_4_1_0123_0_n_n : DotDims S1x64x64x64x96 S288x96 S1x64x64x64x288 where
  lhsContracting := [4]
  rhsContracting := [1]
  lhsNonContracting := [0, 1, 2, 3]
  rhsNonContracting := [0]
  lhsBatch := []
  rhsBatch := []
  wf := dot_S1x64x64x64x96_S288x96_S1x64x64x64x288_4_1_0123_0_n_n_wf
def dot_S1x3x4096x64x32_S1x3x4096x64x32_S1x3x4096x64x64_4_4_3_3_012_012 : DotDims S1x3x4096x64x32 S1x3x4096x64x32 S1x3x4096x64x64 where
  lhsContracting := [4]
  rhsContracting := [4]
  lhsNonContracting := [3]
  rhsNonContracting := [3]
  lhsBatch := [0, 1, 2]
  rhsBatch := [0, 1, 2]
  wf := dot_S1x3x4096x64x32_S1x3x4096x64x32_S1x3x4096x64x64_4_4_3_3_012_012_wf
def scatter_S1x3x16x16x16x64x64_S1_S1x3x16x16x64x64_012345_4_4_0 : ScatterDims S1x3x16x16x16x64x64 S1 S1x3x16x16x64x64 where
  updateWindowDims := [0, 1, 2, 3, 4, 5]
  insertedWindowDims := [4]
  scatterDimsToOperandDims := [4]
  indexVectorDim := 0
  wf := scatter_S1x3x16x16x16x64x64_S1_S1x3x16x16x64x64_012345_4_4_0_wf
def dot_S1x3x4096x64x64_S1x3x4096x64x32_S1x3x4096x64x32_4_3_3_4_012_012 : DotDims S1x3x4096x64x64 S1x3x4096x64x32 S1x3x4096x64x32 where
  lhsContracting := [4]
  rhsContracting := [3]
  lhsNonContracting := [3]
  rhsNonContracting := [4]
  lhsBatch := [0, 1, 2]
  rhsBatch := [0, 1, 2]
  wf := dot_S1x3x4096x64x64_S1x3x4096x64x32_S1x3x4096x64x32_4_3_3_4_012_012_wf
def dot_S1x64x64x64x96_S96x96_S1x64x64x64x96_4_1_0123_0_n_n : DotDims S1x64x64x64x96 S96x96 S1x64x64x64x96 where
  lhsContracting := [4]
  rhsContracting := [1]
  lhsNonContracting := [0, 1, 2, 3]
  rhsNonContracting := [0]
  lhsBatch := []
  rhsBatch := []
  wf := dot_S1x64x64x64x96_S96x96_S1x64x64x64x96_4_1_0123_0_n_n_wf

class Facts : Prop extends Facts₀ where

variable [Facts]
-- ==== Proof.KBodyVal.lean ====
/-
  The value the kernel body stores into its output block, as one pure function of what it loads:
  the joined weights, the source block (queries and keys), the block of the windows themselves (values),
  the two masks, the output weights and the bias, at a grid point.
-/
import proofs.«139805_j20143396618483_1_alg».proof.Proof.Gen.Kernel.Skeleton

noncomputable section

namespace Cert.Kernel.Hand

open Idealize.ShloMosaic Idealize.SL.Sem Cert.Kernel Cert.Kernel.Gen

variable {F : FTy → Type} [FloatOps F]

/-- The stored block from the loaded values: the three parts of the body composed as the program composes them. -/
def bodyVal (i : grid0.Coords) (v0 : Vec F S288x96 .f32) (v5 : Vec F S1x1x16x64x96 .f32) (v9 : Vec F S16x1x1x64x96 .f32)
    (v19 v20 : Vec F S64x64 .f32) (v120 : Vec F S96x96 .f32) (v122 : Vec F S96 .f32) : FVec F S16x1x1x64x96 .f32 :=
  k0_pay1 (k0_pay12 (BitVec.ofNat 32 (i 0).val) (BitVec.ofNat 32 (i 1).val) (k0_pay4 v0 v5) (k0_pay5 v0 v5) (k0_pay6 v0 v9) v19 v20
    (k0_pay9 (BitVec.ofNat 32 (i 1).val) v20 (k0_pay7 v0 v9) (k0_pay8 i v0 v5 v19) 15#32)
    (k0_pay10 (k0_pay6 v0 v9))
    (k0_pay11 (BitVec.ofNat 32 (i 0).val) (BitVec.ofNat 32 (i 1).val) (k0_pay4 v0 v5) (k0_pay5 v0 v5) v19 v20)
    v120 v122)

end Cert.Kernel.Hand

end
-- ==== Proof.KData.lean ====
/-
  The proof data of the one pipeline of the program: the arrays as the region finds them, the windows' blocks,
  what the body leaves in each window's buffer, and the arrays' contents when the region is left.

  Windows 0 and 1 (the source block and the block of the windows themselves) read one array; each holds one half
  of it. The other five inputs and the output stand on arrays of their own.
-/
import proofs.«139805_j20143396618483_1_alg».proof.Proof.KBodyVal
import proofs.«139805_j20143396618483_1_alg».proof.Proof.Gen.Kernel.Launch
import proofs.«139805_j20143396618483_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)
open Cert.Kernel Cert.Kernel.Gen

variable {F : FTy → Type} [FloatOps F]

variable (m : (ℓ : Loc nD τ sig) → Buf (Elt F) ℓ) (ρ : Dev nD → PrngReg)

/-! ## The arrays when the region is entered -/

/-- Core `c`'s buffer contents when the region is entered: after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each window's whole buffer -/

abbrev r0 : Rect S1x1x16x64x96 := Rect.unit (s := S1x1x16x64x96) ![0, 0, 0, 0, 0] S1x1x16x64x96.size inb_S1x1x16x64x96_S1x1x16x64x96_0_0_0_0_0
abbrev r1 : Rect S16x1x1x64x96 := Rect.unit (s := S16x1x1x64x96) ![0, 0, 0, 0, 0] S16x1x1x64x96.size inb_S16x1x1x64x96_S16x1x1x64x96_0_0_0_0_0
abbrev r2 : Rect S288x96 := Rect.unit (s := S288x96) ![0, 0] S288x96.size inb_S288x96_S288x96_0_0
abbrev r3 : Rect S96x96 := Rect.unit (s := S96x96) ![0, 0] S96x96.size inb_S96x96_S96x96_0_0
abbrev r4 : Rect S96 := Rect.unit (s := S96) ![0] S96.size inb_S96_S96_0
abbrev r5 : Rect S64x64 := Rect.unit (s := S64x64) ![0, 0] S64x64.size inb_S64x64_S64x64_0_0
abbrev r6 : Rect S64x64 := Rect.unit (s := S64x64) ![0, 0] S64x64.size inb_S64x64_S64x64_0_0
abbrev r7 : Rect S16x1x1x64x96 := Rect.unit (s := S16x1x1x64x96) ![0, 0, 0, 0, 0] S16x1x1x64x96.size inb_S16x1x1x64x96_S16x1x1x64x96_0_0_0_0_0

/-! ## What the body leaves in the output window's buffer -/

/-- Window 7's staging buffer after the body at grid point `i`, from the input windows' buffers: its one store,
    of the body's value of the seven loads. -/
def out0_7 (i : grid0.Coords) (x0 : Vec F S1x1x16x64x96 .f32) (x1 : Vec F S16x1x1x64x96 .f32) (x2 : Vec F S288x96 .f32)
    (x3 : Vec F S96x96 .f32) (x4 : Vec F S96 .f32) (x5 : Vec F S64x64 .f32) (x6 : Vec F S64x64 .f32) : Vec F S16x1x1x64x96 .f32 :=
  View.canon [⟨r7, bodyVal i (View.ld x2 r2) (View.ld x0 r0) (View.ld x1 r1) (View.ld x5 r5) (View.ld x6 r6) (View.ld x3 r3) (View.ld x4 r4)⟩]

/-! ## The pipeline's proof data -/

/-- The proof data of the one pipeline on core `c`: the arrays as the region finds them; after the body at point
    `t` each input's buffer at its block and the output's at `out0_7` of the input blocks; the invariant the
    scoped buffers that are no staging buffer; nothing owed; of the array windows 0 and 1 both read, a half each,
    every other input's array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (grid0.coords t) (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (grid0.coords t) (iblk m c 0 t) (iblk m c 1 t) (iblk m c 2 t) (iblk m c 3 t) (iblk m c 4 t) (iblk m c 5 t) (iblk m c 6 t) := by
  dsimp only [dats]

/-- The shares: a half each of the array windows 0 and 1 read, the whole of every other. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
theorem q_6 (c : Dev nD) : (dats m 0 c).q 6 = fullShare := by dsimp only [dats]

/-! ## The arrays when the region is left -/

open Classical in
/-- Core `c`'s buffer contents when the region is left: the output array at what the pipeline wrote, every other
    buffer as the region found it. -/
def V1 (c : Dev nD) : Valuation τ sig (Elt F) := fun b =>
  if h : Proc.devRef .tc main_v5 = b then
    h ▸ ((dats m 0 c).arrAt 7 cfg0.N : (Proc.devRef (τ := τ) .tc main_v5).ty.Contents (Elt F))
  else V0 m c b

theorem V1_main_v5 (c : Dev nD) : V1 m c (Proc.devRef .tc main_v5) = (dats m 0 c).arrAt 7 cfg0.N := by
  unfold V1; rw [dif_pos rfl]

theorem V1_of_ne (c : Dev nD) (b : Ref sig .tc) (hb : b ≠ main_v5) : V1 m c (Proc.devRef .tc b) = V0 m c (Proc.devRef .tc b) := by
  unfold V1; rw [dif_neg]
  intro e; exact hb (Proc.devRef_injective _ e).symm

end Cert.Kernel.Hand

end
-- ==== Proof.KBody.lean ====
/-
  The body of the kernel at a grid point: from the seven input buffers at their blocks it leaves the output buffer
  at the body's value of them, and the inputs as they were. Then the body obligation of the pipeline at every point,
  and how the arrays are dealt among the windows when the region is entered and joined again when it is left.
-/
import proofs.«139805_j20143396618483_1_alg».proof.Proof.KData
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The one store is of the whole buffer, so it covers it. -/
theorem cover0_7 (p0 : Vec F S16x1x1x64x96 .f32) (y : S16x1x1x64x96.Idx) :
    ∃ pc ∈ ([⟨r7, p0⟩] : List (View.Piece (Elt F) S16x1x1x64x96 .f32)), y ∈ pc.1.set :=
  View.cover_of_tiled [⟨r7, p0⟩] S16x1x1x64x96.size (by rfl) y

set_option maxHeartbeats 4000000 in
/-- The kernel body on whole staging memrefs, the inputs' at contents `xW` and the output's at anything, runs to the
    continuation holding the inputs' as they were and the output's at `out0_7` of the inputs'. -/
theorem sound_kernel (c : Dev nD) (E : Set ℕ) (i : grid0.Coords)
    (arg2 : Memref sig .tc .vmem S1x1x16x64x96 .f32) (harg2 : arg2.IsWhole) (arg3 : Memref sig .tc .vmem S16x1x1x64x96 .f32) (harg3 : arg3.IsWhole)
    (arg4 : Memref sig .tc .vmem S288x96 .f32) (harg4 : arg4.IsWhole) (arg5 : Memref sig .tc .vmem S96x96 .f32) (harg5 : arg5.IsWhole)
    (arg6 : Memref sig .tc .vmem S96 .f32) (harg6 : arg6.IsWhole) (arg7 : Memref sig .tc .vmem S64x64 .f32) (harg7 : arg7.IsWhole)
    (arg8 : Memref sig .tc .vmem S64x64 .f32) (harg8 : arg8.IsWhole) (arg9 : Memref sig .tc .vmem S16x1x1x64x96 .f32) (harg9 : arg9.IsWhole)
    (x0 : Vec F S1x1x16x64x96 .f32) (x1 : Vec F S16x1x1x64x96 .f32) (x2 : Vec F S288x96 .f32) (x3 : Vec F S96x96 .f32)
    (x4 : Vec F S96 .f32) (x5 : Vec F S64x64 .f32) (x6 : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out0_7 i x0 x1 x2 x3 x4 x5 x6)) -∗ K ⟨⟩))
      ⊢ wp frame (wpE (defs₀ (F := F)) Variants.none c none) E
          (cc0__win_attn_kernel i arg2 harg2 arg3 harg3 arg4 harg4 arg5 harg5 arg6 harg6 arg7 harg7 arg8 harg8 arg9 harg9) K := by
  simp only [cc0__win_attn_kernel_eq_skeleton]; unfold cc0__win_attn_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## What each input's buffer holds when the body runs -/

/-- Each input's current staging buffer holds its block at every point, fetched there or not: unfetched, the block
    index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

/-- The distinct buffers behind the windows' arrays. -/
theorem arrRefs0 : Finset.univ.image (Pipeline.arrRef spec0)
    = ([main_v4, main_arg1, main_arg2, main_arg3, main_arg4, main_arg5, main_v5] : List (Ref sig .tc)).toFinset := by decide

/-- The buffers behind the arrays, one by one. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v4) ↦{fullShare} Vv main_v4) ∗ (((c.tc : Thread nD τ).loc main_arg1) ↦{fullShare} Vv main_arg1)
          ∗ (((c.tc : Thread nD τ).loc main_arg2) ↦{fullShare} Vv main_arg2) ∗ (((c.tc : Thread nD τ).loc main_arg3) ↦{fullShare} Vv main_arg3)
          ∗ (((c.tc : Thread nD τ).loc main_arg4) ↦{fullShare} Vv main_arg4) ∗ (((c.tc : Thread nD τ).loc main_arg5) ↦{fullShare} Vv main_arg5)
          ∗ (((c.tc : Thread nD τ).loc main_v5) ↦{fullShare} Vv main_v5)) := by
  unfold Pipeline.arrBufs
  exact bigSep_eq_bigSepL_of_eq _ arrRefs0 (by decide) _

/-- The share each window holds of its array. -/
theorem share_0 (c : Dev nD) : (dats m 0 c).share 0 = fullShare.left := by
  unfold Dat.share; rw [if_neg (by decide)]; exact q_0 m c
theorem share_1 (c : Dev nD) : (dats m 0 c).share 1 = fullShare.right := by
  unfold Dat.share; rw [if_neg (by decide)]; exact q_1 m c
theorem share_2 (c : Dev nD) : (dats m 0 c).share 2 = fullShare := by
  unfold Dat.share; rw [if_neg (by decide)]; exact q_2 m c
theorem share_3 (c : Dev nD) : (dats m 0 c).share 3 = fullShare := by
  unfold Dat.share; rw [if_neg (by decide)]; exact q_3 m c
theorem share_4 (c : Dev nD) : (dats m 0 c).share 4 = fullShare := by
  unfold Dat.share; rw [if_neg (by decide)]; exact q_4 m c
theorem share_5 (c : Dev nD) : (dats m 0 c).share 5 = fullShare := by
  unfold Dat.share; rw [if_neg (by decide)]; exact q_5 m c
theorem share_6 (c : Dev nD) : (dats m 0 c).share 6 = fullShare := by
  unfold Dat.share; rw [if_neg (by decide)]; exact q_6 m c
theorem share_7 (c : Dev nD) : (dats m 0 c).share 7 = fullShare := by
  unfold Dat.share; rw [if_pos (by decide)]

/-- Each window's holding of its array, as a points-to at the buffer behind it. -/
theorem arr0_0 (c : Dev nD) (X : Buf (Elt F) ((cfg0.win 0).arr.view.loc (c.tc : Thread nD τ))) :
    (((cfg0.win 0).arr.view.loc (c.tc : Thread nD τ)) ↦[(cfg0.win 0).arr.view.set]{(dats m 0 c).share 0} X : sProp 𝕄)
      = (((c.tc : Thread nD τ).loc main_v4) ↦{fullShare.left} X) := by
  rw [(arr_whole0 0).set_eq_univ, share_0]
theorem arr0_1 (c : Dev nD) (X : Buf (Elt F) ((cfg0.win 1).arr.view.loc (c.tc : Thread nD τ))) :
    (((cfg0.win 1).arr.view.loc (c.tc : Thread nD τ)) ↦[(cfg0.win 1).arr.view.set]{(dats m 0 c).share 1} X : sProp 𝕄)
      = (((c.tc : Thread nD τ).loc main_v4) ↦{fullShare.right} X) := by
  rw [(arr_whole0 1).set_eq_univ, share_1]
theorem arr0_2 (c : Dev nD) (X : Buf (Elt F) ((cfg0.win 2).arr.view.loc (c.tc : Thread nD τ))) :
    (((cfg0.win 2).arr.view.loc (c.tc : Thread nD τ)) ↦[(cfg0.win 2).arr.view.set]{(dats m 0 c).share 2} X : sProp 𝕄)
      = (((c.tc : Thread nD τ).loc main_arg1) ↦{fullShare} X) := by
  rw [(arr_whole0 2).set_eq_univ, share_2]
theorem arr0_3 (c : Dev nD) (X : Buf (Elt F) ((cfg0.win 3).arr.view.loc (c.tc : Thread nD τ))) :
    (((cfg0.win 3).arr.view.loc (c.tc : Thread nD τ)) ↦[(cfg0.win 3).arr.view.set]{(dats m 0 c).share 3} X : sProp 𝕄)
      = (((c.tc : Thread nD τ).loc main_arg2) ↦{fullShare} X) := by
  rw [(arr_whole0 3).set_eq_univ, share_3]
theorem arr0_4 (c : Dev nD) (X : Buf (Elt F) ((cfg0.win 4).arr.view.loc (c.tc : Thread nD τ))) :
    (((cfg0.win 4).arr.view.loc (c.tc : Thread nD τ)) ↦[(cfg0.win 4).arr.view.set]{(dats m 0 c).share 4} X : sProp 𝕄)
      = (((c.tc : Thread nD τ).loc main_arg3) ↦{fullShare} X) := by
  rw [(arr_whole0 4).set_eq_univ, share_4]
theorem arr0_5 (c : Dev nD) (X : Buf (Elt F) ((cfg0.win 5).arr.view.loc (c.tc : Thread nD τ))) :
    (((cfg0.win 5).arr.view.loc (c.tc : Thread nD τ)) ↦[(cfg0.win 5).arr.view.set]{(dats m 0 c).share 5} X : sProp 𝕄)
      = (((c.tc : Thread nD τ).loc main_arg4) ↦{fullShare} X) := by
  rw [(arr_whole0 5).set_eq_univ, share_5]
theorem arr0_6 (c : Dev nD) (X : Buf (Elt F) ((cfg0.win 6).arr.view.loc (c.tc : Thread nD τ))) :
    (((cfg0.win 6).arr.view.loc (c.tc : Thread nD τ)) ↦[(cfg0.win 6).arr.view.set]{(dats m 0 c).share 6} X : sProp 𝕄)
      = (((c.tc : Thread nD τ).loc main_arg5) ↦{fullShare} X) := by
  rw [(arr_whole0 6).set_eq_univ, share_6]
theorem arr0_7 (c : Dev nD) (X : Buf (Elt F) ((cfg0.win 7).arr.view.loc (c.tc : Thread nD τ))) :
    (((cfg0.win 7).arr.view.loc (c.tc : Thread nD τ)) ↦[(cfg0.win 7).arr.view.set]{(dats m 0 c).share 7} X : sProp 𝕄)
      = (((c.tc : Thread nD τ).loc main_v5) ↦{fullShare} X) := by
  rw [(arr_whole0 7).set_eq_univ, share_7]

theorem sep_congr' {A A' B B' : sProp 𝕄} (h : A = A') (h' : B = B') : iprop(A ∗ B) = iprop(A' ∗ B') := by rw [h, h']

/-- The windows' arrays as the proof data holds them, one by one: a half each of the array windows 0 and 1 read. -/
theorem arrays0_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_v4) ↦{fullShare.left} Fw 0) ∗ (((c.tc : Thread nD τ).loc main_v4) ↦{fullShare.right} Fw 1)
          ∗ (((c.tc : Thread nD τ).loc main_arg1) ↦{fullShare} Fw 2) ∗ (((c.tc : Thread nD τ).loc main_arg2) ↦{fullShare} Fw 3)
          ∗ (((c.tc : Thread nD τ).loc main_arg3) ↦{fullShare} Fw 4) ∗ (((c.tc : Thread nD τ).loc main_arg4) ↦{fullShare} Fw 5)
          ∗ (((c.tc : Thread nD τ).loc main_arg5) ↦{fullShare} Fw 6) ∗ (((c.tc : Thread nD τ).loc main_v5) ↦{fullShare} Fw 7)) := by
  unfold Dat.arrays
  rw [bigSep_W0]
  exact sep_congr' (arr0_0 m c _) (sep_congr' (arr0_1 m c _) (sep_congr' (arr0_2 m c _) (sep_congr' (arr0_3 m c _)
    (sep_congr' (arr0_4 m c _) (sep_congr' (arr0_5 m c _) (sep_congr' (arr0_6 m c _) (arr0_7 m c _)))))))

/-- At the region's entry each array holds what the region finds. -/
theorem arrAt_zero (c : Dev nD) (w : Fin cfg0.W) : (dats m 0 c).arrAt w 0 = V m c (Pipeline.arrRef spec0 w) := A_eq m c w

/-- At the region's exit each input's array holds what the region found. -/
theorem arrAt_N_in (c : Dev nD) (w : Fin cfg0.W) (hw : (cfg0.win w).isOut = false) : (dats m 0 c).arrAt w cfg0.N = V m c (Pipeline.arrRef spec0 w) :=
  ((dats m 0 c).arrAt_in w hw _).trans (A_eq m c w)

/-- ENTRY: the buffers behind the arrays at the entry contents are dealt among the windows, the one array windows
    0 and 1 read as its two halves. -/
theorem hsplit (c : Dev nD) : (Pipeline.arrBufs spec0 c (fun b => V0 m c (Proc.devRef .tc b)) : sProp 𝕄)
    ⊢ (dats m 0 c).arrays ((dats m 0 c).arrAt · 0) := by
  rw [arrBufs0_eq, arrays0_eq, arrAt_zero, arrAt_zero, arrAt_zero, arrAt_zero, arrAt_zero, arrAt_zero, arrAt_zero, arrAt_zero]
  refine (sep_mono (pointsTo_share (PosShare.mem_left_op_right fullShare)).1 .rfl).trans ?_
  iintro ⟨⟨Hl, Hr⟩, Ha1, Ha2, Ha3, Ha4, Ha5, H5⟩
  isplitl [Hl]; · iexact Hl
  isplitl [Hr]; · iexact Hr
  isplitl [Ha1]; · iexact Ha1
  isplitl [Ha2]; · iexact Ha2
  isplitl [Ha3]; · iexact Ha3
  isplitl [Ha4]; · iexact Ha4
  isplitl [Ha5]; · iexact Ha5
  iexact H5

/-- The exit contents at each window's array are the proof data's. -/
theorem hA₁ (c : Dev nD) (w : Fin cfg0.W) : V1 m c (Proc.devRef .tc (Pipeline.arrRef spec0 w)) = (dats m 0 c).arrAt w cfg0.N := by
  fin_cases w
  · exact (V1_of_ne m c main_v4 (by decide)).trans (arrAt_N_in m c 0 rfl).symm
  · exact (V1_of_ne m c main_v4 (by decide)).trans (arrAt_N_in m c 1 rfl).symm
  · exact (V1_of_ne m c main_arg1 (by decide)).trans (arrAt_N_in m c 2 rfl).symm
  · exact (V1_of_ne m c main_arg2 (by decide)).trans (arrAt_N_in m c 3 rfl).symm
  · exact (V1_of_ne m c main_arg3 (by decide)).trans (arrAt_N_in m c 4 rfl).symm
  · exact (V1_of_ne m c main_arg4 (by decide)).trans (arrAt_N_in m c 5 rfl).symm
  · exact (V1_of_ne m c main_arg5 (by decide)).trans (arrAt_N_in m c 6 rfl).symm
  · exact V1_main_v5 m c

/-- EXIT: the windows' holdings at the exit contents join into the buffers behind the arrays, -/
theorem hjoin (c : Dev nD) : ((dats m 0 c).arrays ((dats m 0 c).arrAt · cfg0.N) : sProp 𝕄)
    ⊢ Pipeline.arrBufs spec0 c (fun b => V1 m c (Proc.devRef .tc b)) := by
  rw [arrBufs0_eq, arrays0_eq, ← hA₁ m c 0, ← hA₁ m c 1, ← hA₁ m c 2, ← hA₁ m c 3, ← hA₁ m c 4, ← hA₁ m c 5, ← hA₁ m c 6, ← hA₁ m c 7]
  iintro ⟨Hl, Hr, Ha1, Ha2, Ha3, Ha4, Ha5, H5⟩
  isplitl [Hl Hr]
  · iapply (pointsTo_share (PosShare.mem_left_op_right fullShare)).2
    isplitl [Hl]; · iexact Hl
    iexact Hr
  isplitl [Ha1]; · iexact Ha1
  isplitl [Ha2]; · iexact Ha2
  isplitl [Ha3]; · iexact Ha3
  isplitl [Ha4]; · iexact Ha4
  isplitl [Ha5]; · iexact Ha5
  iexact H5

/-- and are dealt from them again. -/
theorem hsplit₁ (c : Dev nD) : (Pipeline.arrBufs spec0 c (fun b => V1 m c (Proc.devRef .tc b)) : sProp 𝕄)
    ⊢ (dats m 0 c).arrays ((dats m 0 c).arrAt · cfg0.N) := by
  rw [arrBufs0_eq, arrays0_eq, ← hA₁ m c 0, ← hA₁ m c 1, ← hA₁ m c 2, ← hA₁ m c 3, ← hA₁ m c 4, ← hA₁ m c 5, ← hA₁ m c 6, ← hA₁ m c 7]
  refine (sep_mono (pointsTo_share (PosShare.mem_left_op_right fullShare)).1 .rfl).trans ?_
  iintro ⟨⟨Hl, Hr⟩, Ha1, Ha2, Ha3, Ha4, Ha5, H5⟩
  isplitl [Hl]; · iexact Hl
  isplitl [Hr]; · iexact Hr
  isplitl [Ha1]; · iexact Ha1
  isplitl [Ha2]; · iexact Ha2
  isplitl [Ha3]; · iexact Ha3
  isplitl [Ha4]; · iexact Ha4
  isplitl [Ha5]; · iexact Ha5
  iexact H5

/-- Away from the windows' arrays the exit contents are the entry contents. -/
theorem hV₁ (c : Dev nD) (b : Ref sig .tc) (hb : ∀ w, Pipeline.arrRef spec0 w ≠ b) : V1 m c (Proc.devRef .tc b) = V0 m c (Proc.devRef .tc b) :=
  V1_of_ne m c b fun e => hb 7 e.symm

end Cert.Kernel.Hand

end
-- ==== Proof.LibSharedTail.lean ====
/-
  The frame run of a one-region pipeline program whose @main is host lines, the region, then MORE host lines, and
  whose windows may stand on ONE array (several input windows reading one buffer: the arrays need not be distinct,
  `WinFacts₀`).

  The region is entered with the buffers behind the arrays, each whole at the full share at the entry contents `V₀`,
  dealt among the windows on them (`hsplit`). At the region's exit the windows' shares are joined back into the
  buffers behind the arrays, each whole at the full share, at the exit contents `V₁` (`hjoin`): `V₁` is the proof
  data's `arrAt … N` on every array (`hA₁`) and the entry contents `V₀` on every other buffer (`hV₁`). The later
  lines then run within ALL the unscoped buffers, writing no array (`hkeep`); the buffers behind the arrays are
  dealt among the windows once more (`hsplit₁`) and every unscoped buffer is read at the lines' `StableHlo.after`
  from `V₁`.
-/
import Idealize.ShloMosaic.Lib.Pipeline.FrameSuffix

noncomputable section

namespace Idealize.ShloMosaic.Pipeline.SharedTail

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN of a kernel whose windows may share arrays and whose @main continues after the region with the host
    lines `opss`: every unscoped buffer ends at the lines' `StableHlo.after` from the region's exit contents `V₁`. -/
theorem θ_run_frame_shared_around (cfgs : P → Cfg sig Λ₀)
    (dats : (p : P) → (c : Dev nD) → Dat τ Val Unit ℕ (UR sig nD τ) ℕ (cfgs p) c) (p : P)
    (defs₀ : Defs nD τ sig Val Λ₀) (𝒱₀ : Variants)
    (hcell : Function.Injective (cellOf (nD := nD) (τ := τ) cfgs))
    (hwin : WinFacts₀ (cfgs p).spec)
    (hpos : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ V₁ : Dev nD → Valuation τ sig Val) (opss : List (List (HloOp τ sig Val)))
    (hsub : ∀ ops ∈ opss, ∀ op ∈ ops, op.bufs ⊆ ucRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄)
      ⊢ (dats p c).arrays ((dats p c).arrAt · 0))
    (hjoin : ∀ c, (dats p c).arrays ((dats p c).arrAt · (cfgs p).N)
      ⊢ (arrBufs (cfgs p).spec c (fun b => V₁ c (Proc.devRef .tc b)) : sProp 𝕄))
    (hsplit₁ : ∀ c, (arrBufs (cfgs p).spec c (fun b => V₁ c (Proc.devRef .tc b)) : sProp 𝕄)
      ⊢ (dats p c).arrays ((dats p c).arrAt · (cfgs p).N))
    (hA₁ : ∀ c w, V₁ c (Proc.devRef .tc (arrRef (cfgs p).spec w)) = (dats p c).arrAt w (cfgs p).N)
    (hV₁ : ∀ c (b : Ref sig .tc), (∀ w, arrRef (cfgs p).spec w ≠ b) → V₁ c (Proc.devRef .tc b) = V₀ c (Proc.devRef .tc b))
    (hΦ : ∀ c t, (dats p c).Φ t = scopedRest (Ix := Unit) (Name := ℕ) (U := UR sig nD τ) (Lvl := ℕ) (Val := Val) (cfgs p).spec c) :
    θ_run (Pipeline.defs (fun q => (cfgs q).toPCfg (Val := Val)) defs₀) (onTc main) (s₀ m g)
      (fun r => ∀ (c : Dev nD) (b : Ref sig .tc), b.isScoped = false →
        r.2.mem ((c.tc : Thread nD τ).loc b) = StableHlo.after opss.flatten (V₁ c) (Proc.devRef .tc b)) := by
  classical
  exact θ_run_region_noSem_pf_tail (fun q => (cfgs q).toPCfg (Val := Val)) (fun q => (cfgs q).toPCfg_adm) dats () hcell p hwin
    (PreFacts.none _) emb₁ defs₀ 𝒱₀ m g main (fun _ => chain (opss.map StableHlo.seq)) hbody hpos harr hstage howed
    (u₀ := initOf (cells cfgs hcell) (launchToks cfgs hcell))
    (hu₀ := (show (ownU _ : sProp 𝕄) ⊢ BI.own (emb₁ (initOf (cells cfgs hcell) (launchToks cfgs hcell))) from .rfl))
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (V₁ c) (Proc.devRef .tc b)))
    (hX := fun c => by
      rw [unscopedRestP_none]
      iintro HU
      isplitr; · iempintro
      iexact HU)
    (hin := fun c => by
      rw [hΦ]
      iintro ⟨-, -, HR⟩
      iexact HR)
    (hout := fun c => by
      rw [hΦ]
      iintro HR
      isplitr; · iempintro
      iexact HR)
    (htail := fun c Q' => by
      -- the unscoped buffers held at `V₁`: the buffers behind the arrays at `V₁`, the rest at `V₀`
      have hW : (StableHlo.held (c.tc : Thread nD τ) (ucRefs τ sig) (V₁ c) : sProp 𝕄)
          = iprop(arrBufs (cfgs p).spec c (fun b => V₁ c (Proc.devRef .tc b))
              ∗ unscopedRest (cfgs p).spec c (fun b => V₀ c (Proc.devRef .tc b))) := by
        rw [← unscopedBufs_held (Ix := Unit) (Name := ℕ) (U := UR sig nD τ) (Lvl := ℕ) c (V₁ c),
          unscopedBufs_split₀ cfgs p hwin.arr_unscoped c]
        congr 1
        unfold unscopedRest
        exact bigSep_congr fun b hb => by
          dsimp only
          rw [hV₁ c b fun w e => (Finset.mem_sdiff.mp hb).2 (Finset.mem_image.mpr ⟨w, Finset.mem_univ _, e⟩)]
      -- after the lines: the buffers behind the arrays still at `V₁` (no line writes one), the rest at `after`
      have hW' : (StableHlo.held (c.tc : Thread nD τ) (ucRefs τ sig) (StableHlo.after opss.flatten (V₁ c)) : sProp 𝕄)
          = iprop(arrBufs (cfgs p).spec c (fun b => V₁ c (Proc.devRef .tc b))
              ∗ unscopedRest (cfgs p).spec c (fun b => StableHlo.after opss.flatten (V₁ c) (Proc.devRef .tc b))) := by
        rw [← unscopedBufs_held (Ix := Unit) (Name := ℕ) (U := UR sig nD τ) (Lvl := ℕ) c (StableHlo.after opss.flatten (V₁ c)),
          unscopedBufs_split₀ cfgs p hwin.arr_unscoped c]
        congr 1
        unfold arrBufs
        exact bigSep_congr fun b hb => by
          obtain ⟨w, -, rfl⟩ := Finset.mem_image.mp hb
          dsimp only
          rw [StableHlo.after_of_forall_not_mem _ _ fun op hop => ?_]
          obtain ⟨ops, hops, hop'⟩ := List.mem_flatten.mp hop
          exact hkeep ops hops op hop' w
      rw [← List.append_nil (opss.map StableHlo.seq)]
      iintro ⟨Hk, Hb, Ha, HZ⟩
      ihave Ha' := (hjoin c) $$ Ha
      iapply (wp_seqs_then (fun q => (cfgs q).toPCfg (Val := Val)) defs₀ 𝒱₀ c (ucRefs τ sig) [] opss hsub hfresh (V₁ c)) $$ [Hb Ha' HZ]
      · rw [hW]
        isplitl [Hb]; · iexact Hb
        isplitl [Ha'] <;> iassumption
      iintro Hb
      rw [chain_nil, wp_pure, hW']
      imodintro
      iapply Hk
      icases Hb with ⟨-, Ha, HZ⟩
      isplitl [Ha]
      · iapply (hsplit₁ c); iexact Ha
      · iexact HZ)
    (QY := fun c s => ∀ b ∈ restRefs sig (cfgs p).spec,
      s.mem ((c.tc : Thread nD τ).loc b) = StableHlo.after opss.flatten (V₁ c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (V₁ c) (Proc.devRef .tc b)) s')
      isplitl [HU] <;> iassumption)
    (hQ := fun s h c b hb => by
      by_cases hw : ∃ w, arrRef (cfgs p).spec w = b
      · obtain ⟨w, rfl⟩ := hw
        rw [StableHlo.after_of_forall_not_mem _ _ fun op hop => ?_, hA₁]
        · exact (h c).1 w
        · obtain ⟨ops, hops, hop'⟩ := List.mem_flatten.mp hop
          exact hkeep ops hops op hop' w
      · exact (h c).2.2 b (mem_restRefs_of b hb fun w e => hw ⟨w, e⟩))

end Idealize.ShloMosaic.Pipeline.SharedTail

end
-- ==== Proof.KRun.lean ====
/-
  The run of the program and its frame: the host lines before the region, the region with the array that two
  windows read held as its two halves, and the host lines after it. Every unscoped buffer ends at what the later
  lines compute from the region's exit contents; an argument array is written by no host line and is no output
  array, so it ends as the memory had it.
-/
import proofs.«139805_j20143396618483_1_alg».proof.Proof.KBody
import proofs.«139805_j20143396618483_1_alg».proof.Proof.LibSharedTail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host lines write -/

/-- The buffers the lines before the region write, -/
abbrev wrP : List (Ref sig .tc) :=
  [main_v0, main_call0_v0, main_call0_v1, main_call0_v2, main_call0_v3, main_call0_v4, main_call0_v5, main_call0_v6, main_call0_v7,
    main_v1, main_v2, main_v3, main_v4]
/-- and those the lines after it write. -/
abbrev wrT : List (Ref sig .tc) :=
  [main_v6, main_v7, main_v8, main_call1_v0, main_call1_v1, main_call1_v2, main_call1_v3, main_call1_v4, main_call1_v5, main_call1_v6,
    main_call1_v7, main_v9, main_v10]

/-- A line that writes one listed buffer writes within the list. -/
theorem sub1 {W : List (Ref sig .tc)} {op : HloOp τ sig (Elt F)} (y : Ref sig .tc) (h : op.writes = {Proc.devRef .tc y}) (hy : y ∈ W) :
    op.writes ⊆ (W.map (Proc.devRef (τ := τ) .tc)).toFinset := by
  rw [h]
  exact Finset.singleton_subset_iff.mpr (List.mem_toFinset.mpr (List.mem_map.mpr ⟨y, hy, rfl⟩))

theorem hostOps0_writes : (hostOps0 : List (HloOp τ sig (Elt F))).Forall fun op => op.writes ⊆ (wrP.map (Proc.devRef (τ := τ) .tc)).toFinset :=
  sub1 main_v0 rfl (by decide)
theorem hostOps0_1_writes : (hostOps0_1 : List (HloOp τ sig (Elt F))).Forall fun op => op.writes ⊆ (wrP.map (Proc.devRef (τ := τ) .tc)).toFinset :=
  ⟨sub1 main_call0_v0 rfl (by decide), sub1 main_call0_v1 rfl (by decide), sub1 main_call0_v2 rfl (by decide), sub1 main_call0_v3 rfl (by decide),
    sub1 main_call0_v4 rfl (by decide), sub1 main_call0_v5 rfl (by decide), sub1 main_call0_v6 rfl (by decide), sub1 main_call0_v7 rfl (by decide),
    sub1 main_v1 rfl (by decide)⟩
theorem hostOps0_2_writes : (hostOps0_2 : List (HloOp τ sig (Elt F))).Forall fun op => op.writes ⊆ (wrP.map (Proc.devRef (τ := τ) .tc)).toFinset :=
  ⟨sub1 main_v2 rfl (by decide), sub1 main_v3 rfl (by decide), sub1 main_v4 rfl (by decide)⟩
theorem hostOps1_writes : (hostOps1 : List (HloOp τ sig (Elt F))).Forall fun op => op.writes ⊆ (wrT.map (Proc.devRef (τ := τ) .tc)).toFinset :=
  ⟨sub1 main_v6 rfl (by decide), sub1 main_v7 rfl (by decide), sub1 main_v8 rfl (by decide)⟩
theorem hostOps1_1_writes : (hostOps1_1 : List (HloOp τ sig (Elt F))).Forall fun op => op.writes ⊆ (wrT.map (Proc.devRef (τ := τ) .tc)).toFinset :=
  ⟨sub1 main_call1_v0 rfl (by decide), sub1 main_call1_v1 rfl (by decide), sub1 main_call1_v2 rfl (by decide), sub1 main_call1_v3 rfl (by decide),
    sub1 main_call1_v4 rfl (by decide), sub1 main_call1_v5 rfl (by decide), sub1 main_call1_v6 rfl (by decide), sub1 main_call1_v7 rfl (by decide),
    sub1 main_v9 rfl (by decide)⟩
theorem hostOps1_2_writes : (hostOps1_2 : List (HloOp τ sig (Elt F))).Forall fun op => op.writes ⊆ (wrT.map (Proc.devRef (τ := τ) .tc)).toFinset :=
  sub1 main_v10 rfl (by decide)

/-- A buffer outside the list of what some lines write is written by none of them. -/
theorem keeps_of (opss : List (List (HloOp τ sig (Elt F)))) (W : List (Ref sig .tc))
    (hW : ∀ ops ∈ opss, ops.Forall fun op => op.writes ⊆ (W.map (Proc.devRef (τ := τ) .tc)).toFinset) (b : Ref sig .tc) (hb : b ∉ W) :
    ∀ ops ∈ opss, ∀ op ∈ ops, Proc.devRef .tc b ∉ op.writes := by
  intro ops hops op hop hmem
  obtain ⟨y, hy, he⟩ := List.mem_map.mp (List.mem_toFinset.mp ((List.forall_iff_forall_mem.mp (hW ops hops)) op hop hmem))
  exact hb (Proc.devRef_injective _ he ▸ hy)

theorem pfx_writes : ∀ ops ∈ ([hostOps0, hostOps0_1, hostOps0_2] : List (List (HloOp τ sig (Elt F)))),
    ops.Forall fun op => op.writes ⊆ (wrP.map (Proc.devRef (τ := τ) .tc)).toFinset := by
  intro ops hops
  simp only [List.mem_cons, List.mem_nil_iff, or_false] at hops
  rcases hops with rfl | rfl | rfl
  · exact hostOps0_writes
  · exact hostOps0_1_writes
  · exact hostOps0_2_writes

theorem sfx_writes : ∀ ops ∈ ([hostOps1, hostOps1_1, hostOps1_2] : List (List (HloOp τ sig (Elt F)))),
    ops.Forall fun op => op.writes ⊆ (wrT.map (Proc.devRef (τ := τ) .tc)).toFinset := by
  intro ops hops
  simp only [List.mem_cons, List.mem_nil_iff, or_false] at hops
  rcases hops with rfl | rfl | rfl
  · exact hostOps1_writes
  · exact hostOps1_1_writes
  · exact hostOps1_2_writes

/-- A buffer none of some stretches of lines writes holds after them what it held. -/
theorem after_flatten_of_keeps (opss : List (List (HloOp τ sig (Elt F)))) (Vv : Valuation τ sig (Elt F)) (b : Ref sig .tc)
    (h : ∀ ops ∈ opss, ∀ op ∈ ops, Proc.devRef .tc b ∉ op.writes) :
    StableHlo.after opss.flatten Vv (Proc.devRef .tc b) = Vv (Proc.devRef .tc b) :=
  StableHlo.after_of_forall_not_mem _ _ fun op hop => by
    obtain ⟨ops, hops, hop'⟩ := List.mem_flatten.mp hop
    exact h ops hops op hop'

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2] : List (List (HloOp τ sig (Elt F)))).map StableHlo.seq)) :=
  Pipeline.hmain_around cfgs 0 defs₀ 𝒱₀ m main [hostOps0, hostOps0_1, hostOps0_2] [hostOps1, hostOps1_1, hostOps1_2]
    ⟨hostOps0_sub, hostOps0_1_sub, hostOps0_2_sub⟩ ⟨hostOps0_fresh, hostOps0_1_fresh, hostOps0_2_fresh⟩ main_chain

/-- The lines after the region touch unscoped TensorCore buffers only, -/
theorem sfx_sub : ∀ ops ∈ ([hostOps1, hostOps1_1, hostOps1_2] : List (List (HloOp τ sig (Elt F)))), ∀ op ∈ ops,
    op.bufs ⊆ Pipeline.ucRefs τ sig := by
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- allocate nothing, -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- and write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => keeps_of _ wrT sfx_writes (Pipeline.arrRef spec0 w) (by revert w; decide) ops hops op hop

/-! ## The run -/

set_option backward.isDefEq.respectTransparency.types false in
/-- At the compiled mesh, for any values, from any memory with zero counters: every weakly fair execution of @main on
    the TensorCores terminates, and every final state has every unscoped buffer at what the lines after the region
    compute from the region's exit contents. -/
theorem run_main : θ_run defs (onTc (τ := τ) (main (F := F))) (s₀ m ρ) (fun r => ∀ (c : Dev nD) (b : Ref sig .tc), b.isScoped = false →
      r.2.mem ((c.tc : Thread nD τ).loc b) = StableHlo.after (List.flatten [hostOps1, hostOps1_1, hostOps1_2]) (V1 m c) (Proc.devRef .tc b)) :=
  Pipeline.SharedTail.θ_run_frame_shared_around cfgs (dats m) (0 : Fin 1) defs₀ Variants.none cellOf_inj winFacts₀0 block_pos0 arr_whole0 stage_whole0
    m ρ main (fun c => (body_obligation m c).loose) (fun _ _ => rfl) (V0 m) (V1 m) [hostOps1, hostOps1_1, hostOps1_2]
    sfx_sub sfx_fresh sfx_keeps (hmain m Variants.none) (hsplit m) (hjoin m) (hsplit₁ m) (hA₁ m) (hV₁ m) (fun _ _ => rfl)

/-! ## The frame -/

/-- An argument array ends as the memory had it: no host line writes it and it is not the output array. -/
theorem arg_kept (c : Dev nD) (b : Ref sig .tc) (hP : b ∉ wrP) (hT : b ∉ wrT) (h5 : b ≠ main_v5) :
    StableHlo.after (List.flatten [hostOps1, hostOps1_1, hostOps1_2]) (V1 m c) (Proc.devRef .tc b) = m ((c.tc : Thread nD τ).loc b) :=
  (after_flatten_of_keeps _ _ b (keeps_of _ wrT sfx_writes b hT)).trans
    ((V1_of_ne m c b h5).trans (after_flatten_of_keeps _ _ b (keeps_of _ wrP pfx_writes b hP)))

/-- THE FRAME: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0 rfl).trans (arg_kept m c main_arg0 (by decide) (by decide) (by decide)),
      (h c main_arg1 rfl).trans (arg_kept m c main_arg1 (by decide) (by decide) (by decide)),
      (h c main_arg2 rfl).trans (arg_kept m c main_arg2 (by decide) (by decide) (by decide)),
      (h c main_arg3 rfl).trans (arg_kept m c main_arg3 (by decide) (by decide) (by decide)),
      (h c main_arg4 rfl).trans (arg_kept m c main_arg4 (by decide) (by decide) (by decide)),
      (h c main_arg5 rfl).trans (arg_kept m c main_arg5 (by decide) (by decide) (by decide)),
      (h c main_arg6 rfl).trans (arg_kept m c main_arg6 (by decide) (by decide) (by decide))⟩) (run_main m ρ)

end Cert.Kernel.Hand

end
-- ==== Proof.KIBodyVal.lean ====
/-
  The value the kernel body stores into its output block, as one pure function of what it loads:
  the joined weights, the source block (queries and keys), the block of the windows themselves (values),
  the two masks, the output weights and the bias, at a grid point.
-/
import proofs.«139805_j20143396618483_1_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The stored block from the loaded values: the three parts of the body composed as the program composes them. -/
def bodyVal (i : grid0.Coords) (v0 : Vec F S288x96 .f32) (v5 : Vec F S1x1x16x64x96 .f32) (v9 : Vec F S16x1x1x64x96 .f32)
    (v19 v20 : Vec F S64x64 .f32) (v120 : Vec F S96x96 .f32) (v122 : Vec F S96 .f32) : FVec F S16x1x1x64x96 .f32 :=
  k0_pay1 (k0_pay12 (BitVec.ofNat 32 (i 0).val) (BitVec.ofNat 32 (i 1).val) (k0_pay4 v0 v5) (k0_pay5 v0 v5) (k0_pay6 v0 v9) v19 v20
    (k0_pay9 (BitVec.ofNat 32 (i 1).val) v20 (k0_pay7 v0 v9) (k0_pay8 i v0 v5 v19) 15#32)
    (k0_pay10 (k0_pay6 v0 v9))
    (k0_pay11 (BitVec.ofNat 32 (i 0).val) (BitVec.ofNat 32 (i 1).val) (k0_pay4 v0 v5) (k0_pay5 v0 v5) v19 v20)
    v120 v122)

end Cert.KernelIdeal.Hand

end
-- ==== Proof.KIData.lean ====
/-
  The proof data of the one pipeline of the program: the arrays as the region finds them, the windows' blocks,
  what the body leaves in each window's buffer, and the arrays' contents when the region is left.

  Windows 0 and 1 (the source block and the block of the windows themselves) read one array; each holds one half
  of it. The other five inputs and the output stand on arrays of their own.
-/
import proofs.«139805_j20143396618483_1_alg».proof.Proof.KIBodyVal
import proofs.«139805_j20143396618483_1_alg».proof.Proof.Gen.KernelIdeal.Launch
import proofs.«139805_j20143396618483_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window cellOf)
open Cert.KernelIdeal Cert.KernelIdeal.Gen

variable {F : FTy → Type} [FloatOps F]

variable (m : (ℓ : Loc nD τ sig) → Buf (Elt F) ℓ) (ρ : Dev nD → PrngReg)

/-! ## The arrays when the region is entered -/

/-- Core `c`'s buffer contents when the region is entered: after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each window's whole buffer -/

abbrev r0 : Rect S1x1x16x64x96 := Rect.unit (s := S1x1x16x64x96) ![0, 0, 0, 0, 0] S1x1x16x64x96.size inb_S1x1x16x64x96_S1x1x16x64x96_0_0_0_0_0
abbrev r1 : Rect S16x1x1x64x96 := Rect.unit (s := S16x1x1x64x96) ![0, 0, 0, 0, 0] S16x1x1x64x96.size inb_S16x1x1x64x96_S16x1x1x64x96_0_0_0_0_0
abbrev r2 : Rect S288x96 := Rect.unit (s := S288x96) ![0, 0] S288x96.size inb_S288x96_S288x96_0_0
abbrev r3 : Rect S96x96 := Rect.unit (s := S96x96) ![0, 0] S96x96.size inb_S96x96_S96x96_0_0
abbrev r4 : Rect S96 := Rect.unit (s := S96) ![0] S96.size inb_S96_S96_0
abbrev r5 : Rect S64x64 := Rect.unit (s := S64x64) ![0, 0] S64x64.size inb_S64x64_S64x64_0_0
abbrev r6 : Rect S64x64 := Rect.unit (s := S64x64) ![0, 0] S64x64.size inb_S64x64_S64x64_0_0
abbrev r7 : Rect S16x1x1x64x96 := Rect.unit (s := S16x1x1x64x96) ![0, 0, 0, 0, 0] S16x1x1x64x96.size inb_S16x1x1x64x96_S16x1x1x64x96_0_0_0_0_0

/-! ## What the body leaves in the output window's buffer -/

/-- Window 7's staging buffer after the body at grid point `i`, from the input windows' buffers: its one store,
    of the body's value of the seven loads. -/
def out0_7 (i : grid0.Coords) (x0 : Vec F S1x1x16x64x96 .f32) (x1 : Vec F S16x1x1x64x96 .f32) (x2 : Vec F S288x96 .f32)
    (x3 : Vec F S96x96 .f32) (x4 : Vec F S96 .f32) (x5 : Vec F S64x64 .f32) (x6 : Vec F S64x64 .f32) : Vec F S16x1x1x64x96 .f32 :=
  View.canon [⟨r7, bodyVal i (View.ld x2 r2) (View.ld x0 r0) (View.ld x1 r1) (View.ld x5 r5) (View.ld x6 r6) (View.ld x3 r3) (View.ld x4 r4)⟩]

/-! ## The pipeline's proof data -/

/-- The proof data of the one pipeline on core `c`: the arrays as the region finds them; after the body at point
    `t` each input's buffer at its block and the output's at `out0_7` of the input blocks; the invariant the
    scoped buffers that are no staging buffer; nothing owed; of the array windows 0 and 1 both read, a half each,
    every other input's array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (grid0.coords t) (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = out0_7 (grid0.coords t) (iblk m c 0 t) (iblk m c 1 t) (iblk m c 2 t) (iblk m c 3 t) (iblk m c 4 t) (iblk m c 5 t) (iblk m c 6 t) := by
  dsimp only [dats]

/-- The shares: a half each of the array windows 0 and 1 read, the whole of every other. -/
theorem q_0 (c : Dev nD) : (dats m 0 c).q 0 = fullShare.left := by dsimp only [dats]
theorem q_1 (c : Dev nD) : (dats m 0 c).q 1 = fullShare.right := by dsimp only [dats]
theorem q_2 (c : Dev nD) : (dats m 0 c).q 2 = fullShare := by dsimp only [dats]
theorem q_3 (c : Dev nD) : (dats m 0 c).q 3 = fullShare := by dsimp only [dats]
theorem q_4 (c : Dev nD) : (dats m 0 c).q 4 = fullShare := by dsimp only [dats]
theorem q_5 (c : Dev nD) : (dats m 0 c).q 5 = fullShare := by dsimp only [dats]
theorem q_6 (c : Dev nD) : (dats m 0 c).q 6 = fullShare := by dsimp only [dats]

/-! ## The arrays when the region is left -/

open Classical in
/-- Core `c`'s buffer contents when the region is left: the output array at what the pipeline wrote, every other
    buffer as the region found it. -/
def V1 (c : Dev nD) : Valuation τ sig (Elt F) := fun b =>
  if h : Proc.devRef .tc main_v5 = b then
    h ▸ ((dats m 0 c).arrAt 7 cfg0.N : (Proc.devRef (τ := τ) .tc main_v5).ty.Contents (Elt F))
  else V0 m c b

theorem V1_main_v5 (c : Dev nD) : V1 m c (Proc.devRef .tc main_v5) = (dats m 0 c).arrAt 7 cfg0.N := by
  unfold V1; rw [dif_pos rfl]

theorem V1_of_ne (c : Dev nD) (b : Ref sig .tc) (hb : b ≠ main_v5) : V1 m c (Proc.devRef .tc b) = V0 m c (Proc.devRef .tc b) := by
  unfold V1; rw [dif_neg]
  intro e; exact hb (Proc.devRef_injective _ e).symm

end Cert.KernelIdeal.Hand

end
-- ==== Proof.KIBody.lean ====
/-
  The body of the kernel at a grid point: from the seven input buffers at their blocks it leaves the output buffer
  at the body's value of them, and the inputs as they were. Then the body obligation of the pipeline at every point,
  and how the arrays are dealt among the windows when the region is entered and joined again when it is left.
-/
import proofs.«139805_j20143396618483_1_alg».proof.Proof.KIData
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The one store is of the whole buffer, so it covers it. -/
theorem cover0_7 (p0 : Vec F S16x1x1x64x96 .f32) (y : S16x1x1x64x96.Idx) :
    ∃ pc ∈ ([⟨r7, p0⟩] : List (View.Piece (Elt F) S16x1x1x64x96 .f32)), y ∈ pc.1.set :=
  View.cover_of_tiled [⟨r7, p0⟩] S16x1x1x64x96.size (by rfl) y

set_option maxHeartbeats 4000000 in
/-- The kernel body on whole staging memrefs, the inputs' at contents `xW` and the output's at anything, runs to the
    continuation holding the inputs' as they were and the output's at `out0_7` of the inputs'. -/
theorem sound_kernel (c : Dev nD) (E : Set ℕ) (i : grid0.Coords)
    (arg2 : Memref sig .tc .vmem S1x1x16x64x96 .f32) (harg2 : arg2.IsWhole) (arg3 : Memref sig .tc .vmem S16x1x1x64x96 .f32) (harg3 : arg3.IsWhole)
    (arg4 : Memref sig .tc .vmem S288x96 .f32) (harg4 : arg4.IsWhole) (arg5 : Memref sig .tc .vmem S96x96 .f32) (harg5 : arg5.IsWhole)
    (arg6 : Memref sig .tc .vmem S96 .f32) (harg6 : arg6.IsWhole) (arg7 : Memref sig .tc .vmem S64x64 .f32) (harg7 : arg7.IsWhole)
    (arg8 : Memref sig .tc .vmem S64x64 .f32) (harg8 : arg8.IsWhole) (arg9 : Memref sig .tc .vmem S16x1x1x64x96 .f32) (harg9 : arg9.IsWhole)
    (x0 : Vec F S1x1x16x64x96 .f32) (x1 : Vec F S16x1x1x64x96 .f32) (x2 : Vec F S288x96 .f32) (x3 : Vec F S96x96 .f32)
    (x4 : Vec F S96 .f32) (x5 : Vec F S64x64 .f32) (x6 : Vec F S64x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (out0_7 i x0 x1 x2 x3 x4 x5 x6)) -∗ K ⟨⟩))
      ⊢ wp frame (wpE (defs₀ (F := F)) Variants.none c none) E
          (cc0__win_attn_kernel i arg2 harg2 arg3 harg3 arg4 harg4 arg5 harg5 arg6 harg6 arg7 harg7 arg8 harg8 arg9 harg9) K := by
  simp only [cc0__win_attn_kernel_eq_skeleton]; unfold cc0__win_attn_kernel_skel
  simp only [k0_part1_eq_skeleton, k0_part2_eq_skeleton, k0_part3_eq_skeleton]
  unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## What each input's buffer holds when the body runs -/

/-- Each input's current staging buffer holds its block at every point, fetched there or not: unfetched, the block
    index has not moved, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays dealt among the windows -/

/-- The distinct buffers behind the windows' arrays. -/
theorem arrRefs0 : Finset.univ.image (Pipeline.arrRef spec0)
    = ([main_v4, main_arg1, main_arg2, main_arg3, main_arg4, main_arg5, main_v5] : List (Ref sig .tc)).toFinset := by decide

/-- The buffers behind the arrays, one by one. -/
theorem arrBufs0_eq (c : Dev nD) (Vv : (b : Ref sig .tc) → Buf (Elt F) ((c.tc : Thread nD τ).loc b)) :
    (Pipeline.arrBufs spec0 c Vv : sProp 𝕄)
      = iprop((((c.tc : Thread nD τ).loc main_v4) ↦{fullShare} Vv main_v4) ∗ (((c.tc : Thread nD τ).loc main_arg1) ↦{fullShare} Vv main_arg1)
          ∗ (((c.tc : Thread nD τ).loc main_arg2) ↦{fullShare} Vv main_arg2) ∗ (((c.tc : Thread nD τ).loc main_arg3) ↦{fullShare} Vv main_arg3)
          ∗ (((c.tc : Thread nD τ).loc main_arg4) ↦{fullShare} Vv main_arg4) ∗ (((c.tc : Thread nD τ).loc main_arg5) ↦{fullShare} Vv main_arg5)
          ∗ (((c.tc : Thread nD τ).loc main_v5) ↦{fullShare} Vv main_v5)) := by
  unfold Pipeline.arrBufs
  exact bigSep_eq_bigSepL_of_eq _ arrRefs0 (by decide) _

/-- The share each window holds of its array. -/
theorem share_0 (c : Dev nD) : (dats m 0 c).share 0 = fullShare.left := by
  unfold Dat.share; rw [if_neg (by decide)]; exact q_0 m c
theorem share_1 (c : Dev nD) : (dats m 0 c).share 1 = fullShare.right := by
  unfold Dat.share; rw [if_neg (by decide)]; exact q_1 m c
theorem share_2 (c : Dev nD) : (dats m 0 c).share 2 = fullShare := by
  unfold Dat.share; rw [if_neg (by decide)]; exact q_2 m c
theorem share_3 (c : Dev nD) : (dats m 0 c).share 3 = fullShare := by
  unfold Dat.share; rw [if_neg (by decide)]; exact q_3 m c
theorem share_4 (c : Dev nD) : (dats m 0 c).share 4 = fullShare := by
  unfold Dat.share; rw [if_neg (by decide)]; exact q_4 m c
theorem share_5 (c : Dev nD) : (dats m 0 c).share 5 = fullShare := by
  unfold Dat.share; rw [if_neg (by decide)]; exact q_5 m c
theorem share_6 (c : Dev nD) : (dats m 0 c).share 6 = fullShare := by
  unfold Dat.share; rw [if_neg (by decide)]; exact q_6 m c
theorem share_7 (c : Dev nD) : (dats m 0 c).share 7 = fullShare := by
  unfold Dat.share; rw [if_pos (by decide)]

/-- Each window's holding of its array, as a points-to at the buffer behind it. -/
theorem arr0_0 (c : Dev nD) (X : Buf (Elt F) ((cfg0.win 0).arr.view.loc (c.tc : Thread nD τ))) :
    (((cfg0.win 0).arr.view.loc (c.tc : Thread nD τ)) ↦[(cfg0.win 0).arr.view.set]{(dats m 0 c).share 0} X : sProp 𝕄)
      = (((c.tc : Thread nD τ).loc main_v4) ↦{fullShare.left} X) := by
  rw [(arr_whole0 0).set_eq_univ, share_0]
theorem arr0_1 (c : Dev nD) (X : Buf (Elt F) ((cfg0.win 1).arr.view.loc (c.tc : Thread nD τ))) :
    (((cfg0.win 1).arr.view.loc (c.tc : Thread nD τ)) ↦[(cfg0.win 1).arr.view.set]{(dats m 0 c).share 1} X : sProp 𝕄)
      = (((c.tc : Thread nD τ).loc main_v4) ↦{fullShare.right} X) := by
  rw [(arr_whole0 1).set_eq_univ, share_1]
theorem arr0_2 (c : Dev nD) (X : Buf (Elt F) ((cfg0.win 2).arr.view.loc (c.tc : Thread nD τ))) :
    (((cfg0.win 2).arr.view.loc (c.tc : Thread nD τ)) ↦[(cfg0.win 2).arr.view.set]{(dats m 0 c).share 2} X : sProp 𝕄)
      = (((c.tc : Thread nD τ).loc main_arg1) ↦{fullShare} X) := by
  rw [(arr_whole0 2).set_eq_univ, share_2]
theorem arr0_3 (c : Dev nD) (X : Buf (Elt F) ((cfg0.win 3).arr.view.loc (c.tc : Thread nD τ))) :
    (((cfg0.win 3).arr.view.loc (c.tc : Thread nD τ)) ↦[(cfg0.win 3).arr.view.set]{(dats m 0 c).share 3} X : sProp 𝕄)
      = (((c.tc : Thread nD τ).loc main_arg2) ↦{fullShare} X) := by
  rw [(arr_whole0 3).set_eq_univ, share_3]
theorem arr0_4 (c : Dev nD) (X : Buf (Elt F) ((cfg0.win 4).arr.view.loc (c.tc : Thread nD τ))) :
    (((cfg0.win 4).arr.view.loc (c.tc : Thread nD τ)) ↦[(cfg0.win 4).arr.view.set]{(dats m 0 c).share 4} X : sProp 𝕄)
      = (((c.tc : Thread nD τ).loc main_arg3) ↦{fullShare} X) := by
  rw [(arr_whole0 4).set_eq_univ, share_4]
theorem arr0_5 (c : Dev nD) (X : Buf (Elt F) ((cfg0.win 5).arr.view.loc (c.tc : Thread nD τ))) :
    (((cfg0.win 5).arr.view.loc (c.tc : Thread nD τ)) ↦[(cfg0.win 5).arr.view.set]{(dats m 0 c).share 5} X : sProp 𝕄)
      = (((c.tc : Thread nD τ).loc main_arg4) ↦{fullShare} X) := by
  rw [(arr_whole0 5).set_eq_univ, share_5]
theorem arr0_6 (c : Dev nD) (X : Buf (Elt F) ((cfg0.win 6).arr.view.loc (c.tc : Thread nD τ))) :
    (((cfg0.win 6).arr.view.loc (c.tc : Thread nD τ)) ↦[(cfg0.win 6).arr.view.set]{(dats m 0 c).share 6} X : sProp 𝕄)
      = (((c.tc : Thread nD τ).loc main_arg5) ↦{fullShare} X) := by
  rw [(arr_whole0 6).set_eq_univ, share_6]
theorem arr0_7 (c : Dev nD) (X : Buf (Elt F) ((cfg0.win 7).arr.view.loc (c.tc : Thread nD τ))) :
    (((cfg0.win 7).arr.view.loc (c.tc : Thread nD τ)) ↦[(cfg0.win 7).arr.view.set]{(dats m 0 c).share 7} X : sProp 𝕄)
      = (((c.tc : Thread nD τ).loc main_v5) ↦{fullShare} X) := by
  rw [(arr_whole0 7).set_eq_univ, share_7]

theorem sep_congr' {A A' B B' : sProp 𝕄} (h : A = A') (h' : B = B') : iprop(A ∗ B) = iprop(A' ∗ B') := by rw [h, h']

/-- The windows' arrays as the proof data holds them, one by one: a half each of the array windows 0 and 1 read. -/
theorem arrays0_eq (c : Dev nD) (Fw : (w : Fin cfg0.W) → Buf (Elt F) ((cfg0.win w).arr.view.loc (c.tc : Thread nD τ))) :
    ((dats m 0 c).arrays Fw : sProp 𝕄)
      = iprop((((c.tc : Thread nD τ).loc main_v4) ↦{fullShare.left} Fw 0) ∗ (((c.tc : Thread nD τ).loc main_v4) ↦{fullShare.right} Fw 1)
          ∗ (((c.tc : Thread nD τ).loc main_arg1) ↦{fullShare} Fw 2) ∗ (((c.tc : Thread nD τ).loc main_arg2) ↦{fullShare} Fw 3)
          ∗ (((c.tc : Thread nD τ).loc main_arg3) ↦{fullShare} Fw 4) ∗ (((c.tc : Thread nD τ).loc main_arg4) ↦{fullShare} Fw 5)
          ∗ (((c.tc : Thread nD τ).loc main_arg5) ↦{fullShare} Fw 6) ∗ (((c.tc : Thread nD τ).loc main_v5) ↦{fullShare} Fw 7)) := by
  unfold Dat.arrays
  rw [bigSep_W0]
  exact sep_congr' (arr0_0 m c _) (sep_congr' (arr0_1 m c _) (sep_congr' (arr0_2 m c _) (sep_congr' (arr0_3 m c _)
    (sep_congr' (arr0_4 m c _) (sep_congr' (arr0_5 m c _) (sep_congr' (arr0_6 m c _) (arr0_7 m c _)))))))

/-- At the region's entry each array holds what the region finds. -/
theorem arrAt_zero (c : Dev nD) (w : Fin cfg0.W) : (dats m 0 c).arrAt w 0 = V m c (Pipeline.arrRef spec0 w) := A_eq m c w

/-- At the region's exit each input's array holds what the region found. -/
theorem arrAt_N_in (c : Dev nD) (w : Fin cfg0.W) (hw : (cfg0.win w).isOut = false) : (dats m 0 c).arrAt w cfg0.N = V m c (Pipeline.arrRef spec0 w) :=
  ((dats m 0 c).arrAt_in w hw _).trans (A_eq m c w)

/-- ENTRY: the buffers behind the arrays at the entry contents are dealt among the windows, the one array windows
    0 and 1 read as its two halves. -/
theorem hsplit (c : Dev nD) : (Pipeline.arrBufs spec0 c (fun b => V0 m c (Proc.devRef .tc b)) : sProp 𝕄)
    ⊢ (dats m 0 c).arrays ((dats m 0 c).arrAt · 0) := by
  rw [arrBufs0_eq, arrays0_eq, arrAt_zero, arrAt_zero, arrAt_zero, arrAt_zero, arrAt_zero, arrAt_zero, arrAt_zero, arrAt_zero]
  refine (sep_mono (pointsTo_share (PosShare.mem_left_op_right fullShare)).1 .rfl).trans ?_
  iintro ⟨⟨Hl, Hr⟩, Ha1, Ha2, Ha3, Ha4, Ha5, H5⟩
  isplitl [Hl]; · iexact Hl
  isplitl [Hr]; · iexact Hr
  isplitl [Ha1]; · iexact Ha1
  isplitl [Ha2]; · iexact Ha2
  isplitl [Ha3]; · iexact Ha3
  isplitl [Ha4]; · iexact Ha4
  isplitl [Ha5]; · iexact Ha5
  iexact H5

/-- The exit contents at each window's array are the proof data's. -/
theorem hA₁ (c : Dev nD) (w : Fin cfg0.W) : V1 m c (Proc.devRef .tc (Pipeline.arrRef spec0 w)) = (dats m 0 c).arrAt w cfg0.N := by
  fin_cases w
  · exact (V1_of_ne m c main_v4 (by decide)).trans (arrAt_N_in m c 0 rfl).symm
  · exact (V1_of_ne m c main_v4 (by decide)).trans (arrAt_N_in m c 1 rfl).symm
  · exact (V1_of_ne m c main_arg1 (by decide)).trans (arrAt_N_in m c 2 rfl).symm
  · exact (V1_of_ne m c main_arg2 (by decide)).trans (arrAt_N_in m c 3 rfl).symm
  · exact (V1_of_ne m c main_arg3 (by decide)).trans (arrAt_N_in m c 4 rfl).symm
  · exact (V1_of_ne m c main_arg4 (by decide)).trans (arrAt_N_in m c 5 rfl).symm
  · exact (V1_of_ne m c main_arg5 (by decide)).trans (arrAt_N_in m c 6 rfl).symm
  · exact V1_main_v5 m c

/-- EXIT: the windows' holdings at the exit contents join into the buffers behind the arrays, -/
theorem hjoin (c : Dev nD) : ((dats m 0 c).arrays ((dats m 0 c).arrAt · cfg0.N) : sProp 𝕄)
    ⊢ Pipeline.arrBufs spec0 c (fun b => V1 m c (Proc.devRef .tc b)) := by
  rw [arrBufs0_eq, arrays0_eq, ← hA₁ m c 0, ← hA₁ m c 1, ← hA₁ m c 2, ← hA₁ m c 3, ← hA₁ m c 4, ← hA₁ m c 5, ← hA₁ m c 6, ← hA₁ m c 7]
  iintro ⟨Hl, Hr, Ha1, Ha2, Ha3, Ha4, Ha5, H5⟩
  isplitl [Hl Hr]
  · iapply (pointsTo_share (PosShare.mem_left_op_right fullShare)).2
    isplitl [Hl]; · iexact Hl
    iexact Hr
  isplitl [Ha1]; · iexact Ha1
  isplitl [Ha2]; · iexact Ha2
  isplitl [Ha3]; · iexact Ha3
  isplitl [Ha4]; · iexact Ha4
  isplitl [Ha5]; · iexact Ha5
  iexact H5

/-- and are dealt from them again. -/
theorem hsplit₁ (c : Dev nD) : (Pipeline.arrBufs spec0 c (fun b => V1 m c (Proc.devRef .tc b)) : sProp 𝕄)
    ⊢ (dats m 0 c).arrays ((dats m 0 c).arrAt · cfg0.N) := by
  rw [arrBufs0_eq, arrays0_eq, ← hA₁ m c 0, ← hA₁ m c 1, ← hA₁ m c 2, ← hA₁ m c 3, ← hA₁ m c 4, ← hA₁ m c 5, ← hA₁ m c 6, ← hA₁ m c 7]
  refine (sep_mono (pointsTo_share (PosShare.mem_left_op_right fullShare)).1 .rfl).trans ?_
  iintro ⟨⟨Hl, Hr⟩, Ha1, Ha2, Ha3, Ha4, Ha5, H5⟩
  isplitl [Hl]; · iexact Hl
  isplitl [Hr]; · iexact Hr
  isplitl [Ha1]; · iexact Ha1
  isplitl [Ha2]; · iexact Ha2
  isplitl [Ha3]; · iexact Ha3
  isplitl [Ha4]; · iexact Ha4
  isplitl [Ha5]; · iexact Ha5
  iexact H5

/-- Away from the windows' arrays the exit contents are the entry contents. -/
theorem hV₁ (c : Dev nD) (b : Ref sig .tc) (hb : ∀ w, Pipeline.arrRef spec0 w ≠ b) : V1 m c (Proc.devRef .tc b) = V0 m c (Proc.devRef .tc b) :=
  V1_of_ne m c b fun e => hb 7 e.symm

end Cert.KernelIdeal.Hand

end
-- ==== Proof.KIRun.lean ====
/-
  The run of the program and its frame: the host lines before the region, the region with the array that two
  windows read held as its two halves, and the host lines after it. Every unscoped buffer ends at what the later
  lines compute from the region's exit contents; an argument array is written by no host line and is no output
  array, so it ends as the memory had it.
-/
import proofs.«139805_j20143396618483_1_alg».proof.Proof.KIBody
import proofs.«139805_j20143396618483_1_alg».proof.Proof.LibSharedTail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host lines write -/

/-- The buffers the lines before the region write, -/
abbrev wrP : List (Ref sig .tc) :=
  [main_v0, main_call0_v0, main_call0_v1, main_call0_v2, main_call0_v3, main_call0_v4, main_call0_v5, main_call0_v6, main_call0_v7,
    main_v1, main_v2, main_v3, main_v4]
/-- and those the lines after it write. -/
abbrev wrT : List (Ref sig .tc) :=
  [main_v6, main_v7, main_v8, main_call1_v0, main_call1_v1, main_call1_v2, main_call1_v3, main_call1_v4, main_call1_v5, main_call1_v6,
    main_call1_v7, main_v9, main_v10]

/-- A line that writes one listed buffer writes within the list. -/
theorem sub1 {W : List (Ref sig .tc)} {op : HloOp τ sig (Elt F)} (y : Ref sig .tc) (h : op.writes = {Proc.devRef .tc y}) (hy : y ∈ W) :
    op.writes ⊆ (W.map (Proc.devRef (τ := τ) .tc)).toFinset := by
  rw [h]
  exact Finset.singleton_subset_iff.mpr (List.mem_toFinset.mpr (List.mem_map.mpr ⟨y, hy, rfl⟩))

theorem hostOps0_writes : (hostOps0 : List (HloOp τ sig (Elt F))).Forall fun op => op.writes ⊆ (wrP.map (Proc.devRef (τ := τ) .tc)).toFinset :=
  sub1 main_v0 rfl (by decide)
theorem hostOps0_1_writes : (hostOps0_1 : List (HloOp τ sig (Elt F))).Forall fun op => op.writes ⊆ (wrP.map (Proc.devRef (τ := τ) .tc)).toFinset :=
  ⟨sub1 main_call0_v0 rfl (by decide), sub1 main_call0_v1 rfl (by decide), sub1 main_call0_v2 rfl (by decide), sub1 main_call0_v3 rfl (by decide),
    sub1 main_call0_v4 rfl (by decide), sub1 main_call0_v5 rfl (by decide), sub1 main_call0_v6 rfl (by decide), sub1 main_call0_v7 rfl (by decide),
    sub1 main_v1 rfl (by decide)⟩
theorem hostOps0_2_writes : (hostOps0_2 : List (HloOp τ sig (Elt F))).Forall fun op => op.writes ⊆ (wrP.map (Proc.devRef (τ := τ) .tc)).toFinset :=
  ⟨sub1 main_v2 rfl (by decide), sub1 main_v3 rfl (by decide), sub1 main_v4 rfl (by decide)⟩
theorem hostOps1_writes : (hostOps1 : List (HloOp τ sig (Elt F))).Forall fun op => op.writes ⊆ (wrT.map (Proc.devRef (τ := τ) .tc)).toFinset :=
  ⟨sub1 main_v6 rfl (by decide), sub1 main_v7 rfl (by decide), sub1 main_v8 rfl (by decide)⟩
theorem hostOps1_1_writes : (hostOps1_1 : List (HloOp τ sig (Elt F))).Forall fun op => op.writes ⊆ (wrT.map (Proc.devRef (τ := τ) .tc)).toFinset :=
  ⟨sub1 main_call1_v0 rfl (by decide), sub1 main_call1_v1 rfl (by decide), sub1 main_call1_v2 rfl (by decide), sub1 main_call1_v3 rfl (by decide),
    sub1 main_call1_v4 rfl (by decide), sub1 main_call1_v5 rfl (by decide), sub1 main_call1_v6 rfl (by decide), sub1 main_call1_v7 rfl (by decide),
    sub1 main_v9 rfl (by decide)⟩
theorem hostOps1_2_writes : (hostOps1_2 : List (HloOp τ sig (Elt F))).Forall fun op => op.writes ⊆ (wrT.map (Proc.devRef (τ := τ) .tc)).toFinset :=
  sub1 main_v10 rfl (by decide)

/-- A buffer outside the list of what some lines write is written by none of them. -/
theorem keeps_of (opss : List (List (HloOp τ sig (Elt F)))) (W : List (Ref sig .tc))
    (hW : ∀ ops ∈ opss, ops.Forall fun op => op.writes ⊆ (W.map (Proc.devRef (τ := τ) .tc)).toFinset) (b : Ref sig .tc) (hb : b ∉ W) :
    ∀ ops ∈ opss, ∀ op ∈ ops, Proc.devRef .tc b ∉ op.writes := by
  intro ops hops op hop hmem
  obtain ⟨y, hy, he⟩ := List.mem_map.mp (List.mem_toFinset.mp ((List.forall_iff_forall_mem.mp (hW ops hops)) op hop hmem))
  exact hb (Proc.devRef_injective _ he ▸ hy)

theorem pfx_writes : ∀ ops ∈ ([hostOps0, hostOps0_1, hostOps0_2] : List (List (HloOp τ sig (Elt F)))),
    ops.Forall fun op => op.writes ⊆ (wrP.map (Proc.devRef (τ := τ) .tc)).toFinset := by
  intro ops hops
  simp only [List.mem_cons, List.mem_nil_iff, or_false] at hops
  rcases hops with rfl | rfl | rfl
  · exact hostOps0_writes
  · exact hostOps0_1_writes
  · exact hostOps0_2_writes

theorem sfx_writes : ∀ ops ∈ ([hostOps1, hostOps1_1, hostOps1_2] : List (List (HloOp τ sig (Elt F)))),
    ops.Forall fun op => op.writes ⊆ (wrT.map (Proc.devRef (τ := τ) .tc)).toFinset := by
  intro ops hops
  simp only [List.mem_cons, List.mem_nil_iff, or_false] at hops
  rcases hops with rfl | rfl | rfl
  · exact hostOps1_writes
  · exact hostOps1_1_writes
  · exact hostOps1_2_writes

/-- A buffer none of some stretches of lines writes holds after them what it held. -/
theorem after_flatten_of_keeps (opss : List (List (HloOp τ sig (Elt F)))) (Vv : Valuation τ sig (Elt F)) (b : Ref sig .tc)
    (h : ∀ ops ∈ opss, ∀ op ∈ ops, Proc.devRef .tc b ∉ op.writes) :
    StableHlo.after opss.flatten Vv (Proc.devRef .tc b) = Vv (Proc.devRef .tc b) :=
  StableHlo.after_of_forall_not_mem _ _ fun op hop => by
    obtain ⟨ops, hops, hop'⟩ := List.mem_flatten.mp hop
    exact h ops hops op hop'

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (([hostOps1, hostOps1_1, hostOps1_2] : List (List (HloOp τ sig (Elt F)))).map StableHlo.seq)) :=
  Pipeline.hmain_around cfgs 0 defs₀ 𝒱₀ m main [hostOps0, hostOps0_1, hostOps0_2] [hostOps1, hostOps1_1, hostOps1_2]
    ⟨hostOps0_sub, hostOps0_1_sub, hostOps0_2_sub⟩ ⟨hostOps0_fresh, hostOps0_1_fresh, hostOps0_2_fresh⟩ main_chain

/-- The lines after the region touch unscoped TensorCore buffers only, -/
theorem sfx_sub : ∀ ops ∈ ([hostOps1, hostOps1_1, hostOps1_2] : List (List (HloOp τ sig (Elt F)))), ∀ op ∈ ops,
    op.bufs ⊆ Pipeline.ucRefs τ sig := by
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- allocate nothing, -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- and write no array of the pipeline. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes :=
  fun ops hops op hop w => keeps_of _ wrT sfx_writes (Pipeline.arrRef spec0 w) (by revert w; decide) ops hops op hop

/-! ## The run -/

set_option backward.isDefEq.respectTransparency.types false in
/-- At the compiled mesh, for any values, from any memory with zero counters: every weakly fair execution of @main on
    the TensorCores terminates, and every final state has every unscoped buffer at what the lines after the region
    compute from the region's exit contents. -/
theorem run_main : θ_run defs (onTc (τ := τ) (main (F := F))) (s₀ m ρ) (fun r => ∀ (c : Dev nD) (b : Ref sig .tc), b.isScoped = false →
      r.2.mem ((c.tc : Thread nD τ).loc b) = StableHlo.after (List.flatten [hostOps1, hostOps1_1, hostOps1_2]) (V1 m c) (Proc.devRef .tc b)) :=
  Pipeline.SharedTail.θ_run_frame_shared_around cfgs (dats m) (0 : Fin 1) defs₀ Variants.none cellOf_inj winFacts₀0 block_pos0 arr_whole0 stage_whole0
    m ρ main (fun c => (body_obligation m c).loose) (fun _ _ => rfl) (V0 m) (V1 m) [hostOps1, hostOps1_1, hostOps1_2]
    sfx_sub sfx_fresh sfx_keeps (hmain m Variants.none) (hsplit m) (hjoin m) (hsplit₁ m) (hA₁ m) (hV₁ m) (fun _ _ => rfl)

/-! ## The frame -/

/-- An argument array ends as the memory had it: no host line writes it and it is not the output array. -/
theorem arg_kept (c : Dev nD) (b : Ref sig .tc) (hP : b ∉ wrP) (hT : b ∉ wrT) (h5 : b ≠ main_v5) :
    StableHlo.after (List.flatten [hostOps1, hostOps1_1, hostOps1_2]) (V1 m c) (Proc.devRef .tc b) = m ((c.tc : Thread nD τ).loc b) :=
  (after_flatten_of_keeps _ _ b (keeps_of _ wrT sfx_writes b hT)).trans
    ((V1_of_ne m c b h5).trans (after_flatten_of_keeps _ _ b (keeps_of _ wrP pfx_writes b hP)))

/-- THE FRAME: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_arg0 rfl).trans (arg_kept m c main_arg0 (by decide) (by decide) (by decide)),
      (h c main_arg1 rfl).trans (arg_kept m c main_arg1 (by decide) (by decide) (by decide)),
      (h c main_arg2 rfl).trans (arg_kept m c main_arg2 (by decide) (by decide) (by decide)),
      (h c main_arg3 rfl).trans (arg_kept m c main_arg3 (by decide) (by decide) (by decide)),
      (h c main_arg4 rfl).trans (arg_kept m c main_arg4 (by decide) (by decide) (by decide)),
      (h c main_arg5 rfl).trans (arg_kept m c main_arg5 (by decide) (by decide) (by decide)),
      (h c main_arg6 rfl).trans (arg_kept m c main_arg6 (by decide) (by decide) (by decide))⟩) (run_main m ρ)

end Cert.KernelIdeal.Hand

end
-- ==== Proof.KIMatmul.lean ====
/-
  The kernel's three matrix products read at one element, over the extended reals: each is the plain sum of
  products over its contracted axis.
-/
import proofs.«139805_j20143396618483_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

/-! ## The projection product: rows of the tokens against rows of the weights, contracted over the 96 channels -/

theorem lhs_proj_0 (i : S1024x96.Idx) (q : dot_S1024x96_S96x96_S1024x96_1_1_0_0_n_n.contr.Idx) :
    (dot_S1024x96_S96x96_S1024x96_1_1_0_0_n_n.lhsIdx i q 0).val = (i 0).val := by
  unfold DotDims.lhsIdx
  rw [dif_neg (show ¬(0 : Fin S1024x96.rank) ∈ dot_S1024x96_S96x96_S1024x96_1_1_0_0_n_n.lhsBatch by decide), dif_pos (show (0 : Fin S1024x96.rank) ∈ dot_S1024x96_S96x96_S1024x96_1_1_0_0_n_n.lhsNonContracting by decide)]
  rfl
theorem lhs_proj_1 (i : S1024x96.Idx) (q : dot_S1024x96_S96x96_S1024x96_1_1_0_0_n_n.contr.Idx) :
    (dot_S1024x96_S96x96_S1024x96_1_1_0_0_n_n.lhsIdx i q 1).val = (q ⟨0, by decide⟩).val :=
  dot_S1024x96_S96x96_S1024x96_1_1_0_0_n_n.lhsIdx_val_of_single rfl i q
theorem rhs_proj_0 (i : S1024x96.Idx) (q : dot_S1024x96_S96x96_S1024x96_1_1_0_0_n_n.contr.Idx) :
    (dot_S1024x96_S96x96_S1024x96_1_1_0_0_n_n.rhsIdx i q 0).val = (i 1).val := by
  unfold DotDims.rhsIdx
  rw [dif_neg (show ¬(0 : Fin S96x96.rank) ∈ dot_S1024x96_S96x96_S1024x96_1_1_0_0_n_n.rhsBatch by decide), dif_pos (show (0 : Fin S96x96.rank) ∈ dot_S1024x96_S96x96_S1024x96_1_1_0_0_n_n.rhsNonContracting by decide)]
  rfl
theorem rhs_proj_1 (i : S1024x96.Idx) (q : dot_S1024x96_S96x96_S1024x96_1_1_0_0_n_n.contr.Idx) :
    (dot_S1024x96_S96x96_S1024x96_1_1_0_0_n_n.rhsIdx i q 1).val = (q ⟨0, by decide⟩).val :=
  dot_S1024x96_S96x96_S1024x96_1_1_0_0_n_n.rhsIdx_val_of_single rfl i q

theorem projMM_apply (x : FVec Ideal S1024x96 .bf16) (w : FVec Ideal S96x96 .bf16) (p : Fin 1024) (n : Fin 96) :
    matmul dot_S1024x96_S96x96_S1024x96_1_1_0_0_n_n none x w (constant S1024x96 .f32 0x00000000#32) (ix2 p n)
      = ∑ k : Fin 96, x (ix2 p k) * w (ix2 n k) := by
  refine (Ideal.matmul_constant_zero_apply dot_S1024x96_S96x96_S1024x96_1_1_0_0_n_n none _ _ _).trans ?_
  rw [← Equiv.sum_comp (contrEquiv1 dot_S1024x96_S96x96_S1024x96_1_1_0_0_n_n 96 rfl rfl).symm]
  refine Finset.sum_congr rfl fun k _ => ?_
  have hk := contrEquiv1_symm_val dot_S1024x96_S96x96_S1024x96_1_1_0_0_n_n 96 rfl rfl k
  have el : dot_S1024x96_S96x96_S1024x96_1_1_0_0_n_n.lhsIdx (ix2 p n) ((contrEquiv1 dot_S1024x96_S96x96_S1024x96_1_1_0_0_n_n 96 rfl rfl).symm k) = ix2 p k := funext fun a => Fin.ext (by
    match a with
    | ⟨0, _⟩ => exact lhs_proj_0 _ _
    | ⟨1, _⟩ => exact (lhs_proj_1 _ _).trans hk)
  have er : dot_S1024x96_S96x96_S1024x96_1_1_0_0_n_n.rhsIdx (ix2 p n) ((contrEquiv1 dot_S1024x96_S96x96_S1024x96_1_1_0_0_n_n 96 rfl rfl).symm k) = ix2 n k := funext fun a => Fin.ext (by
    match a with
    | ⟨0, _⟩ => exact rhs_proj_0 _ _
    | ⟨1, _⟩ => exact (rhs_proj_1 _ _).trans hk)
  rw [el, er]

/-! ## The score product: per window, query rows against key rows, contracted over the head width -/

theorem lhs_qk_0 (i : S16x64x64.Idx) (q : dot_S16x64x32_S16x64x32_S16x64x64_2_2_1_1_0_0.contr.Idx) :
    (dot_S16x64x32_S16x64x32_S16x64x64_2_2_1_1_0_0.lhsIdx i q 0).val = (i 0).val := by
  unfold DotDims.lhsIdx
  rw [dif_pos (show (0 : Fin S16x64x32.rank) ∈ dot_S16x64x32_S16x64x32_S16x64x64_2_2_1_1_0_0.lhsBatch by decide)]
  rfl
theorem lhs_qk_1 (i : S16x64x64.Idx) (q : dot_S16x64x32_S16x64x32_S16x64x64_2_2_1_1_0_0.contr.Idx) :
    (dot_S16x64x32_S16x64x32_S16x64x64_2_2_1_1_0_0.lhsIdx i q 1).val = (i 1).val := by
  unfold DotDims.lhsIdx
  rw [dif_neg (show ¬(1 : Fin S16x64x32.rank) ∈ dot_S16x64x32_S16x64x32_S16x64x64_2_2_1_1_0_0.lhsBatch by decide), dif_pos (show (1 : Fin S16x64x32.rank) ∈ dot_S16x64x32_S16x64x32_S16x64x64_2_2_1_1_0_0.lhsNonContracting by decide)]
  rfl
theorem lhs_qk_2 (i : S16x64x64.Idx) (q : dot_S16x64x32_S16x64x32_S16x64x64_2_2_1_1_0_0.contr.Idx) :
    (dot_S16x64x32_S16x64x32_S16x64x64_2_2_1_1_0_0.lhsIdx i q 2).val = (q ⟨0, by decide⟩).val :=
  dot_S16x64x32_S16x64x32_S16x64x64_2_2_1_1_0_0.lhsIdx_val_of_single rfl i q
theorem rhs_qk_0 (i : S16x64x64.Idx) (q : dot_S16x64x32_S16x64x32_S16x64x64_2_2_1_1_0_0.contr.Idx) :
    (dot_S16x64x32_S16x64x32_S16x64x64_2_2_1_1_0_0.rhsIdx i q 0).val = (i 0).val := by
  unfold DotDims.rhsIdx
  rw [dif_pos (show (0 : Fin S16x64x32.rank) ∈ dot_S16x64x32_S16x64x32_S16x64x64_2_2_1_1_0_0.rhsBatch by decide)]
  rfl
theorem rhs_qk_1 (i : S16x64x64.Idx) (q : dot_S16x64x32_S16x64x32_S16x64x64_2_2_1_1_0_0.contr.Idx) :
    (dot_S16x64x32_S16x64x32_S16x64x64_2_2_1_1_0_0.rhsIdx i q 1).val = (i 2).val := by
  unfold DotDims.rhsIdx
  rw [dif_neg (show ¬(1 : Fin S16x64x32.rank) ∈ dot_S16x64x32_S16x64x32_S16x64x64_2_2_1_1_0_0.rhsBatch by decide), dif_pos (show (1 : Fin S16x64x32.rank) ∈ dot_S16x64x32_S16x64x32_S16x64x64_2_2_1_1_0_0.rhsNonContracting by decide)]
  rfl
theorem rhs_qk_2 (i : S16x64x64.Idx) (q : dot_S16x64x32_S16x64x32_S16x64x64_2_2_1_1_0_0.contr.Idx) :
    (dot_S16x64x32_S16x64x32_S16x64x64_2_2_1_1_0_0.rhsIdx i q 2).val = (q ⟨0, by decide⟩).val :=
  dot_S16x64x32_S16x64x32_S16x64x64_2_2_1_1_0_0.rhsIdx_val_of_single rfl i q

theorem qkMM_apply (q k : FVec Ideal S16x64x32 .bf16) (a : Fin 16) (i j : Fin 64) :
    matmul dot_S16x64x32_S16x64x32_S16x64x64_2_2_1_1_0_0 none q k (constant S16x64x64 .f32 0x00000000#32) (ix3 a i j)
      = ∑ d : Fin 32, q (ix3 a i d) * k (ix3 a j d) := by
  refine (Ideal.matmul_constant_zero_apply dot_S16x64x32_S16x64x32_S16x64x64_2_2_1_1_0_0 none _ _ _).trans ?_
  rw [← Equiv.sum_comp (contrEquiv1 dot_S16x64x32_S16x64x32_S16x64x64_2_2_1_1_0_0 32 rfl rfl).symm]
  refine Finset.sum_congr rfl fun d _ => ?_
  have hk := contrEquiv1_symm_val dot_S16x64x32_S16x64x32_S16x64x64_2_2_1_1_0_0 32 rfl rfl d
  have el : dot_S16x64x32_S16x64x32_S16x64x64_2_2_1_1_0_0.lhsIdx (ix3 a i j) ((contrEquiv1 dot_S16x64x32_S16x64x32_S16x64x64_2_2_1_1_0_0 32 rfl rfl).symm d) = ix3 a i d := funext fun a => Fin.ext (by
    match a with
    | ⟨0, _⟩ => exact lhs_qk_0 _ _
    | ⟨1, _⟩ => exact lhs_qk_1 _ _
    | ⟨2, _⟩ => exact (lhs_qk_2 _ _).trans hk)
  have er : dot_S16x64x32_S16x64x32_S16x64x64_2_2_1_1_0_0.rhsIdx (ix3 a i j) ((contrEquiv1 dot_S16x64x32_S16x64x32_S16x64x64_2_2_1_1_0_0 32 rfl rfl).symm d) = ix3 a j d := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-! ## The value product: per window, probability rows against value columns, contracted over the 64 keys -/

theorem lhs_av_0 (i : S16x64x32.Idx) (q : dot_S16x64x64_S16x64x32_S16x64x32_2_1_1_2_0_0.contr.Idx) :
    (dot_S16x64x64_S16x64x32_S16x64x32_2_1_1_2_0_0.lhsIdx i q 0).val = (i 0).val := by
  unfold DotDims.lhsIdx
  rw [dif_pos (show (0 : Fin S16x64x64.rank) ∈ dot_S16x64x64_S16x64x32_S16x64x32_2_1_1_2_0_0.lhsBatch by decide)]
  rfl
theorem lhs_av_1 (i : S16x64x32.Idx) (q : dot_S16x64x64_S16x64x32_S16x64x32_2_1_1_2_0_0.contr.Idx) :
    (dot_S16x64x64_S16x64x32_S16x64x32_2_1_1_2_0_0.lhsIdx i q 1).val = (i 1).val := by
  unfold DotDims.lhsIdx
  rw [dif_neg (show ¬(1 : Fin S16x64x64.rank) ∈ dot_S16x64x64_S16x64x32_S16x64x32_2_1_1_2_0_0.lhsBatch by decide), dif_pos (show (1 : Fin S16x64x64.rank) ∈ dot_S16x64x64_S16x64x32_S16x64x32_2_1_1_2_0_0.lhsNonContracting by decide)]
  rfl
theorem lhs_av_2 (i : S16x64x32.Idx) (q : dot_S16x64x64_S16x64x32_S16x64x32_2_1_1_2_0_0.contr.Idx) :
    (dot_S16x64x64_S16x64x32_S16x64x32_2_1_1_2_0_0.lhsIdx i q 2).val = (q ⟨0, by decide⟩).val :=
  dot_S16x64x64_S16x64x32_S16x64x32_2_1_1_2_0_0.lhsIdx_val_of_single rfl i q
theorem rhs_av_0 (i : S16x64x32.Idx) (q : dot_S16x64x64_S16x64x32_S16x64x32_2_1_1_2_0_0.contr.Idx) :
    (dot_S16x64x64_S16x64x32_S16x64x32_2_1_1_2_0_0.rhsIdx i q 0).val = (i 0).val := by
  unfold DotDims.rhsIdx
  rw [dif_pos (show (0 : Fin S16x64x32.rank) ∈ dot_S16x64x64_S16x64x32_S16x64x32_2_1_1_2_0_0.rhsBatch by decide)]
  rfl
theorem rhs_av_1 (i : S16x64x32.Idx) (q : dot_S16x64x64_S16x64x32_S16x64x32_2_1_1_2_0_0.contr.Idx) :
    (dot_S16x64x64_S16x64x32_S16x64x32_2_1_1_2_0_0.rhsIdx i q 1).val = (q ⟨0, by decide⟩).val :=
  dot_S16x64x64_S16x64x32_S16x64x32_2_1_1_2_0_0.rhsIdx_val_of_single rfl i q
theorem rhs_av_2 (i : S16x64x32.Idx) (q : dot_S16x64x64_S16x64x32_S16x64x32_2_1_1_2_0_0.contr.Idx) :
    (dot_S16x64x64_S16x64x32_S16x64x32_2_1_1_2_0_0.rhsIdx i q 2).val = (i 2).val := by
  unfold DotDims.rhsIdx
  rw [dif_neg (show ¬(2 : Fin S16x64x32.rank) ∈ dot_S16x64x64_S16x64x32_S16x64x32_2_1_1_2_0_0.rhsBatch by decide), dif_pos (show (2 : Fin S16x64x32.rank) ∈ dot_S16x64x64_S16x64x32_S16x64x32_2_1_1_2_0_0.rhsNonContracting by decide)]
  rfl

theorem avMM_apply (pr : FVec Ideal S16x64x64 .bf16) (v : FVec Ideal S16x64x32 .bf16) (a : Fin 16) (i : Fin 64) (d : Fin 32) :
    matmul dot_S16x64x64_S16x64x32_S16x64x32_2_1_1_2_0_0 none pr v (constant S16x64x32 .f32 0x00000000#32) (ix3 a i d)
      = ∑ j : Fin 64, pr (ix3 a i j) * v (ix3 a j d) := by
  refine (Ideal.matmul_constant_zero_apply dot_S16x64x64_S16x64x32_S16x64x32_2_1_1_2_0_0 none _ _ _).trans ?_
  rw [← Equiv.sum_comp (contrEquiv1 dot_S16x64x64_S16x64x32_S16x64x32_2_1_1_2_0_0 64 rfl rfl).symm]
  refine Finset.sum_congr rfl fun j _ => ?_
  have hk := contrEquiv1_symm_val dot_S16x64x64_S16x64x32_S16x64x32_2_1_1_2_0_0 64 rfl rfl j
  have el : dot_S16x64x64_S16x64x32_S16x64x32_2_1_1_2_0_0.lhsIdx (ix3 a i d) ((contrEquiv1 dot_S16x64x64_S16x64x32_S16x64x32_2_1_1_2_0_0 64 rfl rfl).symm j) = ix3 a i j := funext fun a => Fin.ext (by
    match a with
    | ⟨0, _⟩ => exact lhs_av_0 _ _
    | ⟨1, _⟩ => exact lhs_av_1 _ _
    | ⟨2, _⟩ => exact (lhs_av_2 _ _).trans hk)
  have er : dot_S16x64x64_S16x64x32_S16x64x32_2_1_1_2_0_0.rhsIdx (ix3 a i d) ((contrEquiv1 dot_S16x64x64_S16x64x32_S16x64x32_2_1_1_2_0_0 64 rfl rfl).symm j) = ix3 a j d := funext fun a => Fin.ext (by
    match a with
    | ⟨0, _⟩ => exact rhs_av_0 _ _
    | ⟨1, _⟩ => exact (rhs_av_1 _ _).trans hk
    | ⟨2, _⟩ => exact rhs_av_2 _ _)
  rw [el, er]

end Cert.KernelIdeal.Hand

end
-- ==== Proof.Spec.lean ====
/-
  The mathematics both programs compute, stated once over plain functions.

  The input is a 64 x 64 x 64 grid of 96-channel tokens. It is shifted cyclically by two places on each spatial
  axis and cut into 16 x 16 x 16 windows of 4 x 4 x 4 = 64 tokens. Every window is attended with three heads of
  width 32: queries and keys are projected from one window (the source), values from another (the window itself),
  the scaled scores optionally take two additive masks, each row of scores goes through a softmax, the heads are
  joined, and the result is projected once more and shifted back.  The window whose result is written at grid
  position (a, b, c) takes its queries and keys from the window at (b, c, a); the first mask is added when
  b = 15 and the second when c = 15.
-/
import Idealize.ShloMosaic.PureOps.Ideal
import Idealize.ShloMosaic.Lib.ValueIdx

noncomputable section

namespace Cert.Spec

open Idealize.ShloMosaic Idealize.ShloMosaic.ValueIdx

/-- The tokens of one window: 64 tokens of 96 channels. -/
abbrev Tok := Fin 64 → Fin 96 → EReal

/-- The score scale, the float nearest 32^(-1/2), as both programs spell it. -/
def scaleC : EReal := Ideal.ofBits .f32 0x3E3504F3#32
/-- The starting value of a row maximum. -/
def negInf : EReal := Ideal.ofBits .f32 0xFF800000#32

/-- Row `e` of a weight matrix against token `i`. -/
def proj {n : Nat} (w : Fin n → Fin 96 → EReal) (s : Tok) (i : Fin 64) (e : Fin n) : EReal :=
  ∑ c : Fin 96, s i c * w e c

/-- Row `off + 32 h + d` of the joined query/key/value weights (`off` = 0, 96, 192). -/
def qkvRow (off : Nat) (hoff : off + 96 ≤ 288) (h : Fin 3) (d : Fin 32) : Fin 288 :=
  ⟨off + (32 * h.val + d.val), by have := h.isLt; have := d.isLt; omega⟩

/-- One head's scores of a window: query i against key j, scaled, plus the masks that apply. -/
def logit (q k : Fin 64 → Fin 32 → EReal) (mx my : Fin 64 → Fin 64 → EReal) (bx by_ : Prop) [Decidable bx] [Decidable by_]
    (i j : Fin 64) : EReal :=
  let d0 := (∑ d : Fin 32, q i d * k j d) * scaleC
  let d1 := if bx then d0 + mx i j else d0
  if by_ then d1 + my i j else d1

/-- A row's maximum as both programs take it: the fold of max from -inf, joined once more with -inf. -/
def rowMax (f : Fin 64 → EReal) : EReal :=
  max negInf ((Finset.univ : Finset (Fin 64)).fold max negInf f)

/-- The softmax of a row at position j. -/
def softmaxRow (f : Fin 64 → EReal) (j : Fin 64) : EReal :=
  Ideal.div (Ideal.exp (f j - rowMax f)) (∑ k : Fin 64, Ideal.exp (f k - rowMax f))

/-- One head's output of a window: the softmax of each score row against the values. -/
def attn (L : Fin 64 → Fin 64 → EReal) (v : Fin 64 → Fin 32 → EReal) (i : Fin 64) (d : Fin 32) : EReal :=
  ∑ j : Fin 64, softmaxRow (L i) j * v j d

/-- The head and the position inside it of a joined channel. -/
def headOf (c : Fin 96) : Fin 3 := ⟨c.val / 32, by have := c.isLt; omega⟩
def posOf (c : Fin 96) : Fin 32 := ⟨c.val % 32, Nat.mod_lt _ (by decide)⟩

/-- The three heads' outputs of a window joined along the channels. -/
def headsCat (wqkv : Fin 288 → Fin 96 → EReal) (mx my : Fin 64 → Fin 64 → EReal) (bx by_ : Prop) [Decidable bx] [Decidable by_]
    (s u : Tok) (i : Fin 64) (c : Fin 96) : EReal :=
  attn (logit (fun i d => proj wqkv s i (qkvRow 0 (by decide) (headOf c) d))
              (fun j d => proj wqkv s j (qkvRow 96 (by decide) (headOf c) d)) mx my bx by_)
       (fun j d => proj wqkv u j (qkvRow 192 (by decide) (headOf c) d)) i (posOf c)

/-- The output projection of joined channels. -/
def outProj (oc : Fin 64 → Fin 96 → EReal) (wout : Fin 96 → Fin 96 → EReal) (bout : Fin 96 → EReal) (i : Fin 64) (o : Fin 96) : EReal :=
  (∑ c : Fin 96, oc i c * wout o c) + bout o

/-- A window's result: source window `s` (queries and keys), own window `u` (values). -/
def winOut (wqkv : Fin 288 → Fin 96 → EReal) (wout : Fin 96 → Fin 96 → EReal) (bout : Fin 96 → EReal)
    (mx my : Fin 64 → Fin 64 → EReal) (bx by_ : Prop) [Decidable bx] [Decidable by_] (s u : Tok) (i : Fin 64) (o : Fin 96) : EReal :=
  outProj (headsCat wqkv mx my bx by_ s u) wout bout i o

/-! ## Positions -/

/-- The cyclic shift by two places. -/
def fwd (p : Fin 64) : Fin 64 := ⟨(p.val + 2) % 64, Nat.mod_lt _ (by decide)⟩
/-- The cyclic shift back. -/
def bwd (p : Fin 64) : Fin 64 := ⟨(p.val + 62) % 64, Nat.mod_lt _ (by decide)⟩

/-- The position on one axis of token coordinate `r` of window `a`. -/
def pos (a : Fin 16) (r : Fin 4) : Fin 64 := ⟨4 * a.val + r.val, by have := a.isLt; have := r.isLt; omega⟩
/-- A token's three coordinates inside its window. -/
def t0 (i : Fin 64) : Fin 4 := ⟨i.val / 16, by have := i.isLt; omega⟩
def t1 (i : Fin 64) : Fin 4 := ⟨i.val / 4 % 4, Nat.mod_lt _ (by decide)⟩
def t2 (i : Fin 64) : Fin 4 := ⟨i.val % 4, Nat.mod_lt _ (by decide)⟩

/-- The shifted input: position (px, py, pz) holds the input's (px+2, py+2, pz+2), cyclically. -/
def rolled (x : (⟨5, ![1, 64, 64, 64, 96]⟩ : Shape).Idx → EReal) (px py pz : Fin 64) (ch : Fin 96) : EReal :=
  x (ix5 (0 : Fin 1) (fwd px) (fwd py) (fwd pz) ch)

/-- Window (a, b, c) of the shifted input. -/
def win (x : (⟨5, ![1, 64, 64, 64, 96]⟩ : Shape).Idx → EReal) (a b c : Fin 16) : Tok :=
  fun i ch => rolled x (pos a (t0 i)) (pos b (t1 i)) (pos c (t2 i)) ch

/-- The result in window coordinates: window (a, b, c), token i, channel o. -/
def outWin (x : (⟨5, ![1, 64, 64, 64, 96]⟩ : Shape).Idx → EReal) (wqkv : Fin 288 → Fin 96 → EReal) (wout : Fin 96 → Fin 96 → EReal)
    (bout : Fin 96 → EReal) (mx my : Fin 64 → Fin 64 → EReal) (a b c : Fin 16) (i : Fin 64) (o : Fin 96) : EReal :=
  winOut wqkv wout bout mx my (b.val = 15) (c.val = 15) (win x b c a) (win x a b c) i o

/-- The window and the token of a position on one axis. -/
def wOf (p : Fin 64) : Fin 16 := ⟨p.val / 4, by have := p.isLt; omega⟩
def rOf (p : Fin 64) : Fin 4 := ⟨p.val % 4, Nat.mod_lt _ (by decide)⟩
/-- The token index of three coordinates inside a window. -/
def tokOf (r0 r1 r2 : Fin 4) : Fin 64 := ⟨16 * r0.val + 4 * r1.val + r2.val, by have := r0.isLt; have := r1.isLt; have := r2.isLt; omega⟩

/-- The flat number of window (a, b, c) among the 4096 windows. -/
def wix (a b c : Fin 16) : Fin 4096 := ⟨256 * a.val + 16 * b.val + c.val, by have := a.isLt; have := b.isLt; have := c.isLt; omega⟩

/-- The result at a shifted position. -/
def outPos (x : (⟨5, ![1, 64, 64, 64, 96]⟩ : Shape).Idx → EReal) (wqkv : Fin 288 → Fin 96 → EReal) (wout : Fin 96 → Fin 96 → EReal)
    (bout : Fin 96 → EReal) (mx my : Fin 64 → Fin 64 → EReal) (px py pz : Fin 64) (o : Fin 96) : EReal :=
  outWin x wqkv wout bout mx my (wOf px) (wOf py) (wOf pz) (tokOf (rOf px) (rOf py) (rOf pz)) o

/-- THE RESULT: position (X, Y, Z) of the output holds the shifted result's position (X-2, Y-2, Z-2), cyclically. -/
def G (x : (⟨5, ![1, 64, 64, 64, 96]⟩ : Shape).Idx → EReal) (wqkv : (⟨2, ![288, 96]⟩ : Shape).Idx → EReal)
    (wout : (⟨2, ![96, 96]⟩ : Shape).Idx → EReal) (bout : (⟨1, ![96]⟩ : Shape).Idx → EReal)
    (mx my : (⟨2, ![64, 64]⟩ : Shape).Idx → EReal) : (⟨5, ![1, 64, 64, 64, 96]⟩ : Shape).Idx → EReal :=
  fun j => outPos x (fun e c => wqkv (ix2 e c)) (fun o c => wout (ix2 o c)) (fun o => bout (ix1 o))
    (fun i k => mx (ix2 i k)) (fun i k => my (ix2 i k)) (bwd (j 1)) (bwd (j 2)) (bwd (j 3)) (j 4)

end Cert.Spec

end
-- ==== Proof.KIProj.lean ====
/-
  The three projections of the kernel body read at one element: window a, token t, channel e of the projected
  block is row off + e of the joined weights against token t of window a, off = 0 (queries), 96 (keys), 192 (values).
-/
import proofs.«139805_j20143396618483_1_alg».proof.Proof.KIMatmul
import proofs.«139805_j20143396618483_1_alg».proof.Proof.Spec

noncomputable section

namespace Cert.KernelIdeal.Hand

open Idealize.ShloMosaic Idealize.ShloMosaic.ValueIdx Cert.KernelIdeal Cert.KernelIdeal.Gen

/-! ## Layout: the flattened row 64 a + t is token t of window a -/

/-- The product read back at window a, token t, channel e: the sum over the channels of row 64 a + t of the left
    operand against row e of the right operand. -/
theorem projCast_apply (x : FVec Ideal S1024x96 .bf16) (w : FVec Ideal S96x96 .bf16) (a : Fin 16) (t : Fin 64) (e : Fin 96)
    (p : Fin 1024) (hp : p.val = 64 * a.val + t.val) :
    shapeCast S16x64x96 (matmul dot_S1024x96_S96x96_S1024x96_1_1_0_0_n_n none x w (constant S1024x96 .f32 0x00000000#32))
        shapeCasts_S1024x96_S16x64x96 (ix3 a t e)
      = ∑ k : Fin 96, x (ix2 p k) * w (ix2 e k) := by
  refine (shapeCast_apply _ shapeCasts_S1024x96_S16x64x96 (ix3 a t e) (ix2 p e) ?_).trans (projMM_apply x w p e)
  rw [Shape.rowMajor_val_two, Shape.rowMajor_val_three]
  show p.val * 96 + e.val = (a.val * 64 + t.val) * 96 + e.val
  omega

/-- The query/key block [1,1,16,64,96] flattened to [1024,96]: row 64 a + t, channel k is token t, channel k of window a. -/
theorem tok5_apply (v5 : Vec Ideal S1x1x16x64x96 .f32) (a : Fin 16) (t : Fin 64) (k : Fin 96)
    (p : Fin 1024) (hp : p.val = 64 * a.val + t.val) :
    k0_pay3 (F := Ideal) v5 (ix2 p k) = v5 (ix5 (0 : Fin 1) (0 : Fin 1) a t k) := by
  unfold k0_pay3
  show shapeCast S1024x96 (shapeCast S16x64x96 v5 shapeCasts_S1x1x16x64x96_S16x64x96) shapeCasts_S16x64x96_S1024x96 (ix2 p k) = _
  refine (shapeCast_apply _ shapeCasts_S16x64x96_S1024x96 (ix2 p k) (ix3 a t k) ?_).trans ?_
  · rw [Shape.rowMajor_val_three, Shape.rowMajor_val_two]
    show (a.val * 64 + t.val) * 96 + k.val = p.val * 96 + k.val
    omega
  · refine shapeCast_apply v5 shapeCasts_S1x1x16x64x96_S16x64x96 (ix3 a t k) (ix5 (0 : Fin 1) (0 : Fin 1) a t k) ?_
    rw [Shape.rowMajor_val_five, Shape.rowMajor_val_three]
    show ((((0 * 1 + 0) * 16 + a.val) * 64 + t.val) * 96 + k.val) = (a.val * 64 + t.val) * 96 + k.val
    omega

/-- The value block [16,1,1,64,96] flattened to [1024,96]: row 64 a + t, channel k is token t, channel k of window a. -/
theorem tok9_apply (v9 : Vec Ideal S16x1x1x64x96 .f32) (a : Fin 16) (t : Fin 64) (k : Fin 96)
    (p : Fin 1024) (hp : p.val = 64 * a.val + t.val) :
    (truncf .bf16 (shapeCast S1024x96 (shapeCast S16x64x96 v9 shapeCasts_S16x1x1x64x96_S16x64x96) shapeCasts_S16x64x96_S1024x96)
        bitsLt_bf16_f32 : FVec Ideal S1024x96 .bf16) (ix2 p k)
      = v9 (ix5 a (0 : Fin 1) (0 : Fin 1) t k) := by
  show shapeCast S1024x96 (shapeCast S16x64x96 v9 shapeCasts_S16x1x1x64x96_S16x64x96) shapeCasts_S16x64x96_S1024x96 (ix2 p k) = _
  refine (shapeCast_apply _ shapeCasts_S16x64x96_S1024x96 (ix2 p k) (ix3 a t k) ?_).trans ?_
  · rw [Shape.rowMajor_val_three, Shape.rowMajor_val_two]
    show (a.val * 64 + t.val) * 96 + k.val = p.val * 96 + k.val
    omega
  · refine shapeCast_apply v9 shapeCasts_S16x1x1x64x96_S16x64x96 (ix3 a t k) (ix5 a (0 : Fin 1) (0 : Fin 1) t k) ?_
    rw [Shape.rowMajor_val_five, Shape.rowMajor_val_three]
    show ((((a.val * 1 + 0) * 1 + 0) * 64 + t.val) * 96 + k.val) = (a.val * 64 + t.val) * 96 + k.val
    omega

/-- Rows [off, off + 96) of the joined weights: row e, channel k of the slice is row off + e, channel k of the weights. -/
theorem wslice_apply (v0 : Vec Ideal S288x96 .f32) (off : Nat) (h : S288x96.Slices ![off, 0] S96x96) (e k : Fin 96)
    (r : Fin 288) (hr : r.val = off + e.val) :
    extractStridedSlice S96x96 ![off, 0] (k0_pay2 (F := Ideal) v0) h (ix2 e k) = v0 (ix2 r k) := by
  refine (extractStridedSlice_apply ![off, 0] (k0_pay2 (F := Ideal) v0) h (ix2 e k) (ix2 r k) ?_).trans rfl
  intro a
  match a with
  | ⟨0, _⟩ => exact hr
  | ⟨1, _⟩ => exact (Nat.zero_add k.val).symm

/-! ## The three projections -/

theorem pay4_apply (v0 : Vec Ideal S288x96 .f32) (v5 : Vec Ideal S1x1x16x64x96 .f32) (a : Fin 16) (t : Fin 64) (e : Fin 96) :
    k0_pay4 (F := Ideal) v0 v5 (ix3 a t e)
      = Cert.Spec.proj (fun r c => v0 (ix2 r c)) (fun t ch => v5 (ix5 (0 : Fin 1) (0 : Fin 1) a t ch)) t
          (⟨0 + e.val, by have := e.isLt; omega⟩ : Fin 288) := by
  have hp : 64 * a.val + t.val < 1024 := by have := a.isLt; have := t.isLt; omega
  unfold k0_pay4
  refine (projCast_apply _ _ a t e ⟨64 * a.val + t.val, hp⟩ rfl).trans ?_
  unfold Cert.Spec.proj
  refine Finset.sum_congr rfl fun k _ => ?_
  rw [tok5_apply v5 a t k _ rfl, wslice_apply v0 0 _ e k ⟨0 + e.val, by have := e.isLt; omega⟩ rfl]

theorem pay5_apply (v0 : Vec Ideal S288x96 .f32) (v5 : Vec Ideal S1x1x16x64x96 .f32) (a : Fin 16) (t : Fin 64) (e : Fin 96) :
    k0_pay5 (F := Ideal) v0 v5 (ix3 a t e)
      = Cert.Spec.proj (fun r c => v0 (ix2 r c)) (fun t ch => v5 (ix5 (0 : Fin 1) (0 : Fin 1) a t ch)) t
          (⟨96 + e.val, by have := e.isLt; omega⟩ : Fin 288) := by
  have hp : 64 * a.val + t.val < 1024 := by have := a.isLt; have := t.isLt; omega
  unfold k0_pay5
  refine (projCast_apply _ _ a t e ⟨64 * a.val + t.val, hp⟩ rfl).trans ?_
  unfold Cert.Spec.proj
  refine Finset.sum_congr rfl fun k _ => ?_
  rw [tok5_apply v5 a t k _ rfl, wslice_apply v0 96 _ e k ⟨96 + e.val, by have := e.isLt; omega⟩ rfl]

theorem pay6_apply (v0 : Vec Ideal S288x96 .f32) (v9 : Vec Ideal S16x1x1x64x96 .f32) (a : Fin 16) (t : Fin 64) (e : Fin 96) :
    k0_pay6 (F := Ideal) v0 v9 (ix3 a t e)
      = Cert.Spec.proj (fun r c => v0 (ix2 r c)) (fun t ch => v9 (ix5 a (0 : Fin 1) (0 : Fin 1) t ch)) t
          (⟨192 + e.val, by have := e.isLt; omega⟩ : Fin 288) := by
  have hp : 64 * a.val + t.val < 1024 := by have := a.isLt; have := t.isLt; omega
  unfold k0_pay6
  refine (projCast_apply _ _ a t e ⟨64 * a.val + t.val, hp⟩ rfl).trans ?_
  unfold Cert.Spec.proj
  refine Finset.sum_congr rfl fun k _ => ?_
  rw [tok9_apply v9 a t k _ rfl, wslice_apply v0 192 _ e k ⟨192 + e.val, by have := e.isLt; omega⟩ rfl]

end Cert.KernelIdeal.Hand

end
-- ==== Proof.KITail.lean ====
/-
  The last stage of the kernel body read at one element: the three heads' outputs joined along the channels,
  projected by the output weights with the bias added, and the result written as the output block.
-/
import proofs.«139805_j20143396618483_1_alg».proof.Proof.KIProj
import proofs.«139805_j20143396618483_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

/-- The three heads' outputs joined along the channels. -/
def catV (h0 h1 h2 : FVec Ideal S16x64x32 .f32) : FVec Ideal S16x64x96 .f32 :=
  concatenate S16x64x96 2 [⟨S16x64x32, h0⟩, ⟨S16x64x32, h1⟩, ⟨S16x64x32, h2⟩] concatenates_S16x64x32_S16x64x32_S16x64x32_S16x64x96_d2

/-- The output projection of the joined channels with its bias. -/
def tailV (v117 : FVec Ideal S16x64x96 .f32) (v120 : Vec Ideal S96x96 .f32) (v122 : Vec Ideal S96 .f32) : FVec Ideal S16x64x96 .f32 :=
  have v118 : FVec Ideal S1024x96 .f32 := shapeCast S1024x96 v117 shapeCasts_S16x64x96_S1024x96
  have v119 : FVec Ideal S1024x96 .bf16 := truncf .bf16 v118 bitsLt_bf16_f32
  have v121 : FVec Ideal S96x96 .bf16 := truncf .bf16 v120 bitsLt_bf16_f32
  have cst_43 : FVec Ideal S1024x96 .f32 := constant S1024x96 .f32 0x00000000#32
  have v123 : FVec Ideal S1024x96 .f32 := matmul dot_S1024x96_S96x96_S1024x96_1_1_0_0_n_n none v119 v121 cst_43
  have v124 : FVec Ideal S1x96 .f32 := shapeCast S1x96 v122 shapeCasts_S96_S1x96
  have v125 : FVec Ideal S1024x96 .f32 := broadcastTo S1024x96 v124 broadcasts_S1x96_S1024x96
  have v126 : FVec Ideal S1024x96 .f32 := addf v123 v125
  have v127 : FVec Ideal S16x64x96 .f32 := shapeCast S16x64x96 v126 shapeCasts_S1024x96_S16x64x96
  v127

/-! ## The joined channels: channel c is position c mod 32 of head c / 32 -/

theorem catV_apply0 (h0 h1 h2 : FVec Ideal S16x64x32 .f32) (a : Fin 16) (t : Fin 64) (c : Fin 96) (hc : c.val < 32) :
    catV h0 h1 h2 (ix3 a t c) = h0 (ix3 a t (Cert.Spec.posOf c)) := by
  unfold catV
  refine concatenate_apply_piece (2 : Fin S16x64x96.rank) [⟨S16x64x32, h0⟩, ⟨S16x64x32, h1⟩, ⟨S16x64x32, h2⟩]
    concatenates_S16x64x32_S16x64x32_S16x64x32_S16x64x96_d2 (ix3 a t c) 0 (by show 0 < 3; omega) S16x64x32 h0 rfl rfl 0 rfl
    (ix3 a t (Cert.Spec.posOf c)) ?_ ?_
  · intro b hb
    match b with
    | ⟨0, _⟩ => rfl
    | ⟨1, _⟩ => rfl
    | ⟨2, _⟩ => exact absurd rfl hb
  · show 0 + c.val % 32 = c.val
    omega

theorem catV_apply1 (h0 h1 h2 : FVec Ideal S16x64x32 .f32) (a : Fin 16) (t : Fin 64) (c : Fin 96) (hc : 32 ≤ c.val) (hc' : c.val < 64) :
    catV h0 h1 h2 (ix3 a t c) = h1 (ix3 a t (Cert.Spec.posOf c)) := by
  unfold catV
  refine concatenate_apply_piece (2 : Fin S16x64x96.rank) [⟨S16x64x32, h0⟩, ⟨S16x64x32, h1⟩, ⟨S16x64x32, h2⟩]
    concatenates_S16x64x32_S16x64x32_S16x64x32_S16x64x96_d2 (ix3 a t c) 1 (by show 1 < 3; omega) S16x64x32 h1 rfl rfl 32 rfl
    (ix3 a t (Cert.Spec.posOf c)) ?_ ?_
  · intro b hb
    match b with
    | ⟨0, _⟩ => rfl
    | ⟨1, _⟩ => rfl
    | ⟨2, _⟩ => exact absurd rfl hb
  · show 32 + c.val % 32 = c.val
    omega

theorem catV_apply2 (h0 h1 h2 : FVec Ideal S16x64x32 .f32) (a : Fin 16) (t : Fin 64) (c : Fin 96) (hc : 64 ≤ c.val) :
    catV h0 h1 h2 (ix3 a t c) = h2 (ix3 a t (Cert.Spec.posOf c)) := by
  have hlt := c.isLt
  unfold catV
  refine concatenate_apply_piece (2 : Fin S16x64x96.rank) [⟨S16x64x32, h0⟩, ⟨S16x64x32, h1⟩, ⟨S16x64x32, h2⟩]
    concatenates_S16x64x32_S16x64x32_S16x64x32_S16x64x96_d2 (ix3 a t c) 2 (by show 2 < 3; omega) S16x64x32 h2 rfl rfl 64 rfl
    (ix3 a t (Cert.Spec.posOf c)) ?_ ?_
  · intro b hb
    match b with
    | ⟨0, _⟩ => rfl
    | ⟨1, _⟩ => rfl
    | ⟨2, _⟩ => exact absurd rfl hb
  · show 64 + c.val % 32 = c.val
    omega

/-! ## The output projection -/

theorem tailV_apply (cat : FVec Ideal S16x64x96 .f32) (v120 : Vec Ideal S96x96 .f32) (v122 : Vec Ideal S96 .f32)
    (a : Fin 16) (t : Fin 64) (o : Fin 96) :
    tailV cat v120 v122 (ix3 a t o) = (∑ c : Fin 96, cat (ix3 a t c) * v120 (ix2 o c)) + v122 (ix1 o) := by
  have hp : 64 * a.val + t.val < 1024 := by have := a.isLt; have := t.isLt; omega
  unfold tailV
  refine (shapeCast_apply _ shapeCasts_S1024x96_S16x64x96 (ix3 a t o) (ix2 ⟨64 * a.val + t.val, hp⟩ o) ?_).trans ?_
  · rw [Shape.rowMajor_val_two, Shape.rowMajor_val_three]
    show (64 * a.val + t.val) * 96 + o.val = (a.val * 64 + t.val) * 96 + o.val
    omega
  · refine (addf_apply _ _ _).trans ?_
    refine congrArg₂ (· + ·) ?_ ?_
    · refine (projMM_apply _ _ _ _).trans ?_
      refine Finset.sum_congr rfl fun c _ => ?_
      refine congrArg₂ (· * ·) ?_ rfl
      refine (shapeCast_apply cat shapeCasts_S16x64x96_S1024x96 (ix2 ⟨64 * a.val + t.val, hp⟩ c) (ix3 a t c) ?_)
      rw [Shape.rowMajor_val_three, Shape.rowMajor_val_two]
      show (a.val * 64 + t.val) * 96 + c.val = (64 * a.val + t.val) * 96 + c.val
      omega
    · refine (broadcastTo_apply _ broadcasts_S1x96_S1024x96 (ix2 ⟨64 * a.val + t.val, hp⟩ o) (ix2 (0 : Fin 1) o) ?_).trans ?_
      · intro b
        match b with
        | ⟨0, _⟩ => rfl
        | ⟨1, _⟩ => rfl
      · refine shapeCast_apply v122 shapeCasts_S96_S1x96 (ix2 (0 : Fin 1) o) (ix1 o) ?_
        rw [Shape.rowMajor_val_one, Shape.rowMajor_val_two]
        show o.val = 0 * 96 + o.val
        omega

/-! ## The output block: window a, token t, channel o -/

theorem pay1_apply (x : FVec Ideal S16x64x96 .f32) (a : Fin 16) (t : Fin 64) (o : Fin 96) :
    k0_pay1 (F := Ideal) x (ix5 a (0 : Fin 1) (0 : Fin 1) t o) = x (ix3 a t o) := by
  unfold k0_pay1
  refine shapeCast_apply x shapeCasts_S16x64x96_S16x1x1x64x96 (ix5 a (0 : Fin 1) (0 : Fin 1) t o) (ix3 a t o) ?_
  rw [Shape.rowMajor_val_three, Shape.rowMajor_val_five]
  show (a.val * 64 + t.val) * 96 + o.val = ((((a.val * 1 + 0) * 1 + 0) * 64 + t.val) * 96 + o.val)
  omega

end Cert.KernelIdeal.Hand

end
-- ==== Proof.KIHeads.lean ====
/-
  One attention head of the kernel body read at an element, over the extended reals: the slice of a projection,
  the scaled scores with the masks that apply, the softmax of a row, and the product with the values.
-/
import proofs.«139805_j20143396618483_1_alg».proof.Proof.KIMatmul
import proofs.«139805_j20143396618483_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-! ## Layout steps at an element -/

/-- A channel slice of width 32 at offset `off` reads channel `off + d`. -/
theorem slice_apply (off : Nat) (hs : S16x64x96.Slices ![0, 0, off] S16x64x32) (x : FVec Ideal S16x64x96 .f32)
    (a : Fin 16) (t : Fin 64) (d : Fin 32) (hd : off + d.val < 96) :
    extractStridedSlice S16x64x32 ![0, 0, off] x hs (ix3 a t d) = x (ix3 a t ⟨off + d.val, hd⟩) :=
  extractStridedSlice_apply _ x hs _ _ (fun c => match c with
    | ⟨0, _⟩ => by show a.val = 0 + a.val; omega
    | ⟨1, _⟩ => by show t.val = 0 + t.val; omega
    | ⟨2, _⟩ => by show off + d.val = off + d.val; rfl)

/-- A mask spread over the windows reads the mask. -/
theorem maskBcast_apply (m : Vec Ideal S64x64 .f32) (a : Fin 16) (i j : Fin 64) :
    broadcastTo S16x64x64 (shapeCast S1x64x64 m shapeCasts_S64x64_S1x64x64) broadcasts_S1x64x64_S16x64x64 (ix3 a i j)
      = m (ix2 i j) := by
  refine (broadcastTo_apply _ broadcasts_S1x64x64_S16x64x64 (ix3 a i j) (ix3 (0 : Fin 1) i j)
    (fun c => match c with | ⟨0, _⟩ => rfl | ⟨1, _⟩ => rfl | ⟨2, _⟩ => rfl)).trans ?_
  exact shapeCast_apply m _ (ix3 (0 : Fin 1) i j) (ix2 i j) (by
    rw [Shape.rowMajor_val_two, Shape.rowMajor_val_three]
    show i.val * 64 + j.val = (0 * 64 + i.val) * 64 + j.val
    omega)

/-- A per-row value spread along the row reads the row's value. -/
theorem rowBcast_apply (x : FVec Ideal S16x64 .f32) (a : Fin 16) (i j : Fin 64) :
    broadcastTo S16x64x64 (shapeCast S16x64x1 x shapeCasts_S16x64_S16x64x1) broadcasts_S16x64x1_S16x64x64 (ix3 a i j)
      = x (ix2 a i) := by
  refine (broadcastTo_apply _ broadcasts_S16x64x1_S16x64x64 (ix3 a i j) (ix3 a i (0 : Fin 1))
    (fun c => match c with | ⟨0, _⟩ => rfl | ⟨1, _⟩ => rfl | ⟨2, _⟩ => rfl)).trans ?_
  exact shapeCast_apply x _ (ix3 a i (0 : Fin 1)) (ix2 a i) (by
    rw [Shape.rowMajor_val_two, Shape.rowMajor_val_three]
    show a.val * 64 + i.val = (a.val * 64 + i.val) * 1 + 0
    omega)

/-- The index over row (a, i) with `k` on the reduced axis is (a, i, k). -/
theorem lift3 (a : Fin 16) (i k : Fin 64) : reduces_S16x64x64_S16x64.lift (ix2 a i) k = ix3 a i k := by
  funext c
  match c with
  | ⟨0, _⟩ => rfl
  | ⟨1, _⟩ => rfl
  | ⟨2, _⟩ => rfl

/-- A row's sum. -/
theorem rowSum_apply (x : FVec Ideal S16x64x64 .f32) (a : Fin 16) (i : Fin 64) :
    multiReduction .add [2] S16x64 x 0x00000000#32 reduces_S16x64x64_S16x64 (.inl rfl) rfl (ix2 a i)
      = ∑ k : Fin 64, x (ix3 a i k) := by
  refine (Ideal.multiReduction_add_single x _ reduces_S16x64x64_S16x64 (.inl rfl) rfl (ix2 a i)).trans ?_
  exact Finset.sum_congr rfl (fun k _ => congrArg x (lift3 a i k))

/-- A row's fold of max from -inf. -/
theorem rowFold_apply (x : FVec Ideal S16x64x64 .f32) (a : Fin 16) (i : Fin 64) :
    multiReduction .maximumf [2] S16x64 x 0xFF800000#32 reduces_S16x64x64_S16x64 (.inl rfl) rfl (ix2 a i)
      = (Finset.univ : Finset (Fin 64)).fold max Cert.Spec.negInf (fun k => x (ix3 a i k)) := by
  refine (Ideal.multiReduction_maximumf_single x _ reduces_S16x64x64_S16x64 (.inl rfl) rfl (ix2 a i)).trans ?_
  show (Finset.univ : Finset (Fin 64)).fold max Cert.Spec.negInf (x ∘ reduces_S16x64x64_S16x64.lift (ix2 a i)) = _
  congr 1
  funext k
  exact congrArg x (lift3 a i k)

/-- The compare of a grid coordinate below 16 with 15, as the select reads it. -/
theorem select_cmpi15 {α : Type} (n : Nat) (hn : n < 16) (A B : α) :
    Scalar.select (Scalar.cmpi .eq (BitVec.ofNat 32 n) 15#32) A B = if n = 15 then A else B := by
  interval_cases n <;> rfl

/-! ## The stages of one head, as the body writes them -/

/-- One head's scores: queries against keys, scaled, with the masks that the grid position selects. -/
def logitsV (arg0 arg1 : BitVec 32) (q k : FVec Ideal S16x64x32 .bf16) (v19 v20 : Vec Ideal S64x64 .f32) :
    FVec Ideal S16x64x64 .f32 :=
  have cst_17 : FVec Ideal S16x64x64 .f32 := constant S16x64x64 .f32 0x00000000#32
  have v27 : FVec Ideal S16x64x64 .f32 := matmul dot_S16x64x32_S16x64x32_S16x64x64_2_2_1_1_0_0 none q k cst_17
  have cst_18 : Ideal .f32 := Scalar.ofBits .f32 0x3E3504F3#32
  have v28 : FVec Ideal S16x64x64 .f32 := broadcast S16x64x64 cst_18
  have v29 : FVec Ideal S16x64x64 .f32 := mulf v27 v28
  let v30 : BitVec 1 := Scalar.cmpi .eq arg0 15#32
  have v31 : FVec Ideal S1x64x64 .f32 := shapeCast S1x64x64 v19 shapeCasts_S64x64_S1x64x64
  have v32 : FVec Ideal S16x64x64 .f32 := broadcastTo S16x64x64 v31 broadcasts_S1x64x64_S16x64x64
  have v33 : FVec Ideal S16x64x64 .f32 := addf v29 v32
  have v34 : FVec Ideal S16x64x64 .f32 := Scalar.select v30 v33 v29
  let v35 : BitVec 1 := Scalar.cmpi .eq arg1 15#32
  have v36 : FVec Ideal S1x64x64 .f32 := shapeCast S1x64x64 v20 shapeCasts_S64x64_S1x64x64
  have v37 : FVec Ideal S16x64x64 .f32 := broadcastTo S16x64x64 v36 broadcasts_S1x64x64_S16x64x64
  have v38 : FVec Ideal S16x64x64 .f32 := addf v34 v37
  have v39 : FVec Ideal S16x64x64 .f32 := Scalar.select v35 v38 v34
  v39

/-- The softmax of every score row. -/
def probsV (v39 : FVec Ideal S16x64x64 .f32) : FVec Ideal S16x64x64 .bf16 :=
  have v40 : FVec Ideal S16x64 .f32 := multiReduction .maximumf [2] S16x64 v39 0xFF800000#32 reduces_S16x64x64_S16x64 (.inl rfl) rfl
  have cst_21 : Ideal .f32 := Scalar.ofBits .f32 0xFF800000#32
  have v41 : FVec Ideal S16x64 .f32 := broadcast S16x64 cst_21
  have v42 : FVec Ideal S16x64 .f32 := maximumf v41 v40
  have v43 : FVec Ideal S16x64x1 .f32 := shapeCast S16x64x1 v42 shapeCasts_S16x64_S16x64x1
  have v44 : FVec Ideal S16x64x64 .f32 := broadcastTo S16x64x64 v43 broadcasts_S16x64x1_S16x64x64
  have v45 : FVec Ideal S16x64x64 .f32 := subf v39 v44
  have v46 : FVec Ideal S16x64x64 .f32 := exp v45
  have v47 : FVec Ideal S16x64 .f32 := multiReduction .add [2] S16x64 v46 0x00000000#32 reduces_S16x64x64_S16x64 (.inl rfl) rfl
  have v48 : FVec Ideal S16x64x1 .f32 := shapeCast S16x64x1 v47 shapeCasts_S16x64_S16x64x1
  have v49 : FVec Ideal S16x64x64 .f32 := broadcastTo S16x64x64 v48 broadcasts_S16x64x1_S16x64x64
  have v50 : FVec Ideal S16x64x64 .f32 := divf v46 v49
  have v51 : FVec Ideal S16x64x64 .bf16 := truncf .bf16 v50 bitsLt_bf16_f32
  v51

/-- One head's output: the slices of the three projections at one channel offset through scores, softmax and the
    product with the values. -/
def headV (off : Nat) (hs : S16x64x96.Slices ![0, 0, off] S16x64x32) (arg0 arg1 : BitVec 32)
    (v14 v16 v18 : FVec Ideal S16x64x96 .f32) (v19 v20 : Vec Ideal S64x64 .f32) : FVec Ideal S16x64x32 .f32 :=
  matmul dot_S16x64x64_S16x64x32_S16x64x32_2_1_1_2_0_0 none
    (probsV (logitsV arg0 arg1
      (truncf .bf16 (extractStridedSlice S16x64x32 ![0, 0, off] v14 hs) bitsLt_bf16_f32)
      (truncf .bf16 (extractStridedSlice S16x64x32 ![0, 0, off] v16 hs) bitsLt_bf16_f32) v19 v20))
    (truncf .bf16 (extractStridedSlice S16x64x32 ![0, 0, off] v18 hs) bitsLt_bf16_f32)
    (constant S16x64x32 .f32 0x00000000#32)

/-- The scores at an element. -/
theorem logitsV_apply (n0 n1 : Nat) (h0 : n0 < 16) (h1 : n1 < 16) (q k : FVec Ideal S16x64x32 .bf16)
    (v19 v20 : Vec Ideal S64x64 .f32) (a : Fin 16) (i j : Fin 64) :
    logitsV (BitVec.ofNat 32 n0) (BitVec.ofNat 32 n1) q k v19 v20 (ix3 a i j)
      = Cert.Spec.logit (fun i d => q (ix3 a i d)) (fun j d => k (ix3 a j d)) (fun i k => v19 (ix2 i k))
          (fun i k => v20 (ix2 i k)) (n0 = 15) (n1 = 15) i j := by
  unfold logitsV Cert.Spec.logit
  simp only [select_cmpi15 n0 h0, select_cmpi15 n1 h1]
  have e0 : mulf (matmul dot_S16x64x32_S16x64x32_S16x64x64_2_2_1_1_0_0 none q k (constant S16x64x64 .f32 0x00000000#32))
      (broadcast S16x64x64 (Scalar.ofBits (F := Ideal) .f32 0x3E3504F3#32)) (ix3 a i j)
      = (∑ d : Fin 32, q (ix3 a i d) * k (ix3 a j d)) * Cert.Spec.scaleC := by
    rw [mulf_apply, qkMM_apply]; rfl
  by_cases c0 : n0 = 15 <;> by_cases c1 : n1 = 15
  · simp only [if_pos c0, if_pos c1]
    rw [addf_apply, addf_apply, e0, maskBcast_apply, maskBcast_apply]
  · simp only [if_pos c0, if_neg c1]
    rw [addf_apply, e0, maskBcast_apply]
  · simp only [if_neg c0, if_pos c1]
    rw [addf_apply, e0, maskBcast_apply]
  · simp only [if_neg c0, if_neg c1]
    rw [e0]

/-- The softmax at an element. -/
theorem probsV_apply (L : FVec Ideal S16x64x64 .f32) (a : Fin 16) (i j : Fin 64) :
    probsV L (ix3 a i j) = Cert.Spec.softmaxRow (fun j => L (ix3 a i j)) j := by
  have hm : ∀ j : Fin 64, broadcastTo S16x64x64 (shapeCast S16x64x1
      (maximumf (broadcast S16x64 (Scalar.ofBits (F := Ideal) .f32 0xFF800000#32))
        (multiReduction .maximumf [2] S16x64 L 0xFF800000#32 reduces_S16x64x64_S16x64 (.inl rfl) rfl))
      shapeCasts_S16x64_S16x64x1) broadcasts_S16x64x1_S16x64x64 (ix3 a i j)
      = Cert.Spec.rowMax (fun j => L (ix3 a i j)) := by
    intro j
    rw [rowBcast_apply, maximumf_apply, rowFold_apply]; rfl
  unfold probsV Cert.Spec.softmaxRow
  show Ideal.div (Ideal.exp (L (ix3 a i j) - _)) _ = _
  refine congrArg₂ Ideal.div ?_ ?_
  · rw [hm j]
  · rw [rowBcast_apply, rowSum_apply]
    refine Finset.sum_congr rfl (fun k _ => ?_)
    show Ideal.exp (L (ix3 a i k) - _) = _
    rw [hm k]

/-- One head at an element: the attention of the sliced queries, keys and values. -/
theorem headV_apply (off : Nat) (hs : S16x64x96.Slices ![0, 0, off] S16x64x32) (hoff : off + 32 ≤ 96)
    (n0 n1 : Nat) (h0 : n0 < 16) (h1 : n1 < 16)
    (v14 v16 v18 : FVec Ideal S16x64x96 .f32) (v19 v20 : Vec Ideal S64x64 .f32) (a : Fin 16) (i : Fin 64) (d : Fin 32) :
    headV off hs (BitVec.ofNat 32 n0) (BitVec.ofNat 32 n1) v14 v16 v18 v19 v20 (ix3 a i d)
      = Cert.Spec.attn
          (Cert.Spec.logit (fun i d => v14 (ix3 a i ⟨off + d.val, by have := d.isLt; omega⟩))
            (fun j d => v16 (ix3 a j ⟨off + d.val, by have := d.isLt; omega⟩))
            (fun i k => v19 (ix2 i k)) (fun i k => v20 (ix2 i k)) (n0 = 15) (n1 = 15))
          (fun j d => v18 (ix3 a j ⟨off + d.val, by have := d.isLt; omega⟩)) i d := by
  unfold headV Cert.Spec.attn
  rw [avMM_apply]
  refine Finset.sum_congr rfl (fun j _ => ?_)
  rw [probsV_apply, truncf_apply, slice_apply off hs v18 a j d (by have := d.isLt; omega)]
  congr 2
  funext j'
  rw [logitsV_apply n0 n1 h0 h1]
  congr 1
  · funext i' d'
    rw [truncf_apply, slice_apply off hs v14 a i' d' (by have := d'.isLt; omega)]
  · funext j'' d'
    rw [truncf_apply, slice_apply off hs v16 a j'' d' (by have := d'.isLt; omega)]

end Cert.KernelIdeal.Hand

end
-- ==== Proof.KIPayload.lean ====
/-
  The value the kernel body stores, read at window a, token t, channel o of its block: the window's result as the
  mathematics states it, with the grid position deciding the two masks.
-/
import proofs.«139805_j20143396618483_1_alg».proof.Proof.KITail
import proofs.«139805_j20143396618483_1_alg».proof.Proof.KIBodyVal
import proofs.«139805_j20143396618483_1_alg».proof.Proof.KIProj
import proofs.«139805_j20143396618483_1_alg».proof.Proof.KIHeads
import proofs.«139805_j20143396618483_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-- The body's value is its stages composed: the three heads at channel offsets 0, 32 and 64, joined, projected. -/
theorem bodyVal_eq (i : grid0.Coords) (v0 : Vec Ideal S288x96 .f32) (v5 : Vec Ideal S1x1x16x64x96 .f32)
    (v9 : Vec Ideal S16x1x1x64x96 .f32) (v19 v20 : Vec Ideal S64x64 .f32) (v120 : Vec Ideal S96x96 .f32) (v122 : Vec Ideal S96 .f32) :
    bodyVal (F := Ideal) i v0 v5 v9 v19 v20 v120 v122
      = k0_pay1 (tailV (catV
          (headV 0 slices_S16x64x96_o0_0_0_S16x64x32 (BitVec.ofNat 32 (i 0).val) (BitVec.ofNat 32 (i 1).val)
            (k0_pay4 v0 v5) (k0_pay5 v0 v5) (k0_pay6 v0 v9) v19 v20)
          (headV 32 slices_S16x64x96_o0_0_32_S16x64x32 (BitVec.ofNat 32 (i 0).val) (BitVec.ofNat 32 (i 1).val)
            (k0_pay4 v0 v5) (k0_pay5 v0 v5) (k0_pay6 v0 v9) v19 v20)
          (headV 64 slices_S16x64x96_o0_0_64_S16x64x32 (BitVec.ofNat 32 (i 0).val) (BitVec.ofNat 32 (i 1).val)
            (k0_pay4 v0 v5) (k0_pay5 v0 v5) (k0_pay6 v0 v9) v19 v20)) v120 v122) := rfl

/-- Head `h` of the body at an element: the attention of the mathematics over rows 32 h + d of the joined weights. -/
theorem head_spec (h : Fin 3) (off : Nat) (hoff : off = 32 * h.val) (hs : S16x64x96.Slices ![0, 0, off] S16x64x32)
    (i : grid0.Coords) (v0 : Vec Ideal S288x96 .f32) (v5 : Vec Ideal S1x1x16x64x96 .f32)
    (v9 : Vec Ideal S16x1x1x64x96 .f32) (v19 v20 : Vec Ideal S64x64 .f32) (a : Fin 16) (t : Fin 64) (d : Fin 32) :
    headV off hs (BitVec.ofNat 32 (i 0).val) (BitVec.ofNat 32 (i 1).val) (k0_pay4 v0 v5) (k0_pay5 v0 v5) (k0_pay6 v0 v9)
        v19 v20 (ix3 a t d)
      = Cert.Spec.attn
          (Cert.Spec.logit
            (fun i d => Cert.Spec.proj (fun r c => v0 (ix2 r c)) (fun t ch => v5 (ix5 (0 : Fin 1) (0 : Fin 1) a t ch)) i
              (Cert.Spec.qkvRow 0 (by decide) h d))
            (fun j d => Cert.Spec.proj (fun r c => v0 (ix2 r c)) (fun t ch => v5 (ix5 (0 : Fin 1) (0 : Fin 1) a t ch)) j
              (Cert.Spec.qkvRow 96 (by decide) h d))
            (fun i k => v19 (ix2 i k)) (fun i k => v20 (ix2 i k)) ((i 0).val = 15) ((i 1).val = 15))
          (fun j d => Cert.Spec.proj (fun r c => v0 (ix2 r c)) (fun t ch => v9 (ix5 a (0 : Fin 1) (0 : Fin 1) t ch)) j
            (Cert.Spec.qkvRow 192 (by decide) h d)) t d := by
  have hh := h.isLt
  subst hoff
  rw [headV_apply (32 * h.val) hs (by omega) (i 0).val (i 1).val (i 0).isLt (i 1).isLt]
  have e4 : (fun (i' : Fin 64) (d' : Fin 32) => k0_pay4 (F := Ideal) v0 v5 (ix3 a i' ⟨32 * h.val + d'.val, by have := d'.isLt; omega⟩))
      = fun i' d' => Cert.Spec.proj (fun r c => v0 (ix2 r c)) (fun t ch => v5 (ix5 (0 : Fin 1) (0 : Fin 1) a t ch)) i'
          (Cert.Spec.qkvRow 0 (by decide) h d') := by
    funext i' d'; rw [pay4_apply]; rfl
  have e5 : (fun (i' : Fin 64) (d' : Fin 32) => k0_pay5 (F := Ideal) v0 v5 (ix3 a i' ⟨32 * h.val + d'.val, by have := d'.isLt; omega⟩))
      = fun i' d' => Cert.Spec.proj (fun r c => v0 (ix2 r c)) (fun t ch => v5 (ix5 (0 : Fin 1) (0 : Fin 1) a t ch)) i'
          (Cert.Spec.qkvRow 96 (by decide) h d') := by
    funext i' d'; rw [pay5_apply]; rfl
  have e6 : (fun (i' : Fin 64) (d' : Fin 32) => k0_pay6 (F := Ideal) v0 v9 (ix3 a i' ⟨32 * h.val + d'.val, by have := d'.isLt; omega⟩))
      = fun i' d' => Cert.Spec.proj (fun r c => v0 (ix2 r c)) (fun t ch => v9 (ix5 a (0 : Fin 1) (0 : Fin 1) t ch)) i'
          (Cert.Spec.qkvRow 192 (by decide) h d') := by
    funext i' d'; rw [pay6_apply]; rfl
  rw [e4, e5, e6]

/-- THE BODY'S VALUE at window a, token t, channel o of the stored block. -/
theorem bodyVal_apply (i : grid0.Coords) (v0 : Vec Ideal S288x96 .f32) (v5 : Vec Ideal S1x1x16x64x96 .f32)
    (v9 : Vec Ideal S16x1x1x64x96 .f32) (v19 v20 : Vec Ideal S64x64 .f32) (v120 : Vec Ideal S96x96 .f32) (v122 : Vec Ideal S96 .f32)
    (a : Fin 16) (t : Fin 64) (o : Fin 96) :
    bodyVal (F := Ideal) i v0 v5 v9 v19 v20 v120 v122 (ix5 a (0 : Fin 1) (0 : Fin 1) t o)
      = Cert.Spec.winOut (fun r c => v0 (ix2 r c)) (fun o c => v120 (ix2 o c)) (fun o => v122 (ix1 o))
          (fun i k => v19 (ix2 i k)) (fun i k => v20 (ix2 i k)) ((i 0).val = 15) ((i 1).val = 15)
          (fun t ch => v5 (ix5 (0 : Fin 1) (0 : Fin 1) a t ch)) (fun t ch => v9 (ix5 a (0 : Fin 1) (0 : Fin 1) t ch)) t o := by
  rw [bodyVal_eq, pay1_apply, tailV_apply]
  unfold Cert.Spec.winOut Cert.Spec.outProj
  refine congrArg (· + v122 (ix1 o)) (Finset.sum_congr rfl (fun c _ => ?_))
  refine congrArg (· * v120 (ix2 o c)) ?_
  unfold Cert.Spec.headsCat
  by_cases c0 : c.val < 32
  · have hh : Cert.Spec.headOf c = (⟨0, by decide⟩ : Fin 3) := Fin.ext (by show c.val / 32 = 0; omega)
    rw [catV_apply0 _ _ _ a t c c0, hh]
    exact head_spec ⟨0, by decide⟩ 0 rfl _ i v0 v5 v9 v19 v20 a t _
  · by_cases c1 : c.val < 64
    · have hh : Cert.Spec.headOf c = (⟨1, by decide⟩ : Fin 3) := Fin.ext (by show c.val / 32 = 1; omega)
      rw [catV_apply1 _ _ _ a t c (by omega) c1, hh]
      exact head_spec ⟨1, by decide⟩ 32 rfl _ i v0 v5 v9 v19 v20 a t _
    · have hh : Cert.Spec.headOf c = (⟨2, by decide⟩ : Fin 3) := Fin.ext (by have := c.isLt; show c.val / 32 = 2; omega)
      rw [catV_apply2 _ _ _ a t c (by omega), hh]
      exact head_spec ⟨2, by decide⟩ 64 rfl _ i v0 v5 v9 v19 v20 a t _

end Cert.KernelIdeal.Hand

end
-- ==== Proof.LibRoll.lean ====
/-
  A cyclic shift along one axis, read at an index.

  A shift of an array along one of its axes by a fixed amount is spelt as two slices of the array along that
  axis — the tail, from position k to the end, and the head, the first k positions — laid end to end along the
  same axis, the tail first. Read at an index j, the result is the array at the index that agrees with j off
  the axis and whose coordinate on the axis is (j's coordinate + k) modulo the extent.
-/
import Idealize.ShloMosaic.Lib.Pipeline.Value
import Idealize.ShloMosaic.Lib.ValueIdx

namespace Cert.LibRoll

open Idealize.ShloMosaic

variable {α : Type}

/-- The tail `[k, n)` and the head `[0, k)` of `x` along axis `a` (extent `n`), joined along `a` with the tail first,
    read at `j`: it is `x` at the index `k'` that has `j`'s coordinates off axis `a` and `((j a) + k) % n` on it.
    The offsets of the first slice are `k` on axis `a` and zero elsewhere (`ho₁`), those of the second are zero
    (`ho₂`), and the second piece has extent `k` on axis `a` (`hs₂`); the other extents follow from `hc`. -/
theorem concatenate_slices_roll_apply {S S₁ S₂ : Shape} (a : Fin S.rank) (k : Nat)
    (off₁ off₂ : Fin S.rank → Nat) (x : S.Idx → α)
    (h₁ : S.Slices off₁ S₁) (h₂ : S.Slices off₂ S₂) (hc : Shape.Concatenates [S₁, S₂] S a)
    (ho₁ : ∀ b : Fin S.rank, off₁ b = if b = a then k else 0) (ho₂ : ∀ b : Fin S.rank, off₂ b = 0)
    (hs₂ : S₂.size (a.cast h₂.1.symm) = k)
    (j k' : S.Idx)
    (hb : ∀ b : Fin S.rank, b ≠ a → (k' b).val = (j b).val)
    (ha : (k' a).val = ((j a).val + k) % S.size a) :
    concatenate S a [⟨S₁, extractStridedSlice S₁ off₁ x h₁⟩, ⟨S₂, extractStridedSlice S₂ off₂ x h₂⟩] hc j = x k' := by
  have hr₁ : S₁.rank = S.rank := h₁.1
  have hr₂ : S₂.rank = S.rank := h₂.1
  have hs₂' : S₂.size (a.cast hr₂.symm) = k := hs₂
  -- the pieces have the whole's extents off the axis, and their extents on the axis add up to the whole's
  have hoff₁ : ∀ b : Fin S₁.rank, b.cast hr₁ ≠ a → S₁.size b = S.size (b.cast hr₁) := fun b hba => by
    obtain ⟨_, h⟩ := hc.2.1 S₁ (by simp)
    exact h (b.cast hr₁) hba
  have hoff₂ : ∀ b : Fin S₂.rank, b.cast hr₂ ≠ a → S₂.size b = S.size (b.cast hr₂) := fun b hba => by
    obtain ⟨_, h⟩ := hc.2.1 S₂ (by simp)
    exact h (b.cast hr₂) hba
  have hsum : S₁.size (a.cast hr₁.symm) + S₂.size (a.cast hr₂.symm) = S.size a := by
    have e := hc.2.2
    simp only [List.map, dif_pos hr₁, dif_pos hr₂, List.sum_cons, List.sum_nil] at e
    omega
  have hja : (j a).val < S.size a := (j a).isLt
  by_cases hlt : (j a).val < S₁.size (a.cast hr₁.symm)
  · -- the coordinate falls in the tail: no wrap-around
    let i : S₁.Idx := fun b => ⟨(j (b.cast hr₁)).val, by
      by_cases hba : b.cast hr₁ = a
      · have eb : b = a.cast hr₁.symm := Fin.ext (by have := congrArg Fin.val hba; simpa using this)
        subst eb
        exact hlt
      · rw [hoff₁ b hba]; exact (j (b.cast hr₁)).isLt⟩
    refine (concatenate_pair_apply_left a _ _ hc j hr₁ i (fun b => rfl)).trans ?_
    refine extractStridedSlice_apply off₁ x h₁ i k' (fun b => ?_)
    show (k' b).val = off₁ b + (j b).val
    rw [ho₁ b]
    by_cases hba : b = a
    · subst hba
      rw [if_pos rfl, ha, Nat.mod_eq_of_lt (by omega)]
      omega
    · rw [if_neg hba, Nat.zero_add]
      exact hb b hba
  · -- the coordinate falls in the head: it wraps around once
    have hge : S₁.size (a.cast hr₁.symm) ≤ (j a).val := Nat.not_lt.1 hlt
    let i : S₂.Idx := fun b =>
      ⟨if b.cast hr₂ = a then (j a).val - S₁.size (a.cast hr₁.symm) else (j (b.cast hr₂)).val, by
        by_cases hba : b.cast hr₂ = a
        · have eb : b = a.cast hr₂.symm := Fin.ext (by have := congrArg Fin.val hba; simpa using this)
          subst eb
          rw [if_pos hba]
          omega
        · rw [if_neg hba, hoff₂ b hba]; exact (j (b.cast hr₂)).isLt⟩
    refine (concatenate_pair_apply_right a _ _ hc j hr₁ hr₂ i (fun b hba => if_neg hba) ?_).trans ?_
    · show (if (a.cast hr₂.symm).cast hr₂ = a then (j a).val - S₁.size (a.cast hr₁.symm) else _) + _ = _
      rw [if_pos (show (a.cast hr₂.symm).cast hr₂ = a from rfl)]
      omega
    refine extractStridedSlice_apply off₂ x h₂ i k' (fun b => ?_)
    rw [ho₂ b, Nat.zero_add]
    show (k' b).val = if b = a then (j a).val - S₁.size (a.cast hr₁.symm) else (j b).val
    by_cases hba : b = a
    · subst hba
      rw [if_pos rfl, ha, Nat.mod_eq_sub_mod (by omega), Nat.mod_eq_of_lt (by omega)]
      omega
    · rw [if_neg hba]
      exact hb b hba

/-- Rank 4, axis 1, shift 2: the side facts close by `rfl` and a case split on the axis. -/
example (x : (⟨4, ![64, 64, 64, 96]⟩ : Shape).Idx → α)
    (h₁ : (⟨4, ![64, 64, 64, 96]⟩ : Shape).Slices ![0, 2, 0, 0] ⟨4, ![64, 62, 64, 96]⟩)
    (h₂ : (⟨4, ![64, 64, 64, 96]⟩ : Shape).Slices ![0, 0, 0, 0] ⟨4, ![64, 2, 64, 96]⟩)
    (hc : Shape.Concatenates [⟨4, ![64, 62, 64, 96]⟩, ⟨4, ![64, 2, 64, 96]⟩] ⟨4, ![64, 64, 64, 96]⟩ 1)
    (j k' : (⟨4, ![64, 64, 64, 96]⟩ : Shape).Idx)
    (e0 : (k' 0).val = (j 0).val) (e1 : (k' 1).val = ((j 1).val + 2) % 64)
    (e2 : (k' 2).val = (j 2).val) (e3 : (k' 3).val = (j 3).val) :
    concatenate ⟨4, ![64, 64, 64, 96]⟩ 1
      [⟨⟨4, ![64, 62, 64, 96]⟩, extractStridedSlice ⟨4, ![64, 62, 64, 96]⟩ ![0, 2, 0, 0] x h₁⟩,
       ⟨⟨4, ![64, 2, 64, 96]⟩, extractStridedSlice ⟨4, ![64, 2, 64, 96]⟩ ![0, 0, 0, 0] x h₂⟩] hc j = x k' :=
  concatenate_slices_roll_apply 1 2 _ _ x h₁ h₂ hc (by intro b; fin_cases b <;> rfl) (by intro b; fin_cases b <;> rfl) rfl
    j k' (fun b => match b with
      | ⟨0, _⟩ => fun _ => e0
      | ⟨1, _⟩ => fun h => absurd rfl h
      | ⟨2, _⟩ => fun _ => e2
      | ⟨3, _⟩ => fun _ => e3) e1

/-- Rank 5, axis 3, shift 62. -/
example (x : (⟨5, ![1, 64, 64, 64, 96]⟩ : Shape).Idx → α)
    (h₁ : (⟨5, ![1, 64, 64, 64, 96]⟩ : Shape).Slices ![0, 0, 0, 62, 0] ⟨5, ![1, 64, 64, 2, 96]⟩)
    (h₂ : (⟨5, ![1, 64, 64, 64, 96]⟩ : Shape).Slices ![0, 0, 0, 0, 0] ⟨5, ![1, 64, 64, 62, 96]⟩)
    (hc : Shape.Concatenates [⟨5, ![1, 64, 64, 2, 96]⟩, ⟨5, ![1, 64, 64, 62, 96]⟩] ⟨5, ![1, 64, 64, 64, 96]⟩ 3)
    (j k' : (⟨5, ![1, 64, 64, 64, 96]⟩ : Shape).Idx)
    (e0 : (k' 0).val = (j 0).val) (e1 : (k' 1).val = (j 1).val) (e2 : (k' 2).val = (j 2).val)
    (e3 : (k' 3).val = ((j 3).val + 62) % 64) (e4 : (k' 4).val = (j 4).val) :
    concatenate ⟨5, ![1, 64, 64, 64, 96]⟩ 3
      [⟨⟨5, ![1, 64, 64, 2, 96]⟩, extractStridedSlice ⟨5, ![1, 64, 64, 2, 96]⟩ ![0, 0, 0, 62, 0] x h₁⟩,
       ⟨⟨5, ![1, 64, 64, 62, 96]⟩, extractStridedSlice ⟨5, ![1, 64, 64, 62, 96]⟩ ![0, 0, 0, 0, 0] x h₂⟩] hc j = x k' :=
  concatenate_slices_roll_apply 3 62 _ _ x h₁ h₂ hc (by intro b; fin_cases b <;> rfl) (by intro b; fin_cases b <;> rfl) rfl
    j k' (fun b => match b with
      | ⟨0, _⟩ => fun _ => e0
      | ⟨1, _⟩ => fun _ => e1
      | ⟨2, _⟩ => fun _ => e2
      | ⟨3, _⟩ => fun h => absurd rfl h
      | ⟨4, _⟩ => fun _ => e4) e3

end Cert.LibRoll
-- ==== Proof.KIHostPre.lean ====
/-
  The lines of the program before its one region, read at an index.

  The input, a 64 x 64 x 64 grid of 96-channel tokens under a leading unit axis, loses the unit axis, is shifted
  cyclically by two places along each of the three spatial axes (each shift the tail of the axis followed by its
  first two places), and is cut into 16 x 16 x 16 windows of 4 x 4 x 4 tokens: every spatial axis is split into
  (window, place in the window), the three window coordinates are brought to the front, and the three places are
  joined into one token number. Entry (a, b, c, i, ch) of the result is therefore the input at position
  (4a + i / 16 + 2, 4b + i / 4 % 4 + 2, 4c + i % 4 + 2), each taken modulo 64, channel ch. No line writes an
  argument of the program.
-/
import proofs.«139805_j20143396618483_1_alg».proof.Proof.Gen.KernelIdeal.Launch
import proofs.«139805_j20143396618483_1_alg».proof.Proof.Spec
import proofs.«139805_j20143396618483_1_alg».proof.Proof.LibRoll
import Idealize.ShloMosaic.Lib.Pipeline.Value
import Idealize.ShloMosaic.Lib.Pipeline.Frame
import Idealize.ShloMosaic.Lib.ValueIdx
import Idealize.ShloMosaic.Lib.StableHlo.Run

noncomputable section

namespace Cert.KernelIdeal.Hand

open Idealize.ShloMosaic Idealize.ShloMosaic.TcCoe Idealize.ShloMosaic.ValueIdx
open Cert.KernelIdeal Cert.KernelIdeal.Gen

namespace HostIdx

/-! ## Indices of rank 7 -/

section Rank7
variable {α : Type}

/-- A rank-7 index from its coordinates. -/
abbrev ix7 {n0 n1 n2 n3 n4 n5 n6 : Nat} (a0 : Fin n0) (a1 : Fin n1) (a2 : Fin n2) (a3 : Fin n3) (a4 : Fin n4) (a5 : Fin n5) (a6 : Fin n6) :
    (⟨7, ![n0, n1, n2, n3, n4, n5, n6]⟩ : Shape).Idx :=
  fun f => match f with | ⟨0, _⟩ => a0 | ⟨1, _⟩ => a1 | ⟨2, _⟩ => a2 | ⟨3, _⟩ => a3 | ⟨4, _⟩ => a4 | ⟨5, _⟩ => a5 | ⟨6, _⟩ => a6

/-- The row-major position of a rank-7 index as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Rank7

end HostIdx

open HostIdx

/-! ## The lines before the region, one operation at a time -/

section PreSteps
variable {α : Type}

/-- Dropping the leading unit axis: position (p0, p1, p2, ch) holds the operand's (0, p0, p1, p2, ch). -/
theorem dropUnit_apply (x : S1x64x64x64x96.Idx → α) (h : S1x64x64x64x96.ShapeCasts S64x64x64x96) (p0 p1 p2 : Fin 64) (ch : Fin 96) :
    shapeCast S64x64x64x96 x h (ix4 p0 p1 p2 ch) = x (ix5 (0 : Fin 1) p0 p1 p2 ch) := by
  refine shapeCast_apply x h _ _ ?_
  rw [Shape.rowMajor_val_five, Shape.rowMajor_val_four]
  show ((((0 : Fin 1).val * 64 + p0.val) * 64 + p1.val) * 64 + p2.val) * 96 + ch.val
      = ((p0.val * 64 + p1.val) * 64 + p2.val) * 96 + ch.val
  simp

/-- The shift by two places along axis 0. -/
theorem shift0_apply (x : S64x64x64x96.Idx → α) (h₁ : S64x64x64x96.Slices ![2, 0, 0, 0] S62x64x64x96)
    (h₂ : S64x64x64x96.Slices ![0, 0, 0, 0] S2x64x64x96) (hc : Shape.Concatenates [S62x64x64x96, S2x64x64x96] S64x64x64x96 0)
    (p0 p1 p2 : Fin 64) (ch : Fin 96) :
    concatenate S64x64x64x96 0 [⟨S62x64x64x96, extractStridedSlice S62x64x64x96 ![2, 0, 0, 0] x h₁⟩,
        ⟨S2x64x64x96, extractStridedSlice S2x64x64x96 ![0, 0, 0, 0] x h₂⟩] hc (ix4 p0 p1 p2 ch)
      = x (ix4 (Cert.Spec.fwd p0) p1 p2 ch) :=
  Cert.LibRoll.concatenate_slices_roll_apply 0 2 _ _ x h₁ h₂ hc (by intro b; fin_cases b <;> rfl) (by intro b; fin_cases b <;> rfl) rfl
    (ix4 p0 p1 p2 ch) (ix4 (Cert.Spec.fwd p0) p1 p2 ch)
    (fun b => match b with
      | ⟨0, _⟩ => fun h => absurd rfl h
      | ⟨1, _⟩ => fun _ => rfl
      | ⟨2, _⟩ => fun _ => rfl
      | ⟨3, _⟩ => fun _ => rfl) rfl

/-- The shift by two places along axis 1. -/
theorem shift1_apply (x : S64x64x64x96.Idx → α) (h₁ : S64x64x64x96.Slices ![0, 2, 0, 0] S64x62x64x96)
    (h₂ : S64x64x64x96.Slices ![0, 0, 0, 0] S64x2x64x96) (hc : Shape.Concatenates [S64x62x64x96, S64x2x64x96] S64x64x64x96 1)
    (p0 p1 p2 : Fin 64) (ch : Fin 96) :
    concatenate S64x64x64x96 1 [⟨S64x62x64x96, extractStridedSlice S64x62x64x96 ![0, 2, 0, 0] x h₁⟩,
        ⟨S64x2x64x96, extractStridedSlice S64x2x64x96 ![0, 0, 0, 0] x h₂⟩] hc (ix4 p0 p1 p2 ch)
      = x (ix4 p0 (Cert.Spec.fwd p1) p2 ch) :=
  Cert.LibRoll.concatenate_slices_roll_apply 1 2 _ _ x h₁ h₂ hc (by intro b; fin_cases b <;> rfl) (by intro b; fin_cases b <;> rfl) rfl
    (ix4 p0 p1 p2 ch) (ix4 p0 (Cert.Spec.fwd p1) p2 ch)
    (fun b => match b with
      | ⟨0, _⟩ => fun _ => rfl
      | ⟨1, _⟩ => fun h => absurd rfl h
      | ⟨2, _⟩ => fun _ => rfl
      | ⟨3, _⟩ => fun _ => rfl) rfl

/-- The shift by two places along axis 2. -/
theorem shift2_apply (x : S64x64x64x96.Idx → α) (h₁ : S64x64x64x96.Slices ![0, 0, 2, 0] S64x64x62x96)
    (h₂ : S64x64x64x96.Slices ![0, 0, 0, 0] S64x64x2x96) (hc : Shape.Concatenates [S64x64x62x96, S64x64x2x96] S64x64x64x96 2)
    (p0 p1 p2 : Fin 64) (ch : Fin 96) :
    concatenate S64x64x64x96 2 [⟨S64x64x62x96, extractStridedSlice S64x64x62x96 ![0, 0, 2, 0] x h₁⟩,
        ⟨S64x64x2x96, extractStridedSlice S64x64x2x96 ![0, 0, 0, 0] x h₂⟩] hc (ix4 p0 p1 p2 ch)
      = x (ix4 p0 p1 (Cert.Spec.fwd p2) ch) :=
  Cert.LibRoll.concatenate_slices_roll_apply 2 2 _ _ x h₁ h₂ hc (by intro b; fin_cases b <;> rfl) (by intro b; fin_cases b <;> rfl) rfl
    (ix4 p0 p1 p2 ch) (ix4 p0 p1 (Cert.Spec.fwd p2) ch)
    (fun b => match b with
      | ⟨0, _⟩ => fun _ => rfl
      | ⟨1, _⟩ => fun _ => rfl
      | ⟨2, _⟩ => fun h => absurd rfl h
      | ⟨3, _⟩ => fun _ => rfl) rfl

/-- Cutting each spatial axis into 16 windows of 4: (a, r0, b, r1, c, r2, ch) holds the operand's (4a + r0, 4b + r1, 4c + r2, ch). -/
theorem split_apply (x : S64x64x64x96.Idx → α) (h : S64x64x64x96.ShapeCasts S16x4x16x4x16x4x96)
    (a : Fin 16) (r0 : Fin 4) (b : Fin 16) (r1 : Fin 4) (c : Fin 16) (r2 : Fin 4) (ch : Fin 96) :
    shapeCast S16x4x16x4x16x4x96 x h (ix7 a r0 b r1 c r2 ch)
      = x (ix4 (Cert.Spec.pos a r0) (Cert.Spec.pos b r1) (Cert.Spec.pos c r2) ch) := by
  refine shapeCast_apply x h _ _ ?_
  rw [rowMajor_val_seven, Shape.rowMajor_val_four]
  show (((4 * a.val + r0.val) * 64 + (4 * b.val + r1.val)) * 64 + (4 * c.val + r2.val)) * 96 + ch.val
      = (((((a.val * 4 + r0.val) * 16 + b.val) * 4 + r1.val) * 16 + c.val) * 4 + r2.val) * 96 + ch.val
  omega

/-- Bringing the window coordinates to the front. -/
theorem gather_apply (x : S16x4x16x4x16x4x96.Idx → α) (h : S16x4x16x4x16x4x96.Transposes [0, 2, 4, 1, 3, 5, 6] S16x16x16x4x4x4x96)
    (a b c : Fin 16) (r0 r1 r2 : Fin 4) (ch : Fin 96) :
    transpose S16x16x16x4x4x4x96 [0, 2, 4, 1, 3, 5, 6] x h (ix7 a b c r0 r1 r2 ch) = x (ix7 a r0 b r1 c r2 ch) :=
  transpose_apply _ x h _ _ (fun b => match b with
    | ⟨0, _⟩ => rfl | ⟨1, _⟩ => rfl | ⟨2, _⟩ => rfl | ⟨3, _⟩ => rfl | ⟨4, _⟩ => rfl | ⟨5, _⟩ => rfl | ⟨6, _⟩ => rfl)

/-- Joining a window's three token coordinates into one token number. -/
theorem flatten_apply (x : S16x16x16x4x4x4x96.Idx → α) (h : S16x16x16x4x4x4x96.ShapeCasts S16x16x16x64x96)
    (a b c : Fin 16) (i : Fin 64) (ch : Fin 96) :
    shapeCast S16x16x16x64x96 x h (ix5 a b c i ch)
      = x (ix7 a b c (Cert.Spec.t0 i) (Cert.Spec.t1 i) (Cert.Spec.t2 i) ch) := by
  refine shapeCast_apply x h _ _ ?_
  rw [rowMajor_val_seven, Shape.rowMajor_val_five]
  show (((((a.val * 16 + b.val) * 16 + c.val) * 4 + i.val / 16) * 4 + i.val / 4 % 4) * 4 + i.val % 4) * 96 + ch.val
      = (((a.val * 16 + b.val) * 16 + c.val) * 64 + i.val) * 96 + ch.val
  omega

end PreSteps

/-! ## The lines before the region composed -/

section PreTerm
variable {α : Type}

/-- The three shifts, one axis after the other. -/
def shiftFwd (x : S64x64x64x96.Idx → α) : S64x64x64x96.Idx → α :=
  let y0 := concatenate S64x64x64x96 0 [⟨S62x64x64x96, extractStridedSlice S62x64x64x96 ![2, 0, 0, 0] x slices_S64x64x64x96_S62x64x64x96_2_0_0_0⟩,
    ⟨S2x64x64x96, extractStridedSlice S2x64x64x96 ![0, 0, 0, 0] x slices_S64x64x64x96_S2x64x64x96_0_0_0_0⟩] concatenates_S62x64x64x96_S2x64x64x96_S64x64x64x96_d0
  let y1 := concatenate S64x64x64x96 1 [⟨S64x62x64x96, extractStridedSlice S64x62x64x96 ![0, 2, 0, 0] y0 slices_S64x64x64x96_S64x62x64x96_0_2_0_0⟩,
    ⟨S64x2x64x96, extractStridedSlice S64x2x64x96 ![0, 0, 0, 0] y0 slices_S64x64x64x96_S64x2x64x96_0_0_0_0⟩] concatenates_S64x62x64x96_S64x2x64x96_S64x64x64x96_d1
  concatenate S64x64x64x96 2 [⟨S64x64x62x96, extractStridedSlice S64x64x62x96 ![0, 0, 2, 0] y1 slices_S64x64x64x96_S64x64x62x96_0_0_2_0⟩,
    ⟨S64x64x2x96, extractStridedSlice S64x64x2x96 ![0, 0, 0, 0] y1 slices_S64x64x64x96_S64x64x2x96_0_0_0_0⟩] concatenates_S64x64x62x96_S64x64x2x96_S64x64x64x96_d2

/-- The three shifts read at a position. -/
theorem shiftFwd_apply (x : S64x64x64x96.Idx → α) (p0 p1 p2 : Fin 64) (ch : Fin 96) :
    shiftFwd x (ix4 p0 p1 p2 ch) = x (ix4 (Cert.Spec.fwd p0) (Cert.Spec.fwd p1) (Cert.Spec.fwd p2) ch) := by
  unfold shiftFwd
  refine (shift2_apply _ _ _ _ p0 p1 p2 ch).trans ?_
  refine (shift1_apply _ _ _ _ p0 p1 _ ch).trans ?_
  exact shift0_apply _ _ _ _ p0 _ _ ch

/-- Cutting an array into its windows: cut, gather, join. -/
def cutWindows (x : S64x64x64x96.Idx → α) : S16x16x16x64x96.Idx → α :=
  shapeCast S16x16x16x64x96
    (transpose S16x16x16x4x4x4x96 [0, 2, 4, 1, 3, 5, 6]
      (shapeCast S16x4x16x4x16x4x96 x shapeCasts_S64x64x64x96_S16x4x16x4x16x4x96)
      transposes_S16x4x16x4x16x4x96_S16x16x16x4x4x4x96_0_2_4_1_3_5_6)
    shapeCasts_S16x16x16x4x4x4x96_S16x16x16x64x96

/-- Window (a, b, c), token i, channel ch of the cut array. -/
theorem cutWindows_apply (x : S64x64x64x96.Idx → α) (a b c : Fin 16) (i : Fin 64) (ch : Fin 96) :
    cutWindows x (ix5 a b c i ch)
      = x (ix4 (Cert.Spec.pos a (Cert.Spec.t0 i)) (Cert.Spec.pos b (Cert.Spec.t1 i)) (Cert.Spec.pos c (Cert.Spec.t2 i)) ch) := by
  unfold cutWindows
  refine (flatten_apply _ _ a b c i ch).trans ?_
  refine (gather_apply _ _ a b c _ _ _ ch).trans ?_
  exact split_apply _ _ a _ b _ c _ ch

end PreTerm

/-! ## The three stretches of lines, each from any contents -/

section Stretches
variable (W : Valuation τ sig (Elt Ideal))

/-- The first line drops the input's unit axis. -/
theorem stretch0_v0 :
    (StableHlo.after hostOps0 W (Proc.devRef .tc main_v0) : S64x64x64x96.Idx → EReal)
      = shapeCast S64x64x64x96 (W (Proc.devRef .tc main_arg0) : S1x64x64x64x96.Idx → EReal) shapeCasts_S1x64x64x64x96_S64x64x64x96 := by
  after_results
  rfl

/-- The next nine shift it on the three axes. -/
theorem stretch1_v1 :
    (StableHlo.after hostOps0_1 W (Proc.devRef .tc main_v1) : S64x64x64x96.Idx → EReal)
      = shiftFwd (W (Proc.devRef .tc main_v0) : S64x64x64x96.Idx → EReal) := by
  after_results
  simp only [StableHlo.TRef.ofBuf, StableHlo.TRef.toBuf, cast_eq]
  rfl

/-- The last three cut it into windows. -/
theorem stretch2_v4 :
    (StableHlo.after hostOps0_2 W (Proc.devRef .tc main_v4) : S16x16x16x64x96.Idx → EReal)
      = cutWindows (W (Proc.devRef .tc main_v1) : S64x64x64x96.Idx → EReal) := by
  after_results
  rfl

end Stretches

/-! ## What the region finds -/

/-- Window (a, b, cc), token i, channel ch of the array the region's first two windows read is the shifted input's window. -/
theorem pre_v4 (m : (ℓ : Loc nD τ sig) → Buf (Elt Ideal) ℓ) (c : Dev nD) (a b cc : Fin 16) (i : Fin 64) (ch : Fin 96) :
    StableHlo.after (List.flatten [hostOps0, hostOps0_1, hostOps0_2]) (fun r => m (c, r)) (Proc.devRef .tc main_v4) (ix5 a b cc i ch)
      = Cert.Spec.win (m ((c.tc : Thread nD τ).loc main_arg0)) a b cc i ch := by
  rw [List.flatten_cons, List.flatten_cons, List.flatten_cons, List.flatten_nil, List.append_nil,
    StableHlo.after_append, StableHlo.after_append]
  refine (congrFun (stretch2_v4 _) (ix5 a b cc i ch)).trans ?_
  refine (cutWindows_apply _ a b cc i ch).trans ?_
  refine (congrFun (stretch1_v1 _) _).trans ?_
  refine (shiftFwd_apply _ _ _ _ ch).trans ?_
  refine (congrFun (stretch0_v0 _) _).trans ?_
  exact dropUnit_apply _ _ _ _ _ ch

/-! ## The arguments are as the launch has them -/

theorem pre_arg0 (m : (ℓ : Loc nD τ sig) → Buf (Elt Ideal) ℓ) (c : Dev nD) :
    StableHlo.after (List.flatten [hostOps0, hostOps0_1, hostOps0_2]) (fun r => m (c, r)) (Proc.devRef .tc main_arg0)
      = m ((c.tc : Thread nD τ).loc main_arg0) := by
  simp only [Gen.hostOps0, Gen.hostOps0_1, Gen.hostOps0_2, List.flatten_cons, List.flatten_nil, List.append_nil, List.cons_append, List.nil_append]
  after_results <;> rfl

theorem pre_arg1 (m : (ℓ : Loc nD τ sig) → Buf (Elt Ideal) ℓ) (c : Dev nD) :
    StableHlo.after (List.flatten [hostOps0, hostOps0_1, hostOps0_2]) (fun r => m (c, r)) (Proc.devRef .tc main_arg1)
      = m ((c.tc : Thread nD τ).loc main_arg1) := by
  simp only [Gen.hostOps0, Gen.hostOps0_1, Gen.hostOps0_2, List.flatten_cons, List.flatten_nil, List.append_nil, List.cons_append, List.nil_append]
  after_results <;> rfl

theorem pre_arg2 (m : (ℓ : Loc nD τ sig) → Buf (Elt Ideal) ℓ) (c : Dev nD) :
    StableHlo.after (List.flatten [hostOps0, hostOps0_1, hostOps0_2]) (fun r => m (c, r)) (Proc.devRef .tc main_arg2)
      = m ((c.tc : Thread nD τ).loc main_arg2) := by
  simp only [Gen.hostOps0, Gen.hostOps0_1, Gen.hostOps0_2, List.flatten_cons, List.flatten_nil, List.append_nil, List.cons_append, List.nil_append]
  after_results <;> rfl

theorem pre_arg3 (m : (ℓ : Loc nD τ sig) → Buf (Elt Ideal) ℓ) (c : Dev nD) :
    StableHlo.after (List.flatten [hostOps0, hostOps0_1, hostOps0_2]) (fun r => m (c, r)) (Proc.devRef .tc main_arg3)
      = m ((c.tc : Thread nD τ).loc main_arg3) := by
  simp only [Gen.hostOps0, Gen.hostOps0_1, Gen.hostOps0_2, List.flatten_cons, List.flatten_nil, List.append_nil, List.cons_append, List.nil_append]
  after_results <;> rfl

theorem pre_arg4 (m : (ℓ : Loc nD τ sig) → Buf (Elt Ideal) ℓ) (c : Dev nD) :
    StableHlo.after (List.flatten [hostOps0, hostOps0_1, hostOps0_2]) (fun r => m (c, r)) (Proc.devRef .tc main_arg4)
      = m ((c.tc : Thread nD τ).loc main_arg4) := by
  simp only [Gen.hostOps0, Gen.hostOps0_1, Gen.hostOps0_2, List.flatten_cons, List.flatten_nil, List.append_nil, List.cons_append, List.nil_append]
  after_results <;> rfl

theorem pre_arg5 (m : (ℓ : Loc nD τ sig) → Buf (Elt Ideal) ℓ) (c : Dev nD) :
    StableHlo.after (List.flatten [hostOps0, hostOps0_1, hostOps0_2]) (fun r => m (c, r)) (Proc.devRef .tc main_arg5)
      = m ((c.tc : Thread nD τ).loc main_arg5) := by
  simp only [Gen.hostOps0, Gen.hostOps0_1, Gen.hostOps0_2, List.flatten_cons, List.flatten_nil, List.append_nil, List.cons_append, List.nil_append]
  after_results <;> rfl

theorem pre_arg6 (m : (ℓ : Loc nD τ sig) → Buf (Elt Ideal) ℓ) (c : Dev nD) :
    StableHlo.after (List.flatten [hostOps0, hostOps0_1, hostOps0_2]) (fun r => m (c, r)) (Proc.devRef .tc main_arg6)
      = m ((c.tc : Thread nD τ).loc main_arg6) := by
  simp only [Gen.hostOps0, Gen.hostOps0_1, Gen.hostOps0_2, List.flatten_cons, List.flatten_nil, List.append_nil, List.cons_append, List.nil_append]
  after_results <;> rfl

end Cert.KernelIdeal.Hand

end
-- ==== Proof.KIArray.lean ====
/-
  From the kernel's blocks to its output array. The kernel body runs once at each point of a 16 x 16 grid; at the point with
  coordinates (iy, iz) the source block holds windows (iy, iz, a) of the shifted input, the block of the windows
  themselves and the output block hold windows (a, iy, iz), for a below 16. So the output block at (iy, iz) is
  block (·, iy, iz) of ONE function of the argument arrays: index (a, b, c, i, o) holds window (a, b, c)'s result at
  token i and channel o, with queries and keys from window (b, c, a). The blocks cover the array, so the array ends
  holding that function.
-/
import proofs.«139805_j20143396618483_1_alg».proof.Proof.KIData
import proofs.«139805_j20143396618483_1_alg».proof.Proof.KIPayload
import proofs.«139805_j20143396618483_1_alg».proof.Proof.KIHostPre
import proofs.«139805_j20143396618483_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## The index maps at a grid point -/

/-- A grid coordinate passes through its 32-bit word unchanged. -/
theorem toNat_coord (n : Nat) (h : n < 16) : (BitVec.ofNat 32 n).toNat = n := by
  rw [BitVec.toNat_ofNat]; exact Nat.mod_eq_of_lt (by omega)

/-- The three moving windows' block indices at point t, axis by axis, in the point's two coordinates:
    the source's is (iy, iz, 0, 0, 0), the own windows' and the output's (0, iy, iz, 0, 0). -/
theorem idx_facts : ∀ t : Fin cfg0.N,
    win0_0.index t (0 : Fin 5) = (grid0.coords t 0).val ∧ win0_0.index t (1 : Fin 5) = (grid0.coords t 1).val
    ∧ win0_0.index t (2 : Fin 5) = 0 ∧ win0_0.index t (3 : Fin 5) = 0 ∧ win0_0.index t (4 : Fin 5) = 0
    ∧ win0_1.index t (0 : Fin 5) = 0 ∧ win0_1.index t (1 : Fin 5) = (grid0.coords t 0).val
    ∧ win0_1.index t (2 : Fin 5) = (grid0.coords t 1).val ∧ win0_1.index t (3 : Fin 5) = 0 ∧ win0_1.index t (4 : Fin 5) = 0
    ∧ win0_7.index t (0 : Fin 5) = 0 ∧ win0_7.index t (1 : Fin 5) = (grid0.coords t 0).val
    ∧ win0_7.index t (2 : Fin 5) = (grid0.coords t 1).val ∧ win0_7.index t (3 : Fin 5) = 0 ∧ win0_7.index t (4 : Fin 5) = 0 := by
  first
  | (intro t
     have h0 : (grid0.coords t 0).val < 16 := (grid0.coords t 0).isLt
     have h1 : (grid0.coords t 1).val < 16 := (grid0.coords t 1).isLt
     have e0 : win0_0.index t = ![(grid0.coords t 0).val, (grid0.coords t 1).val, 0, 0, 0] := by
       show cc0_transform_0 (grid0.coords t) = _
       unfold cc0_transform_0
       simp only [toNat_coord _ h0, toNat_coord _ h1]
       rfl
     have e1 : win0_1.index t = ![0, (grid0.coords t 0).val, (grid0.coords t 1).val, 0, 0] := by
       show cc0_transform_1 (grid0.coords t) = _
       unfold cc0_transform_1
       simp only [toNat_coord _ h0, toNat_coord _ h1]
       rfl
     have e7 : win0_7.index t = ![0, (grid0.coords t 0).val, (grid0.coords t 1).val, 0, 0] := by
       show cc0_transform_7 (grid0.coords t) = _
       unfold cc0_transform_7
       simp only [toNat_coord _ h0, toNat_coord _ h1]
       rfl
     exact ⟨congrFun e0 0, congrFun e0 1, congrFun e0 2, congrFun e0 3, congrFun e0 4,
       congrFun e1 0, congrFun e1 1, congrFun e1 2, congrFun e1 3, congrFun e1 4,
       congrFun e7 0, congrFun e7 1, congrFun e7 2, congrFun e7 3, congrFun e7 4⟩)
  | exact (by decide +kernel : ∀ t : Fin grid0.N, _)

/-- The whole-array windows' block indices are zero at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0 := by
  first
  | exact fun _ => ⟨rfl, rfl, rfl, rfl, rfl, rfl, rfl, rfl, rfl⟩
  | exact (by decide +kernel : ∀ t : Fin grid0.N, _)

/-- Every pair of coordinates is some point's: the point 16 b + c has coordinates (b, c). -/
theorem coords_onto : ∀ (b c : Fin 16), ∃ t : Fin cfg0.N, (grid0.coords t 0).val = b.val ∧ (grid0.coords t 1).val = c.val := by
  first
  | (intro b c
     have hN : grid0.N = 256 := by decide
     have hb : b.val < 16 := b.isLt
     have hc : c.val < 16 := c.isLt
     refine ⟨⟨16 * b.val + c.val, by show _ < grid0.N; rw [hN]; omega⟩, ?_, ?_⟩
     · show (16 * b.val + c.val) / grid0.stride 0 % 16 = b.val
       rw [show grid0.stride 0 = 16 from by decide]; omega
     · show (16 * b.val + c.val) / grid0.stride 1 % 16 = c.val
       rw [show grid0.stride 1 = 1 from by decide]; omega)
  | exact (by decide +kernel : ∀ (b c : Fin 16), ∃ t : Fin grid0.N, (grid0.coords t 0).val = b.val ∧ (grid0.coords t 1).val = c.val)
/-! ## The output's blocks cover its array -/

/-- An index of the output array is in point t's block iff each coordinate is in the block's range on its axis. -/
theorem mem_blk7 (t : Fin cfg0.N) (i : S16x16x16x64x96.Idx) :
    i ∈ ((cfg0.win 7).blk t).view.set ↔ ∀ a : Fin 5, win0_7.index t a * S16x1x1x64x96.size a ≤ (i a).val ∧ (i a).val < win0_7.index t a * S16x1x1x64x96.size a + S16x1x1x64x96.size a := by
  show i ∈ ((View.whole main_v5).slice (win0_7.rect t)).set ↔ _
  rw [View.set_slice_whole, Rect.mem_set_unit]
  exact Iff.rfl

/-- The point with coordinates (b, c) covers output index (a, b, c, i, o). -/
theorem cover7 (i : S16x16x16x64x96.Idx) : ∃ t : Fin cfg0.N, (cfg0.win 7).flush t = true ∧ i ∈ ((cfg0.win 7).blk t).view.set := by
  obtain ⟨t, h0, h1⟩ := coords_onto (i 1) (i 2)
  refine ⟨t, flush0_7 t, ?_⟩
  rw [mem_blk7]
  obtain ⟨-, -, -, -, -, -, -, -, -, -, e0, e1, e2, e3, e4⟩ := idx_facts t
  have hi0 : (i 0).val < 16 := (i 0).isLt; have hi3 : (i 3).val < 64 := (i 3).isLt; have hi4 : (i 4).val < 96 := (i 4).isLt
  intro a
  match a with
  | ⟨0, _⟩ => show win0_7.index t (0 : Fin 5) * 16 ≤ (i 0).val ∧ (i 0).val < win0_7.index t (0 : Fin 5) * 16 + 16; rw [e0]; omega
  | ⟨1, _⟩ => show win0_7.index t (1 : Fin 5) * 1 ≤ (i 1).val ∧ (i 1).val < win0_7.index t (1 : Fin 5) * 1 + 1; rw [e1]; omega
  | ⟨2, _⟩ => show win0_7.index t (2 : Fin 5) * 1 ≤ (i 2).val ∧ (i 2).val < win0_7.index t (2 : Fin 5) * 1 + 1; rw [e2]; omega
  | ⟨3, _⟩ => show win0_7.index t (3 : Fin 5) * 64 ≤ (i 3).val ∧ (i 3).val < win0_7.index t (3 : Fin 5) * 64 + 64; rw [e3]; omega
  | ⟨4, _⟩ => show win0_7.index t (4 : Fin 5) * 96 ≤ (i 4).val ∧ (i 4).val < win0_7.index t (4 : Fin 5) * 96 + 96; rw [e4]; omega

variable (m : (ℓ : Loc nD τ sig) → Buf (Elt Ideal) ℓ) (ρ : Dev nD → PrngReg)

/-- The output array as one function: index (a, b, c, i, o) holds window (a, b, c)'s result at token i, channel o. -/
def GK (c : Dev nD) : S16x16x16x64x96.Idx → EReal := fun y =>
  Cert.Spec.outWin (m ((c.tc : Thread nD τ).loc main_arg0))
    (fun e k => m ((c.tc : Thread nD τ).loc main_arg1) (ix2 e k))
    (fun o k => m ((c.tc : Thread nD τ).loc main_arg2) (ix2 o k))
    (fun o => m ((c.tc : Thread nD τ).loc main_arg3) (ix1 o))
    (fun i k => m ((c.tc : Thread nD τ).loc main_arg4) (ix2 i k))
    (fun i k => m ((c.tc : Thread nD τ).loc main_arg5) (ix2 i k))
    (y 0) (y 1) (y 2) (y 3) (y 4)

theorem hz5 : (![0, 0, 0, 0, 0] : Fin 5 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body's value at a point, from blocks that hold what the arrays hold: window (a, iy, iz)'s result. -/
theorem point_eq (i : grid0.Coords) (x : S1x64x64x64x96.Idx → EReal)
    (wqkv : Fin 288 → Fin 96 → EReal) (wout : Fin 96 → Fin 96 → EReal) (bout : Fin 96 → EReal) (mx my : Fin 64 → Fin 64 → EReal)
    (x0 : Vec Ideal S1x1x16x64x96 .f32) (x1 : Vec Ideal S16x1x1x64x96 .f32) (x2 : Vec Ideal S288x96 .f32)
    (x3 : Vec Ideal S96x96 .f32) (x4 : Vec Ideal S96 .f32) (x5 : Vec Ideal S64x64 .f32) (x6 : Vec Ideal S64x64 .f32)
    (h0 : ∀ (a : Fin 16) (t : Fin 64) (ch : Fin 96), x0 (ix5 0 0 a t ch) = Cert.Spec.win x (i 0) (i 1) a t ch)
    (h1 : ∀ (a : Fin 16) (t : Fin 64) (ch : Fin 96), x1 (ix5 a 0 0 t ch) = Cert.Spec.win x a (i 0) (i 1) t ch)
    (h2 : ∀ e k, x2 (ix2 e k) = wqkv e k) (h3 : ∀ o k, x3 (ix2 o k) = wout o k) (h4 : ∀ o, x4 (ix1 o) = bout o)
    (h5 : ∀ p q, x5 (ix2 p q) = mx p q) (h6 : ∀ p q, x6 (ix2 p q) = my p q)
    (j : S16x1x1x64x96.Idx) :
    bodyVal (F := Ideal) i x2 x0 x1 x5 x6 x3 x4 j = Cert.Spec.outWin x wqkv wout bout mx my (j 0) (i 0) (i 1) (j 3) (j 4) := by
  obtain ⟨a, t, o, rfl⟩ : ∃ (a : Fin 16) (t : Fin 64) (o : Fin 96), j = ix5 a 0 0 t o :=
    ⟨j 0, j 3, j 4, funext fun ax => by
      match ax with
      | ⟨0, _⟩ => rfl
      | ⟨1, _⟩ => exact Subsingleton.elim (α := Fin 1) _ _
      | ⟨2, _⟩ => exact Subsingleton.elim (α := Fin 1) _ _
      | ⟨3, _⟩ => rfl
      | ⟨4, _⟩ => rfl⟩
  rw [bodyVal_apply]
  unfold Cert.Spec.outWin
  simp only [h0, h1, h2, h3, h4, h5, h6]

/-! ## The blocks the body loads, read off the arrays -/

/-- A window's block at a point is the point's block of the window's array as the region finds it. -/
theorem iblk_eq_read (c : Dev nD) (w : Fin cfg0.W) (t : Fin cfg0.N) :
    iblk m c w t = ((cfg0.win w).blk t).view.read (Elt Ideal) (V m c (Pipeline.arrRef spec0 w)) := rfl

/-- The source block at point t is block (iy, iz, ·) of its array. -/
theorem blk0_read (A : S16x16x16x64x96.Idx → EReal) (t : Fin cfg0.N) (y : S1x1x16x64x96.Idx) (k : S16x16x16x64x96.Idx)
    (hk0 : (k 0).val = (grid0.coords t 0).val) (hk1 : (k 1).val = (grid0.coords t 1).val)
    (hk2 : (k 2).val = (y 2).val) (hk3 : (k 3).val = (y 3).val) (hk4 : (k 4).val = (y 4).val) :
    ((cfg0.win 0).blk t).view.read (Elt Ideal) A y = A k := by
  obtain ⟨e0, e1, e2, e3, e4, -⟩ := idx_facts t
  have y0 : (y 0).val < 1 := (y 0).isLt
  have y1 : (y 1).val < 1 := (y 1).isLt
  show A (((cfg0.win 0).blk t).view.emb y) = A k
  refine congrArg A (funext fun a => Fin.ext ?_)
  match a with
  | ⟨0, _⟩ => show win0_0.index t (0 : Fin 5) * 1 + 1 * (y 0).val = (k 0).val; omega
  | ⟨1, _⟩ => show win0_0.index t (1 : Fin 5) * 1 + 1 * (y 1).val = (k 1).val; omega
  | ⟨2, _⟩ => show win0_0.index t (2 : Fin 5) * 16 + 1 * (y 2).val = (k 2).val; omega
  | ⟨3, _⟩ => show win0_0.index t (3 : Fin 5) * 64 + 1 * (y 3).val = (k 3).val; omega
  | ⟨4, _⟩ => show win0_0.index t (4 : Fin 5) * 96 + 1 * (y 4).val = (k 4).val; omega

/-- The own windows' block at point t is block (·, iy, iz) of its array. -/
theorem blk1_read (A : S16x16x16x64x96.Idx → EReal) (t : Fin cfg0.N) (y : S16x1x1x64x96.Idx) (k : S16x16x16x64x96.Idx)
    (hk0 : (k 0).val = (y 0).val) (hk1 : (k 1).val = (grid0.coords t 0).val) (hk2 : (k 2).val = (grid0.coords t 1).val)
    (hk3 : (k 3).val = (y 3).val) (hk4 : (k 4).val = (y 4).val) :
    ((cfg0.win 1).blk t).view.read (Elt Ideal) A y = A k := by
  obtain ⟨-, -, -, -, -, e0, e1, e2, e3, e4, -⟩ := idx_facts t
  have y1 : (y 1).val < 1 := (y 1).isLt
  have y2 : (y 2).val < 1 := (y 2).isLt
  show A (((cfg0.win 1).blk t).view.emb y) = A k
  refine congrArg A (funext fun a => Fin.ext ?_)
  match a with
  | ⟨0, _⟩ => show win0_1.index t (0 : Fin 5) * 16 + 1 * (y 0).val = (k 0).val; omega
  | ⟨1, _⟩ => show win0_1.index t (1 : Fin 5) * 1 + 1 * (y 1).val = (k 1).val; omega
  | ⟨2, _⟩ => show win0_1.index t (2 : Fin 5) * 1 + 1 * (y 2).val = (k 2).val; omega
  | ⟨3, _⟩ => show win0_1.index t (3 : Fin 5) * 64 + 1 * (y 3).val = (k 3).val; omega
  | ⟨4, _⟩ => show win0_1.index t (4 : Fin 5) * 96 + 1 * (y 4).val = (k 4).val; omega

/-- The source block holds the shifted input's windows (iy, iz, a). -/
theorem iblk0_apply (c : Dev nD) (t : Fin cfg0.N) (a : Fin 16) (tk : Fin 64) (ch : Fin 96) :
    (iblk m c 0 t : Vec Ideal S1x1x16x64x96 .f32) (ix5 (0 : Fin 1) (0 : Fin 1) a tk ch)
      = Cert.Spec.win (m ((c.tc : Thread nD τ).loc main_arg0)) (grid0.coords t 0) (grid0.coords t 1) a tk ch := by
  rw [iblk_eq_read]
  exact (blk0_read (V m c (Pipeline.arrRef spec0 0)) t (ix5 (0 : Fin 1) (0 : Fin 1) a tk ch)
      (ix5 (grid0.coords t 0 : Fin 16) (grid0.coords t 1 : Fin 16) a tk ch) rfl rfl rfl rfl rfl).trans
    (pre_v4 m c (grid0.coords t 0) (grid0.coords t 1) a tk ch)

/-- The own windows' block holds the shifted input's windows (a, iy, iz). -/
theorem iblk1_apply (c : Dev nD) (t : Fin cfg0.N) (a : Fin 16) (tk : Fin 64) (ch : Fin 96) :
    (iblk m c 1 t : Vec Ideal S16x1x1x64x96 .f32) (ix5 a (0 : Fin 1) (0 : Fin 1) tk ch)
      = Cert.Spec.win (m ((c.tc : Thread nD τ).loc main_arg0)) a (grid0.coords t 0) (grid0.coords t 1) tk ch := by
  rw [iblk_eq_read]
  exact (blk1_read (V m c (Pipeline.arrRef spec0 1)) t (ix5 a (0 : Fin 1) (0 : Fin 1) tk ch)
      (ix5 a (grid0.coords t 0 : Fin 16) (grid0.coords t 1 : Fin 16) tk ch) rfl rfl rfl rfl rfl).trans
    (pre_v4 m c a (grid0.coords t 0) (grid0.coords t 1) tk ch)

/-- The joined weights' block is the whole array: read through it, an array is itself; and the array is as the launch has it. -/
theorem blk2_read (A : S288x96.Idx → EReal) (t : Fin cfg0.N) :
    ((cfg0.win 2).blk t).view.read (Elt Ideal) A = A := by
  obtain ⟨e0, e1, -⟩ := idx_whole t
  funext y
  show A (((cfg0.win 2).blk t).view.emb y) = A y
  refine congrArg A (funext fun a => Fin.ext ?_)
  match a with
  | ⟨0, _⟩ => show win0_2.index t (0 : Fin 2) * 288 + 1 * (y 0).val = (y 0).val; omega
  | ⟨1, _⟩ => show win0_2.index t (1 : Fin 2) * 96 + 1 * (y 1).val = (y 1).val; omega

theorem iblk2_eq (c : Dev nD) (t : Fin cfg0.N) :
    (iblk m c 2 t : Vec Ideal S288x96 .f32) = (m ((c.tc : Thread nD τ).loc main_arg1) : S288x96.Idx → EReal) := by
  rw [iblk_eq_read]
  exact (blk2_read (V m c (Pipeline.arrRef spec0 2)) t).trans (pre_arg1 m c)

/-- The output weights' block is the whole array. -/
theorem blk3_read (A : S96x96.Idx → EReal) (t : Fin cfg0.N) :
    ((cfg0.win 3).blk t).view.read (Elt Ideal) A = A := by
  obtain ⟨-, -, e0, e1, -⟩ := idx_whole t
  funext y
  show A (((cfg0.win 3).blk t).view.emb y) = A y
  refine congrArg A (funext fun a => Fin.ext ?_)
  match a with
  | ⟨0, _⟩ => show win0_3.index t (0 : Fin 2) * 96 + 1 * (y 0).val = (y 0).val; omega
  | ⟨1, _⟩ => show win0_3.index t (1 : Fin 2) * 96 + 1 * (y 1).val = (y 1).val; omega

theorem iblk3_eq (c : Dev nD) (t : Fin cfg0.N) :
    (iblk m c 3 t : Vec Ideal S96x96 .f32) = (m ((c.tc : Thread nD τ).loc main_arg2) : S96x96.Idx → EReal) := by
  rw [iblk_eq_read]
  exact (blk3_read (V m c (Pipeline.arrRef spec0 3)) t).trans (pre_arg2 m c)

/-- The bias block is the whole array. -/
theorem blk4_read (A : S96.Idx → EReal) (t : Fin cfg0.N) :
    ((cfg0.win 4).blk t).view.read (Elt Ideal) A = A := by
  obtain ⟨-, -, -, -, e0, -⟩ := idx_whole t
  funext y
  show A (((cfg0.win 4).blk t).view.emb y) = A y
  refine congrArg A (funext fun a => Fin.ext ?_)
  match a with
  | ⟨0, _⟩ => show win0_4.index t (0 : Fin 1) * 96 + 1 * (y 0).val = (y 0).val; omega

theorem iblk4_eq (c : Dev nD) (t : Fin cfg0.N) :
    (iblk m c 4 t : Vec Ideal S96 .f32) = (m ((c.tc : Thread nD τ).loc main_arg3) : S96.Idx → EReal) := by
  rw [iblk_eq_read]
  exact (blk4_read (V m c (Pipeline.arrRef spec0 4)) t).trans (pre_arg3 m c)

/-- The first mask's block is the whole array. -/
theorem blk5_read (A : S64x64.Idx → EReal) (t : Fin cfg0.N) :
    ((cfg0.win 5).blk t).view.read (Elt Ideal) A = A := by
  obtain ⟨-, -, -, -, -, e0, e1, -⟩ := idx_whole t
  funext y
  show A (((cfg0.win 5).blk t).view.emb y) = A y
  refine congrArg A (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem iblk5_eq (c : Dev nD) (t : Fin cfg0.N) :
    (iblk m c 5 t : Vec Ideal S64x64 .f32) = (m ((c.tc : Thread nD τ).loc main_arg4) : S64x64.Idx → EReal) := by
  rw [iblk_eq_read]
  exact (blk5_read (V m c (Pipeline.arrRef spec0 5)) t).trans (pre_arg4 m c)

/-- The second mask's block is the whole array. -/
theorem blk6_read (A : S64x64.Idx → EReal) (t : Fin cfg0.N) :
    ((cfg0.win 6).blk t).view.read (Elt Ideal) A = A := by
  obtain ⟨-, -, -, -, -, -, -, e0, e1⟩ := idx_whole t
  funext y
  show A (((cfg0.win 6).blk t).view.emb y) = A y
  refine congrArg A (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem iblk6_eq (c : Dev nD) (t : Fin cfg0.N) :
    (iblk m c 6 t : Vec Ideal S64x64 .f32) = (m ((c.tc : Thread nD τ).loc main_arg5) : S64x64.Idx → EReal) := by
  rw [iblk_eq_read]
  exact (blk6_read (V m c (Pipeline.arrRef spec0 6)) t).trans (pre_arg5 m c)
/-! ## What a point writes back -/

/-- Index j of point t's output block is index (j0, iy, iz, j3, j4) of the output array. -/
theorem emb7 (t : Fin cfg0.N) (j : S16x1x1x64x96.Idx) :
    (((cfg0.win 7).blk t).view.emb j : S16x16x16x64x96.Idx)
      = ix5 (j 0 : Fin 16) (grid0.coords t 0 : Fin 16) (grid0.coords t 1 : Fin 16) (j 3 : Fin 64) (j 4 : Fin 96) := by
  obtain ⟨-, -, -, -, -, -, -, -, -, -, e0, e1, e2, e3, e4⟩ := idx_facts t
  have j1 : (j 1).val < 1 := (j 1).isLt
  have j2 : (j 2).val < 1 := (j 2).isLt
  funext a; apply Fin.ext
  match a with
  | ⟨0, _⟩ => show win0_7.index t (0 : Fin 5) * 16 + 1 * (j 0).val = (j 0).val; omega
  | ⟨1, _⟩ => show win0_7.index t (1 : Fin 5) * 1 + 1 * (j 1).val = (grid0.coords t 0).val; omega
  | ⟨2, _⟩ => show win0_7.index t (2 : Fin 5) * 1 + 1 * (j 2).val = (grid0.coords t 1).val; omega
  | ⟨3, _⟩ => show win0_7.index t (3 : Fin 5) * 64 + 1 * (j 3).val = (j 3).val; omega
  | ⟨4, _⟩ => show win0_7.index t (4 : Fin 5) * 96 + 1 * (j 4).val = (j 4).val; omega

/-- WHAT POINT t WRITES BACK is its block of the one function GK. -/
theorem flushed_eq (c : Dev nD) (t : Fin cfg0.N) :
    (dats m 0 c).flushed 7 t = ((cfg0.win 7).blk t).view.read (Elt Ideal) (GK m c) := by
  show (cfg0.win 7).cut (grid0.coords t) ((dats m 0 c).after 7 t) = _
  rw [after0_7]
  unfold out0_7
  rw [View.canon_unit_zero hz5]
  simp only [View.ld_unit_zero (S := S1x1x16x64x96) hz5, View.ld_unit_zero (S := S16x1x1x64x96) hz5,
    View.ld_unit_zero (S := S288x96) hz2, View.ld_unit_zero (S := S96x96) hz2, View.ld_unit_zero (S := S96) hz1,
    View.ld_unit_zero (S := S64x64) hz2]
  funext j
  show bodyVal (F := Ideal) (grid0.coords t) (iblk m c 2 t) (iblk m c 0 t) (iblk m c 1 t) (iblk m c 5 t) (iblk m c 6 t)
      (iblk m c 3 t) (iblk m c 4 t) j = GK m c (((cfg0.win 7).blk t).view.emb j)
  rw [emb7 t j]
  exact point_eq (grid0.coords t) (m ((c.tc : Thread nD τ).loc main_arg0)) _ _ _ _ _
    (iblk m c 0 t) (iblk m c 1 t) (iblk m c 2 t) (iblk m c 3 t) (iblk m c 4 t) (iblk m c 5 t) (iblk m c 6 t)
    (iblk0_apply m c t) (iblk1_apply m c t)
    (fun e k => congrFun (iblk2_eq m c t) (ix2 e k)) (fun o k => congrFun (iblk3_eq m c t) (ix2 o k))
    (fun o => congrFun (iblk4_eq m c t) (ix1 o))
    (fun p q => congrFun (iblk5_eq m c t) (ix2 p q)) (fun p q => congrFun (iblk6_eq m c t) (ix2 p q)) j

/-- THE OUTPUT ARRAY after the region: GK, every index being in the block of the point with its two middle coordinates. -/
theorem final7 (c : Dev nD) : (dats m 0 c).arrAt 7 cfg0.N = GK m c :=
  (dats m 0 c).arrAt_eq_of_cover 7 (GK m c) (fun t _ => flushed_eq m c t) cover7

end Cert.KernelIdeal.Hand
end
-- ==== Proof.LibReshape.lean ====
/-
  Row-major positions at ranks seven to nine, spelt out.

  The position of a multi-index in row-major order is the nested sum
  ((…(i₀ · d₁ + i₁) · d₂ + i₂) …) · dₙ₋₁ + iₙ₋₁. Two shapes with the same number of elements are reshaped into one
  another by keeping this position, so an index of one shape is related to the index of the other by one linear
  equation between two such sums. With every extent a numeral the equation is one of linear arithmetic: a
  coordinate 4·a + p of an axis of extent 64 splits into a block a of sixteen and a place p of four.
-/
import Idealize.ShloMosaic.Lib.ValueIdxRank6
import Idealize.ShloMosaic.Lib.Pipeline.Value

namespace Cert.LibReshape

open Idealize.ShloMosaic Idealize.ShloMosaic.ValueIdx

/-! ## The position as a nested sum, for any extents -/

/-- Rank 7: the row-major position as one nested sum of products, the leading coordinate innermost. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one nested sum of products, the leading coordinate innermost. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val, Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- Rank 9: the row-major position as one nested sum of products, the leading coordinate innermost. -/
theorem rowMajor_val_nine {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5 + (i 5).val) * d 6 + (i 6).val) * d 7 + (i 7).val) * d 8 + (i 8).val := by
  show (Shape.rowMajorPi d i).val = _
  rw [Shape.rowMajorPi_succ_val, Shape.rowMajorPi_succ_val, Shape.rowMajorPi_succ_val, Shape.rowMajorPi_succ_val, Shape.rowMajorPi_succ_val, Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## Indices of ranks seven to nine by their coordinates -/

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun z => match z with | ⟨0, _⟩ => a | ⟨1, _⟩ => b | ⟨2, _⟩ => c | ⟨3, _⟩ => d | ⟨4, _⟩ => e | ⟨5, _⟩ => f | ⟨6, _⟩ => g
/-- Every rank-7 index is `ix7` of its coordinates. -/
theorem eq_ix7 {n0 n1 n2 n3 n4 n5 n6 : Nat} (j : (⟨7, ![n0, n1, n2, n3, n4, n5, n6]⟩ : Shape).Idx) :
    j = ix7 (j 0) (j 1) (j 2) (j 3) (j 4) (j 5) (j 6) := by
  funext z; match z with | ⟨0, _⟩ => rfl | ⟨1, _⟩ => rfl | ⟨2, _⟩ => rfl | ⟨3, _⟩ => rfl | ⟨4, _⟩ => rfl | ⟨5, _⟩ => rfl | ⟨6, _⟩ => rfl

/-- A rank-8 index from its coordinates. -/
abbrev ix8 {n0 n1 n2 n3 n4 n5 n6 n7 : Nat} (a : Fin n0) (b : Fin n1) (c : Fin n2) (d : Fin n3) (e : Fin n4) (f : Fin n5) (g : Fin n6) (h : Fin n7) :
    (⟨8, ![n0, n1, n2, n3, n4, n5, n6, n7]⟩ : Shape).Idx :=
  fun z => match z with | ⟨0, _⟩ => a | ⟨1, _⟩ => b | ⟨2, _⟩ => c | ⟨3, _⟩ => d | ⟨4, _⟩ => e | ⟨5, _⟩ => f | ⟨6, _⟩ => g | ⟨7, _⟩ => h
/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext z; match z with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- A rank-9 index from its coordinates. -/
abbrev ix9 {n0 n1 n2 n3 n4 n5 n6 n7 n8 : Nat} (a : Fin n0) (b : Fin n1) (c : Fin n2) (d : Fin n3) (e : Fin n4) (f : Fin n5) (g : Fin n6) (h : Fin n7) (i : Fin n8) :
    (⟨9, ![n0, n1, n2, n3, n4, n5, n6, n7, n8]⟩ : Shape).Idx :=
  fun z => match z with | ⟨0, _⟩ => a | ⟨1, _⟩ => b | ⟨2, _⟩ => c | ⟨3, _⟩ => d | ⟨4, _⟩ => e | ⟨5, _⟩ => f | ⟨6, _⟩ => g | ⟨7, _⟩ => h | ⟨8, _⟩ => i
/-- Every rank-9 index is `ix9` of its coordinates. -/
theorem eq_ix9 {n0 n1 n2 n3 n4 n5 n6 n7 n8 : Nat} (j : (⟨9, ![n0, n1, n2, n3, n4, n5, n6, n7, n8]⟩ : Shape).Idx) :
    j = ix9 (j 0) (j 1) (j 2) (j 3) (j 4) (j 5) (j 6) (j 7) (j 8) := by
  funext z; match z with | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl

/-! ## The position over extents written as a vector

  The same sums with the extents `n₁ … nₙ₋₁` standing in them as they are: at numeral extents both sides of a
  reshape's position equation are then linear in the coordinates. -/

/-- Rank 4 over extents written as a vector: the position with the extents themselves as the factors. -/
theorem rowMajor_val_vec4 {n0 n1 n2 n3 : Nat} (j : (⟨4, ![n0, n1, n2, n3]⟩ : Shape).Idx) :
    ((⟨4, ![n0, n1, n2, n3]⟩ : Shape).rowMajor j).val
      = (((j 0).val * n1 + (j 1).val) * n2 + (j 2).val) * n3 + (j 3).val :=
  Shape.rowMajor_val_four j

/-- Rank 5 over extents written as a vector: the position with the extents themselves as the factors. -/
theorem rowMajor_val_vec5 {n0 n1 n2 n3 n4 : Nat} (j : (⟨5, ![n0, n1, n2, n3, n4]⟩ : Shape).Idx) :
    ((⟨5, ![n0, n1, n2, n3, n4]⟩ : Shape).rowMajor j).val
      = ((((j 0).val * n1 + (j 1).val) * n2 + (j 2).val) * n3 + (j 3).val) * n4 + (j 4).val :=
  Shape.rowMajor_val_five j

/-- Rank 6 over extents written as a vector: the position with the extents themselves as the factors. -/
theorem rowMajor_val_vec6 {n0 n1 n2 n3 n4 n5 : Nat} (j : (⟨6, ![n0, n1, n2, n3, n4, n5]⟩ : Shape).Idx) :
    ((⟨6, ![n0, n1, n2, n3, n4, n5]⟩ : Shape).rowMajor j).val
      = (((((j 0).val * n1 + (j 1).val) * n2 + (j 2).val) * n3 + (j 3).val) * n4 + (j 4).val) * n5 + (j 5).val :=
  Shape.rowMajor_val_six j

/-- Rank 7 over extents written as a vector: the position with the extents themselves as the factors. -/
theorem rowMajor_val_vec7 {n0 n1 n2 n3 n4 n5 n6 : Nat} (j : (⟨7, ![n0, n1, n2, n3, n4, n5, n6]⟩ : Shape).Idx) :
    ((⟨7, ![n0, n1, n2, n3, n4, n5, n6]⟩ : Shape).rowMajor j).val
      = ((((((j 0).val * n1 + (j 1).val) * n2 + (j 2).val) * n3 + (j 3).val) * n4 + (j 4).val) * n5 + (j 5).val) * n6 + (j 6).val :=
  rowMajor_val_seven j

/-- Rank 8 over extents written as a vector: the position with the extents themselves as the factors. -/
theorem rowMajor_val_vec8 {n0 n1 n2 n3 n4 n5 n6 n7 : Nat} (j : (⟨8, ![n0, n1, n2, n3, n4, n5, n6, n7]⟩ : Shape).Idx) :
    ((⟨8, ![n0, n1, n2, n3, n4, n5, n6, n7]⟩ : Shape).rowMajor j).val
      = (((((((j 0).val * n1 + (j 1).val) * n2 + (j 2).val) * n3 + (j 3).val) * n4 + (j 4).val) * n5 + (j 5).val) * n6 + (j 6).val) * n7 + (j 7).val :=
  rowMajor_val_eight j

/-- Rank 9 over extents written as a vector: the position with the extents themselves as the factors. -/
theorem rowMajor_val_vec9 {n0 n1 n2 n3 n4 n5 n6 n7 n8 : Nat} (j : (⟨9, ![n0, n1, n2, n3, n4, n5, n6, n7, n8]⟩ : Shape).Idx) :
    ((⟨9, ![n0, n1, n2, n3, n4, n5, n6, n7, n8]⟩ : Shape).rowMajor j).val
      = ((((((((j 0).val * n1 + (j 1).val) * n2 + (j 2).val) * n3 + (j 3).val) * n4 + (j 4).val) * n5 + (j 5).val) * n6 + (j 6).val) * n7 + (j 7).val) * n8 + (j 8).val :=
  rowMajor_val_nine j

/-! ## Two reshapes read at an index -/

variable {α : Type}

/-- A 64 × 64 × 64 grid of 96-vectors cut into blocks of four along each grid axis: the entry at block `(a, b, c)`,
    place `(p, q, r)`, channel `e` is the grid's entry at `(4a + p, 4b + q, 4c + r)`, channel `e`. -/
example (x : (⟨4, ![64, 64, 64, 96]⟩ : Shape).Idx → α)
    (h : (⟨4, ![64, 64, 64, 96]⟩ : Shape).ShapeCasts ⟨7, ![16, 4, 16, 4, 16, 4, 96]⟩)
    (a : Fin 16) (p : Fin 4) (b : Fin 16) (q : Fin 4) (c : Fin 16) (r : Fin 4) (e : Fin 96) :
    shapeCast ⟨7, ![16, 4, 16, 4, 16, 4, 96]⟩ x h (ix7 a p b q c r e)
      = x (ix4 (⟨4 * a.val + p.val, by omega⟩ : Fin 64) (⟨4 * b.val + q.val, by omega⟩ : Fin 64)
            (⟨4 * c.val + r.val, by omega⟩ : Fin 64) e) :=
  shapeCast_apply x h _ _ (by
    rw [rowMajor_val_vec4, rowMajor_val_vec7]
    show ((((4 * a.val + p.val) * 64 + (4 * b.val + q.val)) * 64 + (4 * c.val + r.val)) * 96 + e.val : Nat)
      = (((((a.val * 4 + p.val) * 16 + b.val) * 4 + q.val) * 16 + c.val) * 4 + r.val) * 96 + e.val
    omega)

/-- The same cut with a leading unit axis and the 96 channels split into three heads of 32. -/
example (x : (⟨5, ![1, 64, 64, 64, 96]⟩ : Shape).Idx → α)
    (h : (⟨5, ![1, 64, 64, 64, 96]⟩ : Shape).ShapeCasts ⟨9, ![1, 16, 4, 16, 4, 16, 4, 3, 32]⟩)
    (u : Fin 1) (a : Fin 16) (p : Fin 4) (b : Fin 16) (q : Fin 4) (c : Fin 16) (r : Fin 4) (g : Fin 3) (e : Fin 32) :
    shapeCast ⟨9, ![1, 16, 4, 16, 4, 16, 4, 3, 32]⟩ x h (ix9 u a p b q c r g e)
      = x (ix5 u (⟨4 * a.val + p.val, by omega⟩ : Fin 64) (⟨4 * b.val + q.val, by omega⟩ : Fin 64)
            (⟨4 * c.val + r.val, by omega⟩ : Fin 64) (⟨32 * g.val + e.val, by omega⟩ : Fin 96)) :=
  shapeCast_apply x h _ _ (by
    rw [rowMajor_val_vec5, rowMajor_val_vec9]
    show ((((u.val * 64 + (4 * a.val + p.val)) * 64 + (4 * b.val + q.val)) * 64 + (4 * c.val + r.val)) * 96
        + (32 * g.val + e.val) : Nat)
      = (((((((u.val * 16 + a.val) * 4 + p.val) * 16 + b.val) * 4 + q.val) * 16 + c.val) * 4 + r.val) * 3 + g.val) * 32
        + e.val
    omega)

end Cert.LibReshape
-- ==== Proof.KIHostPost.lean ====
/-
  The kernel program's host lines after its region, read at an index of the final result.

  The region leaves the windows' results as a 16 x 16 x 16 array of windows of 64 tokens of 96 channels. The
  host lines cut the token index into its three coordinates, interleave them with the window coordinates into a
  64 x 64 x 64 grid, shift the grid cyclically by 62 places on each axis and add a leading unit axis. The entry
  of the final result at grid position (X, Y, Z) is therefore the entry of the windows' array at the window and
  token of the position (X + 62, Y + 62, Z + 62), cyclically.
-/
import proofs.«139805_j20143396618483_1_alg».proof.Proof.Gen.KernelIdeal.Launch
import proofs.«139805_j20143396618483_1_alg».proof.Proof.Spec
import proofs.«139805_j20143396618483_1_alg».proof.Proof.LibRoll
import proofs.«139805_j20143396618483_1_alg».proof.Proof.LibReshape
import Idealize.ShloMosaic.Lib.Pipeline.Frame
import Idealize.ShloMosaic.Lib.StableHlo.Run

noncomputable section

namespace Cert.KernelIdeal.Hand

open Idealize.ShloMosaic Idealize.ShloMosaic.ValueIdx Cert.KernelIdeal Cert.KernelIdeal.Gen Cert.LibReshape

section Pure

variable {α : Type}

/-! ## The host lines as functions of the windows' array -/

/-- Windows of tokens to the grid: the token index cut into three coordinates, each put next to its window
    coordinate, and each such pair joined into one grid coordinate. -/
def toGrid (x : S16x16x16x64x96.Idx → α) : S64x64x64x96.Idx → α :=
  shapeCast S64x64x64x96
    (transpose S16x4x16x4x16x4x96 [0, 3, 1, 4, 2, 5, 6]
      (shapeCast S16x16x16x4x4x4x96 x shapeCasts_S16x16x16x64x96_S16x16x16x4x4x4x96)
      transposes_S16x16x16x4x4x4x96_S16x4x16x4x16x4x96_0_3_1_4_2_5_6)
    shapeCasts_S16x4x16x4x16x4x96_S64x64x64x96

/-- The cyclic shift by 62 places along the first grid axis: the last two planes, then the first 62. -/
def back0 (x : S64x64x64x96.Idx → α) : S64x64x64x96.Idx → α :=
  concatenate S64x64x64x96 0
    [⟨S2x64x64x96, extractStridedSlice S2x64x64x96 ![62, 0, 0, 0] x slices_S64x64x64x96_S2x64x64x96_62_0_0_0⟩,
     ⟨S62x64x64x96, extractStridedSlice S62x64x64x96 ![0, 0, 0, 0] x slices_S64x64x64x96_S62x64x64x96_0_0_0_0⟩]
    concatenates_S2x64x64x96_S62x64x64x96_S64x64x64x96_d0

/-- The same shift along the second grid axis. -/
def back1 (x : S64x64x64x96.Idx → α) : S64x64x64x96.Idx → α :=
  concatenate S64x64x64x96 1
    [⟨S64x2x64x96, extractStridedSlice S64x2x64x96 ![0, 62, 0, 0] x slices_S64x64x64x96_S64x2x64x96_0_62_0_0⟩,
     ⟨S64x62x64x96, extractStridedSlice S64x62x64x96 ![0, 0, 0, 0] x slices_S64x64x64x96_S64x62x64x96_0_0_0_0⟩]
    concatenates_S64x2x64x96_S64x62x64x96_S64x64x64x96_d1

/-- The same shift along the third grid axis. -/
def back2 (x : S64x64x64x96.Idx → α) : S64x64x64x96.Idx → α :=
  concatenate S64x64x64x96 2
    [⟨S64x64x2x96, extractStridedSlice S64x64x2x96 ![0, 0, 62, 0] x slices_S64x64x64x96_S64x64x2x96_0_0_62_0⟩,
     ⟨S64x64x62x96, extractStridedSlice S64x64x62x96 ![0, 0, 0, 0] x slices_S64x64x64x96_S64x64x62x96_0_0_0_0⟩]
    concatenates_S64x64x2x96_S64x64x62x96_S64x64x64x96_d2

/-- The leading unit axis. -/
def lead (x : S64x64x64x96.Idx → α) : S1x64x64x64x96.Idx → α :=
  broadcastInDim S1x64x64x64x96 ![1, 2, 3, 4] bcast_S64x64x64x96_S1x64x64x64x96_1_2_3_4 x

/-! ## Each of them read at an index -/

/-- The leading unit axis is dropped from the index. -/
theorem lead_apply (x : S64x64x64x96.Idx → α) (j : S1x64x64x64x96.Idx) :
    lead x j = x (ix4 (j 1) (j 2) (j 3) (j 4)) :=
  broadcastInDim_apply _ _ x j _ (fun a => match a with
    | ⟨0, _⟩ => rfl
    | ⟨1, _⟩ => rfl
    | ⟨2, _⟩ => rfl
    | ⟨3, _⟩ => rfl)

/-- The shift along the first axis reads 62 places further on, cyclically. -/
theorem back0_apply (x : S64x64x64x96.Idx → α) (X Y Z : Fin 64) (o : Fin 96) :
    back0 x (ix4 X Y Z o) = x (ix4 (Spec.bwd X) Y Z o) :=
  Cert.LibRoll.concatenate_slices_roll_apply 0 62 _ _ x _ _ _ (by intro b; fin_cases b <;> rfl)
    (by intro b; fin_cases b <;> rfl) rfl _ _ (fun b => match b with
      | ⟨0, _⟩ => fun h => absurd rfl h
      | ⟨1, _⟩ => fun _ => rfl
      | ⟨2, _⟩ => fun _ => rfl
      | ⟨3, _⟩ => fun _ => rfl) rfl

/-- The shift along the second axis. -/
theorem back1_apply (x : S64x64x64x96.Idx → α) (X Y Z : Fin 64) (o : Fin 96) :
    back1 x (ix4 X Y Z o) = x (ix4 X (Spec.bwd Y) Z o) :=
  Cert.LibRoll.concatenate_slices_roll_apply 1 62 _ _ x _ _ _ (by intro b; fin_cases b <;> rfl)
    (by intro b; fin_cases b <;> rfl) rfl _ _ (fun b => match b with
      | ⟨0, _⟩ => fun _ => rfl
      | ⟨1, _⟩ => fun h => absurd rfl h
      | ⟨2, _⟩ => fun _ => rfl
      | ⟨3, _⟩ => fun _ => rfl) rfl

/-- The shift along the third axis. -/
theorem back2_apply (x : S64x64x64x96.Idx → α) (X Y Z : Fin 64) (o : Fin 96) :
    back2 x (ix4 X Y Z o) = x (ix4 X Y (Spec.bwd Z) o) :=
  Cert.LibRoll.concatenate_slices_roll_apply 2 62 _ _ x _ _ _ (by intro b; fin_cases b <;> rfl)
    (by intro b; fin_cases b <;> rfl) rfl _ _ (fun b => match b with
      | ⟨0, _⟩ => fun _ => rfl
      | ⟨1, _⟩ => fun _ => rfl
      | ⟨2, _⟩ => fun h => absurd rfl h
      | ⟨3, _⟩ => fun _ => rfl) rfl

/-- The grid at a position is the windows' array at the position's window and token on each axis. -/
theorem toGrid_apply (x : S16x16x16x64x96.Idx → α) (X Y Z : Fin 64) (o : Fin 96) :
    toGrid x (ix4 X Y Z o)
      = x (ix5 (Spec.wOf X) (Spec.wOf Y) (Spec.wOf Z) (Spec.tokOf (Spec.rOf X) (Spec.rOf Y) (Spec.rOf Z)) o) := by
  have hX := X.isLt; have hY := Y.isLt; have hZ := Z.isLt; have ho := o.isLt
  unfold toGrid
  -- the grid position splits into window and place on each axis
  refine (shapeCast_apply _ _ _
    (ix7 (Spec.wOf X) (Spec.rOf X) (Spec.wOf Y) (Spec.rOf Y) (Spec.wOf Z) (Spec.rOf Z) o) ?_).trans ?_
  · rw [rowMajor_val_vec7, rowMajor_val_vec4]
    show ((((((X.val / 4 * 4 + X.val % 4) * 16 + Y.val / 4) * 4 + Y.val % 4) * 16 + Z.val / 4) * 4 + Z.val % 4) * 96
        + o.val : Nat) = ((X.val * 64 + Y.val) * 64 + Z.val) * 96 + o.val
    omega
  -- the places move behind the windows
  refine (transpose_apply _ _ _ _
    (ix7 (Spec.wOf X) (Spec.wOf Y) (Spec.wOf Z) (Spec.rOf X) (Spec.rOf Y) (Spec.rOf Z) o) (fun b => match b with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl)).trans ?_
  -- the three places are the token's digits in base four
  refine shapeCast_apply _ _ _ _ ?_
  rw [rowMajor_val_vec5, rowMajor_val_vec7]
  show ((((X.val / 4 * 16 + Y.val / 4) * 16 + Z.val / 4) * 64 + (16 * (X.val % 4) + 4 * (Y.val % 4) + Z.val % 4)) * 96
      + o.val : Nat)
    = (((((X.val / 4 * 16 + Y.val / 4) * 16 + Z.val / 4) * 4 + X.val % 4) * 4 + Y.val % 4) * 4 + Z.val % 4) * 96 + o.val
  omega

end Pure

/-! ## The three stretches of lines, each from any contents -/

section Stretches
variable (W : Valuation τ sig (Elt Ideal))

/-- The first three lines bring the windows' array to the grid. -/
theorem stretch1_v8 :
    (StableHlo.after hostOps1 W (Proc.devRef .tc main_v8) : S64x64x64x96.Idx → EReal)
      = toGrid (W (Proc.devRef .tc main_v5) : S16x16x16x64x96.Idx → EReal) := by
  after_results
  rfl

/-- The next nine shift the grid back on the three axes. -/
theorem stretch1_1_v9 :
    (StableHlo.after hostOps1_1 W (Proc.devRef .tc main_v9) : S64x64x64x96.Idx → EReal)
      = back2 (back1 (back0 (W (Proc.devRef .tc main_v8) : S64x64x64x96.Idx → EReal))) := by
  after_results
  simp only [StableHlo.TRef.ofBuf, StableHlo.TRef.toBuf, cast_eq]
  rfl

/-- The last line adds the leading unit axis. -/
theorem stretch1_2_v10 :
    (StableHlo.after hostOps1_2 W (Proc.devRef .tc main_v10) : S1x64x64x64x96.Idx → EReal)
      = lead (W (Proc.devRef .tc main_v9) : S64x64x64x96.Idx → EReal) := by
  after_results
  rfl

end Stretches

/-! ## The final result -/

/-- The final result at `j` is the windows' array at the window and token of `j`'s grid position shifted back. -/
theorem post_v10 (W : Valuation τ sig (Elt Ideal)) (j : S1x64x64x64x96.Idx) :
    StableHlo.after (List.flatten [hostOps1, hostOps1_1, hostOps1_2]) W (Proc.devRef .tc main_v10) j
      = W (Proc.devRef .tc main_v5) (ix5 (Cert.Spec.wOf (Cert.Spec.bwd (j 1))) (Cert.Spec.wOf (Cert.Spec.bwd (j 2)))
          (Cert.Spec.wOf (Cert.Spec.bwd (j 3)))
          (Cert.Spec.tokOf (Cert.Spec.rOf (Cert.Spec.bwd (j 1))) (Cert.Spec.rOf (Cert.Spec.bwd (j 2)))
            (Cert.Spec.rOf (Cert.Spec.bwd (j 3)))) (j 4)) := by
  rw [List.flatten_cons, List.flatten_cons, List.flatten_cons, List.flatten_nil, List.append_nil,
    StableHlo.after_append, StableHlo.after_append]
  refine (congrFun (stretch1_2_v10 _) j).trans ?_
  refine (lead_apply _ j).trans ?_
  refine (congrFun (stretch1_1_v9 _) _).trans ?_
  refine (back2_apply _ (j 1) (j 2) (j 3) (j 4)).trans ?_
  refine (back1_apply _ (j 1) (j 2) _ (j 4)).trans ?_
  refine (back0_apply _ (j 1) _ _ (j 4)).trans ?_
  refine (congrFun (stretch1_v8 _) _).trans ?_
  exact toGrid_apply _ _ _ _ (j 4)

/-! ## What the lines leave alone -/

/-- No line after the region writes this argument. -/
theorem post_arg0 (W : Valuation τ sig (Elt Ideal)) :
    StableHlo.after (List.flatten [hostOps1, hostOps1_1, hostOps1_2]) W (Proc.devRef .tc main_arg0) = W (Proc.devRef .tc main_arg0) := by
  simp only [Gen.hostOps1, Gen.hostOps1_1, Gen.hostOps1_2, List.flatten_cons, List.flatten_nil, List.append_nil,
    List.cons_append, List.nil_append]
  after_results <;> rfl

/-- No line after the region writes this argument. -/
theorem post_arg1 (W : Valuation τ sig (Elt Ideal)) :
    StableHlo.after (List.flatten [hostOps1, hostOps1_1, hostOps1_2]) W (Proc.devRef .tc main_arg1) = W (Proc.devRef .tc main_arg1) := by
  simp only [Gen.hostOps1, Gen.hostOps1_1, Gen.hostOps1_2, List.flatten_cons, List.flatten_nil, List.append_nil,
    List.cons_append, List.nil_append]
  after_results <;> rfl

/-- No line after the region writes this argument. -/
theorem post_arg2 (W : Valuation τ sig (Elt Ideal)) :
    StableHlo.after (List.flatten [hostOps1, hostOps1_1, hostOps1_2]) W (Proc.devRef .tc main_arg2) = W (Proc.devRef .tc main_arg2) := by
  simp only [Gen.hostOps1, Gen.hostOps1_1, Gen.hostOps1_2, List.flatten_cons, List.flatten_nil, List.append_nil,
    List.cons_append, List.nil_append]
  after_results <;> rfl

/-- No line after the region writes this argument. -/
theorem post_arg3 (W : Valuation τ sig (Elt Ideal)) :
    StableHlo.after (List.flatten [hostOps1, hostOps1_1, hostOps1_2]) W (Proc.devRef .tc main_arg3) = W (Proc.devRef .tc main_arg3) := by
  simp only [Gen.hostOps1, Gen.hostOps1_1, Gen.hostOps1_2, List.flatten_cons, List.flatten_nil, List.append_nil,
    List.cons_append, List.nil_append]
  after_results <;> rfl

/-- No line after the region writes this argument. -/
theorem post_arg4 (W : Valuation τ sig (Elt Ideal)) :
    StableHlo.after (List.flatten [hostOps1, hostOps1_1, hostOps1_2]) W (Proc.devRef .tc main_arg4) = W (Proc.devRef .tc main_arg4) := by
  simp only [Gen.hostOps1, Gen.hostOps1_1, Gen.hostOps1_2, List.flatten_cons, List.flatten_nil, List.append_nil,
    List.cons_append, List.nil_append]
  after_results <;> rfl

/-- No line after the region writes this argument. -/
theorem post_arg5 (W : Valuation τ sig (Elt Ideal)) :
    StableHlo.after (List.flatten [hostOps1, hostOps1_1, hostOps1_2]) W (Proc.devRef .tc main_arg5) = W (Proc.devRef .tc main_arg5) := by
  simp only [Gen.hostOps1, Gen.hostOps1_1, Gen.hostOps1_2, List.flatten_cons, List.flatten_nil, List.append_nil,
    List.cons_append, List.nil_append]
  after_results <;> rfl

/-- No line after the region writes this argument. -/
theorem post_arg6 (W : Valuation τ sig (Elt Ideal)) :
    StableHlo.after (List.flatten [hostOps1, hostOps1_1, hostOps1_2]) W (Proc.devRef .tc main_arg6) = W (Proc.devRef .tc main_arg6) := by
  simp only [Gen.hostOps1, Gen.hostOps1_1, Gen.hostOps1_2, List.flatten_cons, List.flatten_nil, List.append_nil,
    List.cons_append, List.nil_append]
  after_results <;> rfl

/-- No line after the region writes the windows' array. -/
theorem post_v5 (W : Valuation τ sig (Elt Ideal)) :
    StableHlo.after (List.flatten [hostOps1, hostOps1_1, hostOps1_2]) W (Proc.devRef .tc main_v5) = W (Proc.devRef .tc main_v5) := by
  simp only [Gen.hostOps1, Gen.hostOps1_1, Gen.hostOps1_2, List.flatten_cons, List.flatten_nil, List.append_nil,
    List.cons_append, List.nil_append]
  after_results <;> rfl

end Cert.KernelIdeal.Hand

end
-- ==== Proof.KIValue.lean ====
/-
  The kernel program's value: the lines before the region cut the shifted input into windows, the region leaves the
  windows' results in window coordinates, and the lines after it carry them back to grid positions and shift back.
  Read together: position (X, Y, Z) of the result holds the attended window result of the position two places back.
-/
import proofs.«139805_j20143396618483_1_alg».proof.Proof.KIArray
import proofs.«139805_j20143396618483_1_alg».proof.Proof.KIRun
import proofs.«139805_j20143396618483_1_alg».proof.Proof.KIHostPost

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The final result, from the region's exit contents: the one function G of the argument arrays. -/
theorem out_eq (c : Dev nD) :
    StableHlo.after (List.flatten [hostOps1, hostOps1_1, hostOps1_2]) (V1 m c) (Proc.devRef .tc main_v10)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext j
  refine (post_v10 (V1 m c) j).trans ?_
  rw [V1_main_v5, final7]
  rfl

/-- THE KERNEL PROGRAM'S VALUE: it runs, its result is G of its arguments, and its arguments end unchanged. -/
theorem run_value : θ_run (Cert.KernelIdeal.defs (F := Ideal)) (onTc (τ := τ) (main (F := Ideal))) ⟨m, fun _ => 0, ρ⟩ (fun r => ∀ c : Dev nD,
      r.2.mem ((c.tc : Thread nD τ).loc main_v10) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c main_v10 rfl).trans (out_eq m c),
      (h c main_arg0 rfl).trans (arg_kept m c main_arg0 (by decide) (by decide) (by decide)),
      (h c main_arg1 rfl).trans (arg_kept m c main_arg1 (by decide) (by decide) (by decide)),
      (h c main_arg2 rfl).trans (arg_kept m c main_arg2 (by decide) (by decide) (by decide)),
      (h c main_arg3 rfl).trans (arg_kept m c main_arg3 (by decide) (by decide) (by decide)),
      (h c main_arg4 rfl).trans (arg_kept m c main_arg4 (by decide) (by decide) (by decide)),
      (h c main_arg5 rfl).trans (arg_kept m c main_arg5 (by decide) (by decide) (by decide)),
      (h c main_arg6 rfl).trans (arg_kept m c main_arg6 (by decide) (by decide) (by decide))⟩) (run_main m ρ)

end Cert.KernelIdeal.Hand

end
-- ==== Proof.RefRunChunks.lean ====
/- The reference program's host operations, cut into nine consecutive stretches, and what each stretch leaves alone.
   `ops = cA ++ cB ++ … ++ cI`; a buffer that a stretch does not write keeps its contents through it. -/
import proofs.«139805_j20143396618483_1_alg».proof.Proof.RefRun
import Idealize.ShloMosaic.Lib.StableHlo.Run

noncomputable section

namespace Cert.RefRunHand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- `after` over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Operations 1–9: the input rolled back by two places along each of its three spatial axes (slice, slice, join, three times). -/
abbrev cA : List (HloOp τ sig (Elt F)) :=
  [ TRef.unary (TRef.of (T := ⟨S1x64x64x64x96, .f32⟩) main_arg0) (TRef.of (T := ⟨S1x62x64x64x96, .f32⟩) main_call0_v0) (extractStridedSlice S1x62x64x64x96 ![0, 2, 0, 0, 0] · slices_S1x64x64x64x96_S1x62x64x64x96_0_2_0_0_0),
    TRef.unary (TRef.of (T := ⟨S1x64x64x64x96, .f32⟩) main_arg0) (TRef.of (T := ⟨S1x2x64x64x96, .f32⟩) main_call0_v1) (extractStridedSlice S1x2x64x64x96 ![0, 0, 0, 0, 0] · slices_S1x64x64x64x96_S1x2x64x64x96_0_0_0_0_0),
    TRef.binary (TRef.of (T := ⟨S1x62x64x64x96, .f32⟩) main_call0_v0) (TRef.of (T := ⟨S1x2x64x64x96, .f32⟩) main_call0_v1) (TRef.of (T := ⟨S1x64x64x64x96, .f32⟩) main_call0_v2) (fun a b => concatenate S1x64x64x64x96 1 [⟨S1x62x64x64x96, a⟩, ⟨S1x2x64x64x96, b⟩] concatenates_S1x62x64x64x96_S1x2x64x64x96_S1x64x64x64x96_d1),
    TRef.unary (TRef.of (T := ⟨S1x64x64x64x96, .f32⟩) main_call0_v2) (TRef.of (T := ⟨S1x64x62x64x96, .f32⟩) main_call0_v3) (extractStridedSlice S1x64x62x64x96 ![0, 0, 2, 0, 0] · slices_S1x64x64x64x96_S1x64x62x64x96_0_0_2_0_0),
    TRef.unary (TRef.of (T := ⟨S1x64x64x64x96, .f32⟩) main_call0_v2) (TRef.of (T := ⟨S1x64x2x64x96, .f32⟩) main_call0_v4) (extractStridedSlice S1x64x2x64x96 ![0, 0, 0, 0, 0] · slices_S1x64x64x64x96_S1x64x2x64x96_0_0_0_0_0),
    TRef.binary (TRef.of (T := ⟨S1x64x62x64x96, .f32⟩) main_call0_v3) (TRef.of (T := ⟨S1x64x2x64x96, .f32⟩) main_call0_v4) (TRef.of (T := ⟨S1x64x64x64x96, .f32⟩) main_call0_v5) (fun a b => concatenate S1x64x64x64x96 2 [⟨S1x64x62x64x96, a⟩, ⟨S1x64x2x64x96, b⟩] concatenates_S1x64x62x64x96_S1x64x2x64x96_S1x64x64x64x96_d2),
    TRef.unary (TRef.of (T := ⟨S1x64x64x64x96, .f32⟩) main_call0_v5) (TRef.of (T := ⟨S1x64x64x62x96, .f32⟩) main_call0_v6) (extractStridedSlice S1x64x64x62x96 ![0, 0, 0, 2, 0] · slices_S1x64x64x64x96_S1x64x64x62x96_0_0_0_2_0),
    TRef.unary (TRef.of (T := ⟨S1x64x64x64x96, .f32⟩) main_call0_v5) (TRef.of (T := ⟨S1x64x64x2x96, .f32⟩) main_call0_v7) (extractStridedSlice S1x64x64x2x96 ![0, 0, 0, 0, 0] · slices_S1x64x64x64x96_S1x64x64x2x96_0_0_0_0_0),
    TRef.binary (TRef.of (T := ⟨S1x64x64x62x96, .f32⟩) main_call0_v6) (TRef.of (T := ⟨S1x64x64x2x96, .f32⟩) main_call0_v7) (TRef.of (T := ⟨S1x64x64x64x96, .f32⟩) main_v0) (fun a b => concatenate S1x64x64x64x96 3 [⟨S1x64x64x62x96, a⟩, ⟨S1x64x64x2x96, b⟩] concatenates_S1x64x64x62x96_S1x64x64x2x96_S1x64x64x64x96_d3) ]

/-- Operations 10–22: the q, k, v projection, its three column blocks, each regrouped into windows and heads. -/
abbrev cB : List (HloOp τ sig (Elt F)) :=
  [ binary main_v0 main_arg1 main_v1 ((fun l r => Host.dotGeneral dot_S1x64x64x64x96_S288x96_S1x64x64x64x288_4_1_0123_0_n_n none l r) : (⟨S1x64x64x64x96, .f32⟩ : BufTy).Contents (Elt F) → (⟨S288x96, .f32⟩ : BufTy).Contents (Elt F) → (⟨S1x64x64x64x288, .f32⟩ : BufTy).Contents (Elt F)),
    unary main_v1 main_v2 ((extractStridedSlice S1x64x64x64x96 ![0, 0, 0, 0, 0] · slices_S1x64x64x64x288_S1x64x64x64x96_0_0_0_0_0) : (⟨S1x64x64x64x288, .f32⟩ : BufTy).Contents (Elt F) → (⟨S1x64x64x64x96, .f32⟩ : BufTy).Contents (Elt F)),
    unary main_v1 main_v3 ((extractStridedSlice S1x64x64x64x96 ![0, 0, 0, 0, 96] · slices_S1x64x64x64x288_S1x64x64x64x96_0_0_0_0_96) : (⟨S1x64x64x64x288, .f32⟩ : BufTy).Contents (Elt F) → (⟨S1x64x64x64x96, .f32⟩ : BufTy).Contents (Elt F)),
    unary main_v1 main_v4 ((extractStridedSlice S1x64x64x64x96 ![0, 0, 0, 0, 192] · slices_S1x64x64x64x288_S1x64x64x64x96_0_0_0_0_192) : (⟨S1x64x64x64x288, .f32⟩ : BufTy).Contents (Elt F) → (⟨S1x64x64x64x96, .f32⟩ : BufTy).Contents (Elt F)),
    reshape main_v2 main_v5 rfl shapeCasts_S1x64x64x64x96_S1x16x4x16x4x16x4x3x32,
    unary main_v5 main_v6 ((transpose S1x3x16x16x16x4x4x4x32 [0, 7, 1, 3, 5, 2, 4, 6, 8] · transposes_S1x16x4x16x4x16x4x3x32_S1x3x16x16x16x4x4x4x32_0_7_1_3_5_2_4_6_8) : (⟨S1x16x4x16x4x16x4x3x32, .f32⟩ : BufTy).Contents (Elt F) → (⟨S1x3x16x16x16x4x4x4x32, .f32⟩ : BufTy).Contents (Elt F)),
    reshape main_v6 main_v7 rfl shapeCasts_S1x3x16x16x16x4x4x4x32_S1x3x4096x64x32,
    reshape main_v3 main_v8 rfl shapeCasts_S1x64x64x64x96_S1x16x4x16x4x16x4x3x32,
    unary main_v8 main_v9 ((transpose S1x3x16x16x16x4x4x4x32 [0, 7, 1, 3, 5, 2, 4, 6, 8] · transposes_S1x16x4x16x4x16x4x3x32_S1x3x16x16x16x4x4x4x32_0_7_1_3_5_2_4_6_8) : (⟨S1x16x4x16x4x16x4x3x32, .f32⟩ : BufTy).Contents (Elt F) → (⟨S1x3x16x16x16x4x4x4x32, .f32⟩ : BufTy).Contents (Elt F)),
    reshape main_v9 main_v10 rfl shapeCasts_S1x3x16x16x16x4x4x4x32_S1x3x4096x64x32,
    reshape main_v4 main_v11 rfl shapeCasts_S1x64x64x64x96_S1x16x4x16x4x16x4x3x32,
    unary main_v11 main_v12 ((transpose S1x3x16x16x16x4x4x4x32 [0, 7, 1, 3, 5, 2, 4, 6, 8] · transposes_S1x16x4x16x4x16x4x3x32_S1x3x16x16x16x4x4x4x32_0_7_1_3_5_2_4_6_8) : (⟨S1x16x4x16x4x16x4x3x32, .f32⟩ : BufTy).Contents (Elt F) → (⟨S1x3x16x16x16x4x4x4x32, .f32⟩ : BufTy).Contents (Elt F)),
    reshape main_v12 main_v13 rfl shapeCasts_S1x3x16x16x16x4x4x4x32_S1x3x4096x64x32 ]

/-- Operations 23–28: the logits q·kᵀ, scaled, regrouped by window coordinates. -/
abbrev cC : List (HloOp τ sig (Elt F)) :=
  [ binary main_v7 main_v10 main_v14 ((fun l r => Host.dotGeneral dot_S1x3x4096x64x32_S1x3x4096x64x32_S1x3x4096x64x64_4_4_3_3_012_012 none l r) : (⟨S1x3x4096x64x32, .f32⟩ : BufTy).Contents (Elt F) → (⟨S1x3x4096x64x32, .f32⟩ : BufTy).Contents (Elt F) → (⟨S1x3x4096x64x64, .f32⟩ : BufTy).Contents (Elt F)),
    nullary main_cst (constant S_ .f32 0x3E3504F3#32),
    unary main_cst main_v15 (broadcastInDim S1x3x4096x64x64 ![] bcast_S_S1x3x4096x64x64 : (⟨S_, .f32⟩ : BufTy).Contents (Elt F) → (⟨S1x3x4096x64x64, .f32⟩ : BufTy).Contents (Elt F)),
    binary main_v14 main_v15 main_v16 (mulf : (⟨S1x3x4096x64x64, .f32⟩ : BufTy).Contents (Elt F) → (⟨S1x3x4096x64x64, .f32⟩ : BufTy).Contents (Elt F) → (⟨S1x3x4096x64x64, .f32⟩ : BufTy).Contents (Elt F)),
    reshape main_v16 main_v17 rfl shapeCasts_S1x3x4096x64x64_S1x3x16x16x16x64x64,
    unary main_v17 main_v18 ((transpose S1x3x16x16x16x64x64 [0, 1, 3, 4, 2, 5, 6] · transposes_S1x3x16x16x16x64x64_S1x3x16x16x16x64x64_0_1_3_4_2_5_6) : (⟨S1x3x16x16x16x64x64, .f32⟩ : BufTy).Contents (Elt F) → (⟨S1x3x16x16x16x64x64, .f32⟩ : BufTy).Contents (Elt F)) ]

/-- Operations 29–33: the first mask added on the last window plane of one axis. -/
abbrev cD : List (HloOp τ sig (Elt F)) :=
  [ nullary main_c (constantI S_ 32 15#32),
    unary main_c main_v19 (broadcastInDim S1 ![] bcast_S_S1 : (⟨S_, .i32⟩ : BufTy).Contents (Elt F) → (⟨S1, .i32⟩ : BufTy).Contents (Elt F)),
    unary main_arg4 main_v20 (broadcastInDim S1x3x16x16x64x64 ![4, 5] bcast_S64x64_S1x3x16x16x64x64_4_5 : (⟨S64x64, .f32⟩ : BufTy).Contents (Elt F) → (⟨S1x3x16x16x64x64, .f32⟩ : BufTy).Contents (Elt F)),
    ternary main_v18 main_v19 main_v20 main_v21 ((fun x i u => Host.scatter scatter_S1x3x16x16x16x64x64_S1_S1x3x16x16x64x64_012345_4_4_0 FloatOps.addf x i u) : (⟨S1x3x16x16x16x64x64, .f32⟩ : BufTy).Contents (Elt F) → (⟨S1, .i32⟩ : BufTy).Contents (Elt F) → (⟨S1x3x16x16x64x64, .f32⟩ : BufTy).Contents (Elt F) → (⟨S1x3x16x16x16x64x64, .f32⟩ : BufTy).Contents (Elt F)),
    unary main_v21 main_v22 ((transpose S1x3x16x16x16x64x64 [0, 1, 4, 3, 2, 5, 6] · transposes_S1x3x16x16x16x64x64_S1x3x16x16x16x64x64_0_1_4_3_2_5_6) : (⟨S1x3x16x16x16x64x64, .f32⟩ : BufTy).Contents (Elt F) → (⟨S1x3x16x16x16x64x64, .f32⟩ : BufTy).Contents (Elt F)) ]

/-- Operations 34–40: the second mask added on the last window plane of another axis, and back to one window axis. -/
abbrev cE : List (HloOp τ sig (Elt F)) :=
  [ nullary main_c_0 (constantI S_ 32 15#32),
    unary main_c_0 main_v23 (broadcastInDim S1 ![] bcast_S_S1 : (⟨S_, .i32⟩ : BufTy).Contents (Elt F) → (⟨S1, .i32⟩ : BufTy).Contents (Elt F)),
    unary main_arg5 main_v24 (broadcastInDim S1x3x16x16x64x64 ![4, 5] bcast_S64x64_S1x3x16x16x64x64_4_5 : (⟨S64x64, .f32⟩ : BufTy).Contents (Elt F) → (⟨S1x3x16x16x64x64, .f32⟩ : BufTy).Contents (Elt F)),
    ternary main_v22 main_v23 main_v24 main_v25 ((fun x i u => Host.scatter scatter_S1x3x16x16x16x64x64_S1_S1x3x16x16x64x64_012345_4_4_0 FloatOps.addf x i u) : (⟨S1x3x16x16x16x64x64, .f32⟩ : BufTy).Contents (Elt F) → (⟨S1, .i32⟩ : BufTy).Contents (Elt F) → (⟨S1x3x16x16x64x64, .f32⟩ : BufTy).Contents (Elt F) → (⟨S1x3x16x16x16x64x64, .f32⟩ : BufTy).Contents (Elt F)),
    unary main_v25 main_v26 ((transpose S1x3x16x16x16x64x64 [0, 1, 2, 4, 3, 5, 6] · transposes_S1x3x16x16x16x64x64_S1x3x16x16x16x64x64_0_1_2_4_3_5_6) : (⟨S1x3x16x16x16x64x64, .f32⟩ : BufTy).Contents (Elt F) → (⟨S1x3x16x16x16x64x64, .f32⟩ : BufTy).Contents (Elt F)),
    unary main_v26 main_v27 ((transpose S1x3x16x16x16x64x64 [0, 1, 4, 2, 3, 5, 6] · transposes_S1x3x16x16x16x64x64_S1x3x16x16x16x64x64_0_1_4_2_3_5_6) : (⟨S1x3x16x16x16x64x64, .f32⟩ : BufTy).Contents (Elt F) → (⟨S1x3x16x16x16x64x64, .f32⟩ : BufTy).Contents (Elt F)),
    reshape main_v27 main_v28 rfl shapeCasts_S1x3x16x16x16x64x64_S1x3x4096x64x64 ]

/-- Operations 41–49: the row maximum, the shifted logits and their exponentials. -/
abbrev cF : List (HloOp τ sig (Elt F)) :=
  [ nullary main_cst_1 (constant S_ .f32 0xFF800000#32),
    binary main_v28 main_cst_1 main_v29 ((fun x v => Host.reduce FloatOps.maximumf x v reducesTo_S1x3x4096x64x64_S1x3x4096x64_d4 h_S_) : (⟨S1x3x4096x64x64, .f32⟩ : BufTy).Contents (Elt F) → (⟨S_, .f32⟩ : BufTy).Contents (Elt F) → (⟨S1x3x4096x64, .f32⟩ : BufTy).Contents (Elt F)),
    nullary main_cst_2 (constant S_ .f32 0xFF800000#32),
    unary main_cst_2 main_v30 (broadcastInDim S1x3x4096x64 ![] bcast_S_S1x3x4096x64 : (⟨S_, .f32⟩ : BufTy).Contents (Elt F) → (⟨S1x3x4096x64, .f32⟩ : BufTy).Contents (Elt F)),
    binary main_v30 main_v29 main_v31 (maximumf : (⟨S1x3x4096x64, .f32⟩ : BufTy).Contents (Elt F) → (⟨S1x3x4096x64, .f32⟩ : BufTy).Contents (Elt F) → (⟨S1x3x4096x64, .f32⟩ : BufTy).Contents (Elt F)),
    unary main_v31 main_v32 (broadcastInDim S1x3x4096x64x1 ![0, 1, 2, 3] bcast_S1x3x4096x64_S1x3x4096x64x1_0_1_2_3 : (⟨S1x3x4096x64, .f32⟩ : BufTy).Contents (Elt F) → (⟨S1x3x4096x64x1, .f32⟩ : BufTy).Contents (Elt F)),
    unary main_v32 main_v33 (broadcastInDim S1x3x4096x64x64 ![0, 1, 2, 3, 4] bcast_S1x3x4096x64x1_S1x3x4096x64x64_0_1_2_3_4 : (⟨S1x3x4096x64x1, .f32⟩ : BufTy).Contents (Elt F) → (⟨S1x3x4096x64x64, .f32⟩ : BufTy).Contents (Elt F)),
    binary main_v28 main_v33 main_v34 (subf : (⟨S1x3x4096x64x64, .f32⟩ : BufTy).Contents (Elt F) → (⟨S1x3x4096x64x64, .f32⟩ : BufTy).Contents (Elt F) → (⟨S1x3x4096x64x64, .f32⟩ : BufTy).Contents (Elt F)),
    unary main_v34 main_v35 (Host.exp : (⟨S1x3x4096x64x64, .f32⟩ : BufTy).Contents (Elt F) → (⟨S1x3x4096x64x64, .f32⟩ : BufTy).Contents (Elt F)) ]

/-- Operations 50–58: the row sums, the quotient, the product with v, and back to the token layout. -/
abbrev cG : List (HloOp τ sig (Elt F)) :=
  [ nullary main_cst_3 (constant S_ .f32 0x00000000#32),
    binary main_v35 main_cst_3 main_v36 ((fun x v => Host.reduceAdd x v reducesTo_S1x3x4096x64x64_S1x3x4096x64_d4 h_S_) : (⟨S1x3x4096x64x64, .f32⟩ : BufTy).Contents (Elt F) → (⟨S_, .f32⟩ : BufTy).Contents (Elt F) → (⟨S1x3x4096x64, .f32⟩ : BufTy).Contents (Elt F)),
    unary main_v36 main_v37 (broadcastInDim S1x3x4096x64x1 ![0, 1, 2, 3] bcast_S1x3x4096x64_S1x3x4096x64x1_0_1_2_3 : (⟨S1x3x4096x64, .f32⟩ : BufTy).Contents (Elt F) → (⟨S1x3x4096x64x1, .f32⟩ : BufTy).Contents (Elt F)),
    unary main_v37 main_v38 (broadcastInDim S1x3x4096x64x64 ![0, 1, 2, 3, 4] bcast_S1x3x4096x64x1_S1x3x4096x64x64_0_1_2_3_4 : (⟨S1x3x4096x64x1, .f32⟩ : BufTy).Contents (Elt F) → (⟨S1x3x4096x64x64, .f32⟩ : BufTy).Contents (Elt F)),
    binary main_v35 main_v38 main_v39 (Host.divf : (⟨S1x3x4096x64x64, .f32⟩ : BufTy).Contents (Elt F) → (⟨S1x3x4096x64x64, .f32⟩ : BufTy).Contents (Elt F) → (⟨S1x3x4096x64x64, .f32⟩ : BufTy).Contents (Elt F)),
    binary main_v39 main_v13 main_v40 ((fun l r => Host.dotGeneral dot_S1x3x4096x64x64_S1x3x4096x64x32_S1x3x4096x64x32_4_3_3_4_012_012 none l r) : (⟨S1x3x4096x64x64, .f32⟩ : BufTy).Contents (Elt F) → (⟨S1x3x4096x64x32, .f32⟩ : BufTy).Contents (Elt F) → (⟨S1x3x4096x64x32, .f32⟩ : BufTy).Contents (Elt F)),
    reshape main_v40 main_v41 rfl shapeCasts_S1x3x4096x64x32_S1x3x16x16x16x4x4x4x32,
    unary main_v41 main_v42 ((transpose S1x16x4x16x4x16x4x3x32 [0, 2, 5, 3, 6, 4, 7, 1, 8] · transposes_S1x3x16x16x16x4x4x4x32_S1x16x4x16x4x16x4x3x32_0_2_5_3_6_4_7_1_8) : (⟨S1x3x16x16x16x4x4x4x32, .f32⟩ : BufTy).Contents (Elt F) → (⟨S1x16x4x16x4x16x4x3x32, .f32⟩ : BufTy).Contents (Elt F)),
    reshape main_v42 main_v43 rfl shapeCasts_S1x16x4x16x4x16x4x3x32_S1x64x64x64x96 ]

/-- Operations 59–62: the output projection and its bias. -/
abbrev cH : List (HloOp τ sig (Elt F)) :=
  [ binary main_v43 main_arg2 main_v44 ((fun l r => Host.dotGeneral dot_S1x64x64x64x96_S96x96_S1x64x64x64x96_4_1_0123_0_n_n none l r) : (⟨S1x64x64x64x96, .f32⟩ : BufTy).Contents (Elt F) → (⟨S96x96, .f32⟩ : BufTy).Contents (Elt F) → (⟨S1x64x64x64x96, .f32⟩ : BufTy).Contents (Elt F)),
    unary main_arg3 main_v45 (broadcastInDim S1x1x1x1x96 ![4] bcast_S96_S1x1x1x1x96_4 : (⟨S96, .f32⟩ : BufTy).Contents (Elt F) → (⟨S1x1x1x1x96, .f32⟩ : BufTy).Contents (Elt F)),
    unary main_v45 main_v46 (broadcastInDim S1x64x64x64x96 ![0, 1, 2, 3, 4] bcast_S1x1x1x1x96_S1x64x64x64x96_0_1_2_3_4 : (⟨S1x1x1x1x96, .f32⟩ : BufTy).Contents (Elt F) → (⟨S1x64x64x64x96, .f32⟩ : BufTy).Contents (Elt F)),
    binary main_v44 main_v46 main_v47 (addf : (⟨S1x64x64x64x96, .f32⟩ : BufTy).Contents (Elt F) → (⟨S1x64x64x64x96, .f32⟩ : BufTy).Contents (Elt F) → (⟨S1x64x64x64x96, .f32⟩ : BufTy).Contents (Elt F)) ]

/-- Operations 63–71: the result rolled forward by two places along each spatial axis. -/
abbrev cI : List (HloOp τ sig (Elt F)) :=
  [ TRef.unary (TRef.of (T := ⟨S1x64x64x64x96, .f32⟩) main_v47) (TRef.of (T := ⟨S1x2x64x64x96, .f32⟩) main_call1_v0) (extractStridedSlice S1x2x64x64x96 ![0, 62, 0, 0, 0] · slices_S1x64x64x64x96_S1x2x64x64x96_0_62_0_0_0),
    TRef.unary (TRef.of (T := ⟨S1x64x64x64x96, .f32⟩) main_v47) (TRef.of (T := ⟨S1x62x64x64x96, .f32⟩) main_call1_v1) (extractStridedSlice S1x62x64x64x96 ![0, 0, 0, 0, 0] · slices_S1x64x64x64x96_S1x62x64x64x96_0_0_0_0_0),
    TRef.binary (TRef.of (T := ⟨S1x2x64x64x96, .f32⟩) main_call1_v0) (TRef.of (T := ⟨S1x62x64x64x96, .f32⟩) main_call1_v1) (TRef.of (T := ⟨S1x64x64x64x96, .f32⟩) main_call1_v2) (fun a b => concatenate S1x64x64x64x96 1 [⟨S1x2x64x64x96, a⟩, ⟨S1x62x64x64x96, b⟩] concatenates_S1x2x64x64x96_S1x62x64x64x96_S1x64x64x64x96_d1),
    TRef.unary (TRef.of (T := ⟨S1x64x64x64x96, .f32⟩) main_call1_v2) (TRef.of (T := ⟨S1x64x2x64x96, .f32⟩) main_call1_v3) (extractStridedSlice S1x64x2x64x96 ![0, 0, 62, 0, 0] · slices_S1x64x64x64x96_S1x64x2x64x96_0_0_62_0_0),
    TRef.unary (TRef.of (T := ⟨S1x64x64x64x96, .f32⟩) main_call1_v2) (TRef.of (T := ⟨S1x64x62x64x96, .f32⟩) main_call1_v4) (extractStridedSlice S1x64x62x64x96 ![0, 0, 0, 0, 0] · slices_S1x64x64x64x96_S1x64x62x64x96_0_0_0_0_0),
    TRef.binary (TRef.of (T := ⟨S1x64x2x64x96, .f32⟩) main_call1_v3) (TRef.of (T := ⟨S1x64x62x64x96, .f32⟩) main_call1_v4) (TRef.of (T := ⟨S1x64x64x64x96, .f32⟩) main_call1_v5) (fun a b => concatenate S1x64x64x64x96 2 [⟨S1x64x2x64x96, a⟩, ⟨S1x64x62x64x96, b⟩] concatenates_S1x64x2x64x96_S1x64x62x64x96_S1x64x64x64x96_d2),
    TRef.unary (TRef.of (T := ⟨S1x64x64x64x96, .f32⟩) main_call1_v5) (TRef.of (T := ⟨S1x64x64x2x96, .f32⟩) main_call1_v6) (extractStridedSlice S1x64x64x2x96 ![0, 0, 0, 62, 0] · slices_S1x64x64x64x96_S1x64x64x2x96_0_0_0_62_0),
    TRef.unary (TRef.of (T := ⟨S1x64x64x64x96, .f32⟩) main_call1_v5) (TRef.of (T := ⟨S1x64x64x62x96, .f32⟩) main_call1_v7) (extractStridedSlice S1x64x64x62x96 ![0, 0, 0, 0, 0] · slices_S1x64x64x64x96_S1x64x64x62x96_0_0_0_0_0),
    TRef.binary (TRef.of (T := ⟨S1x64x64x2x96, .f32⟩) main_call1_v6) (TRef.of (T := ⟨S1x64x64x62x96, .f32⟩) main_call1_v7) (TRef.of (T := ⟨S1x64x64x64x96, .f32⟩) main_v48) (fun a b => concatenate S1x64x64x64x96 3 [⟨S1x64x64x2x96, a⟩, ⟨S1x64x64x62x96, b⟩] concatenates_S1x64x64x2x96_S1x64x64x62x96_S1x64x64x64x96_d3) ]

set_option maxRecDepth 8192 in
/-- The operation list is the nine stretches in a row. -/
theorem ops_eq : (ops : List (HloOp τ sig (Elt F))) = cA ++ (cB ++ (cC ++ (cD ++ (cE ++ (cF ++ (cG ++ (cH ++ cI))))))) := rfl

/-- Running all the operations is running the stretches one after the other. -/
theorem after_ops_eq (W : Valuation τ sig (Elt F)) :
    after ops W = after cI (after cH (after cG (after cF (after cE (after cD (after cC (after cB (after cA W)))))))) := by
  rw [ops_eq]; simp only [after_app]

/-! ## No operation allocates: each determines its results -/

theorem cA_fresh : (cA : List (HloOp τ sig (Elt F))).Forall fun op => op.fresh = ∅ := by simp only [List.Forall]; and_intros <;> rfl
theorem cB_fresh : (cB : List (HloOp τ sig (Elt F))).Forall fun op => op.fresh = ∅ := by simp only [List.Forall]; and_intros <;> rfl
theorem cC_fresh : (cC : List (HloOp τ sig (Elt F))).Forall fun op => op.fresh = ∅ := by simp only [List.Forall]; and_intros <;> rfl
theorem cD_fresh : (cD : List (HloOp τ sig (Elt F))).Forall fun op => op.fresh = ∅ := by simp only [List.Forall]; and_intros <;> rfl
theorem cE_fresh : (cE : List (HloOp τ sig (Elt F))).Forall fun op => op.fresh = ∅ := by simp only [List.Forall]; and_intros <;> rfl
theorem cF_fresh : (cF : List (HloOp τ sig (Elt F))).Forall fun op => op.fresh = ∅ := by simp only [List.Forall]; and_intros <;> rfl
theorem cG_fresh : (cG : List (HloOp τ sig (Elt F))).Forall fun op => op.fresh = ∅ := by simp only [List.Forall]; and_intros <;> rfl
theorem cH_fresh : (cH : List (HloOp τ sig (Elt F))).Forall fun op => op.fresh = ∅ := by simp only [List.Forall]; and_intros <;> rfl
theorem cI_fresh : (cI : List (HloOp τ sig (Elt F))).Forall fun op => op.fresh = ∅ := by simp only [List.Forall]; and_intros <;> rfl

/-- No operation of the whole list allocates. -/
theorem ops_fresh : ∀ op ∈ (ops : List (HloOp τ sig (Elt F))), op.fresh = ∅ := by
  intro op h
  rw [ops_eq] at h
  rcases List.mem_append.1 h with h | h
  · exact List.forall_iff_forall_mem.1 cA_fresh op h
  rcases List.mem_append.1 h with h | h
  · exact List.forall_iff_forall_mem.1 cB_fresh op h
  rcases List.mem_append.1 h with h | h
  · exact List.forall_iff_forall_mem.1 cC_fresh op h
  rcases List.mem_append.1 h with h | h
  · exact List.forall_iff_forall_mem.1 cD_fresh op h
  rcases List.mem_append.1 h with h | h
  · exact List.forall_iff_forall_mem.1 cE_fresh op h
  rcases List.mem_append.1 h with h | h
  · exact List.forall_iff_forall_mem.1 cF_fresh op h
  rcases List.mem_append.1 h with h | h
  · exact List.forall_iff_forall_mem.1 cG_fresh op h
  rcases List.mem_append.1 h with h | h
  · exact List.forall_iff_forall_mem.1 cH_fresh op h
  exact List.forall_iff_forall_mem.1 cI_fresh op h

/-! ## What each stretch writes -/

abbrev wA : List (Ref sig .tc) := [main_call0_v0, main_call0_v1, main_call0_v2, main_call0_v3, main_call0_v4, main_call0_v5, main_call0_v6, main_call0_v7, main_v0]
abbrev wB : List (Ref sig .tc) := [main_v1, main_v2, main_v3, main_v4, main_v5, main_v6, main_v7, main_v8, main_v9, main_v10, main_v11, main_v12, main_v13]
abbrev wC : List (Ref sig .tc) := [main_v14, main_cst, main_v15, main_v16, main_v17, main_v18]
abbrev wD : List (Ref sig .tc) := [main_c, main_v19, main_v20, main_v21, main_v22]
abbrev wE : List (Ref sig .tc) := [main_c_0, main_v23, main_v24, main_v25, main_v26, main_v27, main_v28]
abbrev wF : List (Ref sig .tc) := [main_cst_1, main_v29, main_cst_2, main_v30, main_v31, main_v32, main_v33, main_v34, main_v35]
abbrev wG : List (Ref sig .tc) := [main_cst_3, main_v36, main_v37, main_v38, main_v39, main_v40, main_v41, main_v42, main_v43]
abbrev wH : List (Ref sig .tc) := [main_v44, main_v45, main_v46, main_v47]
abbrev wI : List (Ref sig .tc) := [main_call1_v0, main_call1_v1, main_call1_v2, main_call1_v3, main_call1_v4, main_call1_v5, main_call1_v6, main_call1_v7, main_v48]

/-- Every operation of a literal stretch writes one of the listed references. -/
local macro "writes_in_list" : tactic =>
  `(tactic| (simp only [List.Forall, nullary_writes, unary_writes, binary_writes, ternary_writes, reshape_writes,
      Finset.singleton_subset_iff, List.mem_toFinset]
             and_intros <;> exact List.mem_map_of_mem (by decide)))

theorem cA_writes : (cA : List (HloOp τ sig (Elt F))).Forall fun op => op.writes ⊆ (wA.map (Proc.devRef (τ := τ) .tc)).toFinset := by writes_in_list
theorem cB_writes : (cB : List (HloOp τ sig (Elt F))).Forall fun op => op.writes ⊆ (wB.map (Proc.devRef (τ := τ) .tc)).toFinset := by writes_in_list
theorem cC_writes : (cC : List (HloOp τ sig (Elt F))).Forall fun op => op.writes ⊆ (wC.map (Proc.devRef (τ := τ) .tc)).toFinset := by writes_in_list
theorem cD_writes : (cD : List (HloOp τ sig (Elt F))).Forall fun op => op.writes ⊆ (wD.map (Proc.devRef (τ := τ) .tc)).toFinset := by writes_in_list
theorem cE_writes : (cE : List (HloOp τ sig (Elt F))).Forall fun op => op.writes ⊆ (wE.map (Proc.devRef (τ := τ) .tc)).toFinset := by writes_in_list
theorem cF_writes : (cF : List (HloOp τ sig (Elt F))).Forall fun op => op.writes ⊆ (wF.map (Proc.devRef (τ := τ) .tc)).toFinset := by writes_in_list
theorem cG_writes : (cG : List (HloOp τ sig (Elt F))).Forall fun op => op.writes ⊆ (wG.map (Proc.devRef (τ := τ) .tc)).toFinset := by writes_in_list
theorem cH_writes : (cH : List (HloOp τ sig (Elt F))).Forall fun op => op.writes ⊆ (wH.map (Proc.devRef (τ := τ) .tc)).toFinset := by writes_in_list
theorem cI_writes : (cI : List (HloOp τ sig (Elt F))).Forall fun op => op.writes ⊆ (wI.map (Proc.devRef (τ := τ) .tc)).toFinset := by writes_in_list

/-! ## A buffer a stretch does not write keeps its contents through it -/

theorem keepA (V : Valuation τ sig (Elt F)) (r : Ref sig .tc) (h : r ∉ wA) : after cA V (Proc.devRef .tc r) = V (Proc.devRef .tc r) := after_of_writes_sub cA V cA_writes h
theorem keepB (V : Valuation τ sig (Elt F)) (r : Ref sig .tc) (h : r ∉ wB) : after cB V (Proc.devRef .tc r) = V (Proc.devRef .tc r) := after_of_writes_sub cB V cB_writes h
theorem keepC (V : Valuation τ sig (Elt F)) (r : Ref sig .tc) (h : r ∉ wC) : after cC V (Proc.devRef .tc r) = V (Proc.devRef .tc r) := after_of_writes_sub cC V cC_writes h
theorem keepD (V : Valuation τ sig (Elt F)) (r : Ref sig .tc) (h : r ∉ wD) : after cD V (Proc.devRef .tc r) = V (Proc.devRef .tc r) := after_of_writes_sub cD V cD_writes h
theorem keepE (V : Valuation τ sig (Elt F)) (r : Ref sig .tc) (h : r ∉ wE) : after cE V (Proc.devRef .tc r) = V (Proc.devRef .tc r) := after_of_writes_sub cE V cE_writes h
theorem keepF (V : Valuation τ sig (Elt F)) (r : Ref sig .tc) (h : r ∉ wF) : after cF V (Proc.devRef .tc r) = V (Proc.devRef .tc r) := after_of_writes_sub cF V cF_writes h
theorem keepG (V : Valuation τ sig (Elt F)) (r : Ref sig .tc) (h : r ∉ wG) : after cG V (Proc.devRef .tc r) = V (Proc.devRef .tc r) := after_of_writes_sub cG V cG_writes h
theorem keepH (V : Valuation τ sig (Elt F)) (r : Ref sig .tc) (h : r ∉ wH) : after cH V (Proc.devRef .tc r) = V (Proc.devRef .tc r) := after_of_writes_sub cH V cH_writes h
theorem keepI (V : Valuation τ sig (Elt F)) (r : Ref sig .tc) (h : r ∉ wI) : after cI V (Proc.devRef .tc r) = V (Proc.devRef .tc r) := after_of_writes_sub cI V cI_writes h

/-- A buffer no stretch writes (an argument of the program) holds at the end what it held at the start. -/
theorem after_ops_keep (W : Valuation τ sig (Elt F)) (r : Ref sig .tc)
    (hA : r ∉ wA) (hB : r ∉ wB) (hC : r ∉ wC) (hD : r ∉ wD) (hE : r ∉ wE) (hF : r ∉ wF) (hG : r ∉ wG) (hH : r ∉ wH) (hI : r ∉ wI) :
    after ops W (Proc.devRef .tc r) = W (Proc.devRef .tc r) := by
  rw [after_ops_eq, keepI _ r hI, keepH _ r hH, keepG _ r hG, keepF _ r hF, keepE _ r hE, keepD _ r hD, keepC _ r hC, keepB _ r hB, keepA _ r hA]

end Cert.RefRunHand

end
-- ==== Proof.RefRunSteps.lean ====
/- The reference program's run, stretch by stretch: from ANY contents of the device's buffers in which a stretch's
   inputs hold their stage values, the stretch leaves its output at that output's stage value. The stage values are
   the definitions `Read.val_main_vN` (one per operation, each over the stages before it). -/
import proofs.«139805_j20143396618483_1_alg».proof.Proof.RefRead
import proofs.«139805_j20143396618483_1_alg».proof.Proof.RefRunChunks

noncomputable section

namespace Cert.RefRunHand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

variable (V : Valuation τ sig (Elt F))
variable (x0 : (⟨S1x64x64x64x96, .f32⟩ : BufTy).Contents (Elt F)) (x1 : (⟨S288x96, .f32⟩ : BufTy).Contents (Elt F))
  (x2 : (⟨S96x96, .f32⟩ : BufTy).Contents (Elt F)) (x3 : (⟨S96, .f32⟩ : BufTy).Contents (Elt F))
  (x4 x5 : (⟨S64x64, .f32⟩ : BufTy).Contents (Elt F))

/-- Operations 1–9 leave the rolled input. -/
theorem stepA (h0 : V (Proc.devRef .tc main_arg0) = x0) :
    after cA V (Proc.devRef .tc main_v0) = Read.val_main_v0 x0 := by
  subst h0
  conv_rhs => simp only [Read.val_main_v0, Read.val_main_call0_v7, Read.val_main_call0_v6, Read.val_main_call0_v5, Read.val_main_call0_v4,
    Read.val_main_call0_v3, Read.val_main_call0_v2, Read.val_main_call0_v1, Read.val_main_call0_v0]
  after_results
  simp only [TRef.ofBuf, TRef.toBuf, cast_eq]

/-- Operations 10–22 leave q, regrouped. -/
theorem stepB_v7 (h0 : V (Proc.devRef .tc main_v0) = Read.val_main_v0 x0) (h1 : V (Proc.devRef .tc main_arg1) = x1) :
    after cB V (Proc.devRef .tc main_v7) = Read.val_main_v7 x0 x1 := by
  subst h1
  conv_rhs => simp only [Read.val_main_v7, Read.val_main_v6, Read.val_main_v5, Read.val_main_v2, Read.val_main_v1]
  rw [← h0]
  after_results <;> rfl

/-- Operations 10–22 leave k, regrouped. -/
theorem stepB_v10 (h0 : V (Proc.devRef .tc main_v0) = Read.val_main_v0 x0) (h1 : V (Proc.devRef .tc main_arg1) = x1) :
    after cB V (Proc.devRef .tc main_v10) = Read.val_main_v10 x0 x1 := by
  subst h1
  conv_rhs => simp only [Read.val_main_v10, Read.val_main_v9, Read.val_main_v8, Read.val_main_v3, Read.val_main_v1]
  rw [← h0]
  after_results <;> rfl

/-- Operations 10–22 leave v, regrouped. -/
theorem stepB_v13 (h0 : V (Proc.devRef .tc main_v0) = Read.val_main_v0 x0) (h1 : V (Proc.devRef .tc main_arg1) = x1) :
    after cB V (Proc.devRef .tc main_v13) = Read.val_main_v13 x0 x1 := by
  subst h1
  conv_rhs => simp only [Read.val_main_v13, Read.val_main_v12, Read.val_main_v11, Read.val_main_v4, Read.val_main_v1]
  rw [← h0]
  after_results <;> rfl

/-- Operations 23–28 leave the scaled logits, by window coordinates. -/
theorem stepC (h7 : V (Proc.devRef .tc main_v7) = Read.val_main_v7 x0 x1) (h10 : V (Proc.devRef .tc main_v10) = Read.val_main_v10 x0 x1) :
    after cC V (Proc.devRef .tc main_v18) = Read.val_main_v18 x0 x1 := by
  conv_rhs => simp only [Read.val_main_v18, Read.val_main_v17, Read.val_main_v16, Read.val_main_v15, Read.val_main_cst, Read.val_main_v14]
  rw [← h7, ← h10]
  after_results <;> rfl

/-- Operations 29–33 leave the logits with the first mask added. -/
theorem stepD (h18 : V (Proc.devRef .tc main_v18) = Read.val_main_v18 x0 x1) (h4 : V (Proc.devRef .tc main_arg4) = x4) :
    after cD V (Proc.devRef .tc main_v22) = Read.val_main_v22 x0 x1 x4 := by
  subst h4
  conv_rhs => simp only [Read.val_main_v22, Read.val_main_v21, Read.val_main_v20, Read.val_main_v19, Read.val_main_c]
  rw [← h18]
  after_results <;> rfl

/-- Operations 34–40 leave the logits with both masks added, on one window axis. -/
theorem stepE (h22 : V (Proc.devRef .tc main_v22) = Read.val_main_v22 x0 x1 x4) (h5 : V (Proc.devRef .tc main_arg5) = x5) :
    after cE V (Proc.devRef .tc main_v28) = Read.val_main_v28 x0 x1 x4 x5 := by
  subst h5
  conv_rhs => simp only [Read.val_main_v28, Read.val_main_v27, Read.val_main_v26, Read.val_main_v25, Read.val_main_v24, Read.val_main_v23, Read.val_main_c_0]
  rw [← h22]
  after_results <;> rfl

/-- Operations 41–49 leave the exponentials of the logits less their row maximum. -/
theorem stepF (h28 : V (Proc.devRef .tc main_v28) = Read.val_main_v28 x0 x1 x4 x5) :
    after cF V (Proc.devRef .tc main_v35) = Read.val_main_v35 x0 x1 x4 x5 := by
  conv_rhs => simp only [Read.val_main_v35, Read.val_main_v34, Read.val_main_v33, Read.val_main_v32, Read.val_main_v31, Read.val_main_v30, Read.val_main_cst_2, Read.val_main_v29, Read.val_main_cst_1]
  rw [← h28]
  after_results <;> rfl

/-- Operations 50–58 leave the attention output in the token layout. -/
theorem stepG (h35 : V (Proc.devRef .tc main_v35) = Read.val_main_v35 x0 x1 x4 x5) (h13 : V (Proc.devRef .tc main_v13) = Read.val_main_v13 x0 x1) :
    after cG V (Proc.devRef .tc main_v43) = Read.val_main_v43 x0 x1 x4 x5 := by
  conv_rhs => simp only [Read.val_main_v43, Read.val_main_v42, Read.val_main_v41, Read.val_main_v40, Read.val_main_v39, Read.val_main_v38, Read.val_main_v37, Read.val_main_v36, Read.val_main_cst_3]
  rw [← h35, ← h13]
  after_results <;> rfl

/-- Operations 59–62 leave the projected output with its bias. -/
theorem stepH (h43 : V (Proc.devRef .tc main_v43) = Read.val_main_v43 x0 x1 x4 x5) (h2 : V (Proc.devRef .tc main_arg2) = x2) (h3 : V (Proc.devRef .tc main_arg3) = x3) :
    after cH V (Proc.devRef .tc main_v47) = Read.val_main_v47 x0 x1 x2 x3 x4 x5 := by
  subst h2 h3
  conv_rhs => simp only [Read.val_main_v47, Read.val_main_v46, Read.val_main_v45, Read.val_main_v44]
  rw [← h43]
  after_results <;> rfl

/-- Operations 63–71 leave the result, rolled forward. -/
theorem stepI (h47 : V (Proc.devRef .tc main_v47) = Read.val_main_v47 x0 x1 x2 x3 x4 x5) :
    after cI V (Proc.devRef .tc main_v48) = Read.val_main_v48 x0 x1 x2 x3 x4 x5 := by
  conv_rhs => simp only [Read.val_main_v48, Read.val_main_call1_v7, Read.val_main_call1_v6, Read.val_main_call1_v5, Read.val_main_call1_v4, Read.val_main_call1_v3, Read.val_main_call1_v2, Read.val_main_call1_v1, Read.val_main_call1_v0]
  rw [← h47]
  after_results
  simp only [TRef.ofBuf, TRef.toBuf, cast_eq]

end Cert.RefRunHand

end
-- ==== Proof.RefRunHand.lean ====
/- The reference program's run, stated over its stages: every weakly fair execution of @main terminates with the
   result buffer at the last stage value `Read.val_main_v48` of the arguments' launch contents, and the arguments
   unchanged. The stretches' step lemmas are chained through the contents after each prefix of the operation list. -/
import proofs.«139805_j20143396618483_1_alg».proof.Proof.RefRunSteps

noncomputable section

namespace Cert.RefRunHand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

section Chain

variable (W : Valuation τ sig (Elt F))

/-- The device's buffers after operations 1–9, 1–22, 1–28, 1–33, 1–40, 1–49, 1–58, 1–62, from contents `W`. -/
def VA : Valuation τ sig (Elt F) := after cA W
def VB : Valuation τ sig (Elt F) := after cB (VA W)
def VC : Valuation τ sig (Elt F) := after cC (VB W)
def VD : Valuation τ sig (Elt F) := after cD (VC W)
def VE : Valuation τ sig (Elt F) := after cE (VD W)
def VF : Valuation τ sig (Elt F) := after cF (VE W)
def VG : Valuation τ sig (Elt F) := after cG (VF W)
def VH : Valuation τ sig (Elt F) := after cH (VG W)

theorem after_ops_VH : after ops W = after cI (VH W) := after_ops_eq W

/-! ### A buffer none of the first stretches writes still holds what `W` gave it -/

theorem VA_keep (r : Ref sig .tc) (hA : r ∉ wA) : VA W (Proc.devRef .tc r) = W (Proc.devRef .tc r) := keepA W r hA
theorem VB_keep (r : Ref sig .tc) (hA : r ∉ wA) (hB : r ∉ wB) : VB W (Proc.devRef .tc r) = W (Proc.devRef .tc r) :=
  (keepB _ r hB).trans (VA_keep W r hA)
theorem VC_keep (r : Ref sig .tc) (hA : r ∉ wA) (hB : r ∉ wB) (hC : r ∉ wC) : VC W (Proc.devRef .tc r) = W (Proc.devRef .tc r) :=
  (keepC _ r hC).trans (VB_keep W r hA hB)
theorem VD_keep (r : Ref sig .tc) (hA : r ∉ wA) (hB : r ∉ wB) (hC : r ∉ wC) (hD : r ∉ wD) :
    VD W (Proc.devRef .tc r) = W (Proc.devRef .tc r) :=
  (keepD _ r hD).trans (VC_keep W r hA hB hC)
theorem VE_keep (r : Ref sig .tc) (hA : r ∉ wA) (hB : r ∉ wB) (hC : r ∉ wC) (hD : r ∉ wD) (hE : r ∉ wE) :
    VE W (Proc.devRef .tc r) = W (Proc.devRef .tc r) :=
  (keepE _ r hE).trans (VD_keep W r hA hB hC hD)
theorem VF_keep (r : Ref sig .tc) (hA : r ∉ wA) (hB : r ∉ wB) (hC : r ∉ wC) (hD : r ∉ wD) (hE : r ∉ wE) (hF : r ∉ wF) :
    VF W (Proc.devRef .tc r) = W (Proc.devRef .tc r) :=
  (keepF _ r hF).trans (VE_keep W r hA hB hC hD hE)
theorem VG_keep (r : Ref sig .tc) (hA : r ∉ wA) (hB : r ∉ wB) (hC : r ∉ wC) (hD : r ∉ wD) (hE : r ∉ wE) (hF : r ∉ wF) (hG : r ∉ wG) :
    VG W (Proc.devRef .tc r) = W (Proc.devRef .tc r) :=
  (keepG _ r hG).trans (VF_keep W r hA hB hC hD hE hF)

/-! ### The stages, one stretch at a time -/

theorem VA_v0 : VA W (Proc.devRef .tc main_v0) = Read.val_main_v0 (W (Proc.devRef .tc main_arg0)) := stepA W _ rfl

theorem VB_v7 : VB W (Proc.devRef .tc main_v7) = Read.val_main_v7 (W (Proc.devRef .tc main_arg0)) (W (Proc.devRef .tc main_arg1)) :=
  stepB_v7 (VA W) _ _ (VA_v0 W) (VA_keep W main_arg1 (by decide))
theorem VB_v10 : VB W (Proc.devRef .tc main_v10) = Read.val_main_v10 (W (Proc.devRef .tc main_arg0)) (W (Proc.devRef .tc main_arg1)) :=
  stepB_v10 (VA W) _ _ (VA_v0 W) (VA_keep W main_arg1 (by decide))
theorem VB_v13 : VB W (Proc.devRef .tc main_v13) = Read.val_main_v13 (W (Proc.devRef .tc main_arg0)) (W (Proc.devRef .tc main_arg1)) :=
  stepB_v13 (VA W) _ _ (VA_v0 W) (VA_keep W main_arg1 (by decide))

theorem VC_v18 : VC W (Proc.devRef .tc main_v18) = Read.val_main_v18 (W (Proc.devRef .tc main_arg0)) (W (Proc.devRef .tc main_arg1)) :=
  stepC (VB W) _ _ (VB_v7 W) (VB_v10 W)
theorem VC_v13 : VC W (Proc.devRef .tc main_v13) = Read.val_main_v13 (W (Proc.devRef .tc main_arg0)) (W (Proc.devRef .tc main_arg1)) :=
  (keepC _ main_v13 (by decide)).trans (VB_v13 W)

theorem VD_v22 : VD W (Proc.devRef .tc main_v22)
    = Read.val_main_v22 (W (Proc.devRef .tc main_arg0)) (W (Proc.devRef .tc main_arg1)) (W (Proc.devRef .tc main_arg4)) :=
  stepD (VC W) _ _ _ (VC_v18 W) (VC_keep W main_arg4 (by decide) (by decide) (by decide))
theorem VD_v13 : VD W (Proc.devRef .tc main_v13) = Read.val_main_v13 (W (Proc.devRef .tc main_arg0)) (W (Proc.devRef .tc main_arg1)) :=
  (keepD _ main_v13 (by decide)).trans (VC_v13 W)

theorem VE_v28 : VE W (Proc.devRef .tc main_v28)
    = Read.val_main_v28 (W (Proc.devRef .tc main_arg0)) (W (Proc.devRef .tc main_arg1)) (W (Proc.devRef .tc main_arg4)) (W (Proc.devRef .tc main_arg5)) :=
  stepE (VD W) _ _ _ _ (VD_v22 W) (VD_keep W main_arg5 (by decide) (by decide) (by decide) (by decide))
theorem VE_v13 : VE W (Proc.devRef .tc main_v13) = Read.val_main_v13 (W (Proc.devRef .tc main_arg0)) (W (Proc.devRef .tc main_arg1)) :=
  (keepE _ main_v13 (by decide)).trans (VD_v13 W)

theorem VF_v35 : VF W (Proc.devRef .tc main_v35)
    = Read.val_main_v35 (W (Proc.devRef .tc main_arg0)) (W (Proc.devRef .tc main_arg1)) (W (Proc.devRef .tc main_arg4)) (W (Proc.devRef .tc main_arg5)) :=
  stepF (VE W) _ _ _ _ (VE_v28 W)
theorem VF_v13 : VF W (Proc.devRef .tc main_v13) = Read.val_main_v13 (W (Proc.devRef .tc main_arg0)) (W (Proc.devRef .tc main_arg1)) :=
  (keepF _ main_v13 (by decide)).trans (VE_v13 W)

theorem VG_v43 : VG W (Proc.devRef .tc main_v43)
    = Read.val_main_v43 (W (Proc.devRef .tc main_arg0)) (W (Proc.devRef .tc main_arg1)) (W (Proc.devRef .tc main_arg4)) (W (Proc.devRef .tc main_arg5)) :=
  stepG (VF W) _ _ _ _ (VF_v35 W) (VF_v13 W)

theorem VH_v47 : VH W (Proc.devRef .tc main_v47)
    = Read.val_main_v47 (W (Proc.devRef .tc main_arg0)) (W (Proc.devRef .tc main_arg1)) (W (Proc.devRef .tc main_arg2))
        (W (Proc.devRef .tc main_arg3)) (W (Proc.devRef .tc main_arg4)) (W (Proc.devRef .tc main_arg5)) :=
  stepH (VG W) _ _ _ _ _ _ (VG_v43 W)
    (VG_keep W main_arg2 (by decide) (by decide) (by decide) (by decide) (by decide) (by decide) (by decide))
    (VG_keep W main_arg3 (by decide) (by decide) (by decide) (by decide) (by decide) (by decide) (by decide))

/-- After all 71 operations the result buffer holds the last stage value of the arguments' contents. -/
theorem after_ops_v48 : after ops W (Proc.devRef .tc main_v48)
    = Read.val_main_v48 (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  rw [after_ops_VH]
  exact stepI (VH W) _ _ _ _ _ _ (VH_v47 W)

/-- An argument of the program holds at the end what it held at the start. -/
theorem after_ops_arg (r : Ref sig .tc) (hA : r ∉ wA) (hB : r ∉ wB) (hC : r ∉ wC) (hD : r ∉ wD) (hE : r ∉ wE) (hF : r ∉ wF)
    (hG : r ∉ wG) (hH : r ∉ wH) (hI : r ∉ wI) : after ops W (Proc.devRef .tc r) = W (Proc.devRef .tc r) :=
  after_ops_keep W r hA hB hC hD hE hF hG hH hI

end Chain

set_option maxRecDepth 8192 in
set_option maxHeartbeats 4000000 in
/-- On every device, for any float values, from any memory with zero counters: every weakly fair execution of @main
    terminates with the result at the last stage value of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Read.val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v48).trans (after_ops_v48 _),
      (h c main_arg0).trans (after_ops_arg _ main_arg0 (by decide) (by decide) (by decide) (by decide) (by decide) (by decide) (by decide) (by decide) (by decide)),
      (h c main_arg1).trans (after_ops_arg _ main_arg1 (by decide) (by decide) (by decide) (by decide) (by decide) (by decide) (by decide) (by decide) (by decide)),
      (h c main_arg2).trans (after_ops_arg _ main_arg2 (by decide) (by decide) (by decide) (by decide) (by decide) (by decide) (by decide) (by decide) (by decide)),
      (h c main_arg3).trans (after_ops_arg _ main_arg3 (by decide) (by decide) (by decide) (by decide) (by decide) (by decide) (by decide) (by decide) (by decide)),
      (h c main_arg4).trans (after_ops_arg _ main_arg4 (by decide) (by decide) (by decide) (by decide) (by decide) (by decide) (by decide) (by decide) (by decide)),
      (h c main_arg5).trans (after_ops_arg _ main_arg5 (by decide) (by decide) (by decide) (by decide) (by decide) (by decide) (by decide) (by decide) (by decide)),
      (h c main_arg6).trans (after_ops_arg _ main_arg6 (by decide) (by decide) (by decide) (by decide) (by decide) (by decide) (by decide) (by decide) (by decide))⟩)
    (run_seq scopedRefs_eq scopedSems_eq defs main (fun _ => ops) main_eq (fun _ => ops_sub) m ρ (fun _ => ops_fresh))

end Cert.RefRunHand

end
-- ==== Proof.RefRoll.lean ====
/-
  The cyclic shift by two places along one spatial axis of a [1,64,64,64,96] array, read at an index.

  The shift is spelt as two slices along the axis, positions [2, 64) and [0, 2), laid end to end along the same
  axis. A position below 62 falls in the first piece and reads the array two places further along; a position from
  62 on falls in the second and reads the array 62 places back. Both are the position plus two, modulo 64.
-/
import Idealize.ShloMosaic.Lib.Pipeline.Value
import Idealize.ShloMosaic.Lib.ValueIdx
import proofs.«139805_j20143396618483_1_alg».proof.Proof.Spec

namespace Cert.RefQKV

open Idealize.ShloMosaic Idealize.ShloMosaic.ValueIdx

/-- The tail [2, 64) and the head [0, 2) of y along axis 1, joined along that axis with the tail first, read at
    (0, px, py, pz, ch): it is y two places further along axis 1, cyclically. -/
theorem roll1_apply {α : Type} (y : (⟨5, ![1, 64, 64, 64, 96]⟩ : Shape).Idx → α)
    (h₁ : (⟨5, ![1, 64, 64, 64, 96]⟩ : Shape).Slices ![0, 2, 0, 0, 0] ⟨5, ![1, 62, 64, 64, 96]⟩)
    (h₂ : (⟨5, ![1, 64, 64, 64, 96]⟩ : Shape).Slices ![0, 0, 0, 0, 0] ⟨5, ![1, 2, 64, 64, 96]⟩)
    (hc : Shape.Concatenates [⟨5, ![1, 62, 64, 64, 96]⟩, ⟨5, ![1, 2, 64, 64, 96]⟩] ⟨5, ![1, 64, 64, 64, 96]⟩ 1)
    (px py pz : Fin 64) (ch : Fin 96) :
    concatenate ⟨5, ![1, 64, 64, 64, 96]⟩ 1
      [⟨⟨5, ![1, 62, 64, 64, 96]⟩, extractStridedSlice ⟨5, ![1, 62, 64, 64, 96]⟩ ![0, 2, 0, 0, 0] y h₁⟩,
       ⟨⟨5, ![1, 2, 64, 64, 96]⟩, extractStridedSlice ⟨5, ![1, 2, 64, 64, 96]⟩ ![0, 0, 0, 0, 0] y h₂⟩] hc
      (ix5 (0 : Fin 1) px py pz ch)
    = y (ix5 (0 : Fin 1) (Cert.Spec.fwd px) py pz ch) := by
  have hp := px.isLt
  by_cases hlt : px.val < 62
  · refine (concatenate_pair_apply_left 1 _ _ hc _ rfl (ix5 (0 : Fin 1) (⟨px.val, hlt⟩ : Fin 62) py pz ch)
      (fun b => match b with
        | ⟨0, _⟩ => rfl | ⟨1, _⟩ => rfl | ⟨2, _⟩ => rfl | ⟨3, _⟩ => rfl | ⟨4, _⟩ => rfl)).trans ?_
    exact extractStridedSlice_apply _ y h₁ _ _ (fun a => match a with
      | ⟨0, _⟩ => rfl
      | ⟨1, _⟩ => by show (px.val + 2) % 64 = 2 + px.val; omega
      | ⟨2, _⟩ => by show py.val = 0 + py.val; omega
      | ⟨3, _⟩ => by show pz.val = 0 + pz.val; omega
      | ⟨4, _⟩ => by show ch.val = 0 + ch.val; omega)
  · refine (concatenate_pair_apply_right 1 _ _ hc _ rfl rfl
      (ix5 (0 : Fin 1) (⟨px.val - 62, by omega⟩ : Fin 2) py pz ch)
      (fun b => match b with
        | ⟨0, _⟩ => fun _ => rfl
        | ⟨1, _⟩ => fun h => absurd rfl h
        | ⟨2, _⟩ => fun _ => rfl
        | ⟨3, _⟩ => fun _ => rfl
        | ⟨4, _⟩ => fun _ => rfl)
      (by show px.val - 62 + 62 = px.val; omega)).trans ?_
    exact extractStridedSlice_apply _ y h₂ _ _ (fun a => match a with
      | ⟨0, _⟩ => rfl
      | ⟨1, _⟩ => by show (px.val + 2) % 64 = 0 + (px.val - 62); omega
      | ⟨2, _⟩ => by show py.val = 0 + py.val; omega
      | ⟨3, _⟩ => by show pz.val = 0 + pz.val; omega
      | ⟨4, _⟩ => by show ch.val = 0 + ch.val; omega)

/-- The tail [2, 64) and the head [0, 2) of y along axis 2, joined along that axis with the tail first, read at
    (0, px, py, pz, ch): it is y two places further along axis 2, cyclically. -/
theorem roll2_apply {α : Type} (y : (⟨5, ![1, 64, 64, 64, 96]⟩ : Shape).Idx → α)
    (h₁ : (⟨5, ![1, 64, 64, 64, 96]⟩ : Shape).Slices ![0, 0, 2, 0, 0] ⟨5, ![1, 64, 62, 64, 96]⟩)
    (h₂ : (⟨5, ![1, 64, 64, 64, 96]⟩ : Shape).Slices ![0, 0, 0, 0, 0] ⟨5, ![1, 64, 2, 64, 96]⟩)
    (hc : Shape.Concatenates [⟨5, ![1, 64, 62, 64, 96]⟩, ⟨5, ![1, 64, 2, 64, 96]⟩] ⟨5, ![1, 64, 64, 64, 96]⟩ 2)
    (px py pz : Fin 64) (ch : Fin 96) :
    concatenate ⟨5, ![1, 64, 64, 64, 96]⟩ 2
      [⟨⟨5, ![1, 64, 62, 64, 96]⟩, extractStridedSlice ⟨5, ![1, 64, 62, 64, 96]⟩ ![0, 0, 2, 0, 0] y h₁⟩,
       ⟨⟨5, ![1, 64, 2, 64, 96]⟩, extractStridedSlice ⟨5, ![1, 64, 2, 64, 96]⟩ ![0, 0, 0, 0, 0] y h₂⟩] hc
      (ix5 (0 : Fin 1) px py pz ch)
    = y (ix5 (0 : Fin 1) px (Cert.Spec.fwd py) pz ch) := by
  have hp := py.isLt
  by_cases hlt : py.val < 62
  · refine (concatenate_pair_apply_left 2 _ _ hc _ rfl (ix5 (0 : Fin 1) px (⟨py.val, hlt⟩ : Fin 62) pz ch)
      (fun b => match b with
        | ⟨0, _⟩ => rfl | ⟨1, _⟩ => rfl | ⟨2, _⟩ => rfl | ⟨3, _⟩ => rfl | ⟨4, _⟩ => rfl)).trans ?_
    exact extractStridedSlice_apply _ y h₁ _ _ (fun a => match a with
      | ⟨0, _⟩ => rfl
      | ⟨1, _⟩ => by show px.val = 0 + px.val; omega
      | ⟨2, _⟩ => by show (py.val + 2) % 64 = 2 + py.val; omega
      | ⟨3, _⟩ => by show pz.val = 0 + pz.val; omega
      | ⟨4, _⟩ => by show ch.val = 0 + ch.val; omega)
  · refine (concatenate_pair_apply_right 2 _ _ hc _ rfl rfl
      (ix5 (0 : Fin 1) px (⟨py.val - 62, by omega⟩ : Fin 2) pz ch)
      (fun b => match b with
        | ⟨0, _⟩ => fun _ => rfl
        | ⟨1, _⟩ => fun _ => rfl
        | ⟨2, _⟩ => fun h => absurd rfl h
        | ⟨3, _⟩ => fun _ => rfl
        | ⟨4, _⟩ => fun _ => rfl)
      (by show py.val - 62 + 62 = py.val; omega)).trans ?_
    exact extractStridedSlice_apply _ y h₂ _ _ (fun a => match a with
      | ⟨0, _⟩ => rfl
      | ⟨1, _⟩ => by show px.val = 0 + px.val; omega
      | ⟨2, _⟩ => by show (py.val + 2) % 64 = 0 + (py.val - 62); omega
      | ⟨3, _⟩ => by show pz.val = 0 + pz.val; omega
      | ⟨4, _⟩ => by show ch.val = 0 + ch.val; omega)

/-- The tail [2, 64) and the head [0, 2) of y along axis 3, joined along that axis with the tail first, read at
    (0, px, py, pz, ch): it is y two places further along axis 3, cyclically. -/
theorem roll3_apply {α : Type} (y : (⟨5, ![1, 64, 64, 64, 96]⟩ : Shape).Idx → α)
    (h₁ : (⟨5, ![1, 64, 64, 64, 96]⟩ : Shape).Slices ![0, 0, 0, 2, 0] ⟨5, ![1, 64, 64, 62, 96]⟩)
    (h₂ : (⟨5, ![1, 64, 64, 64, 96]⟩ : Shape).Slices ![0, 0, 0, 0, 0] ⟨5, ![1, 64, 64, 2, 96]⟩)
    (hc : Shape.Concatenates [⟨5, ![1, 64, 64, 62, 96]⟩, ⟨5, ![1, 64, 64, 2, 96]⟩] ⟨5, ![1, 64, 64, 64, 96]⟩ 3)
    (px py pz : Fin 64) (ch : Fin 96) :
    concatenate ⟨5, ![1, 64, 64, 64, 96]⟩ 3
      [⟨⟨5, ![1, 64, 64, 62, 96]⟩, extractStridedSlice ⟨5, ![1, 64, 64, 62, 96]⟩ ![0, 0, 0, 2, 0] y h₁⟩,
       ⟨⟨5, ![1, 64, 64, 2, 96]⟩, extractStridedSlice ⟨5, ![1, 64, 64, 2, 96]⟩ ![0, 0, 0, 0, 0] y h₂⟩] hc
      (ix5 (0 : Fin 1) px py pz ch)
    = y (ix5 (0 : Fin 1) px py (Cert.Spec.fwd pz) ch) := by
  have hp := pz.isLt
  by_cases hlt : pz.val < 62
  · refine (concatenate_pair_apply_left 3 _ _ hc _ rfl (ix5 (0 : Fin 1) px py (⟨pz.val, hlt⟩ : Fin 62) ch)
      (fun b => match b with
        | ⟨0, _⟩ => rfl | ⟨1, _⟩ => rfl | ⟨2, _⟩ => rfl | ⟨3, _⟩ => rfl | ⟨4, _⟩ => rfl)).trans ?_
    exact extractStridedSlice_apply _ y h₁ _ _ (fun a => match a with
      | ⟨0, _⟩ => rfl
      | ⟨1, _⟩ => by show px.val = 0 + px.val; omega
      | ⟨2, _⟩ => by show py.val = 0 + py.val; omega
      | ⟨3, _⟩ => by show (pz.val + 2) % 64 = 2 + pz.val; omega
      | ⟨4, _⟩ => by show ch.val = 0 + ch.val; omega)
  · refine (concatenate_pair_apply_right 3 _ _ hc _ rfl rfl
      (ix5 (0 : Fin 1) px py (⟨pz.val - 62, by omega⟩ : Fin 2) ch)
      (fun b => match b with
        | ⟨0, _⟩ => fun _ => rfl
        | ⟨1, _⟩ => fun _ => rfl
        | ⟨2, _⟩ => fun _ => rfl
        | ⟨3, _⟩ => fun h => absurd rfl h
        | ⟨4, _⟩ => fun _ => rfl)
      (by show pz.val - 62 + 62 = pz.val; omega)).trans ?_
    exact extractStridedSlice_apply _ y h₂ _ _ (fun a => match a with
      | ⟨0, _⟩ => rfl
      | ⟨1, _⟩ => by show px.val = 0 + px.val; omega
      | ⟨2, _⟩ => by show py.val = 0 + py.val; omega
      | ⟨3, _⟩ => by show (pz.val + 2) % 64 = 0 + (pz.val - 62); omega
      | ⟨4, _⟩ => by show ch.val = 0 + ch.val; omega)

end Cert.RefQKV
-- ==== Proof.RefWindow.lean ====
/-
  One slice of the joined projections read in window order.

  A [1,64,64,64,96] array is cut, without moving anything, into 16 x 4 on each spatial axis and 3 x 32 on the
  channels; the axes are permuted so that the head comes first, then the three window numbers, then the three
  in-window coordinates, then the position in the head; and the result is flattened to [1,3,4096,64,32]. Read at
  head h, window (a, b, c), token i, position d, it is the array at spatial position
  (4a + i/16, 4b + i/4 % 4, 4c + i % 4) and channel 32 h + d.
-/
import Idealize.ShloMosaic.Lib.Pipeline.Value
import Idealize.ShloMosaic.Lib.ValueIdx
import proofs.«139805_j20143396618483_1_alg».proof.Proof.Spec

namespace Cert.RefQKV

open Idealize.ShloMosaic Idealize.ShloMosaic.ValueIdx

/-- A rank-9 index from its coordinates. -/
abbrev ix9 {n0 n1 n2 n3 n4 n5 n6 n7 n8 : Nat} (a0 : Fin n0) (a1 : Fin n1) (a2 : Fin n2) (a3 : Fin n3) (a4 : Fin n4)
    (a5 : Fin n5) (a6 : Fin n6) (a7 : Fin n7) (a8 : Fin n8) : (⟨9, ![n0, n1, n2, n3, n4, n5, n6, n7, n8]⟩ : Shape).Idx :=
  fun g => match g with
    | ⟨0, _⟩ => a0 | ⟨1, _⟩ => a1 | ⟨2, _⟩ => a2 | ⟨3, _⟩ => a3 | ⟨4, _⟩ => a4
    | ⟨5, _⟩ => a5 | ⟨6, _⟩ => a6 | ⟨7, _⟩ => a7 | ⟨8, _⟩ => a8

/-- Rank 9: the row-major position as one sum of products. -/
theorem rowMajor_val_nine {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5 + (i 5).val)
          * d 6 + (i 6).val) * d 7 + (i 7).val) * d 8 + (i 8).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val]
  simp [Shape.rowMajorPi_zero, Fin.prod_univ_succ, Nat.add_mul, Nat.mul_assoc, Nat.add_assoc]

/-- The channel of head h, position d. -/
def chan (h : Fin 3) (d : Fin 32) : Fin 96 := ⟨32 * h.val + d.val, by have := h.isLt; have := d.isLt; omega⟩

/-- The cut, the permutation and the flattening of one slice y, read at head h, window (a, b, c), token i,
    position d. -/
theorem window_apply {α : Type} (y : (⟨5, ![1, 64, 64, 64, 96]⟩ : Shape).Idx → α)
    (h1 : (⟨5, ![1, 64, 64, 64, 96]⟩ : Shape).ShapeCasts ⟨9, ![1, 16, 4, 16, 4, 16, 4, 3, 32]⟩)
    (h2 : (⟨9, ![1, 16, 4, 16, 4, 16, 4, 3, 32]⟩ : Shape).Transposes [0, 7, 1, 3, 5, 2, 4, 6, 8] ⟨9, ![1, 3, 16, 16, 16, 4, 4, 4, 32]⟩)
    (h3 : (⟨9, ![1, 3, 16, 16, 16, 4, 4, 4, 32]⟩ : Shape).ShapeCasts ⟨5, ![1, 3, 4096, 64, 32]⟩)
    (h : Fin 3) (a b c : Fin 16) (i : Fin 64) (d : Fin 32) :
    shapeCast (⟨5, ![1, 3, 4096, 64, 32]⟩ : Shape)
      (transpose (⟨9, ![1, 3, 16, 16, 16, 4, 4, 4, 32]⟩ : Shape) [0, 7, 1, 3, 5, 2, 4, 6, 8]
        (shapeCast (⟨9, ![1, 16, 4, 16, 4, 16, 4, 3, 32]⟩ : Shape) y h1) h2) h3
      (ix5 (0 : Fin 1) h (Cert.Spec.wix a b c) i d)
    = y (ix5 (0 : Fin 1) (Cert.Spec.pos a (Cert.Spec.t0 i)) (Cert.Spec.pos b (Cert.Spec.t1 i))
          (Cert.Spec.pos c (Cert.Spec.t2 i)) (chan h d)) := by
  have hh := h.isLt
  have ha := a.isLt
  have hb := b.isLt
  have hc := c.isLt
  have hi := i.isLt
  have hd := d.isLt
  -- the flattening: [1,3,4096,64,32] at (0, h, 256a+16b+c, i, d) reads (0, h, a, b, c, i/16, i/4%4, i%4, d)
  refine (shapeCast_apply _ h3 _
    (ix9 (0 : Fin 1) h a b c (Cert.Spec.t0 i) (Cert.Spec.t1 i) (Cert.Spec.t2 i) d)
    (by rw [rowMajor_val_nine, Shape.rowMajor_val_five]
        show ((((((((0 * 3 + h.val) * 16 + a.val) * 16 + b.val) * 16 + c.val) * 4 + i.val / 16) * 4 + i.val / 4 % 4) * 4
              + i.val % 4) * 32 + d.val)
            = ((((0 * 3 + h.val) * 4096 + (256 * a.val + 16 * b.val + c.val)) * 64 + i.val) * 32 + d.val)
        omega)).trans ?_
  -- the permutation
  refine (transpose_apply _ _ h2 _
    (ix9 (0 : Fin 1) a (Cert.Spec.t0 i) b (Cert.Spec.t1 i) c (Cert.Spec.t2 i) h d)
    (fun e => match e with
      | ⟨0, _⟩ => rfl | ⟨1, _⟩ => rfl | ⟨2, _⟩ => rfl | ⟨3, _⟩ => rfl | ⟨4, _⟩ => rfl
      | ⟨5, _⟩ => rfl | ⟨6, _⟩ => rfl | ⟨7, _⟩ => rfl | ⟨8, _⟩ => rfl)).trans ?_
  -- the cut
  exact shapeCast_apply _ h1 _ _
    (by rw [Shape.rowMajor_val_five, rowMajor_val_nine]
        show ((((0 * 64 + (4 * a.val + i.val / 16)) * 64 + (4 * b.val + i.val / 4 % 4)) * 64 + (4 * c.val + i.val % 4)) * 96
              + (32 * h.val + d.val))
            = ((((((((0 * 16 + a.val) * 4 + i.val / 16) * 16 + b.val) * 4 + i.val / 4 % 4) * 16 + c.val) * 4
              + i.val % 4) * 3 + h.val) * 32 + d.val)
        omega)

end Cert.RefQKV
-- ==== Proof.RefQKV.lean ====
/-
  The reference program from its input to the per-head queries, keys and values.

  The input is shifted cyclically by two places on each of its three spatial axes; the shifted input is
  multiplied with the joined weights over the channels; the result's columns [0, 96), [96, 192), [192, 288) are
  the queries, the keys and the values; each is cut into windows and heads. Read at head h, window (a, b, c),
  token i, position d, each is the projection of the window's token i on row off + 32 h + d of the weights.
-/
import proofs.«139805_j20143396618483_1_alg».proof.Proof.RefRead
import proofs.«139805_j20143396618483_1_alg».proof.Proof.Spec
import proofs.«139805_j20143396618483_1_alg».proof.Proof.RefRoll
import proofs.«139805_j20143396618483_1_alg».proof.Proof.RefWindow

noncomputable section

namespace Cert.RefQKV

open Cert.ReferenceIdeal Cert.ReferenceIdeal.Gen Idealize.ShloMosaic Idealize.ShloMosaic.ValueIdx

/-- The shifted input at position (px, py, pz) is the input at (px + 2, py + 2, pz + 2), cyclically. -/
theorem shifted_apply (x0 : (⟨S1x64x64x64x96, .f32⟩ : BufTy).Contents (Elt Ideal)) (px py pz : Fin 64) (ch : Fin 96) :
    Read.val_main_v0 (F := Ideal) x0 (ix5 (0 : Fin 1) px py pz ch) = Cert.Spec.rolled x0 px py pz ch := by
  unfold Read.val_main_v0 Read.val_main_call0_v6 Read.val_main_call0_v7
  refine (roll3_apply _ _ _ _ px py pz ch).trans ?_
  unfold Read.val_main_call0_v5 Read.val_main_call0_v3 Read.val_main_call0_v4
  refine (roll2_apply _ _ _ _ px py (Cert.Spec.fwd pz) ch).trans ?_
  unfold Read.val_main_call0_v2 Read.val_main_call0_v0 Read.val_main_call0_v1
  refine (roll1_apply _ _ _ _ px (Cert.Spec.fwd py) (Cert.Spec.fwd pz) ch).trans ?_
  rfl

/-- The joined projections at position (px, py, pz), column e: the shifted input's token against row e. -/
theorem joined_apply (x0 : (⟨S1x64x64x64x96, .f32⟩ : BufTy).Contents (Elt Ideal))
    (x1 : (⟨S288x96, .f32⟩ : BufTy).Contents (Elt Ideal)) (px py pz : Fin 64) (e : Fin 288) :
    Read.val_main_v1 (F := Ideal) x0 x1 (ix5 (0 : Fin 1) px py pz e)
      = ∑ cc : Fin 96, Cert.Spec.rolled x0 px py pz cc * x1 (ix2 e cc) := by
  rw [Read.val_main_v1_apply]
  refine Finset.sum_congr rfl fun k _ => ?_
  have el : Read.lidx_main_v1 (ix5 (0 : Fin 1) px py pz e) k = ix5 (0 : Fin 1) px py pz k :=
    funext fun a => match a with
      | ⟨0, _⟩ => rfl | ⟨1, _⟩ => rfl | ⟨2, _⟩ => rfl | ⟨3, _⟩ => rfl | ⟨4, _⟩ => rfl
  have er : Read.ridx_main_v1 (ix5 (0 : Fin 1) px py pz e) k = ix2 e k :=
    funext fun a => match a with
      | ⟨0, _⟩ => rfl | ⟨1, _⟩ => rfl
  rw [el, er, shifted_apply]

/-- One window's token against one row of the joined weights, as the sum the joined projections hold. -/
theorem proj_eq (x0 : (⟨S1x64x64x64x96, .f32⟩ : BufTy).Contents (Elt Ideal))
    (x1 : (⟨S288x96, .f32⟩ : BufTy).Contents (Elt Ideal)) (a b c : Fin 16) (i : Fin 64) (e : Fin 288) :
    Read.val_main_v1 (F := Ideal) x0 x1
        (ix5 (0 : Fin 1) (Cert.Spec.pos a (Cert.Spec.t0 i)) (Cert.Spec.pos b (Cert.Spec.t1 i))
          (Cert.Spec.pos c (Cert.Spec.t2 i)) e)
      = Cert.Spec.proj (fun e cc => x1 (ix2 e cc)) (Cert.Spec.win x0 a b c) i e := by
  rw [joined_apply]
  rfl

/-- The queries. -/
theorem q_apply (x0 : (⟨S1x64x64x64x96, .f32⟩ : BufTy).Contents (Elt Ideal))
    (x1 : (⟨S288x96, .f32⟩ : BufTy).Contents (Elt Ideal)) (h : Fin 3) (a b c : Fin 16) (i : Fin 64) (d : Fin 32) :
    Read.val_main_v7 (F := Ideal) x0 x1 (ix5 (0 : Fin 1) h (Cert.Spec.wix a b c) i d)
      = Cert.Spec.proj (fun e cc => x1 (ix2 e cc)) (Cert.Spec.win x0 a b c) i (Cert.Spec.qkvRow 0 (by decide) h d) := by
  unfold Read.val_main_v7 Read.val_main_v6 Read.val_main_v5
  refine (window_apply _ _ _ _ h a b c i d).trans ?_
  rw [Read.val_main_v2_apply, ← proj_eq]
  refine congrArg _ (funext fun g => match g with
    | ⟨0, _⟩ => rfl | ⟨1, _⟩ => rfl | ⟨2, _⟩ => rfl | ⟨3, _⟩ => rfl
    | ⟨4, _⟩ => Fin.ext (by show 32 * h.val + d.val = 0 + (32 * h.val + d.val); omega))

/-- The keys. -/
theorem k_apply (x0 : (⟨S1x64x64x64x96, .f32⟩ : BufTy).Contents (Elt Ideal))
    (x1 : (⟨S288x96, .f32⟩ : BufTy).Contents (Elt Ideal)) (h : Fin 3) (a b c : Fin 16) (i : Fin 64) (d : Fin 32) :
    Read.val_main_v10 (F := Ideal) x0 x1 (ix5 (0 : Fin 1) h (Cert.Spec.wix a b c) i d)
      = Cert.Spec.proj (fun e cc => x1 (ix2 e cc)) (Cert.Spec.win x0 a b c) i (Cert.Spec.qkvRow 96 (by decide) h d) := by
  unfold Read.val_main_v10 Read.val_main_v9 Read.val_main_v8
  refine (window_apply _ _ _ _ h a b c i d).trans ?_
  rw [Read.val_main_v3_apply, ← proj_eq]
  refine congrArg _ (funext fun g => match g with
    | ⟨0, _⟩ => rfl | ⟨1, _⟩ => rfl | ⟨2, _⟩ => rfl | ⟨3, _⟩ => rfl
    | ⟨4, _⟩ => Fin.ext (by show 96 + (32 * h.val + d.val) = 96 + (32 * h.val + d.val); rfl))

/-- The values. -/
theorem v_apply (x0 : (⟨S1x64x64x64x96, .f32⟩ : BufTy).Contents (Elt Ideal))
    (x1 : (⟨S288x96, .f32⟩ : BufTy).Contents (Elt Ideal)) (h : Fin 3) (a b c : Fin 16) (i : Fin 64) (d : Fin 32) :
    Read.val_main_v13 (F := Ideal) x0 x1 (ix5 (0 : Fin 1) h (Cert.Spec.wix a b c) i d)
      = Cert.Spec.proj (fun e cc => x1 (ix2 e cc)) (Cert.Spec.win x0 a b c) i (Cert.Spec.qkvRow 192 (by decide) h d) := by
  unfold Read.val_main_v13 Read.val_main_v12 Read.val_main_v11
  refine (window_apply _ _ _ _ h a b c i d).trans ?_
  rw [Read.val_main_v4_apply, ← proj_eq]
  refine congrArg _ (funext fun g => match g with
    | ⟨0, _⟩ => rfl | ⟨1, _⟩ => rfl | ⟨2, _⟩ => rfl | ⟨3, _⟩ => rfl
    | ⟨4, _⟩ => Fin.ext (by show 192 + (32 * h.val + d.val) = 192 + (32 * h.val + d.val); rfl))

end Cert.RefQKV

end
-- ==== Proof.RefScatter.lean ====
/-
  A scatter that adds ONE update slab at coordinate 15 of axis 4, read at an index.

  The scatter is a left fold of point updates over the update's indices. When the landing index of an update
  determines the update, the fold read at an index applies the body at most once: at the one update landing there.
-/
import proofs.«139805_j20143396618483_1_alg».proof.Proof.Gen.ReferenceIdeal
import Idealize.ShloMosaic.PureOps.Ideal

noncomputable section

namespace Cert.RefLogits

open Cert.ReferenceIdeal Cert.ReferenceIdeal.Gen Idealize.ShloMosaic

/-- One point update: the update n lands at g n (or nowhere) and is joined there by f. -/
def pstep {ι κ α : Type} [DecidableEq ι] (f : α → α → α) (g : κ → Option ι) (v : κ → α) (r : ι → α) (n : κ) : ι → α :=
  match g n with
  | some i => fun i' => if i' = i then f (r i) (v n) else r i'
  | none => r

theorem pstep_ne {ι κ α : Type} [DecidableEq ι] (f : α → α → α) (g : κ → Option ι) (v : κ → α) (r : ι → α) (n : κ)
    (i : ι) (h : g n ≠ some i) : pstep f g v r n i = r i := by
  unfold pstep
  cases hg : g n with
  | none => rfl
  | some i0 =>
    have hne : i ≠ i0 := fun e => h (by rw [hg, e])
    show (if i = i0 then f (r i0) (v n) else r i) = r i
    rw [if_neg hne]

theorem pstep_eq {ι κ α : Type} [DecidableEq ι] (f : α → α → α) (g : κ → Option ι) (v : κ → α) (r : ι → α) (n : κ)
    (i : ι) (h : g n = some i) : pstep f g v r n i = f (r i) (v n) := by
  unfold pstep
  rw [h]
  show (if i = i then f (r i) (v n) else r i) = f (r i) (v n)
  rw [if_pos rfl]

/-- No update of the list lands at i: the fold leaves i alone. -/
theorem foldl_pstep_miss {ι κ α : Type} [DecidableEq ι] (f : α → α → α) (g : κ → Option ι) (v : κ → α)
    (i : ι) (l : List κ) (hl : ∀ n ∈ l, g n ≠ some i) (x : ι → α) :
    (l.foldl (pstep f g v) x) i = x i := by
  induction l generalizing x with
  | nil => rfl
  | cons n l ih =>
    rw [List.foldl_cons, ih (fun m hm => hl m (List.mem_cons_of_mem _ hm))]
    exact pstep_ne f g v x n i (hl n (List.mem_cons_self ..))

/-- Exactly one update of the list lands at i: the fold joins it there once. -/
theorem foldl_pstep_hit {ι κ α : Type} [DecidableEq ι] (f : α → α → α) (g : κ → Option ι) (v : κ → α)
    (i : ι) (n0 : κ) (h0 : g n0 = some i) (l : List κ) (hnd : l.Nodup) (hmem : n0 ∈ l)
    (huniq : ∀ n ∈ l, g n = some i → n = n0) (x : ι → α) :
    (l.foldl (pstep f g v) x) i = f (x i) (v n0) := by
  induction l generalizing x with
  | nil => exact absurd hmem (List.not_mem_nil)
  | cons n l ih =>
    rw [List.foldl_cons]
    have hnd' := List.nodup_cons.1 hnd
    by_cases hn : n = n0
    · subst hn
      rw [foldl_pstep_miss f g v i l (fun m hm e => hnd'.1 (by rw [← huniq m (List.mem_cons_of_mem _ hm) e]; exact hm))]
      exact pstep_eq f g v x n i h0
    · have hm0 : n0 ∈ l := by
        rcases List.mem_cons.1 hmem with e | e
        · exact absurd e.symm hn
        · exact e
      rw [ih hnd'.2 hm0 (fun m hm e => huniq m (List.mem_cons_of_mem _ hm) e)]
      rw [pstep_ne f g v x n i (fun e => hn (huniq n (List.mem_cons_self ..) e))]

/-- The scatter is the fold of its point updates over the update's indices in row-major order. -/
theorem scatter_eq_foldl {s si u : Shape} {w : Nat} {α : Type} (d : ScatterDims s si u) (f : α → α → α) (x : s.Idx → α)
    (idx : IVec si w) (upd : u.Idx → α) :
    Host.scatter d f x idx upd
      = (List.finRange u.numel).foldl
          (pstep f (fun n => d.resultIdx? (u.rowMajor.symm n) idx) (fun n => upd (u.rowMajor.symm n))) x := by
  unfold Host.scatter
  congr 1
  funext r n
  unfold pstep
  beta_reduce
  generalize d.resultIdx? (u.rowMajor.symm n) idx = o
  cases o <;> rfl

/-- An update index with coordinate 15 inserted on axis 4. -/
def ins15 (k : S1x3x16x16x64x64.Idx) : S1x3x16x16x16x64x64.Idx := fun a => match a with
  | ⟨0, _⟩ => ⟨(k 0).val, (k 0).isLt⟩
  | ⟨1, _⟩ => ⟨(k 1).val, (k 1).isLt⟩
  | ⟨2, _⟩ => ⟨(k 2).val, (k 2).isLt⟩
  | ⟨3, _⟩ => ⟨(k 3).val, (k 3).isLt⟩
  | ⟨4, _⟩ => ⟨15, by show (15 : Nat) < 16; decide⟩
  | ⟨5, _⟩ => ⟨(k 4).val, (k 4).isLt⟩
  | ⟨6, _⟩ => ⟨(k 5).val, (k 5).isLt⟩

/-- An operand index without its coordinate on axis 4. -/
def drop4 (j : S1x3x16x16x16x64x64.Idx) : S1x3x16x16x64x64.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 5).val, (j 5).isLt⟩
  | ⟨5, _⟩ => ⟨(j 6).val, (j 6).isLt⟩

theorem start15 (k : S1x3x16x16x64x64.Idx) (a : Fin S1x3x16x16x16x64x64.rank) :
    scatter_S1x3x16x16x16x64x64_S1_S1x3x16x16x64x64_012345_4_4_0.start k (fun _ => 15#32 : IVec S1 32) a = if a.val = 4 then 15 else 0 := by
  have h0 : scatter_S1x3x16x16x16x64x64_S1_S1x3x16x16x64x64_012345_4_4_0.start k (fun _ => 15#32 : IVec S1 32) (0 : Fin S1x3x16x16x16x64x64.rank) = 0 := by
    unfold ScatterDims.start
    rw [dif_neg (show ¬ (0 : Fin S1x3x16x16x16x64x64.rank) ∈ scatter_S1x3x16x16x16x64x64_S1_S1x3x16x16x64x64_012345_4_4_0.scatterDimsToOperandDims by decide)]
  have h1 : scatter_S1x3x16x16x16x64x64_S1_S1x3x16x16x64x64_012345_4_4_0.start k (fun _ => 15#32 : IVec S1 32) (1 : Fin S1x3x16x16x16x64x64.rank) = 0 := by
    unfold ScatterDims.start
    rw [dif_neg (show ¬ (1 : Fin S1x3x16x16x16x64x64.rank) ∈ scatter_S1x3x16x16x16x64x64_S1_S1x3x16x16x64x64_012345_4_4_0.scatterDimsToOperandDims by decide)]
  have h2 : scatter_S1x3x16x16x16x64x64_S1_S1x3x16x16x64x64_012345_4_4_0.start k (fun _ => 15#32 : IVec S1 32) (2 : Fin S1x3x16x16x16x64x64.rank) = 0 := by
    unfold ScatterDims.start
    rw [dif_neg (show ¬ (2 : Fin S1x3x16x16x16x64x64.rank) ∈ scatter_S1x3x16x16x16x64x64_S1_S1x3x16x16x64x64_012345_4_4_0.scatterDimsToOperandDims by decide)]
  have h3 : scatter_S1x3x16x16x16x64x64_S1_S1x3x16x16x64x64_012345_4_4_0.start k (fun _ => 15#32 : IVec S1 32) (3 : Fin S1x3x16x16x16x64x64.rank) = 0 := by
    unfold ScatterDims.start
    rw [dif_neg (show ¬ (3 : Fin S1x3x16x16x16x64x64.rank) ∈ scatter_S1x3x16x16x16x64x64_S1_S1x3x16x16x64x64_012345_4_4_0.scatterDimsToOperandDims by decide)]
  have h4 : scatter_S1x3x16x16x16x64x64_S1_S1x3x16x16x64x64_012345_4_4_0.start k (fun _ => 15#32 : IVec S1 32) (4 : Fin S1x3x16x16x16x64x64.rank) = 15 := by
    unfold ScatterDims.start
    rw [dif_pos (show (4 : Fin S1x3x16x16x16x64x64.rank) ∈ scatter_S1x3x16x16x16x64x64_S1_S1x3x16x16x64x64_012345_4_4_0.scatterDimsToOperandDims by decide)]
    rfl
  have h5 : scatter_S1x3x16x16x16x64x64_S1_S1x3x16x16x64x64_012345_4_4_0.start k (fun _ => 15#32 : IVec S1 32) (5 : Fin S1x3x16x16x16x64x64.rank) = 0 := by
    unfold ScatterDims.start
    rw [dif_neg (show ¬ (5 : Fin S1x3x16x16x16x64x64.rank) ∈ scatter_S1x3x16x16x16x64x64_S1_S1x3x16x16x64x64_012345_4_4_0.scatterDimsToOperandDims by decide)]
  have h6 : scatter_S1x3x16x16x16x64x64_S1_S1x3x16x16x64x64_012345_4_4_0.start k (fun _ => 15#32 : IVec S1 32) (6 : Fin S1x3x16x16x16x64x64.rank) = 0 := by
    unfold ScatterDims.start
    rw [dif_neg (show ¬ (6 : Fin S1x3x16x16x16x64x64.rank) ∈ scatter_S1x3x16x16x16x64x64_S1_S1x3x16x16x64x64_012345_4_4_0.scatterDimsToOperandDims by decide)]
  match a with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

theorem window15 (k : S1x3x16x16x64x64.Idx) (a : Fin S1x3x16x16x16x64x64.rank) :
    scatter_S1x3x16x16x16x64x64_S1_S1x3x16x16x64x64_012345_4_4_0.window k a = if a.val = 4 then 0 else (ins15 k a).val := by
  have h0 : scatter_S1x3x16x16x16x64x64_S1_S1x3x16x16x64x64_012345_4_4_0.window k (0 : Fin S1x3x16x16x16x64x64.rank) = (k 0).val := by
    unfold ScatterDims.window
    rw [dif_pos (show (0 : Fin S1x3x16x16x16x64x64.rank) ∈ scatter_S1x3x16x16x16x64x64_S1_S1x3x16x16x64x64_012345_4_4_0.sKept by decide)]
    rfl
  have h1 : scatter_S1x3x16x16x16x64x64_S1_S1x3x16x16x64x64_012345_4_4_0.window k (1 : Fin S1x3x16x16x16x64x64.rank) = (k 1).val := by
    unfold ScatterDims.window
    rw [dif_pos (show (1 : Fin S1x3x16x16x16x64x64.rank) ∈ scatter_S1x3x16x16x16x64x64_S1_S1x3x16x16x64x64_012345_4_4_0.sKept by decide)]
    rfl
  have h2 : scatter_S1x3x16x16x16x64x64_S1_S1x3x16x16x64x64_012345_4_4_0.window k (2 : Fin S1x3x16x16x16x64x64.rank) = (k 2).val := by
    unfold ScatterDims.window
    rw [dif_pos (show (2 : Fin S1x3x16x16x16x64x64.rank) ∈ scatter_S1x3x16x16x16x64x64_S1_S1x3x16x16x64x64_012345_4_4_0.sKept by decide)]
    rfl
  have h3 : scatter_S1x3x16x16x16x64x64_S1_S1x3x16x16x64x64_012345_4_4_0.window k (3 : Fin S1x3x16x16x16x64x64.rank) = (k 3).val := by
    unfold ScatterDims.window
    rw [dif_pos (show (3 : Fin S1x3x16x16x16x64x64.rank) ∈ scatter_S1x3x16x16x16x64x64_S1_S1x3x16x16x64x64_012345_4_4_0.sKept by decide)]
    rfl
  have h4 : scatter_S1x3x16x16x16x64x64_S1_S1x3x16x16x64x64_012345_4_4_0.window k (4 : Fin S1x3x16x16x16x64x64.rank) = 0 := by
    unfold ScatterDims.window
    rw [dif_neg (show ¬ (4 : Fin S1x3x16x16x16x64x64.rank) ∈ scatter_S1x3x16x16x16x64x64_S1_S1x3x16x16x64x64_012345_4_4_0.sKept by decide)]
  have h5 : scatter_S1x3x16x16x16x64x64_S1_S1x3x16x16x64x64_012345_4_4_0.window k (5 : Fin S1x3x16x16x16x64x64.rank) = (k 4).val := by
    unfold ScatterDims.window
    rw [dif_pos (show (5 : Fin S1x3x16x16x16x64x64.rank) ∈ scatter_S1x3x16x16x16x64x64_S1_S1x3x16x16x64x64_012345_4_4_0.sKept by decide)]
    rfl
  have h6 : scatter_S1x3x16x16x16x64x64_S1_S1x3x16x16x64x64_012345_4_4_0.window k (6 : Fin S1x3x16x16x16x64x64.rank) = (k 5).val := by
    unfold ScatterDims.window
    rw [dif_pos (show (6 : Fin S1x3x16x16x16x64x64.rank) ∈ scatter_S1x3x16x16x16x64x64_S1_S1x3x16x16x64x64_012345_4_4_0.sKept by decide)]
    rfl
  match a with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6

theorem ins15_four (k : S1x3x16x16x64x64.Idx) (a : Fin S1x3x16x16x16x64x64.rank) (h4 : a.val = 4) : (ins15 k a).val = 15 := by
  have e : a = ⟨4, by decide⟩ := Fin.ext h4
  subst e
  rfl

/-- Every update lands inside the operand: at its own index with 15 inserted on axis 4. -/
theorem resultIdx15 (k : S1x3x16x16x64x64.Idx) :
    scatter_S1x3x16x16x16x64x64_S1_S1x3x16x16x64x64_012345_4_4_0.resultIdx? k (fun _ => 15#32 : IVec S1 32) = some (ins15 k) := by
  unfold ScatterDims.resultIdx?
  have h : ∀ a, 0 ≤ scatter_S1x3x16x16x16x64x64_S1_S1x3x16x16x64x64_012345_4_4_0.start k (fun _ => 15#32 : IVec S1 32) a + scatter_S1x3x16x16x16x64x64_S1_S1x3x16x16x64x64_012345_4_4_0.window k a
      ∧ scatter_S1x3x16x16x16x64x64_S1_S1x3x16x16x64x64_012345_4_4_0.start k (fun _ => 15#32 : IVec S1 32) a + scatter_S1x3x16x16x16x64x64_S1_S1x3x16x16x64x64_012345_4_4_0.window k a < S1x3x16x16x16x64x64.size a := by
    intro a
    rw [start15, window15]
    have hb : (ins15 k a).val < S1x3x16x16x16x64x64.size a := (ins15 k a).isLt
    by_cases h4 : a.val = 4
    · rw [if_pos h4, if_pos h4]
      have := ins15_four k a h4
      omega
    · rw [if_neg h4, if_neg h4]
      omega
  rw [dif_pos h]
  refine congrArg some (funext fun a => Fin.ext ?_)
  show (scatter_S1x3x16x16x16x64x64_S1_S1x3x16x16x64x64_012345_4_4_0.start k (fun _ => 15#32 : IVec S1 32) a + scatter_S1x3x16x16x16x64x64_S1_S1x3x16x16x64x64_012345_4_4_0.window k a).toNat = (ins15 k a).val
  rw [start15, window15]
  by_cases h4 : a.val = 4
  · rw [if_pos h4, if_pos h4]
    have := ins15_four k a h4
    omega
  · rw [if_neg h4, if_neg h4]
    omega

theorem drop4_ins15 (k : S1x3x16x16x64x64.Idx) : drop4 (ins15 k) = k := by
  funext a
  match a with
  | ⟨0, _⟩ => rfl
  | ⟨1, _⟩ => rfl
  | ⟨2, _⟩ => rfl
  | ⟨3, _⟩ => rfl
  | ⟨4, _⟩ => rfl
  | ⟨5, _⟩ => rfl

theorem ins15_drop4 (j : S1x3x16x16x16x64x64.Idx) (h15 : (j 4).val = 15) : ins15 (drop4 j) = j := by
  funext a
  match a with
  | ⟨0, _⟩ => rfl
  | ⟨1, _⟩ => rfl
  | ⟨2, _⟩ => rfl
  | ⟨3, _⟩ => rfl
  | ⟨4, _⟩ => exact Fin.ext h15.symm
  | ⟨5, _⟩ => rfl
  | ⟨6, _⟩ => rfl

/-- The scatter of one slab at coordinate 15 of axis 4, read at an index: the body joins the operand's element with
    the slab's where the coordinate on axis 4 is 15, and the operand's element stays elsewhere. -/
theorem scatter15_apply {α : Type} (f : α → α → α) (x : S1x3x16x16x16x64x64.Idx → α) (idx : IVec S1 32)
    (hidx : idx = fun _ => 15#32) (u : S1x3x16x16x64x64.Idx → α) (j : S1x3x16x16x16x64x64.Idx) :
    Host.scatter scatter_S1x3x16x16x16x64x64_S1_S1x3x16x16x64x64_012345_4_4_0 f x idx u j = if (j 4).val = 15 then f (x j) (u (drop4 j)) else x j := by
  subst hidx
  rw [scatter_eq_foldl]
  by_cases h15 : (j 4).val = 15
  · rw [if_pos h15]
    refine (foldl_pstep_hit f _ _ j (S1x3x16x16x64x64.rowMajor (drop4 j)) ?_ _ (List.nodup_finRange _) (List.mem_finRange _) ?_ x).trans ?_
    · show scatter_S1x3x16x16x16x64x64_S1_S1x3x16x16x64x64_012345_4_4_0.resultIdx? (S1x3x16x16x64x64.rowMajor.symm (S1x3x16x16x64x64.rowMajor (drop4 j))) _ = some j
      rw [Equiv.symm_apply_apply, resultIdx15, ins15_drop4 j h15]
    · intro n _ e
      have e1 : scatter_S1x3x16x16x16x64x64_S1_S1x3x16x16x64x64_012345_4_4_0.resultIdx? (S1x3x16x16x64x64.rowMajor.symm n) (fun _ => 15#32 : IVec S1 32) = some j := e
      rw [resultIdx15] at e1
      have e2 : ins15 (S1x3x16x16x64x64.rowMajor.symm n) = j := Option.some.inj e1
      have e3 : S1x3x16x16x64x64.rowMajor.symm n = drop4 j := by rw [← e2, drop4_ins15]
      rw [← e3, Equiv.apply_symm_apply]
    · show f (x j) (u (S1x3x16x16x64x64.rowMajor.symm (S1x3x16x16x64x64.rowMajor (drop4 j)))) = _
      rw [Equiv.symm_apply_apply]
  · rw [if_neg h15]
    refine foldl_pstep_miss f _ _ j _ (fun n _ e => h15 ?_) x
    have e1 : scatter_S1x3x16x16x16x64x64_S1_S1x3x16x16x64x64_012345_4_4_0.resultIdx? (S1x3x16x16x64x64.rowMajor.symm n) (fun _ => 15#32 : IVec S1 32) = some j := e
    rw [resultIdx15] at e1
    have e2 : ins15 (S1x3x16x16x64x64.rowMajor.symm n) = j := Option.some.inj e1
    rw [← e2]
    rfl

end Cert.RefLogits

end
-- ==== Proof.RefLogits.lean ====
/-
  The reference's attention scores with their masks, read at an index.

  The scores of all 4096 windows are computed flat, scaled, and reshaped so that the window number 256 a + 16 b + c
  becomes three coordinates. Two scatters then add a mask slab at coordinate 15 of one window axis each, with
  transposes in between that bring the axis to be masked into place; a last reshape flattens the three window
  coordinates again. Read at an index the transposes compose to one permutation of (a, b, c): entry
  (0, h, 256 a + 16 b + c, i, j) is the scaled score of query i against key j of window (b, c, a), plus the first
  mask at (i, j) when b = 15, plus the second mask at (i, j) when c = 15.
-/
import proofs.«139805_j20143396618483_1_alg».proof.Proof.RefRead
import proofs.«139805_j20143396618483_1_alg».proof.Proof.RefScatter
import proofs.«139805_j20143396618483_1_alg».proof.Proof.LibReshape
import proofs.«139805_j20143396618483_1_alg».proof.Proof.Spec

noncomputable section

namespace Cert.RefLogits

open Cert.ReferenceIdeal Cert.ReferenceIdeal.Gen Cert.ReferenceIdeal.Read Idealize.ShloMosaic Idealize.ShloMosaic.ValueIdx
open Cert.LibReshape (ix7 rowMajor_val_vec5 rowMajor_val_vec7)

/-! ## The two reshapes between the flat window number and the window's three coordinates -/

/-- The masked scores at flat window number 256 a + 16 b + c are the rank-7 array's at (a, b, c). -/
theorem v28_at (x0 : (⟨S1x64x64x64x96, .f32⟩ : BufTy).Contents (Elt Ideal)) (x1 : (⟨S288x96, .f32⟩ : BufTy).Contents (Elt Ideal)) (x4 x5 : (⟨S64x64, .f32⟩ : BufTy).Contents (Elt Ideal))
    (h : Fin 3) (a b c : Fin 16) (i j : Fin 64) :
    val_main_v28 (F := Ideal) x0 x1 x4 x5 (ix5 (0 : Fin 1) h (Cert.Spec.wix a b c) i j)
      = val_main_v27 (F := Ideal) x0 x1 x4 x5 (ix7 (0 : Fin 1) h a b c i j) := by
  unfold val_main_v28
  generalize val_main_v27 (F := Ideal) x0 x1 x4 x5 = y
  refine shapeCast_apply y _ (ix5 (0 : Fin 1) h (Cert.Spec.wix a b c) i j) (ix7 (0 : Fin 1) h a b c i j) ?_
  rw [rowMajor_val_vec7, rowMajor_val_vec5]
  show ((((((0 * 3 + h.val) * 16 + a.val) * 16 + b.val) * 16 + c.val) * 64 + i.val) * 64 + j.val : Nat)
    = (((0 * 3 + h.val) * 4096 + (256 * a.val + 16 * b.val + c.val)) * 64 + i.val) * 64 + j.val
  omega

/-- The scaled scores' rank-7 reshape at (a, b, c) is the scaled scores at flat window number 256 a + 16 b + c. -/
theorem v17_at (x0 : (⟨S1x64x64x64x96, .f32⟩ : BufTy).Contents (Elt Ideal)) (x1 : (⟨S288x96, .f32⟩ : BufTy).Contents (Elt Ideal))
    (h : Fin 3) (a b c : Fin 16) (i j : Fin 64) :
    val_main_v17 (F := Ideal) x0 x1 (ix7 (0 : Fin 1) h a b c i j)
      = val_main_v16 (F := Ideal) x0 x1 (ix5 (0 : Fin 1) h (Cert.Spec.wix a b c) i j) := by
  unfold val_main_v17
  generalize val_main_v16 (F := Ideal) x0 x1 = y
  refine shapeCast_apply y _ (ix7 (0 : Fin 1) h a b c i j) (ix5 (0 : Fin 1) h (Cert.Spec.wix a b c) i j) ?_
  rw [rowMajor_val_vec7, rowMajor_val_vec5]
  show (((0 * 3 + h.val) * 4096 + (256 * a.val + 16 * b.val + c.val)) * 64 + i.val) * 64 + j.val
    = ((((((0 * 3 + h.val) * 16 + a.val) * 16 + b.val) * 16 + c.val) * 64 + i.val) * 64 + j.val : Nat)
  omega

/-! ## The transposes -/

theorem v27_at (x0 : (⟨S1x64x64x64x96, .f32⟩ : BufTy).Contents (Elt Ideal)) (x1 : (⟨S288x96, .f32⟩ : BufTy).Contents (Elt Ideal)) (x4 x5 : (⟨S64x64, .f32⟩ : BufTy).Contents (Elt Ideal))
    (h : Fin 3) (a b c : Fin 16) (i j : Fin 64) :
    val_main_v27 (F := Ideal) x0 x1 x4 x5 (ix7 (0 : Fin 1) h a b c i j)
      = val_main_v25 (F := Ideal) x0 x1 x4 x5 (ix7 (0 : Fin 1) h b a c i j) := by
  rw [val_main_v27_apply, val_main_v26_apply]
  refine congrArg _ (funext fun t => ?_)
  match t with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

theorem v22_at (x0 : (⟨S1x64x64x64x96, .f32⟩ : BufTy).Contents (Elt Ideal)) (x1 : (⟨S288x96, .f32⟩ : BufTy).Contents (Elt Ideal)) (x4 : (⟨S64x64, .f32⟩ : BufTy).Contents (Elt Ideal))
    (h : Fin 3) (a b c : Fin 16) (i j : Fin 64) :
    val_main_v22 (F := Ideal) x0 x1 x4 (ix7 (0 : Fin 1) h b a c i j)
      = val_main_v21 (F := Ideal) x0 x1 x4 (ix7 (0 : Fin 1) h c a b i j) := by
  rw [val_main_v22_apply]
  refine congrArg _ (funext fun t => ?_)
  match t with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

theorem v18_at (x0 : (⟨S1x64x64x64x96, .f32⟩ : BufTy).Contents (Elt Ideal)) (x1 : (⟨S288x96, .f32⟩ : BufTy).Contents (Elt Ideal))
    (h : Fin 3) (a b c : Fin 16) (i j : Fin 64) :
    val_main_v18 (F := Ideal) x0 x1 (ix7 (0 : Fin 1) h c a b i j)
      = val_main_v17 (F := Ideal) x0 x1 (ix7 (0 : Fin 1) h b c a i j) := by
  rw [val_main_v18_apply]
  refine congrArg _ (funext fun t => ?_)
  match t with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-! ## The two scatters: each adds its mask where one window coordinate is 15 -/

theorem v19_const : val_main_v19 (F := Ideal) = fun _ => 15#32 := by
  funext k
  rw [val_main_v19_apply, val_main_c_apply]

theorem v23_const : val_main_v23 (F := Ideal) = fun _ => 15#32 := by
  funext k
  rw [val_main_v23_apply, val_main_c_0_apply]

theorem v21_at (x0 : (⟨S1x64x64x64x96, .f32⟩ : BufTy).Contents (Elt Ideal)) (x1 : (⟨S288x96, .f32⟩ : BufTy).Contents (Elt Ideal)) (x4 : (⟨S64x64, .f32⟩ : BufTy).Contents (Elt Ideal))
    (h : Fin 3) (a b c : Fin 16) (i j : Fin 64) :
    val_main_v21 (F := Ideal) x0 x1 x4 (ix7 (0 : Fin 1) h c a b i j)
      = if b.val = 15 then (val_main_v18 (F := Ideal) x0 x1 (ix7 (0 : Fin 1) h c a b i j) : EReal) + (x4 (ix2 i j) : EReal)
        else val_main_v18 (F := Ideal) x0 x1 (ix7 (0 : Fin 1) h c a b i j) := by
  unfold val_main_v21
  refine (scatter15_apply _ _ _ v19_const _ _).trans ?_
  have e20 : val_main_v20 (F := Ideal) x4 (drop4 (ix7 (0 : Fin 1) h c a b i j)) = x4 (ix2 i j) := by
    rw [val_main_v20_apply]
    refine congrArg x4 (funext fun t => ?_)
    match t with
    | ⟨0, _⟩ => rfl
    | ⟨1, _⟩ => rfl
  rw [e20]
  rfl

theorem v25_at (x0 : (⟨S1x64x64x64x96, .f32⟩ : BufTy).Contents (Elt Ideal)) (x1 : (⟨S288x96, .f32⟩ : BufTy).Contents (Elt Ideal)) (x4 x5 : (⟨S64x64, .f32⟩ : BufTy).Contents (Elt Ideal))
    (h : Fin 3) (a b c : Fin 16) (i j : Fin 64) :
    val_main_v25 (F := Ideal) x0 x1 x4 x5 (ix7 (0 : Fin 1) h b a c i j)
      = if c.val = 15 then (val_main_v22 (F := Ideal) x0 x1 x4 (ix7 (0 : Fin 1) h b a c i j) : EReal) + (x5 (ix2 i j) : EReal)
        else val_main_v22 (F := Ideal) x0 x1 x4 (ix7 (0 : Fin 1) h b a c i j) := by
  unfold val_main_v25
  refine (scatter15_apply _ _ _ v23_const _ _).trans ?_
  have e24 : val_main_v24 (F := Ideal) x5 (drop4 (ix7 (0 : Fin 1) h b a c i j)) = x5 (ix2 i j) := by
    rw [val_main_v24_apply]
    refine congrArg x5 (funext fun t => ?_)
    match t with
    | ⟨0, _⟩ => rfl
    | ⟨1, _⟩ => rfl
  rw [e24]
  rfl

/-! ## The scaled scores of one window -/

theorem v16_at (x0 : (⟨S1x64x64x64x96, .f32⟩ : BufTy).Contents (Elt Ideal)) (x1 : (⟨S288x96, .f32⟩ : BufTy).Contents (Elt Ideal))
    (h : Fin 3) (w : Fin 4096) (i j : Fin 64) :
    val_main_v16 (F := Ideal) x0 x1 (ix5 (0 : Fin 1) h w i j)
      = (∑ d : Fin 32, (val_main_v7 (F := Ideal) x0 x1 (ix5 (0 : Fin 1) h w i d) : EReal)
            * (val_main_v10 (F := Ideal) x0 x1 (ix5 (0 : Fin 1) h w j d) : EReal)) * Cert.Spec.scaleC := by
  have el : ∀ k : Fin 32, lidx_main_v14 (ix5 (0 : Fin 1) h w i j) k = ix5 (0 : Fin 1) h w i k := fun k => funext fun t => by
    match t with
    | ⟨0, _⟩ => rfl
    | ⟨1, _⟩ => rfl
    | ⟨2, _⟩ => rfl
    | ⟨3, _⟩ => rfl
    | ⟨4, _⟩ => rfl
  have er : ∀ k : Fin 32, ridx_main_v14 (ix5 (0 : Fin 1) h w i j) k = ix5 (0 : Fin 1) h w j k := fun k => funext fun t => by
    match t with
    | ⟨0, _⟩ => rfl
    | ⟨1, _⟩ => rfl
    | ⟨2, _⟩ => rfl
    | ⟨3, _⟩ => rfl
    | ⟨4, _⟩ => rfl
  rw [val_main_v16_apply, val_main_v14_apply, val_main_v15_apply, val_main_cst_apply]
  simp only [el, er]
  rfl

/-! ## The masked scores at an index -/

/-- Entry (0, h, 256 a + 16 b + c, i, j) of the masked scores: the scaled score of query i against key j of window
    (b, c, a), plus the first mask at (i, j) when b = 15, plus the second mask at (i, j) when c = 15. -/
theorem logits_apply (x0 : (⟨S1x64x64x64x96, .f32⟩ : BufTy).Contents (Elt Ideal)) (x1 : (⟨S288x96, .f32⟩ : BufTy).Contents (Elt Ideal)) (x4 x5 : (⟨S64x64, .f32⟩ : BufTy).Contents (Elt Ideal))
    (h : Fin 3) (a b c : Fin 16) (i j : Fin 64) :
    val_main_v28 (F := Ideal) x0 x1 x4 x5 (ix5 (0 : Fin 1) h (Cert.Spec.wix a b c) i j)
      = Cert.Spec.logit
          (fun i d => val_main_v7 (F := Ideal) x0 x1 (ix5 (0 : Fin 1) h (Cert.Spec.wix b c a) i d))
          (fun j d => val_main_v10 (F := Ideal) x0 x1 (ix5 (0 : Fin 1) h (Cert.Spec.wix b c a) j d))
          (fun i k => x4 (ix2 i k)) (fun i k => x5 (ix2 i k)) (b.val = 15) (c.val = 15) i j := by
  rw [v28_at, v27_at, v25_at, v22_at, v21_at, v18_at, v17_at, v16_at]
  rfl

end Cert.RefLogits

end
-- ==== Proof.RefAttn.lean ====
/-
  The softmax and the weighted sum of values of the reference, read at explicit coordinates.

  For head h, window w, query token i: the row of scores L i k (k over the 64 keys) is reduced to its maximum (a fold of
  max from -inf, joined once more with -inf), the maximum is subtracted, the differences are exponentiated, summed, and each
  exponential is divided by the sum: the softmax of the row. The result at (h, w, i, d) is the sum over key tokens j of the
  softmax at j times the value at (j, d).
-/
import proofs.«139805_j20143396618483_1_alg».proof.Proof.RefRead
import proofs.«139805_j20143396618483_1_alg».proof.Proof.Spec
import Idealize.ShloMosaic.PureOps.Ideal.Laws

noncomputable section

namespace Cert.RefAttn

open Cert.ReferenceIdeal Cert.ReferenceIdeal.Gen Cert.ReferenceIdeal.Read Idealize.ShloMosaic Idealize.ShloMosaic.ValueIdx

/-- The argument arrays, as the reference's operations take them. -/
abbrev A0 := (⟨S1x64x64x64x96, .f32⟩ : BufTy).Contents (Elt Ideal)
abbrev A1 := (⟨S288x96, .f32⟩ : BufTy).Contents (Elt Ideal)
abbrev AM := (⟨S64x64, .f32⟩ : BufTy).Contents (Elt Ideal)

/-- In an [a, b, c, d, e] shape reduced along its last axis, the index over (p, q, r, s) with `k` inserted is
    (p, q, r, s, k). -/
theorem lift_last5 {a b c d e : Nat} (h : Shape.Reduces ⟨5, ![a, b, c, d, e]⟩ [4] ⟨4, ![a, b, c, d]⟩) (p : Fin a) (q : Fin b)
    (r : Fin c) (s : Fin d) (k : Fin e) : h.lift (ix4 p q r s) k = ix5 p q r s k := by
  funext f
  apply Fin.ext
  match f with
  | ⟨0, _⟩ => rfl
  | ⟨1, _⟩ => rfl
  | ⟨2, _⟩ => rfl
  | ⟨3, _⟩ => rfl
  | ⟨4, _⟩ => rfl

/-- The host's maximum along the last axis of an [a, b, c, d, e] array: the fold of max from the initial value. -/
theorem hostReduce_max_last5 {a b c d e : Nat} {u : Shape} (h' : Shape.ReducesTo ⟨5, ![a, b, c, d, e]⟩ [4] ⟨4, ![a, b, c, d]⟩)
    (h : Shape.Reduces ⟨5, ![a, b, c, d, e]⟩ [4] ⟨4, ![a, b, c, d]⟩) (x : (⟨5, ![a, b, c, d, e]⟩ : Shape).Idx → Ideal .f32)
    (init : u.Idx → Ideal .f32) (hu : 0 < u.numel) (p : Fin a) (q : Fin b) (r : Fin c) (s : Fin d) :
    Host.reduce (FloatOps.maximumf (F := Ideal) (φ := .f32)) x init h' hu (ix4 p q r s)
      = (Finset.univ : Finset (Fin e)).fold max (init (Shape.Idx.first hu)) (fun k => x (ix5 p q r s k)) := by
  rw [Host.reduce_eq_fold_single (FloatOps.maximumf (F := Ideal) (φ := .f32)) x init h' h hu]
  show (Finset.univ : Finset (Fin e)).fold max (init (Shape.Idx.first hu)) (fun k => x (h.lift (ix4 p q r s) k)) = _
  exact congrArg (fun f => (Finset.univ : Finset (Fin e)).fold max (init (Shape.Idx.first hu)) f)
    (funext fun k => congrArg x (lift_last5 h p q r s k))

/-- The row of scores of head h, window w, query token i. -/
abbrev row (x0 : A0) (x1 : A1) (x4 x5 : AM) (h : Fin 3) (w : Fin 4096) (i : Fin 64) : Fin 64 → EReal :=
  fun k => val_main_v28 (F := Ideal) x0 x1 x4 x5 (ix5 (0 : Fin 1) h w i k)

/-- The reduction along the keys: the fold of max from -inf over the row. -/
theorem v29_apply (x0 : A0) (x1 : A1) (x4 x5 : AM) (h : Fin 3) (w : Fin 4096) (i : Fin 64) :
    val_main_v29 (F := Ideal) x0 x1 x4 x5 (ix4 (0 : Fin 1) h w i)
      = (Finset.univ : Finset (Fin 64)).fold max Cert.Spec.negInf (row x0 x1 x4 x5 h w i) := by
  unfold val_main_v29
  exact (hostReduce_max_last5 reducesTo_S1x3x4096x64x64_S1x3x4096x64_d4 (by decide) _ _ h_S_ (0 : Fin 1) h w i).trans rfl

/-- The row maximum, broadcast back along the keys. -/
theorem v33_apply (x0 : A0) (x1 : A1) (x4 x5 : AM) (h : Fin 3) (w : Fin 4096) (i j : Fin 64) :
    val_main_v33 (F := Ideal) x0 x1 x4 x5 (ix5 (0 : Fin 1) h w i j) = Cert.Spec.rowMax (row x0 x1 x4 x5 h w i) := by
  have e : idx_main_v32 (idx_main_v33 (ix5 (0 : Fin 1) h w i j)) = ix4 (0 : Fin 1) h w i := by
    funext a
    apply Fin.ext
    match a with
    | ⟨0, _⟩ => rfl
    | ⟨1, _⟩ => rfl
    | ⟨2, _⟩ => rfl
    | ⟨3, _⟩ => rfl
  rw [val_main_v33_apply, val_main_v32_apply, val_main_v31_apply, val_main_v30_apply, val_main_cst_2_apply, e, v29_apply]
  rfl

/-- The exponential of a difference, as the host's operations spell it. -/
theorem exp_sub_def (a m : EReal) :
    FloatOps.hostUnary (F := Ideal) (φ := .f32) .exp (FloatOps.subf (F := Ideal) (φ := .f32) a m) = Ideal.exp (a - m) := rfl

/-- The exponentials of the shifted row. -/
theorem v35_apply (x0 : A0) (x1 : A1) (x4 x5 : AM) (h : Fin 3) (w : Fin 4096) (i j : Fin 64) :
    val_main_v35 (F := Ideal) x0 x1 x4 x5 (ix5 (0 : Fin 1) h w i j)
      = Ideal.exp (row x0 x1 x4 x5 h w i j - Cert.Spec.rowMax (row x0 x1 x4 x5 h w i)) := by
  rw [val_main_v35_apply, val_main_v34_apply, v33_apply]
  exact exp_sub_def _ _

/-- The row's sum of exponentials, broadcast back along the keys. -/
theorem v38_apply (x0 : A0) (x1 : A1) (x4 x5 : AM) (h : Fin 3) (w : Fin 4096) (i j : Fin 64) :
    val_main_v38 (F := Ideal) x0 x1 x4 x5 (ix5 (0 : Fin 1) h w i j)
      = ∑ k : Fin 64, Ideal.exp (row x0 x1 x4 x5 h w i k - Cert.Spec.rowMax (row x0 x1 x4 x5 h w i)) := by
  have e : idx_main_v37 (idx_main_v38 (ix5 (0 : Fin 1) h w i j)) = ix4 (0 : Fin 1) h w i := by
    funext a
    apply Fin.ext
    match a with
    | ⟨0, _⟩ => rfl
    | ⟨1, _⟩ => rfl
    | ⟨2, _⟩ => rfl
    | ⟨3, _⟩ => rfl
  have e2 : ∀ k : Fin 64, idx_main_v36 (ix4 (0 : Fin 1) h w i) k = ix5 (0 : Fin 1) h w i k := fun k => by
    funext a
    apply Fin.ext
    match a with
    | ⟨0, _⟩ => rfl
    | ⟨1, _⟩ => rfl
    | ⟨2, _⟩ => rfl
    | ⟨3, _⟩ => rfl
    | ⟨4, _⟩ => rfl
  rw [val_main_v38_apply, val_main_v37_apply, e, val_main_v36_apply, val_main_cst_3_apply]
  show (Ideal.ofBits .f32 0x00000000#32 : EReal) + _ = _
  rw [Ideal.ofBits_zero_f32, zero_add]
  exact Finset.sum_congr rfl fun k _ => by rw [e2 k, v35_apply]

/-- The softmax of the row. -/
theorem v39_apply (x0 : A0) (x1 : A1) (x4 x5 : AM) (h : Fin 3) (w : Fin 4096) (i j : Fin 64) :
    val_main_v39 (F := Ideal) x0 x1 x4 x5 (ix5 (0 : Fin 1) h w i j) = Cert.Spec.softmaxRow (row x0 x1 x4 x5 h w i) j := by
  rw [val_main_v39_apply, v35_apply, v38_apply]
  rfl

/-- One head's output of a window: the softmax of each score row against the values. -/
theorem attn_apply (x0 : A0) (x1 : A1) (x4 x5 : AM) (h : Fin 3) (w : Fin 4096) (i : Fin 64) (d : Fin 32) :
    val_main_v40 (F := Ideal) x0 x1 x4 x5 (ix5 (0 : Fin 1) h w i d)
      = Cert.Spec.attn (fun i j => val_main_v28 (F := Ideal) x0 x1 x4 x5 (ix5 (0 : Fin 1) h w i j))
          (fun j d => val_main_v13 (F := Ideal) x0 x1 (ix5 (0 : Fin 1) h w j d)) i d := by
  rw [val_main_v40_apply]
  unfold Cert.Spec.attn
  refine Finset.sum_congr rfl fun k _ => ?_
  have el : lidx_main_v40 (ix5 (0 : Fin 1) h w i d) k = ix5 (0 : Fin 1) h w i k := by
    funext a
    apply Fin.ext
    match a with
    | ⟨0, _⟩ => rfl
    | ⟨1, _⟩ => rfl
    | ⟨2, _⟩ => rfl
    | ⟨3, _⟩ => rfl
    | ⟨4, _⟩ => rfl
  have er : ridx_main_v40 (ix5 (0 : Fin 1) h w i d) k = ix5 (0 : Fin 1) h w k d := by
    funext a
    apply Fin.ext
    match a with
    | ⟨0, _⟩ => rfl
    | ⟨1, _⟩ => rfl
    | ⟨2, _⟩ => rfl
    | ⟨3, _⟩ => rfl
    | ⟨4, _⟩ => rfl
  rw [el, er, v39_apply]

end Cert.RefAttn

end
-- ==== Proof.RefOutLayout.lean ====
/-
  Two regroupings of axes read at an index, and the row-major position of a rank-9 index.

  The per-head attention outputs are stored by (head, window number, token, position in the head). To return to
  grid positions the window number is split into its three window coordinates and the token into its three
  in-window coordinates, the axes are interleaved as (window, token) pairs per spatial axis, and each pair is
  merged into one grid coordinate 4 * window + token, the head and the position in the head into one channel
  32 * head + position. A regrouping keeps the row-major position of every element; both facts below are
  that equality of positions, spelt as sums of products and closed by linear arithmetic.
-/
import Idealize.ShloMosaic.Lib.Pipeline.Value
import Idealize.ShloMosaic.Lib.ValueIdx
import proofs.«139805_j20143396618483_1_alg».proof.Proof.Spec

namespace Cert.RefOut

open Idealize.ShloMosaic Idealize.ShloMosaic.ValueIdx

/-- A rank-9 index from its coordinates. -/
abbrev ix9 {n0 n1 n2 n3 n4 n5 n6 n7 n8 : Nat} (a0 : Fin n0) (a1 : Fin n1) (a2 : Fin n2) (a3 : Fin n3) (a4 : Fin n4)
    (a5 : Fin n5) (a6 : Fin n6) (a7 : Fin n7) (a8 : Fin n8) : (⟨9, ![n0, n1, n2, n3, n4, n5, n6, n7, n8]⟩ : Shape).Idx :=
  fun f => match f with
    | ⟨0, _⟩ => a0 | ⟨1, _⟩ => a1 | ⟨2, _⟩ => a2 | ⟨3, _⟩ => a3 | ⟨4, _⟩ => a4
    | ⟨5, _⟩ => a5 | ⟨6, _⟩ => a6 | ⟨7, _⟩ => a7 | ⟨8, _⟩ => a8

/-- The row-major position of a rank-9 index as one sum of products. -/
theorem rowMajor_val_nine {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5
          + (i 5).val) * d 6 + (i 6).val) * d 7 + (i 7).val) * d 8 + (i 8).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val]
  simp [Shape.rowMajorPi_zero, Fin.prod_univ_succ, Nat.add_mul, Nat.mul_assoc, Nat.add_assoc]

/-- The position of a rank-9 index given by its coordinates, over literal extents. -/
theorem rowMajor_ix9 {n0 n1 n2 n3 n4 n5 n6 n7 n8 : Nat} (a0 : Fin n0) (a1 : Fin n1) (a2 : Fin n2) (a3 : Fin n3)
    (a4 : Fin n4) (a5 : Fin n5) (a6 : Fin n6) (a7 : Fin n7) (a8 : Fin n8) :
    ((⟨9, ![n0, n1, n2, n3, n4, n5, n6, n7, n8]⟩ : Shape).rowMajor (ix9 a0 a1 a2 a3 a4 a5 a6 a7 a8)).val
      = (((((((a0.val * n1 + a1.val) * n2 + a2.val) * n3 + a3.val) * n4 + a4.val) * n5
          + a5.val) * n6 + a6.val) * n7 + a7.val) * n8 + a8.val :=
  rowMajor_val_nine _

/-- The position of a rank-5 index given by its coordinates, over literal extents. -/
theorem rowMajor_ix5 {n0 n1 n2 n3 n4 : Nat} (a0 : Fin n0) (a1 : Fin n1) (a2 : Fin n2) (a3 : Fin n3) (a4 : Fin n4) :
    ((⟨5, ![n0, n1, n2, n3, n4]⟩ : Shape).rowMajor (ix5 a0 a1 a2 a3 a4)).val
      = (((a0.val * n1 + a1.val) * n2 + a2.val) * n3 + a3.val) * n4 + a4.val :=
  Shape.rowMajor_val_five _

/-- Merging (window, token) pairs into grid coordinates and (head, position) into a channel: the element at grid
    position (px, py, pz), channel c comes from windows (px / 4, py / 4, pz / 4), tokens (px % 4, py % 4, pz % 4),
    head c / 32, position c % 32. -/
theorem merge_apply {α : Type} (y : (⟨9, ![1, 16, 4, 16, 4, 16, 4, 3, 32]⟩ : Shape).Idx → α)
    (h : (⟨9, ![1, 16, 4, 16, 4, 16, 4, 3, 32]⟩ : Shape).ShapeCasts ⟨5, ![1, 64, 64, 64, 96]⟩)
    (z : Fin 1) (px py pz : Fin 64) (c : Fin 96) :
    shapeCast ⟨5, ![1, 64, 64, 64, 96]⟩ y h (ix5 z px py pz c)
      = y (ix9 z (Cert.Spec.wOf px) (Cert.Spec.rOf px) (Cert.Spec.wOf py) (Cert.Spec.rOf py)
            (Cert.Spec.wOf pz) (Cert.Spec.rOf pz) (Cert.Spec.headOf c) (Cert.Spec.posOf c)) := by
  refine shapeCast_apply y h _ _ ?_
  rw [rowMajor_ix9, rowMajor_ix5]
  have hz := z.isLt; have h1 := px.isLt; have h2 := py.isLt; have h3 := pz.isLt; have h4 := c.isLt
  simp only [Cert.Spec.wOf, Cert.Spec.rOf, Cert.Spec.headOf, Cert.Spec.posOf]
  omega

/-- Splitting the window number and the token into their coordinates: the element at head hh, window (a, b, c),
    token (r0, r1, r2), position d comes from window number 256 a + 16 b + c and token 16 r0 + 4 r1 + r2. -/
theorem split_apply {α : Type} (y : (⟨5, ![1, 3, 4096, 64, 32]⟩ : Shape).Idx → α)
    (h : (⟨5, ![1, 3, 4096, 64, 32]⟩ : Shape).ShapeCasts ⟨9, ![1, 3, 16, 16, 16, 4, 4, 4, 32]⟩)
    (z : Fin 1) (hh : Fin 3) (a b c : Fin 16) (r0 r1 r2 : Fin 4) (d : Fin 32) :
    shapeCast ⟨9, ![1, 3, 16, 16, 16, 4, 4, 4, 32]⟩ y h (ix9 z hh a b c r0 r1 r2 d)
      = y (ix5 z hh (Cert.Spec.wix a b c) (Cert.Spec.tokOf r0 r1 r2) d) := by
  refine shapeCast_apply y h _ _ ?_
  rw [rowMajor_ix9, rowMajor_ix5]
  have hz := z.isLt; have h0 := hh.isLt; have h1 := a.isLt; have h2 := b.isLt; have h3 := c.isLt
  have h4 := r0.isLt; have h5 := r1.isLt; have h6 := r2.isLt; have h7 := d.isLt
  simp only [Cert.Spec.wix, Cert.Spec.tokOf]
  omega

end Cert.RefOut
-- ==== Proof.RefOut.lean ====
/-
  From the per-head attention outputs back to grid positions, the output projection, and the shift back.

  The reference stores the attention outputs by (head, window number, token, position in the head). It regroups
  them so that grid position (4 a + r0, 4 b + r1, 4 c + r2), channel 32 h + d holds the output of head h, window
  (a, b, c), token 16 r0 + 4 r1 + r2, position d; contracts the channels with the output weights, adds the bias,
  and shifts the grid cyclically by 62 places on each spatial axis, so that position X of the result holds
  position (X + 62) mod 64 of the projected grid.
-/
import proofs.«139805_j20143396618483_1_alg».proof.Proof.RefRead
import proofs.«139805_j20143396618483_1_alg».proof.Proof.RefOutLayout
import proofs.«139805_j20143396618483_1_alg».proof.Proof.LibRoll

noncomputable section

namespace Cert.RefOut

open Cert.ReferenceIdeal Cert.ReferenceIdeal.Gen Cert.ReferenceIdeal.Read Idealize.ShloMosaic Idealize.ShloMosaic.ValueIdx
open Cert.Spec (headOf posOf wOf rOf tokOf wix bwd)

variable (x0 : (⟨S1x64x64x64x96, .f32⟩ : BufTy).Contents (Elt Ideal)) (x1 : (⟨S288x96, .f32⟩ : BufTy).Contents (Elt Ideal))
  (x2 : (⟨S96x96, .f32⟩ : BufTy).Contents (Elt Ideal)) (x3 : (⟨S96, .f32⟩ : BufTy).Contents (Elt Ideal))
  (x4 x5 : (⟨S64x64, .f32⟩ : BufTy).Contents (Elt Ideal))

/-- The regrouped outputs at grid position (px, py, pz), channel c: head c / 32, the window of the position, the
    token of the position inside it, position c % 32 in the head. -/
theorem unwindow_apply (px py pz : Fin 64) (c : Fin 96) :
    val_main_v43 (F := Ideal) x0 x1 x4 x5 (ix5 (0 : Fin 1) px py pz c)
      = val_main_v40 (F := Ideal) x0 x1 x4 x5 (ix5 (0 : Fin 1) (headOf c) (wix (wOf px) (wOf py) (wOf pz))
          (tokOf (rOf px) (rOf py) (rOf pz)) (posOf c)) := by
  unfold val_main_v43
  refine (merge_apply _ _ (0 : Fin 1) px py pz c).trans ?_
  refine (val_main_v42_apply x0 x1 x4 x5 _).trans ?_
  have e : idx_main_v42 (ix9 (0 : Fin 1) (wOf px) (rOf px) (wOf py) (rOf py) (wOf pz) (rOf pz) (headOf c) (posOf c))
      = ix9 (0 : Fin 1) (headOf c) (wOf px) (wOf py) (wOf pz) (rOf px) (rOf py) (rOf pz) (posOf c) := by
    funext a
    match a with
    | ⟨0, _⟩ => rfl | ⟨1, _⟩ => rfl | ⟨2, _⟩ => rfl | ⟨3, _⟩ => rfl | ⟨4, _⟩ => rfl
    | ⟨5, _⟩ => rfl | ⟨6, _⟩ => rfl | ⟨7, _⟩ => rfl | ⟨8, _⟩ => rfl
  refine (congrArg (val_main_v41 (F := Ideal) x0 x1 x4 x5) e).trans ?_
  unfold val_main_v41
  exact split_apply _ _ (0 : Fin 1) (headOf c) (wOf px) (wOf py) (wOf pz) (rOf px) (rOf py) (rOf pz) (posOf c)

/-- The shift back on the third spatial axis. -/
theorem unroll3_apply (z : Fin 1) (X Y Z : Fin 64) (o : Fin 96) :
    val_main_v48 (F := Ideal) x0 x1 x2 x3 x4 x5 (ix5 z X Y Z o)
      = val_main_call1_v5 (F := Ideal) x0 x1 x2 x3 x4 x5 (ix5 z X Y (bwd Z) o) := by
  unfold val_main_v48 val_main_call1_v6 val_main_call1_v7
  exact Cert.LibRoll.concatenate_slices_roll_apply (3 : Fin S1x64x64x64x96.rank) 62 _ _ _ _ _ _
    (by intro b; fin_cases b <;> rfl) (by intro b; fin_cases b <;> rfl) rfl _ _
    (fun b => match b with
      | ⟨0, _⟩ => fun _ => rfl
      | ⟨1, _⟩ => fun _ => rfl
      | ⟨2, _⟩ => fun _ => rfl
      | ⟨3, _⟩ => fun h => absurd rfl h
      | ⟨4, _⟩ => fun _ => rfl) rfl

/-- The shift back on the second spatial axis. -/
theorem unroll2_apply (z : Fin 1) (X Y Z : Fin 64) (o : Fin 96) :
    val_main_call1_v5 (F := Ideal) x0 x1 x2 x3 x4 x5 (ix5 z X Y Z o)
      = val_main_call1_v2 (F := Ideal) x0 x1 x2 x3 x4 x5 (ix5 z X (bwd Y) Z o) := by
  unfold val_main_call1_v5 val_main_call1_v3 val_main_call1_v4
  exact Cert.LibRoll.concatenate_slices_roll_apply (2 : Fin S1x64x64x64x96.rank) 62 _ _ _ _ _ _
    (by intro b; fin_cases b <;> rfl) (by intro b; fin_cases b <;> rfl) rfl _ _
    (fun b => match b with
      | ⟨0, _⟩ => fun _ => rfl
      | ⟨1, _⟩ => fun _ => rfl
      | ⟨2, _⟩ => fun h => absurd rfl h
      | ⟨3, _⟩ => fun _ => rfl
      | ⟨4, _⟩ => fun _ => rfl) rfl

/-- The shift back on the first spatial axis. -/
theorem unroll1_apply (z : Fin 1) (X Y Z : Fin 64) (o : Fin 96) :
    val_main_call1_v2 (F := Ideal) x0 x1 x2 x3 x4 x5 (ix5 z X Y Z o)
      = val_main_v47 (F := Ideal) x0 x1 x2 x3 x4 x5 (ix5 z (bwd X) Y Z o) := by
  unfold val_main_call1_v2 val_main_call1_v0 val_main_call1_v1
  exact Cert.LibRoll.concatenate_slices_roll_apply (1 : Fin S1x64x64x64x96.rank) 62 _ _ _ _ _ _
    (by intro b; fin_cases b <;> rfl) (by intro b; fin_cases b <;> rfl) rfl _ _
    (fun b => match b with
      | ⟨0, _⟩ => fun _ => rfl
      | ⟨1, _⟩ => fun h => absurd rfl h
      | ⟨2, _⟩ => fun _ => rfl
      | ⟨3, _⟩ => fun _ => rfl
      | ⟨4, _⟩ => fun _ => rfl) rfl

/-- The three shifts together: position (X, Y, Z) of the result holds position (X + 62, Y + 62, Z + 62) mod 64 of
    the projected grid. -/
theorem unroll_apply (z : Fin 1) (X Y Z : Fin 64) (o : Fin 96) :
    val_main_v48 (F := Ideal) x0 x1 x2 x3 x4 x5 (ix5 z X Y Z o)
      = val_main_v47 (F := Ideal) x0 x1 x2 x3 x4 x5 (ix5 z (bwd X) (bwd Y) (bwd Z) o) :=
  (unroll3_apply x0 x1 x2 x3 x4 x5 z X Y Z o).trans
    ((unroll2_apply x0 x1 x2 x3 x4 x5 z X Y (bwd Z) o).trans (unroll1_apply x0 x1 x2 x3 x4 x5 z X (bwd Y) (bwd Z) o))

/-- The projected grid at a position: the output projection of the window's joined head outputs at the token. -/
theorem proj_apply (px py pz : Fin 64) (o : Fin 96) :
    val_main_v47 (F := Ideal) x0 x1 x2 x3 x4 x5 (ix5 (0 : Fin 1) px py pz o)
      = Cert.Spec.outProj (fun i c => val_main_v40 (F := Ideal) x0 x1 x4 x5
            (ix5 (0 : Fin 1) (headOf c) (wix (wOf px) (wOf py) (wOf pz)) i (posOf c)))
          (fun o c => x2 (ix2 o c)) (fun o => x3 (ix1 o)) (tokOf (rOf px) (rOf py) (rOf pz)) o := by
  refine (val_main_v47_apply x0 x1 x2 x3 x4 x5 _).trans ?_
  show val_main_v44 (F := Ideal) x0 x1 x2 x4 x5 (ix5 (0 : Fin 1) px py pz o)
      + val_main_v46 (F := Ideal) x3 (ix5 (0 : Fin 1) px py pz o) = _
  unfold Cert.Spec.outProj
  refine congrArg₂ (· + ·) ?_ ?_
  · refine (val_main_v44_apply x0 x1 x2 x4 x5 _).trans (Finset.sum_congr rfl fun k _ => ?_)
    have el : lidx_main_v44 (ix5 (0 : Fin 1) px py pz o) k = ix5 (0 : Fin 1) px py pz k := by
      funext a
      match a with
      | ⟨0, _⟩ => rfl | ⟨1, _⟩ => rfl | ⟨2, _⟩ => rfl | ⟨3, _⟩ => rfl | ⟨4, _⟩ => rfl
    have er : ridx_main_v44 (ix5 (0 : Fin 1) px py pz o) k = ix2 o k := by
      funext a
      match a with
      | ⟨0, _⟩ => rfl | ⟨1, _⟩ => rfl
    rw [el, er, unwindow_apply]
  · refine (val_main_v46_apply x3 _).trans ((val_main_v45_apply x3 _).trans (congrArg x3 ?_))
    funext a
    match a with
    | ⟨0, _⟩ => rfl

/-- The reference's result at coordinates. -/
theorem out_apply_ix (z : Fin 1) (X Y Z : Fin 64) (o : Fin 96) :
    val_main_v48 (F := Ideal) x0 x1 x2 x3 x4 x5 (ix5 z X Y Z o)
      = Cert.Spec.outProj (fun i c => val_main_v40 (F := Ideal) x0 x1 x4 x5
            (ix5 (0 : Fin 1) (headOf c) (wix (wOf (bwd X)) (wOf (bwd Y)) (wOf (bwd Z))) i (posOf c)))
          (fun o c => x2 (ix2 o c)) (fun o => x3 (ix1 o)) (tokOf (rOf (bwd X)) (rOf (bwd Y)) (rOf (bwd Z))) o := by
  obtain rfl : z = 0 := Subsingleton.elim _ _
  exact (unroll_apply x0 x1 x2 x3 x4 x5 0 X Y Z o).trans (proj_apply x0 x1 x2 x3 x4 x5 (bwd X) (bwd Y) (bwd Z) o)

/-- THE REFERENCE'S RESULT at an index j: the output projection, at the token and channel of j's position shifted
    back, of the joined head outputs of that position's window. -/
theorem out_apply (j : S1x64x64x64x96.Idx) :
    val_main_v48 (F := Ideal) x0 x1 x2 x3 x4 x5 j
      = Cert.Spec.outProj (fun i c => val_main_v40 (F := Ideal) x0 x1 x4 x5
            (ix5 (0 : Fin 1) (headOf c) (wix (wOf (bwd (j 1))) (wOf (bwd (j 2))) (wOf (bwd (j 3)))) i (posOf c)))
          (fun o c => x2 (ix2 o c)) (fun o => x3 (ix1 o))
          (tokOf (rOf (bwd (j 1))) (rOf (bwd (j 2))) (rOf (bwd (j 3)))) (j 4) := by
  exact (congrArg (val_main_v48 (F := Ideal) x0 x1 x2 x3 x4 x5) (eq_ix5 j)).trans
    (out_apply_ix x0 x1 x2 x3 x4 x5 (j 0) (j 1) (j 2) (j 3) (j 4))

end Cert.RefOut

end
-- ==== Proof.RefValue.lean ====
/-
  The reference side, assembled: the reference program's result is the stated mathematics `Cert.Spec.G`.

  Position j of the result is the output projection of the three heads' outputs of the window holding the
  shifted-back position; a head's output is the softmax of its score rows against its values; the scores of window
  (a, b, c) are the scaled products of the queries and keys of window (b, c, a) with the masks that apply; queries,
  keys and values are rows of the joined weights against the window's tokens.
-/
import proofs.«139805_j20143396618483_1_alg».proof.Proof.RefRead
import proofs.«139805_j20143396618483_1_alg».proof.Proof.Spec
import proofs.«139805_j20143396618483_1_alg».proof.Proof.RefQKV
import proofs.«139805_j20143396618483_1_alg».proof.Proof.RefLogits
import proofs.«139805_j20143396618483_1_alg».proof.Proof.RefAttn
import proofs.«139805_j20143396618483_1_alg».proof.Proof.RefOut

noncomputable section

namespace Cert.RefValue

open Cert.ReferenceIdeal Cert.ReferenceIdeal.Gen Cert.ReferenceIdeal.Read Idealize.ShloMosaic Idealize.ShloMosaic.ValueIdx

/-- The arrays the stages take and give. -/
abbrev T0 := (⟨S1x64x64x64x96, .f32⟩ : BufTy).Contents (Elt Ideal)
abbrev T1 := (⟨S288x96, .f32⟩ : BufTy).Contents (Elt Ideal)
abbrev T2 := (⟨S96x96, .f32⟩ : BufTy).Contents (Elt Ideal)
abbrev T3 := (⟨S96, .f32⟩ : BufTy).Contents (Elt Ideal)
abbrev TM := (⟨S64x64, .f32⟩ : BufTy).Contents (Elt Ideal)
abbrev H32 := (⟨S1x3x4096x64x32, .f32⟩ : BufTy).Contents (Elt Ideal)
abbrev H64 := (⟨S1x3x4096x64x64, .f32⟩ : BufTy).Contents (Elt Ideal)

/-- THE ASSEMBLY over any six stages: a result `v48`, head outputs `v40`, scores `v28`, queries `v7`, keys `v10` and
    values `v13` that satisfy the six reading equations compose to `Cert.Spec.G`. The window rule is the scores': window
    (a, b, c) reads the queries and keys of window (b, c, a). -/
theorem assemble (v48 : T0 → T1 → T2 → T3 → TM → TM → T0) (v40 : T0 → T1 → TM → TM → H32) (v28 : T0 → T1 → TM → TM → H64)
    (v7 v10 v13 : T0 → T1 → H32)
    (hout : ∀ (x0 : T0) (x1 : T1) (x2 : T2) (x3 : T3) (x4 x5 : TM) (j : S1x64x64x64x96.Idx), v48 x0 x1 x2 x3 x4 x5 j
      = Cert.Spec.outProj (fun i c => v40 x0 x1 x4 x5 (ix5 (0 : Fin 1) (Cert.Spec.headOf c)
            (Cert.Spec.wix (Cert.Spec.wOf (Cert.Spec.bwd (j 1))) (Cert.Spec.wOf (Cert.Spec.bwd (j 2))) (Cert.Spec.wOf (Cert.Spec.bwd (j 3)))) i (Cert.Spec.posOf c)))
          (fun o c => x2 (ix2 o c)) (fun o => x3 (ix1 o))
          (Cert.Spec.tokOf (Cert.Spec.rOf (Cert.Spec.bwd (j 1))) (Cert.Spec.rOf (Cert.Spec.bwd (j 2))) (Cert.Spec.rOf (Cert.Spec.bwd (j 3)))) (j 4))
    (hattn : ∀ (x0 : T0) (x1 : T1) (x4 x5 : TM) (h : Fin 3) (w : Fin 4096) (i : Fin 64) (d : Fin 32), v40 x0 x1 x4 x5 (ix5 (0 : Fin 1) h w i d)
      = Cert.Spec.attn (fun i j => v28 x0 x1 x4 x5 (ix5 (0 : Fin 1) h w i j)) (fun j d => v13 x0 x1 (ix5 (0 : Fin 1) h w j d)) i d)
    (hlogit : ∀ (x0 : T0) (x1 : T1) (x4 x5 : TM) (h : Fin 3) (a b c : Fin 16) (i j : Fin 64),
      v28 x0 x1 x4 x5 (ix5 (0 : Fin 1) h (Cert.Spec.wix a b c) i j)
      = Cert.Spec.logit (fun i d => v7 x0 x1 (ix5 (0 : Fin 1) h (Cert.Spec.wix b c a) i d))
          (fun j d => v10 x0 x1 (ix5 (0 : Fin 1) h (Cert.Spec.wix b c a) j d))
          (fun i k => x4 (ix2 i k)) (fun i k => x5 (ix2 i k)) (b.val = 15) (c.val = 15) i j)
    (hq : ∀ (x0 : T0) (x1 : T1) (h : Fin 3) (a b c : Fin 16) (i : Fin 64) (d : Fin 32), v7 x0 x1 (ix5 (0 : Fin 1) h (Cert.Spec.wix a b c) i d)
      = Cert.Spec.proj (fun e cc => x1 (ix2 e cc)) (Cert.Spec.win x0 a b c) i (Cert.Spec.qkvRow 0 (by decide) h d))
    (hk : ∀ (x0 : T0) (x1 : T1) (h : Fin 3) (a b c : Fin 16) (i : Fin 64) (d : Fin 32), v10 x0 x1 (ix5 (0 : Fin 1) h (Cert.Spec.wix a b c) i d)
      = Cert.Spec.proj (fun e cc => x1 (ix2 e cc)) (Cert.Spec.win x0 a b c) i (Cert.Spec.qkvRow 96 (by decide) h d))
    (hv : ∀ (x0 : T0) (x1 : T1) (h : Fin 3) (a b c : Fin 16) (i : Fin 64) (d : Fin 32), v13 x0 x1 (ix5 (0 : Fin 1) h (Cert.Spec.wix a b c) i d)
      = Cert.Spec.proj (fun e cc => x1 (ix2 e cc)) (Cert.Spec.win x0 a b c) i (Cert.Spec.qkvRow 192 (by decide) h d))
    (x0 : T0) (x1 : T1) (x2 : T2) (x3 : T3) (x4 x5 : TM) :
    v48 x0 x1 x2 x3 x4 x5 = Cert.Spec.G x0 x1 x2 x3 x4 x5 := by
  funext j
  rw [hout]
  unfold Cert.Spec.G Cert.Spec.outPos Cert.Spec.outWin Cert.Spec.winOut
  congr 1
  funext i c
  rw [hattn]
  unfold Cert.Spec.headsCat
  congr 1
  · funext i' j'
    rw [hlogit]
    congr 1
    · funext i'' d
      rw [hq]
    · funext j'' d
      rw [hk]
  · funext j' d
    rw [hv]

/-- THE REFERENCE'S VALUE: the reference program's result is the stated mathematics `Cert.Spec.G` of its six arguments:
    the assembly at the reference's own stages, whose reading equations are `Cert.RefOut.out_apply`,
    `Cert.RefAttn.attn_apply`, `Cert.RefLogits.logits_apply` and `Cert.RefQKV.q_apply`, `k_apply`, `v_apply`. -/
theorem ref_eq_G (x0 : (⟨S1x64x64x64x96, .f32⟩ : BufTy).Contents (Elt Ideal)) (x1 : (⟨S288x96, .f32⟩ : BufTy).Contents (Elt Ideal))
    (x2 : (⟨S96x96, .f32⟩ : BufTy).Contents (Elt Ideal)) (x3 : (⟨S96, .f32⟩ : BufTy).Contents (Elt Ideal))
    (x4 x5 : (⟨S64x64, .f32⟩ : BufTy).Contents (Elt Ideal)) :
    Cert.ReferenceIdeal.Read.val_main_v48 (F := Ideal) x0 x1 x2 x3 x4 x5 = Cert.Spec.G x0 x1 x2 x3 x4 x5 :=
  assemble (val_main_v48 (F := Ideal)) (val_main_v40 (F := Ideal)) (val_main_v28 (F := Ideal))
    (val_main_v7 (F := Ideal)) (val_main_v10 (F := Ideal)) (val_main_v13 (F := Ideal))
    Cert.RefOut.out_apply Cert.RefAttn.attn_apply Cert.RefLogits.logits_apply
    Cert.RefQKV.q_apply Cert.RefQKV.k_apply Cert.RefQKV.v_apply x0 x1 x2 x3 x4 x5

end Cert.RefValue

end
-- ==== Proof.lean ====
/-
  The certificate's proof, assembled.

  Both idealized programs compute one and the same function of the inputs, `Cert.Spec.G`: the input shifted
  cyclically by two on each spatial axis, cut into 4 x 4 x 4 windows, each window attended with three heads —
  queries and keys from the window at the cyclically permuted grid position, values from the window itself, the
  two masks added on the last slab of the second and third grid axes —, projected, and shifted back.  The kernel
  program reaches it through its one pipelined region (the value of its output array, block by block) and the
  host lines around it; the reference through its chain of host operations, read at an index one stage at a time.
  No law of arithmetic is used: the two sides are the same expression, only laid out differently, so the
  finiteness precondition is never opened.  The word-level kernel's frame is the same frame proof read at words.
-/
import proofs.«139805_j20143396618483_1_alg».proof.Defs
import proofs.«139805_j20143396618483_1_alg».proof.Proof.Gen.Kernel
import proofs.«139805_j20143396618483_1_alg».proof.Proof.Gen.KernelIdeal
import proofs.«139805_j20143396618483_1_alg».proof.Proof.Gen.ReferenceIdeal
import proofs.«139805_j20143396618483_1_alg».proof.Proof.Gen.Pre_finite_inputs
import proofs.«139805_j20143396618483_1_alg».proof.Proof.KRun
import proofs.«139805_j20143396618483_1_alg».proof.Proof.KIRun
import proofs.«139805_j20143396618483_1_alg».proof.Proof.KIValue
import proofs.«139805_j20143396618483_1_alg».proof.Proof.RefRunHand
import proofs.«139805_j20143396618483_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel runs and keeps its arguments
  fun m ρ _ => Cert.Kernel.Hand.frame m ρ,
  -- so does the idealized kernel
  fun m ρ _ => Cert.KernelIdeal.Hand.frame m ρ,
  -- the reference's frame is its run with the result dropped
  fun m ρ _ => (θ_run Cert.ReferenceIdeal.defs _ _).mono (fun _ h c => (h c).2) (Cert.RefRunHand.run (F := Ideal) m ρ),
  -- the ideal pass rewrote nothing
  trivial,
  -- both idealized programs end with the one function of the arguments
  fun m ρ m' ρ' _ hagree =>
    ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
     Cert.KernelIdeal.Hand.run_value m ρ,
     (θ_run Cert.ReferenceIdeal.defs _ _).mono
       (fun _ h c => ⟨by rw [(h c).1, Cert.RefValue.ref_eq_G, (hagree c).1, (hagree c).2.1, (hagree c).2.2.1, (hagree c).2.2.2.1, (hagree c).2.2.2.2.1, (hagree c).2.2.2.2.2.1], (h c).2⟩)
       (Cert.RefRunHand.run (F := Ideal) m' ρ')⟩⟩

end Cert.Proof

end
